-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S1000x4 : Shape := ⟨2, ![1000, 4]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel

variable [Facts]

def fn {F : FTy → Type} [FloatOps F] (main_arg0 : FVec F S8x64x64x256 .f32) (main_arg1 : IVec S1000x4 32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  main_v3
-- ==== Kernel.lean ====
abbrev S8x64x64x256 : Shape := ⟨4, ![8, 64, 64, 256]⟩
abbrev S1000x4 : Shape := ⟨2, ![1000, 4]⟩
abbrev S1000x2 : Shape := ⟨2, ![1000, 2]⟩
abbrev S_ : Shape := ⟨0, ![]⟩
abbrev S2x1000 : Shape := ⟨2, ![2, 1000]⟩
abbrev S64x64x8x256 : Shape := ⟨4, ![64, 64, 8, 256]⟩
abbrev S8000x7x7x256 : Shape := ⟨4, ![8000, 7, 7, 256]⟩
abbrev S160x7x7x256 : Shape := ⟨4, ![160, 7, 7, 256]⟩
abbrev S8 : Shape := ⟨1, ![8]⟩
abbrev S1x1 : Shape := ⟨2, ![1, 1]⟩
abbrev S1 : Shape := ⟨1, ![1]⟩
abbrev S1x7x7x256 : Shape := ⟨4, ![1, 7, 7, 256]⟩
abbrev S7x7x256 : Shape := ⟨3, ![7, 7, 256]⟩
abbrev S7x7x1x256 : Shape := ⟨4, ![7, 7, 1, 256]⟩
abbrev S1000x8x7x7x256 : Shape := ⟨5, ![1000, 8, 7, 7, 256]⟩

abbrev nBuf : Space → Nat
  | .hbm => 14
  | .vmem => 2
  | .smem => 1
  | _ => 0

abbrev bufTy : (tb : Table) → Fin (tcTables nBuf tb) → BufTy
  | .hbm, ⟨0, _⟩ => ⟨S8x64x64x256, .f32⟩
  | .hbm, ⟨1, _⟩ => ⟨S1000x4, .i32⟩
  | .hbm, ⟨2, _⟩ => ⟨S1000x2, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1000x2, .i32⟩
  | .hbm, ⟨7, _⟩ => ⟨S1000x2, .i32⟩
  | .hbm, ⟨8, _⟩ => ⟨S_, .i32⟩
  | .hbm, ⟨9, _⟩ => ⟨S1000x2, .i32⟩
  | .hbm, ⟨10, _⟩ => ⟨S1000x2, .i32⟩
  | .hbm, ⟨11, _⟩ => ⟨S64x64x8x256, .f32⟩
  | .hbm, ⟨12, _⟩ => ⟨S8000x7x7x256, .f32⟩
  | .hbm, ⟨13, _⟩ => ⟨S1000x8x7x7x256, .f32⟩
  | .local _ .vmem, ⟨0, _⟩ => ⟨S160x7x7x256, .f32⟩
  | .local _ .vmem, ⟨1, _⟩ => ⟨S160x7x7x256, .f32⟩
  | .local _ .smem, ⟨0, _⟩ => ⟨S2x1000, .i32⟩
  | _, _ => ⟨S8x64x64x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let c20_i32 : BitVec 32 := 20#32
  let v0 : BitVec 32 := Scalar.muli arg0 c20_i32
  let c0_i32 : BitVec 32 := 0#32
  let v1 : BitVec 32 := Scalar.addi v0 c0_i32
  let v2 : Index := Scalar.indexCast v1
  ![0, v2.toNat]
def k0_off2 (i : grid0.Coords) : Fin 2 → Nat :=
  let c1 : Index := 1#32
  let arg0 : BitVec 32 := BitVec.ofNat 32 (i 0).val
  let c20_i32 : BitVec 32 := 20#32
  let v0 : BitVec 32 := Scalar.muli arg0 c20_i32
  let c0_i32 : BitVec 32 := 0#32
  let v1 : BitVec 32 := Scalar.addi v0 c0_i32
  let v4 : Index := Scalar.indexCast v1
  ![1, v4.toNat]
def k0_off3 (v3 : BitVec 32) (v5 : BitVec 32) : Fin 4 → Nat :=
  let c0_i32_0 : BitVec 32 := 0#32
  let c0_i32_6 : BitVec 32 := 0#32
  ![v3.toNat, v5.toNat, 0, 0]

def k0_off4 (v3 : BitVec 32) (v5 : BitVec 32) : Fin 4 → Nat :=
  let c1_i32 : BitVec 32 := 1#32
  let c0_i32_12 : BitVec 32 := 0#32
  ![v3.toNat, v5.toNat, 1, 0]
def k0_off5 (v3 : BitVec 32) (v5 : BitVec 32) : Fin 4 → Nat :=
  let c2_i32 : BitVec 32 := 2#32
  let c0_i32_18 : BitVec 32 := 0#32
  ![v3.toNat, v5.toNat, 2, 0]
def k0_off6 (v3 : BitVec 32) (v5 : BitVec 32) : Fin 4 → Nat :=
  let c3_i32 : BitVec 32 := 3#32
  let c0_i32_24 : BitVec 32 := 0#32
  ![v3.toNat, v5.toNat, 3, 0]
def k0_off7 (v3 : BitVec 32) (v5 : BitVec 32) : Fin 4 → Nat :=
  let c4_i32 : BitVec 32 := 4#32
  let c0_i32_30 : BitVec 32 := 0#32
  ![v3.toNat, v5.toNat, 4, 0]
def k0_off8 (v3 : BitVec 32) (v5 : BitVec 32) : Fin 4 → Nat :=
  let c5_i32 : BitVec 32 := 5#32
  let c0_i32_36 : BitVec 32 := 0#32
  ![v3.toNat, v5.toNat, 5, 0]
def k0_off9 (v3 : BitVec 32) (v5 : BitVec 32) : Fin 4 → Nat :=
  let c6_i32 : BitVec 32 := 6#32
  let c0_i32_42 : BitVec 32 := 0#32
  ![v3.toNat, v5.toNat, 6, 0]
def k0_off10 (v3 : BitVec 32) (v5 : BitVec 32) : Fin 4 → Nat :=
  let c7_i32 : BitVec 32 := 7#32
  let c0_i32_48 : BitVec 32 := 0#32
  ![v3.toNat, v5.toNat, 7, 0]

def k0_chk1 (v3 : BitVec 32) (v5 : BitVec 32) : Prop :=
  (∀ a, (k0_off3 v3 v5) a + S7x7x1x256.size a ≤ S64x64x8x256.size a) ∧
  (∀ a, (k0_off4 v3 v5) a + S7x7x1x256.size a ≤ S64x64x8x256.size a) ∧
  (∀ a, (k0_off5 v3 v5) a + S7x7x1x256.size a ≤ S64x64x8x256.size a) ∧
  (∀ a, (k0_off6 v3 v5) a + S7x7x1x256.size a ≤ S64x64x8x256.size a) ∧
  (∀ a, (k0_off7 v3 v5) a + S7x7x1x256.size a ≤ S64x64x8x256.size a) ∧
  (∀ a, (k0_off8 v3 v5) a + S7x7x1x256.size a ≤ S64x64x8x256.size a) ∧
  (∀ a, (k0_off9 v3 v5) a + S7x7x1x256.size a ≤ S64x64x8x256.size a) ∧
  (∀ a, (k0_off10 v3 v5) a + S7x7x1x256.size a ≤ S64x64x8x256.size a)
instance k0_chk1.dec : ∀ (v3 : BitVec 32) (v5 : BitVec 32), Decidable (k0_chk1 v3 v5) := fun v3 v5 => decidable_of_iff' _ (Iff.of_eq (k0_chk1.eq_1 v3 v5))
theorem k0_off3_inb : ∀ (v3 : BitVec 32) (v5 : BitVec 32) (k0_hw1 : k0_chk1 v3 v5), ∀ a, (k0_off3 v3 v5) a + S7x7x1x256.size a ≤ S64x64x8x256.size a := fun v3 v5 k0_hw1 => k0_hw1.1
theorem k0_off4_inb : ∀ (v3 : BitVec 32) (v5 : BitVec 32) (k0_hw1 : k0_chk1 v3 v5), ∀ a, (k0_off4 v3 v5) a + S7x7x1x256.size a ≤ S64x64x8x256.size a := fun v3 v5 k0_hw1 => k0_hw1.2.1
theorem k0_off5_inb : ∀ (v3 : BitVec 32) (v5 : BitVec 32) (k0_hw1 : k0_chk1 v3 v5), ∀ a, (k0_off5 v3 v5) a + S7x7x1x256.size a ≤ S64x64x8x256.size a := fun v3 v5 k0_hw1 => k0_hw1.2.2.1
theorem k0_off6_inb : ∀ (v3 : BitVec 32) (v5 : BitVec 32) (k0_hw1 : k0_chk1 v3 v5), ∀ a, (k0_off6 v3 v5) a + S7x7x1x256.size a ≤ S64x64x8x256.size a := fun v3 v5 k0_hw1 => k0_hw1.2.2.2.1
theorem k0_off7_inb : ∀ (v3 : BitVec 32) (v5 : BitVec 32) (k0_hw1 : k0_chk1 v3 v5), ∀ a, (k0_off7 v3 v5) a + S7x7x1x256.size a ≤ S64x64x8x256.size a := fun v3 v5 k0_hw1 => k0_hw1.2.2.2.2.1
theorem k0_off8_inb : ∀ (v3 : BitVec 32) (v5 : BitVec 32) (k0_hw1 : k0_chk1 v3 v5), ∀ a, (k0_off8 v3 v5) a + S7x7x1x256.size a ≤ S64x64x8x256.size a := fun v3 v5 k0_hw1 => k0_hw1.2.2.2.2.2.1
theorem k0_off9_inb : ∀ (v3 : BitVec 32) (v5 : BitVec 32) (k0_hw1 : k0_chk1 v3 v5), ∀ a, (k0_off9 v3 v5) a + S7x7x1x256.size a ≤ S64x64x8x256.size a := fun v3 v5 k0_hw1 => k0_hw1.2.2.2.2.2.2.1
theorem k0_off10_inb : ∀ (v3 : BitVec 32) (v5 : BitVec 32) (k0_hw1 : k0_chk1 v3 v5), ∀ a, (k0_off10 v3 v5) a + S7x7x1x256.size a ≤ S64x64x8x256.size a := fun v3 v5 k0_hw1 => k0_hw1.2.2.2.2.2.2.2

def k0_off11 (i : grid0.Coords) : Fin 2 → Nat :=
  let c0_106 : Index := 0#32
  let arg0 : BitVec 32 := BitVec.ofNat 32 (i 0).val
  let c20_i32 : BitVec 32 := 20#32
  let v0 : BitVec 32 := Scalar.muli arg0 c20_i32
  let c1_i32_105 : BitVec 32 := 1#32
  let v102 : BitVec 32 := Scalar.addi v0 c1_i32_105
  let v103 : Index := Scalar.indexCast v102
  ![0, v103.toNat]
def k0_off12 (i : grid0.Coords) : Fin 2 → Nat :=
  let c1_107 : Index := 1#32
  let arg0 : BitVec 32 := BitVec.ofNat 32 (i 0).val
  let c20_i32 : BitVec 32 := 20#32
  let v0 : BitVec 32 := Scalar.muli arg0 c20_i32
  let c1_i32_105 : BitVec 32 := 1#32
  let v102 : BitVec 32 := Scalar.addi v0 c1_i32_105
  let v105 : Index := Scalar.indexCast v102
  ![1, v105.toNat]
def k0_off13 (v104 : BitVec 32) (v106 : BitVec 32) : Fin 4 → Nat :=
  let c0_i32_108 : BitVec 32 := 0#32
  let c0_i32_113 : BitVec 32 := 0#32
  ![v104.toNat, v106.toNat, 0, 0]

def k0_off14 (v104 : BitVec 32) (v106 : BitVec 32) : Fin 4 → Nat :=
  let c1_i32_114 : BitVec 32 := 1#32
  let c0_i32_119 : BitVec 32 := 0#32
  ![v104.toNat, v106.toNat, 1, 0]
def k0_off15 (v104 : BitVec 32) (v106 : BitVec 32) : Fin 4 → Nat :=
  let c2_i32_120 : BitVec 32 := 2#32
  let c0_i32_125 : BitVec 32 := 0#32
  ![v104.toNat, v106.toNat, 2, 0]
def k0_off16 (v104 : BitVec 32) (v106 : BitVec 32) : Fin 4 → Nat :=
  let c3_i32_126 : BitVec 32 := 3#32
  let c0_i32_131 : BitVec 32 := 0#32
  ![v104.toNat, v106.toNat, 3, 0]
def k0_off17 (v104 : BitVec 32) (v106 : BitVec 32) : Fin 4 → Nat :=
  let c4_i32_132 : BitVec 32 := 4#32
  let c0_i32_137 : BitVec 32 := 0#32
  ![v104.toNat, v106.toNat, 4, 0]
def k0_off18 (v104 : BitVec 32) (v106 : BitVec 32) : Fin 4 → Nat :=
  let c5_i32_138 : BitVec 32 := 5#32
  let c0_i32_143 : BitVec 32 := 0#32
  ![v104.toNat, v106.toNat, 5, 0]
def k0_off19 (v104 : BitVec 32) (v106 : BitVec 32) : Fin 4 → Nat :=
  let c6_i32_144 : BitVec 32 := 6#32
  let c0_i32_149 : BitVec 32 := 0#32
  ![v104.toNat, v106.toNat, 6, 0]
def k0_off20 (v104 : BitVec 32) (v106 : BitVec 32) : Fin 4 → Nat :=
  let c7_i32_150 : BitVec 32 := 7#32
  let c0_i32_155 : BitVec 32 := 0#32
  ![v104.toNat, v106.toNat, 7, 0]

def k0_chk2 (v104 : BitVec 32) (v106 : BitVec 32) : Prop :=
  (∀ a, (k0_off13 v104 v106) a + S7x7x1x256.size a ≤ S64x64x8x256.size a) ∧
  (∀ a, (k0_off14 v104 v106) a + S7x7x1x256.size a ≤ S64x64x8x256.size a) ∧
  (∀ a, (k0_off15 v104 v106) a + S7x7x1x256.size a ≤ S64x64x8x256.size a) ∧
  (∀ a, (k0_off16 v104 v106) a + S7x7x1x256.size a ≤ S64x64x8x256.size a) ∧
  (∀ a, (k0_off17 v104 v106) a + S7x7x1x256.size a ≤ S64x64x8x256.size a) ∧
  (∀ a, (k0_off18 v104 v106) a + S7x7x1x256.size a ≤ S64x64x8x256.size a) ∧
  (∀ a, (k0_off19 v104 v106) a + S7x7x1x256.size a ≤ S64x64x8x256.size a) ∧
  (∀ a, (k0_off20 v104 v106) a + S7x7x1x256.size a ≤ S64x64x8x256.size a)
instance k0_chk2.dec : ∀ (v104 : BitVec 32) (v106 : BitVec 32), Decidable (k0_chk2 v104 v106) := fun v104 v106 => decidable_of_iff' _ (Iff.of_eq (k0_chk2.eq_1 v104 v106))
theorem k0_off13_inb : ∀ (v104 : BitVec 32) (v106 : BitVec 32) (k0_hw2 : k0_chk2 v104 v106), ∀ a, (k0_off13 v104 v106) a + S7x7x1x256.size a ≤ S64x64x8x256.size a := fun v104 v106 k0_hw2 => k0_hw2.1
theorem k0_off14_inb : ∀ (v104 : BitVec 32) (v106 : BitVec 32) (k0_hw2 : k0_chk2 v104 v106), ∀ a, (k0_off14 v104 v106) a + S7x7x1x256.size a ≤ S64x64x8x256.size a := fun v104 v106 k0_hw2 => k0_hw2.2.1
theorem k0_off15_inb : ∀ (v104 : BitVec 32) (v106 : BitVec 32) (k0_hw2 : k0_chk2 v104 v106), ∀ a, (k0_off15 v104 v106) a + S7x7x1x256.size a ≤ S64x64x8x256.size a := fun v104 v106 k0_hw2 => k0_hw2.2.2.1
theorem k0_off16_inb : ∀ (v104 : BitVec 32) (v106 : BitVec 32) (k0_hw2 : k0_chk2 v104 v106), ∀ a, (k0_off16 v104 v106) a + S7x7x1x256.size a ≤ S64x64x8x256.size a := fun v104 v106 k0_hw2 => k0_hw2.2.2.2.1
theorem k0_off17_inb : ∀ (v104 : BitVec 32) (v106 : BitVec 32) (k0_hw2 : k0_chk2 v104 v106), ∀ a, (k0_off17 v104 v106) a + S7x7x1x256.size a ≤ S64x64x8x256.size a := fun v104 v106 k0_hw2 => k0_hw2.2.2.2.2.1
theorem k0_off18_inb : ∀ (v104 : BitVec 32) (v106 : BitVec 32) (k0_hw2 : k0_chk2 v104 v106), ∀ a, (k0_off18 v104 v106) a + S7x7x1x256.size a ≤ S64x64x8x256.size a := fun v104 v106 k0_hw2 => k0_hw2.2.2.2.2.2.1
theorem k0_off19_inb : ∀ (v104 : BitVec 32) (v106 : BitVec 32) (k0_hw2 : k0_chk2 v104 v106), ∀ a, (k0_off19 v104 v106) a + S7x7x1x256.size a ≤ S64x64x8x256.size a := fun v104 v106 k0_hw2 => k0_hw2.2.2.2.2.2.2.1
theorem k0_off20_inb : ∀ (v104 : BitVec 32) (v106 : BitVec 32) (k0_hw2 : k0_chk2 v104 v106), ∀ a, (k0_off20 v104 v106) a + S7x7x1x256.size a ≤ S64x64x8x256.size a := fun v104 v106 k0_hw2 => k0_hw2.2.2.2.2.2.2.2

def k0_off21 (i : grid0.Coords) : Fin 2 → Nat :=
  let c0_213 : Index := 0#32
  let arg0 : BitVec 32 := BitVec.ofNat 32 (i 0).val
  let c20_i32 : BitVec 32 := 20#32
  let v0 : BitVec 32 := Scalar.muli arg0 c20_i32
  let c2_i32_212 : BitVec 32 := 2#32
  let v203 : BitVec 32 := Scalar.addi v0 c2_i32_212
  let v204 : Index := Scalar.indexCast v203
  ![0, v204.toNat]
def k0_off22 (i : grid0.Coords) : Fin 2 → Nat :=
  let c1_214 : Index := 1#32
  let arg0 : BitVec 32 := BitVec.ofNat 32 (i 0).val
  let c20_i32 : BitVec 32 := 20#32
  let v0 : BitVec 32 := Scalar.muli arg0 c20_i32
  let c2_i32_212 : BitVec 32 := 2#32
  let v203 : BitVec 32 := Scalar.addi v0 c2_i32_212
  let v206 : Index := Scalar.indexCast v203
  ![1, v206.toNat]
def k0_off23 (v205 : BitVec 32) (v207 : BitVec 32) : Fin 4 → Nat :=
  let c0_i32_215 : BitVec 32 := 0#32
  let c0_i32_220 : BitVec 32 := 0#32
  ![v205.toNat, v207.toNat, 0, 0]

def k0_off24 (v205 : BitVec 32) (v207 : BitVec 32) : Fin 4 → Nat :=
  let c1_i32_221 : BitVec 32 := 1#32
  let c0_i32_226 : BitVec 32 := 0#32
  ![v205.toNat, v207.toNat, 1, 0]
def k0_off25 (v205 : BitVec 32) (v207 : BitVec 32) : Fin 4 → Nat :=
  let c2_i32_227 : BitVec 32 := 2#32
  let c0_i32_232 : BitVec 32 := 0#32
  ![v205.toNat, v207.toNat, 2, 0]
def k0_off26 (v205 : BitVec 32) (v207 : BitVec 32) : Fin 4 → Nat :=
  let c3_i32_233 : BitVec 32 := 3#32
  let c0_i32_238 : BitVec 32 := 0#32
  ![v205.toNat, v207.toNat, 3, 0]
def k0_off27 (v205 : BitVec 32) (v207 : BitVec 32) : Fin 4 → Nat :=
  let c4_i32_239 : BitVec 32 := 4#32
  let c0_i32_245 : BitVec 32 := 0#32
  ![v205.toNat, v207.toNat, 4, 0]
def k0_off28 (v205 : BitVec 32) (v207 : BitVec 32) : Fin 4 → Nat :=
  let c5_i32_246 : BitVec 32 := 5#32
  let c0_i32_251 : BitVec 32 := 0#32
  ![v205.toNat, v207.toNat, 5, 0]
def k0_off29 (v205 : BitVec 32) (v207 : BitVec 32) : Fin 4 → Nat :=
  let c6_i32_252 : BitVec 32 := 6#32
  let c0_i32_257 : BitVec 32 := 0#32
  ![v205.toNat, v207.toNat, 6, 0]
def k0_off30 (v205 : BitVec 32) (v207 : BitVec 32) : Fin 4 → Nat :=
  let c7_i32_258 : BitVec 32 := 7#32
  let c0_i32_263 : BitVec 32 := 0#32
  ![v205.toNat, v207.toNat, 7, 0]

def k0_chk3 (v205 : BitVec 32) (v207 : BitVec 32) : Prop :=
  (∀ a, (k0_off23 v205 v207) a + S7x7x1x256.size a ≤ S64x64x8x256.size a) ∧
  (∀ a, (k0_off24 v205 v207) a + S7x7x1x256.size a ≤ S64x64x8x256.size a) ∧
  (∀ a, (k0_off25 v205 v207) a + S7x7x1x256.size a ≤ S64x64x8x256.size a) ∧
  (∀ a, (k0_off26 v205 v207) a + S7x7x1x256.size a ≤ S64x64x8x256.size a) ∧
  (∀ a, (k0_off27 v205 v207) a + S7x7x1x256.size a ≤ S64x64x8x256.size a) ∧
  (∀ a, (k0_off28 v205 v207) a + S7x7x1x256.size a ≤ S64x64x8x256.size a) ∧
  (∀ a, (k0_off29 v205 v207) a + S7x7x1x256.size a ≤ S64x64x8x256.size a) ∧
  (∀ a, (k0_off30 v205 v207) a + S7x7x1x256.size a ≤ S64x64x8x256.size a)
instance k0_chk3.dec : ∀ (v205 : BitVec 32) (v207 : BitVec 32), Decidable (k0_chk3 v205 v207) := fun v205 v207 => decidable_of_iff' _ (Iff.of_eq (k0_chk3.eq_1 v205 v207))
theorem k0_off23_inb : ∀ (v205 : BitVec 32) (v207 : BitVec 32) (k0_hw3 : k0_chk3 v205 v207), ∀ a, (k0_off23 v205 v207) a + S7x7x1x256.size a ≤ S64x64x8x256.size a := fun v205 v207 k0_hw3 => k0_hw3.1
theorem k0_off24_inb : ∀ (v205 : BitVec 32) (v207 : BitVec 32) (k0_hw3 : k0_chk3 v205 v207), ∀ a, (k0_off24 v205 v207) a + S7x7x1x256.size a ≤ S64x64x8x256.size a := fun v205 v207 k0_hw3 => k0_hw3.2.1
theorem k0_off25_inb : ∀ (v205 : BitVec 32) (v207 : BitVec 32) (k0_hw3 : k0_chk3 v205 v207), ∀ a, (k0_off25 v205 v207) a + S7x7x1x256.size a ≤ S64x64x8x256.size a := fun v205 v207 k0_hw3 => k0_hw3.2.2.1
theorem k0_off26_inb : ∀ (v205 : BitVec 32) (v207 : BitVec 32) (k0_hw3 : k0_chk3 v205 v207), ∀ a, (k0_off26 v205 v207) a + S7x7x1x256.size a ≤ S64x64x8x256.size a := fun v205 v207 k0_hw3 => k0_hw3.2.2.2.1
theorem k0_off27_inb : ∀ (v205 : BitVec 32) (v207 : BitVec 32) (k0_hw3 : k0_chk3 v205 v207), ∀ a, (k0_off27 v205 v207) a + S7x7x1x256.size a ≤ S64x64x8x256.size a := fun v205 v207 k0_hw3 => k0_hw3.2.2.2.2.1
theorem k0_off28_inb : ∀ (v205 : BitVec 32) (v207 : BitVec 32) (k0_hw3 : k0_chk3 v205 v207), ∀ a, (k0_off28 v205 v207) a + S7x7x1x256.size a ≤ S64x64x8x256.size a := fun v205 v207 k0_hw3 => k0_hw3.2.2.2.2.2.1
theorem k0_off29_inb : ∀ (v205 : BitVec 32) (v207 : BitVec 32) (k0_hw3 : k0_chk3 v205 v207), ∀ a, (k0_off29 v205 v207) a + S7x7x1x256.size a ≤ S64x64x8x256.size a := fun v205 v207 k0_hw3 => k0_hw3.2.2.2.2.2.2.1
theorem k0_off30_inb : ∀ (v205 : BitVec 32) (v207 : BitVec 32) (k0_hw3 : k0_chk3 v205 v207), ∀ a, (k0_off30 v205 v207) a + S7x7x1x256.size a ≤ S64x64x8x256.size a := fun v205 v207 k0_hw3 => k0_hw3.2.2.2.2.2.2.2

def k0_off31 (i : grid0.Coords) : Fin 2 → Nat :=
  let c0_321 : Index := 0#32
  let arg0 : BitVec 32 := BitVec.ofNat 32 (i 0).val
  let c20_i32 : BitVec 32 := 20#32
  let v0 : BitVec 32 := Scalar.muli arg0 c20_i32
  let c3_i32_320 : BitVec 32 := 3#32
  let v304 : BitVec 32 := Scalar.addi v0 c3_i32_320
  let v305 : Index := Scalar.indexCast v304
  ![0, v305.toNat]
def k0_off32 (i : grid0.Coords) : Fin 2 → Nat :=
  let c1_322 : Index := 1#32
  let arg0 : BitVec 32 := BitVec.ofNat 32 (i 0).val
  let c20_i32 : BitVec 32 := 20#32
  let v0 : BitVec 32 := Scalar.muli arg0 c20_i32
  let c3_i32_320 : BitVec 32 := 3#32
  let v304 : BitVec 32 := Scalar.addi v0 c3_i32_320
  let v307 : Index := Scalar.indexCast v304
  ![1, v307.toNat]
def k0_off33 (v306 : BitVec 32) (v308 : BitVec 32) : Fin 4 → Nat :=
  let c0_i32_323 : BitVec 32 := 0#32
  let c0_i32_328 : BitVec 32 := 0#32
  ![v306.toNat, v308.toNat, 0, 0]

def k0_off34 (v306 : BitVec 32) (v308 : BitVec 32) : Fin 4 → Nat :=
  let c1_i32_329 : BitVec 32 := 1#32
  let c0_i32_334 : BitVec 32 := 0#32
  ![v306.toNat, v308.toNat, 1, 0]
def k0_off35 (v306 : BitVec 32) (v308 : BitVec 32) : Fin 4 → Nat :=
  let c2_i32_335 : BitVec 32 := 2#32
  let c0_i32_340 : BitVec 32 := 0#32
  ![v306.toNat, v308.toNat, 2, 0]
def k0_off36 (v306 : BitVec 32) (v308 : BitVec 32) : Fin 4 → Nat :=
  let c3_i32_341 : BitVec 32 := 3#32
  let c0_i32_346 : BitVec 32 := 0#32
  ![v306.toNat, v308.toNat, 3, 0]
def k0_off37 (v306 : BitVec 32) (v308 : BitVec 32) : Fin 4 → Nat :=
  let c4_i32_347 : BitVec 32 := 4#32
  let c0_i32_352 : BitVec 32 := 0#32
  ![v306.toNat, v308.toNat, 4, 0]
def k0_off38 (v306 : BitVec 32) (v308 : BitVec 32) : Fin 4 → Nat :=
  let c5_i32_353 : BitVec 32 := 5#32
  let c0_i32_358 : BitVec 32 := 0#32
  ![v306.toNat, v308.toNat, 5, 0]
def k0_off39 (v306 : BitVec 32) (v308 : BitVec 32) : Fin 4 → Nat :=
  let c6_i32_359 : BitVec 32 := 6#32
  let c0_i32_364 : BitVec 32 := 0#32
  ![v306.toNat, v308.toNat, 6, 0]
def k0_off40 (v306 : BitVec 32) (v308 : BitVec 32) : Fin 4 → Nat :=
  let c7_i32_365 : BitVec 32 := 7#32
  let c0_i32_370 : BitVec 32 := 0#32
  ![v306.toNat, v308.toNat, 7, 0]

def k0_chk4 (v306 : BitVec 32) (v308 : BitVec 32) : Prop :=
  (∀ a, (k0_off33 v306 v308) a + S7x7x1x256.size a ≤ S64x64x8x256.size a) ∧
  (∀ a, (k0_off34 v306 v308) a + S7x7x1x256.size a ≤ S64x64x8x256.size a) ∧
  (∀ a, (k0_off35 v306 v308) a + S7x7x1x256.size a ≤ S64x64x8x256.size a) ∧
  (∀ a, (k0_off36 v306 v308) a + S7x7x1x256.size a ≤ S64x64x8x256.size a) ∧
  (∀ a, (k0_off37 v306 v308) a + S7x7x1x256.size a ≤ S64x64x8x256.size a) ∧
  (∀ a, (k0_off38 v306 v308) a + S7x7x1x256.size a ≤ S64x64x8x256.size a) ∧
  (∀ a, (k0_off39 v306 v308) a + S7x7x1x256.size a ≤ S64x64x8x256.size a) ∧
  (∀ a, (k0_off40 v306 v308) a + S7x7x1x256.size a ≤ S64x64x8x256.size a)
instance k0_chk4.dec : ∀ (v306 : BitVec 32) (v308 : BitVec 32), Decidable (k0_chk4 v306 v308) := fun v306 v308 => decidable_of_iff' _ (Iff.of_eq (k0_chk4.eq_1 v306 v308))
theorem k0_off33_inb : ∀ (v306 : BitVec 32) (v308 : BitVec 32) (k0_hw4 : k0_chk4 v306 v308), ∀ a, (k0_off33 v306 v308) a + S7x7x1x256.size a ≤ S64x64x8x256.size a := fun v306 v308 k0_hw4 => k0_hw4.1
theorem k0_off34_inb : ∀ (v306 : BitVec 32) (v308 : BitVec 32) (k0_hw4 : k0_chk4 v306 v308), ∀ a, (k0_off34 v306 v308) a + S7x7x1x256.size a ≤ S64x64x8x256.size a := fun v306 v308 k0_hw4 => k0_hw4.2.1
theorem k0_off35_inb : ∀ (v306 : BitVec 32) (v308 : BitVec 32) (k0_hw4 : k0_chk4 v306 v308), ∀ a, (k0_off35 v306 v308) a + S7x7x1x256.size a ≤ S64x64x8x256.size a := fun v306 v308 k0_hw4 => k0_hw4.2.2.1
theorem k0_off36_inb : ∀ (v306 : BitVec 32) (v308 : BitVec 32) (k0_hw4 : k0_chk4 v306 v308), ∀ a, (k0_off36 v306 v308) a + S7x7x1x256.size a ≤ S64x64x8x256.size a := fun v306 v308 k0_hw4 => k0_hw4.2.2.2.1
theorem k0_off37_inb : ∀ (v306 : BitVec 32) (v308 : BitVec 32) (k0_hw4 : k0_chk4 v306 v308), ∀ a, (k0_off37 v306 v308) a + S7x7x1x256.size a ≤ S64x64x8x256.size a := fun v306 v308 k0_hw4 => k0_hw4.2.2.2.2.1
theorem k0_off38_inb : ∀ (v306 : BitVec 32) (v308 : BitVec 32) (k0_hw4 : k0_chk4 v306 v308), ∀ a, (k0_off38 v306 v308) a + S7x7x1x256.size a ≤ S64x64x8x256.size a := fun v306 v308 k0_hw4 => k0_hw4.2.2.2.2.2.1
theorem k0_off39_inb : ∀ (v306 : BitVec 32) (v308 : BitVec 32) (k0_hw4 : k0_chk4 v306 v308), ∀ a, (k0_off39 v306 v308) a + S7x7x1x256.size a ≤ S64x64x8x256.size a := fun v306 v308 k0_hw4 => k0_hw4.2.2.2.2.2.2.1
theorem k0_off40_inb : ∀ (v306 : BitVec 32) (v308 : BitVec 32) (k0_hw4 : k0_chk4 v306 v308), ∀ a, (k0_off40 v306 v308) a + S7x7x1x256.size a ≤ S64x64x8x256.size a := fun v306 v308 k0_hw4 => k0_hw4.2.2.2.2.2.2.2

def k0_off41 (i : grid0.Coords) : Fin 2 → Nat :=
  let c0_428 : Index := 0#32
  let arg0 : BitVec 32 := BitVec.ofNat 32 (i 0).val
  let c20_i32 : BitVec 32 := 20#32
  let v0 : BitVec 32 := Scalar.muli arg0 c20_i32
  let c4_i32_427 : BitVec 32 := 4#32
  let v405 : BitVec 32 := Scalar.addi v0 c4_i32_427
  let v406 : Index := Scalar.indexCast v405
  ![0, v406.toNat]
def k0_off42 (i : grid0.Coords) : Fin 2 → Nat :=
  let c1_429 : Index := 1#32
  let arg0 : BitVec 32 := BitVec.ofNat 32 (i 0).val
  let c20_i32 : BitVec 32 := 20#32
  let v0 : BitVec 32 := Scalar.muli arg0 c20_i32
  let c4_i32_427 : BitVec 32 := 4#32
  let v405 : BitVec 32 := Scalar.addi v0 c4_i32_427
  let v408 : Index := Scalar.indexCast v405
  ![1, v408.toNat]
def k0_off43 (v407 : BitVec 32) (v409 : BitVec 32) : Fin 4 → Nat :=
  let c0_i32_430 : BitVec 32 := 0#32
  let c0_i32_435 : BitVec 32 := 0#32
  ![v407.toNat, v409.toNat, 0, 0]

def k0_off44 (v407 : BitVec 32) (v409 : BitVec 32) : Fin 4 → Nat :=
  let c1_i32_436 : BitVec 32 := 1#32
  let c0_i32_441 : BitVec 32 := 0#32
  ![v407.toNat, v409.toNat, 1, 0]
def k0_off45 (v407 : BitVec 32) (v409 : BitVec 32) : Fin 4 → Nat :=
  let c2_i32_442 : BitVec 32 := 2#32
  let c0_i32_447 : BitVec 32 := 0#32
  ![v407.toNat, v409.toNat, 2, 0]
def k0_off46 (v407 : BitVec 32) (v409 : BitVec 32) : Fin 4 → Nat :=
  let c3_i32_448 : BitVec 32 := 3#32
  let c0_i32_453 : BitVec 32 := 0#32
  ![v407.toNat, v409.toNat, 3, 0]
def k0_off47 (v407 : BitVec 32) (v409 : BitVec 32) : Fin 4 → Nat :=
  let c4_i32_454 : BitVec 32 := 4#32
  let c0_i32_459 : BitVec 32 := 0#32
  ![v407.toNat, v409.toNat, 4, 0]
def k0_off48 (v407 : BitVec 32) (v409 : BitVec 32) : Fin 4 → Nat :=
  let c5_i32_460 : BitVec 32 := 5#32
  let c0_i32_465 : BitVec 32 := 0#32
  ![v407.toNat, v409.toNat, 5, 0]
def k0_off49 (v407 : BitVec 32) (v409 : BitVec 32) : Fin 4 → Nat :=
  let c6_i32_466 : BitVec 32 := 6#32
  let c0_i32_471 : BitVec 32 := 0#32
  ![v407.toNat, v409.toNat, 6, 0]
def k0_off50 (v407 : BitVec 32) (v409 : BitVec 32) : Fin 4 → Nat :=
  let c7_i32_472 : BitVec 32 := 7#32
  let c0_i32_477 : BitVec 32 := 0#32
  ![v407.toNat, v409.toNat, 7, 0]

def k0_chk5 (v407 : BitVec 32) (v409 : BitVec 32) : Prop :=
  (∀ a, (k0_off43 v407 v409) a + S7x7x1x256.size a ≤ S64x64x8x256.size a) ∧
  (∀ a, (k0_off44 v407 v409) a + S7x7x1x256.size a ≤ S64x64x8x256.size a) ∧
  (∀ a, (k0_off45 v407 v409) a + S7x7x1x256.size a ≤ S64x64x8x256.size a) ∧
  (∀ a, (k0_off46 v407 v409) a + S7x7x1x256.size a ≤ S64x64x8x256.size a) ∧
  (∀ a, (k0_off47 v407 v409) a + S7x7x1x256.size a ≤ S64x64x8x256.size a) ∧
  (∀ a, (k0_off48 v407 v409) a + S7x7x1x256.size a ≤ S64x64x8x256.size a) ∧
  (∀ a, (k0_off49 v407 v409) a + S7x7x1x256.size a ≤ S64x64x8x256.size a) ∧
  (∀ a, (k0_off50 v407 v409) a + S7x7x1x256.size a ≤ S64x64x8x256.size a)
instance k0_chk5.dec : ∀ (v407 : BitVec 32) (v409 : BitVec 32), Decidable (k0_chk5 v407 v409) := fun v407 v409 => decidable_of_iff' _ (Iff.of_eq (k0_chk5.eq_1 v407 v409))
theorem k0_off43_inb : ∀ (v407 : BitVec 32) (v409 : BitVec 32) (k0_hw5 : k0_chk5 v407 v409), ∀ a, (k0_off43 v407 v409) a + S7x7x1x256.size a ≤ S64x64x8x256.size a := fun v407 v409 k0_hw5 => k0_hw5.1
theorem k0_off44_inb : ∀ (v407 : BitVec 32) (v409 : BitVec 32) (k0_hw5 : k0_chk5 v407 v409), ∀ a, (k0_off44 v407 v409) a + S7x7x1x256.size a ≤ S64x64x8x256.size a := fun v407 v409 k0_hw5 => k0_hw5.2.1
theorem k0_off45_inb : ∀ (v407 : BitVec 32) (v409 : BitVec 32) (k0_hw5 : k0_chk5 v407 v409), ∀ a, (k0_off45 v407 v409) a + S7x7x1x256.size a ≤ S64x64x8x256.size a := fun v407 v409 k0_hw5 => k0_hw5.2.2.1
theorem k0_off46_inb : ∀ (v407 : BitVec 32) (v409 : BitVec 32) (k0_hw5 : k0_chk5 v407 v409), ∀ a, (k0_off46 v407 v409) a + S7x7x1x256.size a ≤ S64x64x8x256.size a := fun v407 v409 k0_hw5 => k0_hw5.2.2.2.1
theorem k0_off47_inb : ∀ (v407 : BitVec 32) (v409 : BitVec 32) (k0_hw5 : k0_chk5 v407 v409), ∀ a, (k0_off47 v407 v409) a + S7x7x1x256.size a ≤ S64x64x8x256.size a := fun v407 v409 k0_hw5 => k0_hw5.2.2.2.2.1
theorem k0_off48_inb : ∀ (v407 : BitVec 32) (v409 : BitVec 32) (k0_hw5 : k0_chk5 v407 v409), ∀ a, (k0_off48 v407 v409) a + S7x7x1x256.size a ≤ S64x64x8x256.size a := fun v407 v409 k0_hw5 => k0_hw5.2.2.2.2.2.1
theorem k0_off49_inb : ∀ (v407 : BitVec 32) (v409 : BitVec 32) (k0_hw5 : k0_chk5 v407 v409), ∀ a, (k0_off49 v407 v409) a + S7x7x1x256.size a ≤ S64x64x8x256.size a := fun v407 v409 k0_hw5 => k0_hw5.2.2.2.2.2.2.1
theorem k0_off50_inb : ∀ (v407 : BitVec 32) (v409 : BitVec 32) (k0_hw5 : k0_chk5 v407 v409), ∀ a, (k0_off50 v407 v409) a + S7x7x1x256.size a ≤ S64x64x8x256.size a := fun v407 v409 k0_hw5 => k0_hw5.2.2.2.2.2.2.2

def k0_off51 (i : grid0.Coords) : Fin 2 → Nat :=
  let c0_535 : Index := 0#32
  let arg0 : BitVec 32 := BitVec.ofNat 32 (i 0).val
  let c20_i32 : BitVec 32 := 20#32
  let v0 : BitVec 32 := Scalar.muli arg0 c20_i32
  let c5_i32_534 : BitVec 32 := 5#32
  let v506 : BitVec 32 := Scalar.addi v0 c5_i32_534
  let v507 : Index := Scalar.indexCast v506
  ![0, v507.toNat]
def k0_off52 (i : grid0.Coords) : Fin 2 → Nat :=
  let c1_536 : Index := 1#32
  let arg0 : BitVec 32 := BitVec.ofNat 32 (i 0).val
  let c20_i32 : BitVec 32 := 20#32
  let v0 : BitVec 32 := Scalar.muli arg0 c20_i32
  let c5_i32_534 : BitVec 32 := 5#32
  let v506 : BitVec 32 := Scalar.addi v0 c5_i32_534
  let v509 : Index := Scalar.indexCast v506
  ![1, v509.toNat]
def k0_off53 (v508 : BitVec 32) (v510 : BitVec 32) : Fin 4 → Nat :=
  let c0_i32_537 : BitVec 32 := 0#32
  let c0_i32_542 : BitVec 32 := 0#32
  ![v508.toNat, v510.toNat, 0, 0]

def k0_off54 (v508 : BitVec 32) (v510 : BitVec 32) : Fin 4 → Nat :=
  let c1_i32_543 : BitVec 32 := 1#32
  let c0_i32_548 : BitVec 32 := 0#32
  ![v508.toNat, v510.toNat, 1, 0]
def k0_off55 (v508 : BitVec 32) (v510 : BitVec 32) : Fin 4 → Nat :=
  let c2_i32_549 : BitVec 32 := 2#32
  let c0_i32_554 : BitVec 32 := 0#32
  ![v508.toNat, v510.toNat, 2, 0]
def k0_off56 (v508 : BitVec 32) (v510 : BitVec 32) : Fin 4 → Nat :=
  let c3_i32_555 : BitVec 32 := 3#32
  let c0_i32_560 : BitVec 32 := 0#32
  ![v508.toNat, v510.toNat, 3, 0]
def k0_off57 (v508 : BitVec 32) (v510 : BitVec 32) : Fin 4 → Nat :=
  let c4_i32_561 : BitVec 32 := 4#32
  let c0_i32_566 : BitVec 32 := 0#32
  ![v508.toNat, v510.toNat, 4, 0]
def k0_off58 (v508 : BitVec 32) (v510 : BitVec 32) : Fin 4 → Nat :=
  let c5_i32_567 : BitVec 32 := 5#32
  let c0_i32_572 : BitVec 32 := 0#32
  ![v508.toNat, v510.toNat, 5, 0]
def k0_off59 (v508 : BitVec 32) (v510 : BitVec 32) : Fin 4 → Nat :=
  let c6_i32_573 : BitVec 32 := 6#32
  let c0_i32_578 : BitVec 32 := 0#32
  ![v508.toNat, v510.toNat, 6, 0]
def k0_off60 (v508 : BitVec 32) (v510 : BitVec 32) : Fin 4 → Nat :=
  let c7_i32_579 : BitVec 32 := 7#32
  let c0_i32_584 : BitVec 32 := 0#32
  ![v508.toNat, v510.toNat, 7, 0]

def k0_chk6 (v508 : BitVec 32) (v510 : BitVec 32) : Prop :=
  (∀ a, (k0_off53 v508 v510) a + S7x7x1x256.size a ≤ S64x64x8x256.size a) ∧
  (∀ a, (k0_off54 v508 v510) a + S7x7x1x256.size a ≤ S64x64x8x256.size a) ∧
  (∀ a, (k0_off55 v508 v510) a + S7x7x1x256.size a ≤ S64x64x8x256.size a) ∧
  (∀ a, (k0_off56 v508 v510) a + S7x7x1x256.size a ≤ S64x64x8x256.size a) ∧
  (∀ a, (k0_off57 v508 v510) a + S7x7x1x256.size a ≤ S64x64x8x256.size a) ∧
  (∀ a, (k0_off58 v508 v510) a + S7x7x1x256.size a ≤ S64x64x8x256.size a) ∧
  (∀ a, (k0_off59 v508 v510) a + S7x7x1x256.size a ≤ S64x64x8x256.size a) ∧
  (∀ a, (k0_off60 v508 v510) a + S7x7x1x256.size a ≤ S64x64x8x256.size a)
instance k0_chk6.dec : ∀ (v508 : BitVec 32) (v510 : BitVec 32), Decidable (k0_chk6 v508 v510) := fun v508 v510 => decidable_of_iff' _ (Iff.of_eq (k0_chk6.eq_1 v508 v510))
theorem k0_off53_inb : ∀ (v508 : BitVec 32) (v510 : BitVec 32) (k0_hw6 : k0_chk6 v508 v510), ∀ a, (k0_off53 v508 v510) a + S7x7x1x256.size a ≤ S64x64x8x256.size a := fun v508 v510 k0_hw6 => k0_hw6.1
theorem k0_off54_inb : ∀ (v508 : BitVec 32) (v510 : BitVec 32) (k0_hw6 : k0_chk6 v508 v510), ∀ a, (k0_off54 v508 v510) a + S7x7x1x256.size a ≤ S64x64x8x256.size a := fun v508 v510 k0_hw6 => k0_hw6.2.1
theorem k0_off55_inb : ∀ (v508 : BitVec 32) (v510 : BitVec 32) (k0_hw6 : k0_chk6 v508 v510), ∀ a, (k0_off55 v508 v510) a + S7x7x1x256.size a ≤ S64x64x8x256.size a := fun v508 v510 k0_hw6 => k0_hw6.2.2.1
theorem k0_off56_inb : ∀ (v508 : BitVec 32) (v510 : BitVec 32) (k0_hw6 : k0_chk6 v508 v510), ∀ a, (k0_off56 v508 v510) a + S7x7x1x256.size a ≤ S64x64x8x256.size a := fun v508 v510 k0_hw6 => k0_hw6.2.2.2.1
theorem k0_off57_inb : ∀ (v508 : BitVec 32) (v510 : BitVec 32) (k0_hw6 : k0_chk6 v508 v510), ∀ a, (k0_off57 v508 v510) a + S7x7x1x256.size a ≤ S64x64x8x256.size a := fun v508 v510 k0_hw6 => k0_hw6.2.2.2.2.1
theorem k0_off58_inb : ∀ (v508 : BitVec 32) (v510 : BitVec 32) (k0_hw6 : k0_chk6 v508 v510), ∀ a, (k0_off58 v508 v510) a + S7x7x1x256.size a ≤ S64x64x8x256.size a := fun v508 v510 k0_hw6 => k0_hw6.2.2.2.2.2.1
theorem k0_off59_inb : ∀ (v508 : BitVec 32) (v510 : BitVec 32) (k0_hw6 : k0_chk6 v508 v510), ∀ a, (k0_off59 v508 v510) a + S7x7x1x256.size a ≤ S64x64x8x256.size a := fun v508 v510 k0_hw6 => k0_hw6.2.2.2.2.2.2.1
theorem k0_off60_inb : ∀ (v508 : BitVec 32) (v510 : BitVec 32) (k0_hw6 : k0_chk6 v508 v510), ∀ a, (k0_off60 v508 v510) a + S7x7x1x256.size a ≤ S64x64x8x256.size a := fun v508 v510 k0_hw6 => k0_hw6.2.2.2.2.2.2.2

def k0_off61 (i : grid0.Coords) : Fin 2 → Nat :=
  let c0_642 : Index := 0#32
  let arg0 : BitVec 32 := BitVec.ofNat 32 (i 0).val
  let c20_i32 : BitVec 32 := 20#32
  let v0 : BitVec 32 := Scalar.muli arg0 c20_i32
  let c6_i32_641 : BitVec 32 := 6#32
  let v607 : BitVec 32 := Scalar.addi v0 c6_i32_641
  let v608 : Index := Scalar.indexCast v607
  ![0, v608.toNat]
def k0_off62 (i : grid0.Coords) : Fin 2 → Nat :=
  let c1_643 : Index := 1#32
  let arg0 : BitVec 32 := BitVec.ofNat 32 (i 0).val
  let c20_i32 : BitVec 32 := 20#32
  let v0 : BitVec 32 := Scalar.muli arg0 c20_i32
  let c6_i32_641 : BitVec 32 := 6#32
  let v607 : BitVec 32 := Scalar.addi v0 c6_i32_641
  let v610 : Index := Scalar.indexCast v607
  ![1, v610.toNat]
def k0_off63 (v609 : BitVec 32) (v611 : BitVec 32) : Fin 4 → Nat :=
  let c0_i32_644 : BitVec 32 := 0#32
  let c0_i32_649 : BitVec 32 := 0#32
  ![v609.toNat, v611.toNat, 0, 0]

def k0_off64 (v609 : BitVec 32) (v611 : BitVec 32) : Fin 4 → Nat :=
  let c1_i32_650 : BitVec 32 := 1#32
  let c0_i32_655 : BitVec 32 := 0#32
  ![v609.toNat, v611.toNat, 1, 0]
def k0_off65 (v609 : BitVec 32) (v611 : BitVec 32) : Fin 4 → Nat :=
  let c2_i32_656 : BitVec 32 := 2#32
  let c0_i32_661 : BitVec 32 := 0#32
  ![v609.toNat, v611.toNat, 2, 0]
def k0_off66 (v609 : BitVec 32) (v611 : BitVec 32) : Fin 4 → Nat :=
  let c3_i32_662 : BitVec 32 := 3#32
  let c0_i32_667 : BitVec 32 := 0#32
  ![v609.toNat, v611.toNat, 3, 0]
def k0_off67 (v609 : BitVec 32) (v611 : BitVec 32) : Fin 4 → Nat :=
  let c4_i32_668 : BitVec 32 := 4#32
  let c0_i32_673 : BitVec 32 := 0#32
  ![v609.toNat, v611.toNat, 4, 0]
def k0_off68 (v609 : BitVec 32) (v611 : BitVec 32) : Fin 4 → Nat :=
  let c5_i32_674 : BitVec 32 := 5#32
  let c0_i32_679 : BitVec 32 := 0#32
  ![v609.toNat, v611.toNat, 5, 0]
def k0_off69 (v609 : BitVec 32) (v611 : BitVec 32) : Fin 4 → Nat :=
  let c6_i32_680 : BitVec 32 := 6#32
  let c0_i32_685 : BitVec 32 := 0#32
  ![v609.toNat, v611.toNat, 6, 0]
def k0_off70 (v609 : BitVec 32) (v611 : BitVec 32) : Fin 4 → Nat :=
  let c7_i32_686 : BitVec 32 := 7#32
  let c0_i32_691 : BitVec 32 := 0#32
  ![v609.toNat, v611.toNat, 7, 0]

def k0_chk7 (v609 : BitVec 32) (v611 : BitVec 32) : Prop :=
  (∀ a, (k0_off63 v609 v611) a + S7x7x1x256.size a ≤ S64x64x8x256.size a) ∧
  (∀ a, (k0_off64 v609 v611) a + S7x7x1x256.size a ≤ S64x64x8x256.size a) ∧
  (∀ a, (k0_off65 v609 v611) a + S7x7x1x256.size a ≤ S64x64x8x256.size a) ∧
  (∀ a, (k0_off66 v609 v611) a + S7x7x1x256.size a ≤ S64x64x8x256.size a) ∧
  (∀ a, (k0_off67 v609 v611) a + S7x7x1x256.size a ≤ S64x64x8x256.size a) ∧
  (∀ a, (k0_off68 v609 v611) a + S7x7x1x256.size a ≤ S64x64x8x256.size a) ∧
  (∀ a, (k0_off69 v609 v611) a + S7x7x1x256.size a ≤ S64x64x8x256.size a) ∧
  (∀ a, (k0_off70 v609 v611) a + S7x7x1x256.size a ≤ S64x64x8x256.size a)
instance k0_chk7.dec : ∀ (v609 : BitVec 32) (v611 : BitVec 32), Decidable (k0_chk7 v609 v611) := fun v609 v611 => decidable_of_iff' _ (Iff.of_eq (k0_chk7.eq_1 v609 v611))
theorem k0_off63_inb : ∀ (v609 : BitVec 32) (v611 : BitVec 32) (k0_hw7 : k0_chk7 v609 v611), ∀ a, (k0_off63 v609 v611) a + S7x7x1x256.size a ≤ S64x64x8x256.size a := fun v609 v611 k0_hw7 => k0_hw7.1
theorem k0_off64_inb : ∀ (v609 : BitVec 32) (v611 : BitVec 32) (k0_hw7 : k0_chk7 v609 v611), ∀ a, (k0_off64 v609 v611) a + S7x7x1x256.size a ≤ S64x64x8x256.size a := fun v609 v611 k0_hw7 => k0_hw7.2.1
theorem k0_off65_inb : ∀ (v609 : BitVec 32) (v611 : BitVec 32) (k0_hw7 : k0_chk7 v609 v611), ∀ a, (k0_off65 v609 v611) a + S7x7x1x256.size a ≤ S64x64x8x256.size a := fun v609 v611 k0_hw7 => k0_hw7.2.2.1
theorem k0_off66_inb : ∀ (v609 : BitVec 32) (v611 : BitVec 32) (k0_hw7 : k0_chk7 v609 v611), ∀ a, (k0_off66 v609 v611) a + S7x7x1x256.size a ≤ S64x64x8x256.size a := fun v609 v611 k0_hw7 => k0_hw7.2.2.2.1
theorem k0_off67_inb : ∀ (v609 : BitVec 32) (v611 : BitVec 32) (k0_hw7 : k0_chk7 v609 v611), ∀ a, (k0_off67 v609 v611) a + S7x7x1x256.size a ≤ S64x64x8x256.size a := fun v609 v611 k0_hw7 => k0_hw7.2.2.2.2.1
theorem k0_off68_inb : ∀ (v609 : BitVec 32) (v611 : BitVec 32) (k0_hw7 : k0_chk7 v609 v611), ∀ a, (k0_off68 v609 v611) a + S7x7x1x256.size a ≤ S64x64x8x256.size a := fun v609 v611 k0_hw7 => k0_hw7.2.2.2.2.2.1
theorem k0_off69_inb : ∀ (v609 : BitVec 32) (v611 : BitVec 32) (k0_hw7 : k0_chk7 v609 v611), ∀ a, (k0_off69 v609 v611) a + S7x7x1x256.size a ≤ S64x64x8x256.size a := fun v609 v611 k0_hw7 => k0_hw7.2.2.2.2.2.2.1
theorem k0_off70_inb : ∀ (v609 : BitVec 32) (v611 : BitVec 32) (k0_hw7 : k0_chk7 v609 v611), ∀ a, (k0_off70 v609 v611) a + S7x7x1x256.size a ≤ S64x64x8x256.size a := fun v609 v611 k0_hw7 => k0_hw7.2.2.2.2.2.2.2

def k0_off71 (i : grid0.Coords) : Fin 2 → Nat :=
  let c0_749 : Index := 0#32
  let arg0 : BitVec 32 := BitVec.ofNat 32 (i 0).val
  let c20_i32 : BitVec 32 := 20#32
  let v0 : BitVec 32 := Scalar.muli arg0 c20_i32
  let c7_i32_748 : BitVec 32 := 7#32
  let v708 : BitVec 32 := Scalar.addi v0 c7_i32_748
  let v709 : Index := Scalar.indexCast v708
  ![0, v709.toNat]
def k0_off72 (i : grid0.Coords) : Fin 2 → Nat :=
  let c1_750 : Index := 1#32
  let arg0 : BitVec 32 := BitVec.ofNat 32 (i 0).val
  let c20_i32 : BitVec 32 := 20#32
  let v0 : BitVec 32 := Scalar.muli arg0 c20_i32
  let c7_i32_748 : BitVec 32 := 7#32
  let v708 : BitVec 32 := Scalar.addi v0 c7_i32_748
  let v711 : Index := Scalar.indexCast v708
  ![1, v711.toNat]
def k0_off73 (v710 : BitVec 32) (v712 : BitVec 32) : Fin 4 → Nat :=
  let c0_i32_751 : BitVec 32 := 0#32
  let c0_i32_756 : BitVec 32 := 0#32
  ![v710.toNat, v712.toNat, 0, 0]

def k0_off74 (v710 : BitVec 32) (v712 : BitVec 32) : Fin 4 → Nat :=
  let c1_i32_757 : BitVec 32 := 1#32
  let c0_i32_762 : BitVec 32 := 0#32
  ![v710.toNat, v712.toNat, 1, 0]
def k0_off75 (v710 : BitVec 32) (v712 : BitVec 32) : Fin 4 → Nat :=
  let c2_i32_763 : BitVec 32 := 2#32
  let c0_i32_768 : BitVec 32 := 0#32
  ![v710.toNat, v712.toNat, 2, 0]
def k0_off76 (v710 : BitVec 32) (v712 : BitVec 32) : Fin 4 → Nat :=
  let c3_i32_769 : BitVec 32 := 3#32
  let c0_i32_774 : BitVec 32 := 0#32
  ![v710.toNat, v712.toNat, 3, 0]
def k0_off77 (v710 : BitVec 32) (v712 : BitVec 32) : Fin 4 → Nat :=
  let c4_i32_775 : BitVec 32 := 4#32
  let c0_i32_780 : BitVec 32 := 0#32
  ![v710.toNat, v712.toNat, 4, 0]
def k0_off78 (v710 : BitVec 32) (v712 : BitVec 32) : Fin 4 → Nat :=
  let c5_i32_781 : BitVec 32 := 5#32
  let c0_i32_786 : BitVec 32 := 0#32
  ![v710.toNat, v712.toNat, 5, 0]
def k0_off79 (v710 : BitVec 32) (v712 : BitVec 32) : Fin 4 → Nat :=
  let c6_i32_787 : BitVec 32 := 6#32
  let c0_i32_792 : BitVec 32 := 0#32
  ![v710.toNat, v712.toNat, 6, 0]
def k0_off80 (v710 : BitVec 32) (v712 : BitVec 32) : Fin 4 → Nat :=
  let c7_i32_793 : BitVec 32 := 7#32
  let c0_i32_798 : BitVec 32 := 0#32
  ![v710.toNat, v712.toNat, 7, 0]

def k0_chk8 (v710 : BitVec 32) (v712 : BitVec 32) : Prop :=
  (∀ a, (k0_off73 v710 v712) a + S7x7x1x256.size a ≤ S64x64x8x256.size a) ∧
  (∀ a, (k0_off74 v710 v712) a + S7x7x1x256.size a ≤ S64x64x8x256.size a) ∧
  (∀ a, (k0_off75 v710 v712) a + S7x7x1x256.size a ≤ S64x64x8x256.size a) ∧
  (∀ a, (k0_off76 v710 v712) a + S7x7x1x256.size a ≤ S64x64x8x256.size a) ∧
  (∀ a, (k0_off77 v710 v712) a + S7x7x1x256.size a ≤ S64x64x8x256.size a) ∧
  (∀ a, (k0_off78 v710 v712) a + S7x7x1x256.size a ≤ S64x64x8x256.size a) ∧
  (∀ a, (k0_off79 v710 v712) a + S7x7x1x256.size a ≤ S64x64x8x256.size a) ∧
  (∀ a, (k0_off80 v710 v712) a + S7x7x1x256.size a ≤ S64x64x8x256.size a)
instance k0_chk8.dec : ∀ (v710 : BitVec 32) (v712 : BitVec 32), Decidable (k0_chk8 v710 v712) := fun v710 v712 => decidable_of_iff' _ (Iff.of_eq (k0_chk8.eq_1 v710 v712))
theorem k0_off73_inb : ∀ (v710 : BitVec 32) (v712 : BitVec 32) (k0_hw8 : k0_chk8 v710 v712), ∀ a, (k0_off73 v710 v712) a + S7x7x1x256.size a ≤ S64x64x8x256.size a := fun v710 v712 k0_hw8 => k0_hw8.1
theorem k0_off74_inb : ∀ (v710 : BitVec 32) (v712 : BitVec 32) (k0_hw8 : k0_chk8 v710 v712), ∀ a, (k0_off74 v710 v712) a + S7x7x1x256.size a ≤ S64x64x8x256.size a := fun v710 v712 k0_hw8 => k0_hw8.2.1
theorem k0_off75_inb : ∀ (v710 : BitVec 32) (v712 : BitVec 32) (k0_hw8 : k0_chk8 v710 v712), ∀ a, (k0_off75 v710 v712) a + S7x7x1x256.size a ≤ S64x64x8x256.size a := fun v710 v712 k0_hw8 => k0_hw8.2.2.1
theorem k0_off76_inb : ∀ (v710 : BitVec 32) (v712 : BitVec 32) (k0_hw8 : k0_chk8 v710 v712), ∀ a, (k0_off76 v710 v712) a + S7x7x1x256.size a ≤ S64x64x8x256.size a := fun v710 v712 k0_hw8 => k0_hw8.2.2.2.1
theorem k0_off77_inb : ∀ (v710 : BitVec 32) (v712 : BitVec 32) (k0_hw8 : k0_chk8 v710 v712), ∀ a, (k0_off77 v710 v712) a + S7x7x1x256.size a ≤ S64x64x8x256.size a := fun v710 v712 k0_hw8 => k0_hw8.2.2.2.2.1
theorem k0_off78_inb : ∀ (v710 : BitVec 32) (v712 : BitVec 32) (k0_hw8 : k0_chk8 v710 v712), ∀ a, (k0_off78 v710 v712) a + S7x7x1x256.size a ≤ S64x64x8x256.size a := fun v710 v712 k0_hw8 => k0_hw8.2.2.2.2.2.1
theorem k0_off79_inb : ∀ (v710 : BitVec 32) (v712 : BitVec 32) (k0_hw8 : k0_chk8 v710 v712), ∀ a, (k0_off79 v710 v712) a + S7x7x1x256.size a ≤ S64x64x8x256.size a := fun v710 v712 k0_hw8 => k0_hw8.2.2.2.2.2.2.1
theorem k0_off80_inb : ∀ (v710 : BitVec 32) (v712 : BitVec 32) (k0_hw8 : k0_chk8 v710 v712), ∀ a, (k0_off80 v710 v712) a + S7x7x1x256.size a ≤ S64x64x8x256.size a := fun v710 v712 k0_hw8 => k0_hw8.2.2.2.2.2.2.2

def k0_off81 (i : grid0.Coords) : Fin 2 → Nat :=
  let c0_856 : Index := 0#32
  let arg0 : BitVec 32 := BitVec.ofNat 32 (i 0).val
  let c20_i32 : BitVec 32 := 20#32
  let v0 : BitVec 32 := Scalar.muli arg0 c20_i32
  let c8_i32_855 : BitVec 32 := 8#32
  let v809 : BitVec 32 := Scalar.addi v0 c8_i32_855
  let v810 : Index := Scalar.indexCast v809
  ![0, v810.toNat]
def k0_off82 (i : grid0.Coords) : Fin 2 → Nat :=
  let c1_857 : Index := 1#32
  let arg0 : BitVec 32 := BitVec.ofNat 32 (i 0).val
  let c20_i32 : BitVec 32 := 20#32
  let v0 : BitVec 32 := Scalar.muli arg0 c20_i32
  let c8_i32_855 : BitVec 32 := 8#32
  let v809 : BitVec 32 := Scalar.addi v0 c8_i32_855
  let v812 : Index := Scalar.indexCast v809
  ![1, v812.toNat]
def k0_off83 (v811 : BitVec 32) (v813 : BitVec 32) : Fin 4 → Nat :=
  let c0_i32_858 : BitVec 32 := 0#32
  let c0_i32_863 : BitVec 32 := 0#32
  ![v811.toNat, v813.toNat, 0, 0]

def k0_off84 (v811 : BitVec 32) (v813 : BitVec 32) : Fin 4 → Nat :=
  let c1_i32_864 : BitVec 32 := 1#32
  let c0_i32_869 : BitVec 32 := 0#32
  ![v811.toNat, v813.toNat, 1, 0]
def k0_off85 (v811 : BitVec 32) (v813 : BitVec 32) : Fin 4 → Nat :=
  let c2_i32_870 : BitVec 32 := 2#32
  let c0_i32_875 : BitVec 32 := 0#32
  ![v811.toNat, v813.toNat, 2, 0]
def k0_off86 (v811 : BitVec 32) (v813 : BitVec 32) : Fin 4 → Nat :=
  let c3_i32_876 : BitVec 32 := 3#32
  let c0_i32_881 : BitVec 32 := 0#32
  ![v811.toNat, v813.toNat, 3, 0]
def k0_off87 (v811 : BitVec 32) (v813 : BitVec 32) : Fin 4 → Nat :=
  let c4_i32_882 : BitVec 32 := 4#32
  let c0_i32_887 : BitVec 32 := 0#32
  ![v811.toNat, v813.toNat, 4, 0]
def k0_off88 (v811 : BitVec 32) (v813 : BitVec 32) : Fin 4 → Nat :=
  let c5_i32_888 : BitVec 32 := 5#32
  let c0_i32_893 : BitVec 32 := 0#32
  ![v811.toNat, v813.toNat, 5, 0]
def k0_off89 (v811 : BitVec 32) (v813 : BitVec 32) : Fin 4 → Nat :=
  let c6_i32_894 : BitVec 32 := 6#32
  let c0_i32_899 : BitVec 32 := 0#32
  ![v811.toNat, v813.toNat, 6, 0]
def k0_off90 (v811 : BitVec 32) (v813 : BitVec 32) : Fin 4 → Nat :=
  let c7_i32_900 : BitVec 32 := 7#32
  let c0_i32_905 : BitVec 32 := 0#32
  ![v811.toNat, v813.toNat, 7, 0]

def k0_chk9 (v811 : BitVec 32) (v813 : BitVec 32) : Prop :=
  (∀ a, (k0_off83 v811 v813) a + S7x7x1x256.size a ≤ S64x64x8x256.size a) ∧
  (∀ a, (k0_off84 v811 v813) a + S7x7x1x256.size a ≤ S64x64x8x256.size a) ∧
  (∀ a, (k0_off85 v811 v813) a + S7x7x1x256.size a ≤ S64x64x8x256.size a) ∧
  (∀ a, (k0_off86 v811 v813) a + S7x7x1x256.size a ≤ S64x64x8x256.size a) ∧
  (∀ a, (k0_off87 v811 v813) a + S7x7x1x256.size a ≤ S64x64x8x256.size a) ∧
  (∀ a, (k0_off88 v811 v813) a + S7x7x1x256.size a ≤ S64x64x8x256.size a) ∧
  (∀ a, (k0_off89 v811 v813) a + S7x7x1x256.size a ≤ S64x64x8x256.size a) ∧
  (∀ a, (k0_off90 v811 v813) a + S7x7x1x256.size a ≤ S64x64x8x256.size a)
instance k0_chk9.dec : ∀ (v811 : BitVec 32) (v813 : BitVec 32), Decidable (k0_chk9 v811 v813) := fun v811 v813 => decidable_of_iff' _ (Iff.of_eq (k0_chk9.eq_1 v811 v813))
theorem k0_off83_inb : ∀ (v811 : BitVec 32) (v813 : BitVec 32) (k0_hw9 : k0_chk9 v811 v813), ∀ a, (k0_off83 v811 v813) a + S7x7x1x256.size a ≤ S64x64x8x256.size a := fun v811 v813 k0_hw9 => k0_hw9.1
theorem k0_off84_inb : ∀ (v811 : BitVec 32) (v813 : BitVec 32) (k0_hw9 : k0_chk9 v811 v813), ∀ a, (k0_off84 v811 v813) a + S7x7x1x256.size a ≤ S64x64x8x256.size a := fun v811 v813 k0_hw9 => k0_hw9.2.1
theorem k0_off85_inb : ∀ (v811 : BitVec 32) (v813 : BitVec 32) (k0_hw9 : k0_chk9 v811 v813), ∀ a, (k0_off85 v811 v813) a + S7x7x1x256.size a ≤ S64x64x8x256.size a := fun v811 v813 k0_hw9 => k0_hw9.2.2.1
theorem k0_off86_inb : ∀ (v811 : BitVec 32) (v813 : BitVec 32) (k0_hw9 : k0_chk9 v811 v813), ∀ a, (k0_off86 v811 v813) a + S7x7x1x256.size a ≤ S64x64x8x256.size a := fun v811 v813 k0_hw9 => k0_hw9.2.2.2.1
theorem k0_off87_inb : ∀ (v811 : BitVec 32) (v813 : BitVec 32) (k0_hw9 : k0_chk9 v811 v813), ∀ a, (k0_off87 v811 v813) a + S7x7x1x256.size a ≤ S64x64x8x256.size a := fun v811 v813 k0_hw9 => k0_hw9.2.2.2.2.1
theorem k0_off88_inb : ∀ (v811 : BitVec 32) (v813 : BitVec 32) (k0_hw9 : k0_chk9 v811 v813), ∀ a, (k0_off88 v811 v813) a + S7x7x1x256.size a ≤ S64x64x8x256.size a := fun v811 v813 k0_hw9 => k0_hw9.2.2.2.2.2.1
theorem k0_off89_inb : ∀ (v811 : BitVec 32) (v813 : BitVec 32) (k0_hw9 : k0_chk9 v811 v813), ∀ a, (k0_off89 v811 v813) a + S7x7x1x256.size a ≤ S64x64x8x256.size a := fun v811 v813 k0_hw9 => k0_hw9.2.2.2.2.2.2.1
theorem k0_off90_inb : ∀ (v811 : BitVec 32) (v813 : BitVec 32) (k0_hw9 : k0_chk9 v811 v813), ∀ a, (k0_off90 v811 v813) a + S7x7x1x256.size a ≤ S64x64x8x256.size a := fun v811 v813 k0_hw9 => k0_hw9.2.2.2.2.2.2.2

def k0_off91 (i : grid0.Coords) : Fin 2 → Nat :=
  let c0_963 : Index := 0#32
  let arg0 : BitVec 32 := BitVec.ofNat 32 (i 0).val
  let c20_i32 : BitVec 32 := 20#32
  let v0 : BitVec 32 := Scalar.muli arg0 c20_i32
  let c9_i32_962 : BitVec 32 := 9#32
  let v910 : BitVec 32 := Scalar.addi v0 c9_i32_962
  let v911 : Index := Scalar.indexCast v910
  ![0, v911.toNat]
def k0_off92 (i : grid0.Coords) : Fin 2 → Nat :=
  let c1_964 : Index := 1#32
  let arg0 : BitVec 32 := BitVec.ofNat 32 (i 0).val
  let c20_i32 : BitVec 32 := 20#32
  let v0 : BitVec 32 := Scalar.muli arg0 c20_i32
  let c9_i32_962 : BitVec 32 := 9#32
  let v910 : BitVec 32 := Scalar.addi v0 c9_i32_962
  let v913 : Index := Scalar.indexCast v910
  ![1, v913.toNat]
def k0_off93 (v912 : BitVec 32) (v914 : BitVec 32) : Fin 4 → Nat :=
  let c0_i32_965 : BitVec 32 := 0#32
  let c0_i32_970 : BitVec 32 := 0#32
  ![v912.toNat, v914.toNat, 0, 0]

def k0_off94 (v912 : BitVec 32) (v914 : BitVec 32) : Fin 4 → Nat :=
  let c1_i32_971 : BitVec 32 := 1#32
  let c0_i32_976 : BitVec 32 := 0#32
  ![v912.toNat, v914.toNat, 1, 0]
def k0_off95 (v912 : BitVec 32) (v914 : BitVec 32) : Fin 4 → Nat :=
  let c2_i32_977 : BitVec 32 := 2#32
  let c0_i32_982 : BitVec 32 := 0#32
  ![v912.toNat, v914.toNat, 2, 0]
def k0_off96 (v912 : BitVec 32) (v914 : BitVec 32) : Fin 4 → Nat :=
  let c3_i32_983 : BitVec 32 := 3#32
  let c0_i32_988 : BitVec 32 := 0#32
  ![v912.toNat, v914.toNat, 3, 0]
def k0_off97 (v912 : BitVec 32) (v914 : BitVec 32) : Fin 4 → Nat :=
  let c4_i32_989 : BitVec 32 := 4#32
  let c0_i32_994 : BitVec 32 := 0#32
  ![v912.toNat, v914.toNat, 4, 0]
def k0_off98 (v912 : BitVec 32) (v914 : BitVec 32) : Fin 4 → Nat :=
  let c5_i32_995 : BitVec 32 := 5#32
  let c0_i32_1000 : BitVec 32 := 0#32
  ![v912.toNat, v914.toNat, 5, 0]
def k0_off99 (v912 : BitVec 32) (v914 : BitVec 32) : Fin 4 → Nat :=
  let c6_i32_1001 : BitVec 32 := 6#32
  let c0_i32_1006 : BitVec 32 := 0#32
  ![v912.toNat, v914.toNat, 6, 0]
def k0_off100 (v912 : BitVec 32) (v914 : BitVec 32) : Fin 4 → Nat :=
  let c7_i32_1007 : BitVec 32 := 7#32
  let c0_i32_1012 : BitVec 32 := 0#32
  ![v912.toNat, v914.toNat, 7, 0]

def k0_chk10 (v912 : BitVec 32) (v914 : BitVec 32) : Prop :=
  (∀ a, (k0_off93 v912 v914) a + S7x7x1x256.size a ≤ S64x64x8x256.size a) ∧
  (∀ a, (k0_off94 v912 v914) a + S7x7x1x256.size a ≤ S64x64x8x256.size a) ∧
  (∀ a, (k0_off95 v912 v914) a + S7x7x1x256.size a ≤ S64x64x8x256.size a) ∧
  (∀ a, (k0_off96 v912 v914) a + S7x7x1x256.size a ≤ S64x64x8x256.size a) ∧
  (∀ a, (k0_off97 v912 v914) a + S7x7x1x256.size a ≤ S64x64x8x256.size a) ∧
  (∀ a, (k0_off98 v912 v914) a + S7x7x1x256.size a ≤ S64x64x8x256.size a) ∧
  (∀ a, (k0_off99 v912 v914) a + S7x7x1x256.size a ≤ S64x64x8x256.size a) ∧
  (∀ a, (k0_off100 v912 v914) a + S7x7x1x256.size a ≤ S64x64x8x256.size a)
instance k0_chk10.dec : ∀ (v912 : BitVec 32) (v914 : BitVec 32), Decidable (k0_chk10 v912 v914) := fun v912 v914 => decidable_of_iff' _ (Iff.of_eq (k0_chk10.eq_1 v912 v914))
theorem k0_off93_inb : ∀ (v912 : BitVec 32) (v914 : BitVec 32) (k0_hw10 : k0_chk10 v912 v914), ∀ a, (k0_off93 v912 v914) a + S7x7x1x256.size a ≤ S64x64x8x256.size a := fun v912 v914 k0_hw10 => k0_hw10.1
theorem k0_off94_inb : ∀ (v912 : BitVec 32) (v914 : BitVec 32) (k0_hw10 : k0_chk10 v912 v914), ∀ a, (k0_off94 v912 v914) a + S7x7x1x256.size a ≤ S64x64x8x256.size a := fun v912 v914 k0_hw10 => k0_hw10.2.1
theorem k0_off95_inb : ∀ (v912 : BitVec 32) (v914 : BitVec 32) (k0_hw10 : k0_chk10 v912 v914), ∀ a, (k0_off95 v912 v914) a + S7x7x1x256.size a ≤ S64x64x8x256.size a := fun v912 v914 k0_hw10 => k0_hw10.2.2.1
theorem k0_off96_inb : ∀ (v912 : BitVec 32) (v914 : BitVec 32) (k0_hw10 : k0_chk10 v912 v914), ∀ a, (k0_off96 v912 v914) a + S7x7x1x256.size a ≤ S64x64x8x256.size a := fun v912 v914 k0_hw10 => k0_hw10.2.2.2.1
theorem k0_off97_inb : ∀ (v912 : BitVec 32) (v914 : BitVec 32) (k0_hw10 : k0_chk10 v912 v914), ∀ a, (k0_off97 v912 v914) a + S7x7x1x256.size a ≤ S64x64x8x256.size a := fun v912 v914 k0_hw10 => k0_hw10.2.2.2.2.1
theorem k0_off98_inb : ∀ (v912 : BitVec 32) (v914 : BitVec 32) (k0_hw10 : k0_chk10 v912 v914), ∀ a, (k0_off98 v912 v914) a + S7x7x1x256.size a ≤ S64x64x8x256.size a := fun v912 v914 k0_hw10 => k0_hw10.2.2.2.2.2.1
theorem k0_off99_inb : ∀ (v912 : BitVec 32) (v914 : BitVec 32) (k0_hw10 : k0_chk10 v912 v914), ∀ a, (k0_off99 v912 v914) a + S7x7x1x256.size a ≤ S64x64x8x256.size a := fun v912 v914 k0_hw10 => k0_hw10.2.2.2.2.2.2.1
theorem k0_off100_inb : ∀ (v912 : BitVec 32) (v914 : BitVec 32) (k0_hw10 : k0_chk10 v912 v914), ∀ a, (k0_off100 v912 v914) a + S7x7x1x256.size a ≤ S64x64x8x256.size a := fun v912 v914 k0_hw10 => k0_hw10.2.2.2.2.2.2.2

def k0_off101 (i : grid0.Coords) : Fin 2 → Nat :=
  let c0_1070 : Index := 0#32
  let arg0 : BitVec 32 := BitVec.ofNat 32 (i 0).val
  let c20_i32 : BitVec 32 := 20#32
  let v0 : BitVec 32 := Scalar.muli arg0 c20_i32
  let c10_i32_1069 : BitVec 32 := 10#32
  let v1011 : BitVec 32 := Scalar.addi v0 c10_i32_1069
  let v1012 : Index := Scalar.indexCast v1011
  ![0, v1012.toNat]
def k0_off102 (i : grid0.Coords) : Fin 2 → Nat :=
  let c1_1071 : Index := 1#32
  let arg0 : BitVec 32 := BitVec.ofNat 32 (i 0).val
  let c20_i32 : BitVec 32 := 20#32
  let v0 : BitVec 32 := Scalar.muli arg0 c20_i32
  let c10_i32_1069 : BitVec 32 := 10#32
  let v1011 : BitVec 32 := Scalar.addi v0 c10_i32_1069
  let v1014 : Index := Scalar.indexCast v1011
  ![1, v1014.toNat]
def k0_off103 (v1013 : BitVec 32) (v1015 : BitVec 32) : Fin 4 → Nat :=
  let c0_i32_1072 : BitVec 32 := 0#32
  let c0_i32_1077 : BitVec 32 := 0#32
  ![v1013.toNat, v1015.toNat, 0, 0]

def k0_off104 (v1013 : BitVec 32) (v1015 : BitVec 32) : Fin 4 → Nat :=
  let c1_i32_1078 : BitVec 32 := 1#32
  let c0_i32_1083 : BitVec 32 := 0#32
  ![v1013.toNat, v1015.toNat, 1, 0]
def k0_off105 (v1013 : BitVec 32) (v1015 : BitVec 32) : Fin 4 → Nat :=
  let c2_i32_1084 : BitVec 32 := 2#32
  let c0_i32_1089 : BitVec 32 := 0#32
  ![v1013.toNat, v1015.toNat, 2, 0]
def k0_off106 (v1013 : BitVec 32) (v1015 : BitVec 32) : Fin 4 → Nat :=
  let c3_i32_1090 : BitVec 32 := 3#32
  let c0_i32_1095 : BitVec 32 := 0#32
  ![v1013.toNat, v1015.toNat, 3, 0]
def k0_off107 (v1013 : BitVec 32) (v1015 : BitVec 32) : Fin 4 → Nat :=
  let c4_i32_1096 : BitVec 32 := 4#32
  let c0_i32_1101 : BitVec 32 := 0#32
  ![v1013.toNat, v1015.toNat, 4, 0]
def k0_off108 (v1013 : BitVec 32) (v1015 : BitVec 32) : Fin 4 → Nat :=
  let c5_i32_1102 : BitVec 32 := 5#32
  let c0_i32_1107 : BitVec 32 := 0#32
  ![v1013.toNat, v1015.toNat, 5, 0]
def k0_off109 (v1013 : BitVec 32) (v1015 : BitVec 32) : Fin 4 → Nat :=
  let c6_i32_1108 : BitVec 32 := 6#32
  let c0_i32_1113 : BitVec 32 := 0#32
  ![v1013.toNat, v1015.toNat, 6, 0]
def k0_off110 (v1013 : BitVec 32) (v1015 : BitVec 32) : Fin 4 → Nat :=
  let c7_i32_1114 : BitVec 32 := 7#32
  let c0_i32_1119 : BitVec 32 := 0#32
  ![v1013.toNat, v1015.toNat, 7, 0]

def k0_chk11 (v1013 : BitVec 32) (v1015 : BitVec 32) : Prop :=
  (∀ a, (k0_off103 v1013 v1015) a + S7x7x1x256.size a ≤ S64x64x8x256.size a) ∧
  (∀ a, (k0_off104 v1013 v1015) a + S7x7x1x256.size a ≤ S64x64x8x256.size a) ∧
  (∀ a, (k0_off105 v1013 v1015) a + S7x7x1x256.size a ≤ S64x64x8x256.size a) ∧
  (∀ a, (k0_off106 v1013 v1015) a + S7x7x1x256.size a ≤ S64x64x8x256.size a) ∧
  (∀ a, (k0_off107 v1013 v1015) a + S7x7x1x256.size a ≤ S64x64x8x256.size a) ∧
  (∀ a, (k0_off108 v1013 v1015) a + S7x7x1x256.size a ≤ S64x64x8x256.size a) ∧
  (∀ a, (k0_off109 v1013 v1015) a + S7x7x1x256.size a ≤ S64x64x8x256.size a) ∧
  (∀ a, (k0_off110 v1013 v1015) a + S7x7x1x256.size a ≤ S64x64x8x256.size a)
instance k0_chk11.dec : ∀ (v1013 : BitVec 32) (v1015 : BitVec 32), Decidable (k0_chk11 v1013 v1015) := fun v1013 v1015 => decidable_of_iff' _ (Iff.of_eq (k0_chk11.eq_1 v1013 v1015))
theorem k0_off103_inb : ∀ (v1013 : BitVec 32) (v1015 : BitVec 32) (k0_hw11 : k0_chk11 v1013 v1015), ∀ a, (k0_off103 v1013 v1015) a + S7x7x1x256.size a ≤ S64x64x8x256.size a := fun v1013 v1015 k0_hw11 => k0_hw11.1
theorem k0_off104_inb : ∀ (v1013 : BitVec 32) (v1015 : BitVec 32) (k0_hw11 : k0_chk11 v1013 v1015), ∀ a, (k0_off104 v1013 v1015) a + S7x7x1x256.size a ≤ S64x64x8x256.size a := fun v1013 v1015 k0_hw11 => k0_hw11.2.1
theorem k0_off105_inb : ∀ (v1013 : BitVec 32) (v1015 : BitVec 32) (k0_hw11 : k0_chk11 v1013 v1015), ∀ a, (k0_off105 v1013 v1015) a + S7x7x1x256.size a ≤ S64x64x8x256.size a := fun v1013 v1015 k0_hw11 => k0_hw11.2.2.1
theorem k0_off106_inb : ∀ (v1013 : BitVec 32) (v1015 : BitVec 32) (k0_hw11 : k0_chk11 v1013 v1015), ∀ a, (k0_off106 v1013 v1015) a + S7x7x1x256.size a ≤ S64x64x8x256.size a := fun v1013 v1015 k0_hw11 => k0_hw11.2.2.2.1
theorem k0_off107_inb : ∀ (v1013 : BitVec 32) (v1015 : BitVec 32) (k0_hw11 : k0_chk11 v1013 v1015), ∀ a, (k0_off107 v1013 v1015) a + S7x7x1x256.size a ≤ S64x64x8x256.size a := fun v1013 v1015 k0_hw11 => k0_hw11.2.2.2.2.1
theorem k0_off108_inb : ∀ (v1013 : BitVec 32) (v1015 : BitVec 32) (k0_hw11 : k0_chk11 v1013 v1015), ∀ a, (k0_off108 v1013 v1015) a + S7x7x1x256.size a ≤ S64x64x8x256.size a := fun v1013 v1015 k0_hw11 => k0_hw11.2.2.2.2.2.1
theorem k0_off109_inb : ∀ (v1013 : BitVec 32) (v1015 : BitVec 32) (k0_hw11 : k0_chk11 v1013 v1015), ∀ a, (k0_off109 v1013 v1015) a + S7x7x1x256.size a ≤ S64x64x8x256.size a := fun v1013 v1015 k0_hw11 => k0_hw11.2.2.2.2.2.2.1
theorem k0_off110_inb : ∀ (v1013 : BitVec 32) (v1015 : BitVec 32) (k0_hw11 : k0_chk11 v1013 v1015), ∀ a, (k0_off110 v1013 v1015) a + S7x7x1x256.size a ≤ S64x64x8x256.size a := fun v1013 v1015 k0_hw11 => k0_hw11.2.2.2.2.2.2.2

def k0_off111 (i : grid0.Coords) : Fin 2 → Nat :=
  let c0_1177 : Index := 0#32
  let arg0 : BitVec 32 := BitVec.ofNat 32 (i 0).val
  let c20_i32 : BitVec 32 := 20#32
  let v0 : BitVec 32 := Scalar.muli arg0 c20_i32
  let c11_i32_1176 : BitVec 32 := 11#32
  let v1112 : BitVec 32 := Scalar.addi v0 c11_i32_1176
  let v1113 : Index := Scalar.indexCast v1112
  ![0, v1113.toNat]
def k0_off112 (i : grid0.Coords) : Fin 2 → Nat :=
  let c1_1178 : Index := 1#32
  let arg0 : BitVec 32 := BitVec.ofNat 32 (i 0).val
  let c20_i32 : BitVec 32 := 20#32
  let v0 : BitVec 32 := Scalar.muli arg0 c20_i32
  let c11_i32_1176 : BitVec 32 := 11#32
  let v1112 : BitVec 32 := Scalar.addi v0 c11_i32_1176
  let v1115 : Index := Scalar.indexCast v1112
  ![1, v1115.toNat]
def k0_off113 (v1114 : BitVec 32) (v1116 : BitVec 32) : Fin 4 → Nat :=
  let c0_i32_1179 : BitVec 32 := 0#32
  let c0_i32_1184 : BitVec 32 := 0#32
  ![v1114.toNat, v1116.toNat, 0, 0]

def k0_off114 (v1114 : BitVec 32) (v1116 : BitVec 32) : Fin 4 → Nat :=
  let c1_i32_1185 : BitVec 32 := 1#32
  let c0_i32_1190 : BitVec 32 := 0#32
  ![v1114.toNat, v1116.toNat, 1, 0]
def k0_off115 (v1114 : BitVec 32) (v1116 : BitVec 32) : Fin 4 → Nat :=
  let c2_i32_1191 : BitVec 32 := 2#32
  let c0_i32_1196 : BitVec 32 := 0#32
  ![v1114.toNat, v1116.toNat, 2, 0]
def k0_off116 (v1114 : BitVec 32) (v1116 : BitVec 32) : Fin 4 → Nat :=
  let c3_i32_1197 : BitVec 32 := 3#32
  let c0_i32_1202 : BitVec 32 := 0#32
  ![v1114.toNat, v1116.toNat, 3, 0]
def k0_off117 (v1114 : BitVec 32) (v1116 : BitVec 32) : Fin 4 → Nat :=
  let c4_i32_1203 : BitVec 32 := 4#32
  let c0_i32_1208 : BitVec 32 := 0#32
  ![v1114.toNat, v1116.toNat, 4, 0]
def k0_off118 (v1114 : BitVec 32) (v1116 : BitVec 32) : Fin 4 → Nat :=
  let c5_i32_1209 : BitVec 32 := 5#32
  let c0_i32_1214 : BitVec 32 := 0#32
  ![v1114.toNat, v1116.toNat, 5, 0]
def k0_off119 (v1114 : BitVec 32) (v1116 : BitVec 32) : Fin 4 → Nat :=
  let c6_i32_1215 : BitVec 32 := 6#32
  let c0_i32_1220 : BitVec 32 := 0#32
  ![v1114.toNat, v1116.toNat, 6, 0]
def k0_off120 (v1114 : BitVec 32) (v1116 : BitVec 32) : Fin 4 → Nat :=
  let c7_i32_1221 : BitVec 32 := 7#32
  let c0_i32_1226 : BitVec 32 := 0#32
  ![v1114.toNat, v1116.toNat, 7, 0]

def k0_chk12 (v1114 : BitVec 32) (v1116 : BitVec 32) : Prop :=
  (∀ a, (k0_off113 v1114 v1116) a + S7x7x1x256.size a ≤ S64x64x8x256.size a) ∧
  (∀ a, (k0_off114 v1114 v1116) a + S7x7x1x256.size a ≤ S64x64x8x256.size a) ∧
  (∀ a, (k0_off115 v1114 v1116) a + S7x7x1x256.size a ≤ S64x64x8x256.size a) ∧
  (∀ a, (k0_off116 v1114 v1116) a + S7x7x1x256.size a ≤ S64x64x8x256.size a) ∧
  (∀ a, (k0_off117 v1114 v1116) a + S7x7x1x256.size a ≤ S64x64x8x256.size a) ∧
  (∀ a, (k0_off118 v1114 v1116) a + S7x7x1x256.size a ≤ S64x64x8x256.size a) ∧
  (∀ a, (k0_off119 v1114 v1116) a + S7x7x1x256.size a ≤ S64x64x8x256.size a) ∧
  (∀ a, (k0_off120 v1114 v1116) a + S7x7x1x256.size a ≤ S64x64x8x256.size a)
instance k0_chk12.dec : ∀ (v1114 : BitVec 32) (v1116 : BitVec 32), Decidable (k0_chk12 v1114 v1116) := fun v1114 v1116 => decidable_of_iff' _ (Iff.of_eq (k0_chk12.eq_1 v1114 v1116))
theorem k0_off113_inb : ∀ (v1114 : BitVec 32) (v1116 : BitVec 32) (k0_hw12 : k0_chk12 v1114 v1116), ∀ a, (k0_off113 v1114 v1116) a + S7x7x1x256.size a ≤ S64x64x8x256.size a := fun v1114 v1116 k0_hw12 => k0_hw12.1
theorem k0_off114_inb : ∀ (v1114 : BitVec 32) (v1116 : BitVec 32) (k0_hw12 : k0_chk12 v1114 v1116), ∀ a, (k0_off114 v1114 v1116) a + S7x7x1x256.size a ≤ S64x64x8x256.size a := fun v1114 v1116 k0_hw12 => k0_hw12.2.1
theorem k0_off115_inb : ∀ (v1114 : BitVec 32) (v1116 : BitVec 32) (k0_hw12 : k0_chk12 v1114 v1116), ∀ a, (k0_off115 v1114 v1116) a + S7x7x1x256.size a ≤ S64x64x8x256.size a := fun v1114 v1116 k0_hw12 => k0_hw12.2.2.1
theorem k0_off116_inb : ∀ (v1114 : BitVec 32) (v1116 : BitVec 32) (k0_hw12 : k0_chk12 v1114 v1116), ∀ a, (k0_off116 v1114 v1116) a + S7x7x1x256.size a ≤ S64x64x8x256.size a := fun v1114 v1116 k0_hw12 => k0_hw12.2.2.2.1
theorem k0_off117_inb : ∀ (v1114 : BitVec 32) (v1116 : BitVec 32) (k0_hw12 : k0_chk12 v1114 v1116), ∀ a, (k0_off117 v1114 v1116) a + S7x7x1x256.size a ≤ S64x64x8x256.size a := fun v1114 v1116 k0_hw12 => k0_hw12.2.2.2.2.1
theorem k0_off118_inb : ∀ (v1114 : BitVec 32) (v1116 : BitVec 32) (k0_hw12 : k0_chk12 v1114 v1116), ∀ a, (k0_off118 v1114 v1116) a + S7x7x1x256.size a ≤ S64x64x8x256.size a := fun v1114 v1116 k0_hw12 => k0_hw12.2.2.2.2.2.1
theorem k0_off119_inb : ∀ (v1114 : BitVec 32) (v1116 : BitVec 32) (k0_hw12 : k0_chk12 v1114 v1116), ∀ a, (k0_off119 v1114 v1116) a + S7x7x1x256.size a ≤ S64x64x8x256.size a := fun v1114 v1116 k0_hw12 => k0_hw12.2.2.2.2.2.2.1
theorem k0_off120_inb : ∀ (v1114 : BitVec 32) (v1116 : BitVec 32) (k0_hw12 : k0_chk12 v1114 v1116), ∀ a, (k0_off120 v1114 v1116) a + S7x7x1x256.size a ≤ S64x64x8x256.size a := fun v1114 v1116 k0_hw12 => k0_hw12.2.2.2.2.2.2.2

def k0_off121 (i : grid0.Coords) : Fin 2 → Nat :=
  let c0_1284 : Index := 0#32
  let arg0 : BitVec 32 := BitVec.ofNat 32 (i 0).val
  let c20_i32 : BitVec 32 := 20#32
  let v0 : BitVec 32 := Scalar.muli arg0 c20_i32
  let c12_i32_1283 : BitVec 32 := 12#32
  let v1213 : BitVec 32 := Scalar.addi v0 c12_i32_1283
  let v1214 : Index := Scalar.indexCast v1213
  ![0, v1214.toNat]
def k0_off122 (i : grid0.Coords) : Fin 2 → Nat :=
  let c1_1285 : Index := 1#32
  let arg0 : BitVec 32 := BitVec.ofNat 32 (i 0).val
  let c20_i32 : BitVec 32 := 20#32
  let v0 : BitVec 32 := Scalar.muli arg0 c20_i32
  let c12_i32_1283 : BitVec 32 := 12#32
  let v1213 : BitVec 32 := Scalar.addi v0 c12_i32_1283
  let v1216 : Index := Scalar.indexCast v1213
  ![1, v1216.toNat]
def k0_off123 (v1215 : BitVec 32) (v1217 : BitVec 32) : Fin 4 → Nat :=
  let c0_i32_1286 : BitVec 32 := 0#32
  let c0_i32_1291 : BitVec 32 := 0#32
  ![v1215.toNat, v1217.toNat, 0, 0]

def k0_off124 (v1215 : BitVec 32) (v1217 : BitVec 32) : Fin 4 → Nat :=
  let c1_i32_1292 : BitVec 32 := 1#32
  let c0_i32_1297 : BitVec 32 := 0#32
  ![v1215.toNat, v1217.toNat, 1, 0]
def k0_off125 (v1215 : BitVec 32) (v1217 : BitVec 32) : Fin 4 → Nat :=
  let c2_i32_1298 : BitVec 32 := 2#32
  let c0_i32_1303 : BitVec 32 := 0#32
  ![v1215.toNat, v1217.toNat, 2, 0]
def k0_off126 (v1215 : BitVec 32) (v1217 : BitVec 32) : Fin 4 → Nat :=
  let c3_i32_1304 : BitVec 32 := 3#32
  let c0_i32_1309 : BitVec 32 := 0#32
  ![v1215.toNat, v1217.toNat, 3, 0]
def k0_off127 (v1215 : BitVec 32) (v1217 : BitVec 32) : Fin 4 → Nat :=
  let c4_i32_1310 : BitVec 32 := 4#32
  let c0_i32_1315 : BitVec 32 := 0#32
  ![v1215.toNat, v1217.toNat, 4, 0]
def k0_off128 (v1215 : BitVec 32) (v1217 : BitVec 32) : Fin 4 → Nat :=
  let c5_i32_1316 : BitVec 32 := 5#32
  let c0_i32_1321 : BitVec 32 := 0#32
  ![v1215.toNat, v1217.toNat, 5, 0]
def k0_off129 (v1215 : BitVec 32) (v1217 : BitVec 32) : Fin 4 → Nat :=
  let c6_i32_1322 : BitVec 32 := 6#32
  let c0_i32_1327 : BitVec 32 := 0#32
  ![v1215.toNat, v1217.toNat, 6, 0]
def k0_off130 (v1215 : BitVec 32) (v1217 : BitVec 32) : Fin 4 → Nat :=
  let c7_i32_1328 : BitVec 32 := 7#32
  let c0_i32_1333 : BitVec 32 := 0#32
  ![v1215.toNat, v1217.toNat, 7, 0]

def k0_chk13 (v1215 : BitVec 32) (v1217 : BitVec 32) : Prop :=
  (∀ a, (k0_off123 v1215 v1217) a + S7x7x1x256.size a ≤ S64x64x8x256.size a) ∧
  (∀ a, (k0_off124 v1215 v1217) a + S7x7x1x256.size a ≤ S64x64x8x256.size a) ∧
  (∀ a, (k0_off125 v1215 v1217) a + S7x7x1x256.size a ≤ S64x64x8x256.size a) ∧
  (∀ a, (k0_off126 v1215 v1217) a + S7x7x1x256.size a ≤ S64x64x8x256.size a) ∧
  (∀ a, (k0_off127 v1215 v1217) a + S7x7x1x256.size a ≤ S64x64x8x256.size a) ∧
  (∀ a, (k0_off128 v1215 v1217) a + S7x7x1x256.size a ≤ S64x64x8x256.size a) ∧
  (∀ a, (k0_off129 v1215 v1217) a + S7x7x1x256.size a ≤ S64x64x8x256.size a) ∧
  (∀ a, (k0_off130 v1215 v1217) a + S7x7x1x256.size a ≤ S64x64x8x256.size a)
instance k0_chk13.dec : ∀ (v1215 : BitVec 32) (v1217 : BitVec 32), Decidable (k0_chk13 v1215 v1217) := fun v1215 v1217 => decidable_of_iff' _ (Iff.of_eq (k0_chk13.eq_1 v1215 v1217))
theorem k0_off123_inb : ∀ (v1215 : BitVec 32) (v1217 : BitVec 32) (k0_hw13 : k0_chk13 v1215 v1217), ∀ a, (k0_off123 v1215 v1217) a + S7x7x1x256.size a ≤ S64x64x8x256.size a := fun v1215 v1217 k0_hw13 => k0_hw13.1
theorem k0_off124_inb : ∀ (v1215 : BitVec 32) (v1217 : BitVec 32) (k0_hw13 : k0_chk13 v1215 v1217), ∀ a, (k0_off124 v1215 v1217) a + S7x7x1x256.size a ≤ S64x64x8x256.size a := fun v1215 v1217 k0_hw13 => k0_hw13.2.1
theorem k0_off125_inb : ∀ (v1215 : BitVec 32) (v1217 : BitVec 32) (k0_hw13 : k0_chk13 v1215 v1217), ∀ a, (k0_off125 v1215 v1217) a + S7x7x1x256.size a ≤ S64x64x8x256.size a := fun v1215 v1217 k0_hw13 => k0_hw13.2.2.1
theorem k0_off126_inb : ∀ (v1215 : BitVec 32) (v1217 : BitVec 32) (k0_hw13 : k0_chk13 v1215 v1217), ∀ a, (k0_off126 v1215 v1217) a + S7x7x1x256.size a ≤ S64x64x8x256.size a := fun v1215 v1217 k0_hw13 => k0_hw13.2.2.2.1
theorem k0_off127_inb : ∀ (v1215 : BitVec 32) (v1217 : BitVec 32) (k0_hw13 : k0_chk13 v1215 v1217), ∀ a, (k0_off127 v1215 v1217) a + S7x7x1x256.size a ≤ S64x64x8x256.size a := fun v1215 v1217 k0_hw13 => k0_hw13.2.2.2.2.1
theorem k0_off128_inb : ∀ (v1215 : BitVec 32) (v1217 : BitVec 32) (k0_hw13 : k0_chk13 v1215 v1217), ∀ a, (k0_off128 v1215 v1217) a + S7x7x1x256.size a ≤ S64x64x8x256.size a := fun v1215 v1217 k0_hw13 => k0_hw13.2.2.2.2.2.1
theorem k0_off129_inb : ∀ (v1215 : BitVec 32) (v1217 : BitVec 32) (k0_hw13 : k0_chk13 v1215 v1217), ∀ a, (k0_off129 v1215 v1217) a + S7x7x1x256.size a ≤ S64x64x8x256.size a := fun v1215 v1217 k0_hw13 => k0_hw13.2.2.2.2.2.2.1
theorem k0_off130_inb : ∀ (v1215 : BitVec 32) (v1217 : BitVec 32) (k0_hw13 : k0_chk13 v1215 v1217), ∀ a, (k0_off130 v1215 v1217) a + S7x7x1x256.size a ≤ S64x64x8x256.size a := fun v1215 v1217 k0_hw13 => k0_hw13.2.2.2.2.2.2.2

def k0_off131 (i : grid0.Coords) : Fin 2 → Nat :=
  let c0_1391 : Index := 0#32
  let arg0 : BitVec 32 := BitVec.ofNat 32 (i 0).val
  let c20_i32 : BitVec 32 := 20#32
  let v0 : BitVec 32 := Scalar.muli arg0 c20_i32
  let c13_i32_1390 : BitVec 32 := 13#32
  let v1314 : BitVec 32 := Scalar.addi v0 c13_i32_1390
  let v1315 : Index := Scalar.indexCast v1314
  ![0, v1315.toNat]
def k0_off132 (i : grid0.Coords) : Fin 2 → Nat :=
  let c1_1392 : Index := 1#32
  let arg0 : BitVec 32 := BitVec.ofNat 32 (i 0).val
  let c20_i32 : BitVec 32 := 20#32
  let v0 : BitVec 32 := Scalar.muli arg0 c20_i32
  let c13_i32_1390 : BitVec 32 := 13#32
  let v1314 : BitVec 32 := Scalar.addi v0 c13_i32_1390
  let v1317 : Index := Scalar.indexCast v1314
  ![1, v1317.toNat]
def k0_off133 (v1316 : BitVec 32) (v1318 : BitVec 32) : Fin 4 → Nat :=
  let c0_i32_1393 : BitVec 32 := 0#32
  let c0_i32_1398 : BitVec 32 := 0#32
  ![v1316.toNat, v1318.toNat, 0, 0]

def k0_off134 (v1316 : BitVec 32) (v1318 : BitVec 32) : Fin 4 → Nat :=
  let c1_i32_1399 : BitVec 32 := 1#32
  let c0_i32_1404 : BitVec 32 := 0#32
  ![v1316.toNat, v1318.toNat, 1, 0]
def k0_off135 (v1316 : BitVec 32) (v1318 : BitVec 32) : Fin 4 → Nat :=
  let c2_i32_1405 : BitVec 32 := 2#32
  let c0_i32_1410 : BitVec 32 := 0#32
  ![v1316.toNat, v1318.toNat, 2, 0]
def k0_off136 (v1316 : BitVec 32) (v1318 : BitVec 32) : Fin 4 → Nat :=
  let c3_i32_1411 : BitVec 32 := 3#32
  let c0_i32_1416 : BitVec 32 := 0#32
  ![v1316.toNat, v1318.toNat, 3, 0]
def k0_off137 (v1316 : BitVec 32) (v1318 : BitVec 32) : Fin 4 → Nat :=
  let c4_i32_1417 : BitVec 32 := 4#32
  let c0_i32_1422 : BitVec 32 := 0#32
  ![v1316.toNat, v1318.toNat, 4, 0]
def k0_off138 (v1316 : BitVec 32) (v1318 : BitVec 32) : Fin 4 → Nat :=
  let c5_i32_1423 : BitVec 32 := 5#32
  let c0_i32_1428 : BitVec 32 := 0#32
  ![v1316.toNat, v1318.toNat, 5, 0]
def k0_off139 (v1316 : BitVec 32) (v1318 : BitVec 32) : Fin 4 → Nat :=
  let c6_i32_1429 : BitVec 32 := 6#32
  let c0_i32_1434 : BitVec 32 := 0#32
  ![v1316.toNat, v1318.toNat, 6, 0]
def k0_off140 (v1316 : BitVec 32) (v1318 : BitVec 32) : Fin 4 → Nat :=
  let c7_i32_1435 : BitVec 32 := 7#32
  let c0_i32_1440 : BitVec 32 := 0#32
  ![v1316.toNat, v1318.toNat, 7, 0]

def k0_chk14 (v1316 : BitVec 32) (v1318 : BitVec 32) : Prop :=
  (∀ a, (k0_off133 v1316 v1318) a + S7x7x1x256.size a ≤ S64x64x8x256.size a) ∧
  (∀ a, (k0_off134 v1316 v1318) a + S7x7x1x256.size a ≤ S64x64x8x256.size a) ∧
  (∀ a, (k0_off135 v1316 v1318) a + S7x7x1x256.size a ≤ S64x64x8x256.size a) ∧
  (∀ a, (k0_off136 v1316 v1318) a + S7x7x1x256.size a ≤ S64x64x8x256.size a) ∧
  (∀ a, (k0_off137 v1316 v1318) a + S7x7x1x256.size a ≤ S64x64x8x256.size a) ∧
  (∀ a, (k0_off138 v1316 v1318) a + S7x7x1x256.size a ≤ S64x64x8x256.size a) ∧
  (∀ a, (k0_off139 v1316 v1318) a + S7x7x1x256.size a ≤ S64x64x8x256.size a) ∧
  (∀ a, (k0_off140 v1316 v1318) a + S7x7x1x256.size a ≤ S64x64x8x256.size a)
instance k0_chk14.dec : ∀ (v1316 : BitVec 32) (v1318 : BitVec 32), Decidable (k0_chk14 v1316 v1318) := fun v1316 v1318 => decidable_of_iff' _ (Iff.of_eq (k0_chk14.eq_1 v1316 v1318))
theorem k0_off133_inb : ∀ (v1316 : BitVec 32) (v1318 : BitVec 32) (k0_hw14 : k0_chk14 v1316 v1318), ∀ a, (k0_off133 v1316 v1318) a + S7x7x1x256.size a ≤ S64x64x8x256.size a := fun v1316 v1318 k0_hw14 => k0_hw14.1
theorem k0_off134_inb : ∀ (v1316 : BitVec 32) (v1318 : BitVec 32) (k0_hw14 : k0_chk14 v1316 v1318), ∀ a, (k0_off134 v1316 v1318) a + S7x7x1x256.size a ≤ S64x64x8x256.size a := fun v1316 v1318 k0_hw14 => k0_hw14.2.1
theorem k0_off135_inb : ∀ (v1316 : BitVec 32) (v1318 : BitVec 32) (k0_hw14 : k0_chk14 v1316 v1318), ∀ a, (k0_off135 v1316 v1318) a + S7x7x1x256.size a ≤ S64x64x8x256.size a := fun v1316 v1318 k0_hw14 => k0_hw14.2.2.1
theorem k0_off136_inb : ∀ (v1316 : BitVec 32) (v1318 : BitVec 32) (k0_hw14 : k0_chk14 v1316 v1318), ∀ a, (k0_off136 v1316 v1318) a + S7x7x1x256.size a ≤ S64x64x8x256.size a := fun v1316 v1318 k0_hw14 => k0_hw14.2.2.2.1
theorem k0_off137_inb : ∀ (v1316 : BitVec 32) (v1318 : BitVec 32) (k0_hw14 : k0_chk14 v1316 v1318), ∀ a, (k0_off137 v1316 v1318) a + S7x7x1x256.size a ≤ S64x64x8x256.size a := fun v1316 v1318 k0_hw14 => k0_hw14.2.2.2.2.1
theorem k0_off138_inb : ∀ (v1316 : BitVec 32) (v1318 : BitVec 32) (k0_hw14 : k0_chk14 v1316 v1318), ∀ a, (k0_off138 v1316 v1318) a + S7x7x1x256.size a ≤ S64x64x8x256.size a := fun v1316 v1318 k0_hw14 => k0_hw14.2.2.2.2.2.1
theorem k0_off139_inb : ∀ (v1316 : BitVec 32) (v1318 : BitVec 32) (k0_hw14 : k0_chk14 v1316 v1318), ∀ a, (k0_off139 v1316 v1318) a + S7x7x1x256.size a ≤ S64x64x8x256.size a := fun v1316 v1318 k0_hw14 => k0_hw14.2.2.2.2.2.2.1
theorem k0_off140_inb : ∀ (v1316 : BitVec 32) (v1318 : BitVec 32) (k0_hw14 : k0_chk14 v1316 v1318), ∀ a, (k0_off140 v1316 v1318) a + S7x7x1x256.size a ≤ S64x64x8x256.size a := fun v1316 v1318 k0_hw14 => k0_hw14.2.2.2.2.2.2.2

def k0_off141 (i : grid0.Coords) : Fin 2 → Nat :=
  let c0_1498 : Index := 0#32
  let arg0 : BitVec 32 := BitVec.ofNat 32 (i 0).val
  let c20_i32 : BitVec 32 := 20#32
  let v0 : BitVec 32 := Scalar.muli arg0 c20_i32
  let c14_i32_1497 : BitVec 32 := 14#32
  let v1415 : BitVec 32 := Scalar.addi v0 c14_i32_1497
  let v1416 : Index := Scalar.indexCast v1415
  ![0, v1416.toNat]
def k0_off142 (i : grid0.Coords) : Fin 2 → Nat :=
  let c1_1499 : Index := 1#32
  let arg0 : BitVec 32 := BitVec.ofNat 32 (i 0).val
  let c20_i32 : BitVec 32 := 20#32
  let v0 : BitVec 32 := Scalar.muli arg0 c20_i32
  let c14_i32_1497 : BitVec 32 := 14#32
  let v1415 : BitVec 32 := Scalar.addi v0 c14_i32_1497
  let v1418 : Index := Scalar.indexCast v1415
  ![1, v1418.toNat]
def k0_off143 (v1417 : BitVec 32) (v1419 : BitVec 32) : Fin 4 → Nat :=
  let c0_i32_1500 : BitVec 32 := 0#32
  let c0_i32_1505 : BitVec 32 := 0#32
  ![v1417.toNat, v1419.toNat, 0, 0]

def k0_off144 (v1417 : BitVec 32) (v1419 : BitVec 32) : Fin 4 → Nat :=
  let c1_i32_1506 : BitVec 32 := 1#32
  let c0_i32_1511 : BitVec 32 := 0#32
  ![v1417.toNat, v1419.toNat, 1, 0]
def k0_off145 (v1417 : BitVec 32) (v1419 : BitVec 32) : Fin 4 → Nat :=
  let c2_i32_1512 : BitVec 32 := 2#32
  let c0_i32_1517 : BitVec 32 := 0#32
  ![v1417.toNat, v1419.toNat, 2, 0]
def k0_off146 (v1417 : BitVec 32) (v1419 : BitVec 32) : Fin 4 → Nat :=
  let c3_i32_1518 : BitVec 32 := 3#32
  let c0_i32_1523 : BitVec 32 := 0#32
  ![v1417.toNat, v1419.toNat, 3, 0]
def k0_off147 (v1417 : BitVec 32) (v1419 : BitVec 32) : Fin 4 → Nat :=
  let c4_i32_1524 : BitVec 32 := 4#32
  let c0_i32_1529 : BitVec 32 := 0#32
  ![v1417.toNat, v1419.toNat, 4, 0]
def k0_off148 (v1417 : BitVec 32) (v1419 : BitVec 32) : Fin 4 → Nat :=
  let c5_i32_1530 : BitVec 32 := 5#32
  let c0_i32_1535 : BitVec 32 := 0#32
  ![v1417.toNat, v1419.toNat, 5, 0]
def k0_off149 (v1417 : BitVec 32) (v1419 : BitVec 32) : Fin 4 → Nat :=
  let c6_i32_1536 : BitVec 32 := 6#32
  let c0_i32_1541 : BitVec 32 := 0#32
  ![v1417.toNat, v1419.toNat, 6, 0]
def k0_off150 (v1417 : BitVec 32) (v1419 : BitVec 32) : Fin 4 → Nat :=
  let c7_i32_1542 : BitVec 32 := 7#32
  let c0_i32_1547 : BitVec 32 := 0#32
  ![v1417.toNat, v1419.toNat, 7, 0]

def k0_chk15 (v1417 : BitVec 32) (v1419 : BitVec 32) : Prop :=
  (∀ a, (k0_off143 v1417 v1419) a + S7x7x1x256.size a ≤ S64x64x8x256.size a) ∧
  (∀ a, (k0_off144 v1417 v1419) a + S7x7x1x256.size a ≤ S64x64x8x256.size a) ∧
  (∀ a, (k0_off145 v1417 v1419) a + S7x7x1x256.size a ≤ S64x64x8x256.size a) ∧
  (∀ a, (k0_off146 v1417 v1419) a + S7x7x1x256.size a ≤ S64x64x8x256.size a) ∧
  (∀ a, (k0_off147 v1417 v1419) a + S7x7x1x256.size a ≤ S64x64x8x256.size a) ∧
  (∀ a, (k0_off148 v1417 v1419) a + S7x7x1x256.size a ≤ S64x64x8x256.size a) ∧
  (∀ a, (k0_off149 v1417 v1419) a + S7x7x1x256.size a ≤ S64x64x8x256.size a) ∧
  (∀ a, (k0_off150 v1417 v1419) a + S7x7x1x256.size a ≤ S64x64x8x256.size a)
instance k0_chk15.dec : ∀ (v1417 : BitVec 32) (v1419 : BitVec 32), Decidable (k0_chk15 v1417 v1419) := fun v1417 v1419 => decidable_of_iff' _ (Iff.of_eq (k0_chk15.eq_1 v1417 v1419))
theorem k0_off143_inb : ∀ (v1417 : BitVec 32) (v1419 : BitVec 32) (k0_hw15 : k0_chk15 v1417 v1419), ∀ a, (k0_off143 v1417 v1419) a + S7x7x1x256.size a ≤ S64x64x8x256.size a := fun v1417 v1419 k0_hw15 => k0_hw15.1
theorem k0_off144_inb : ∀ (v1417 : BitVec 32) (v1419 : BitVec 32) (k0_hw15 : k0_chk15 v1417 v1419), ∀ a, (k0_off144 v1417 v1419) a + S7x7x1x256.size a ≤ S64x64x8x256.size a := fun v1417 v1419 k0_hw15 => k0_hw15.2.1
theorem k0_off145_inb : ∀ (v1417 : BitVec 32) (v1419 : BitVec 32) (k0_hw15 : k0_chk15 v1417 v1419), ∀ a, (k0_off145 v1417 v1419) a + S7x7x1x256.size a ≤ S64x64x8x256.size a := fun v1417 v1419 k0_hw15 => k0_hw15.2.2.1
theorem k0_off146_inb : ∀ (v1417 : BitVec 32) (v1419 : BitVec 32) (k0_hw15 : k0_chk15 v1417 v1419), ∀ a, (k0_off146 v1417 v1419) a + S7x7x1x256.size a ≤ S64x64x8x256.size a := fun v1417 v1419 k0_hw15 => k0_hw15.2.2.2.1
theorem k0_off147_inb : ∀ (v1417 : BitVec 32) (v1419 : BitVec 32) (k0_hw15 : k0_chk15 v1417 v1419), ∀ a, (k0_off147 v1417 v1419) a + S7x7x1x256.size a ≤ S64x64x8x256.size a := fun v1417 v1419 k0_hw15 => k0_hw15.2.2.2.2.1
theorem k0_off148_inb : ∀ (v1417 : BitVec 32) (v1419 : BitVec 32) (k0_hw15 : k0_chk15 v1417 v1419), ∀ a, (k0_off148 v1417 v1419) a + S7x7x1x256.size a ≤ S64x64x8x256.size a := fun v1417 v1419 k0_hw15 => k0_hw15.2.2.2.2.2.1
theorem k0_off149_inb : ∀ (v1417 : BitVec 32) (v1419 : BitVec 32) (k0_hw15 : k0_chk15 v1417 v1419), ∀ a, (k0_off149 v1417 v1419) a + S7x7x1x256.size a ≤ S64x64x8x256.size a := fun v1417 v1419 k0_hw15 => k0_hw15.2.2.2.2.2.2.1
theorem k0_off150_inb : ∀ (v1417 : BitVec 32) (v1419 : BitVec 32) (k0_hw15 : k0_chk15 v1417 v1419), ∀ a, (k0_off150 v1417 v1419) a + S7x7x1x256.size a ≤ S64x64x8x256.size a := fun v1417 v1419 k0_hw15 => k0_hw15.2.2.2.2.2.2.2

def k0_off151 (i : grid0.Coords) : Fin 2 → Nat :=
  let c0_1605 : Index := 0#32
  let arg0 : BitVec 32 := BitVec.ofNat 32 (i 0).val
  let c20_i32 : BitVec 32 := 20#32
  let v0 : BitVec 32 := Scalar.muli arg0 c20_i32
  let c15_i32_1604 : BitVec 32 := 15#32
  let v1516 : BitVec 32 := Scalar.addi v0 c15_i32_1604
  let v1517 : Index := Scalar.indexCast v1516
  ![0, v1517.toNat]
def k0_off152 (i : grid0.Coords) : Fin 2 → Nat :=
  let c1_1606 : Index := 1#32
  let arg0 : BitVec 32 := BitVec.ofNat 32 (i 0).val
  let c20_i32 : BitVec 32 := 20#32
  let v0 : BitVec 32 := Scalar.muli arg0 c20_i32
  let c15_i32_1604 : BitVec 32 := 15#32
  let v1516 : BitVec 32 := Scalar.addi v0 c15_i32_1604
  let v1519 : Index := Scalar.indexCast v1516
  ![1, v1519.toNat]
def k0_off153 (v1518 : BitVec 32) (v1520 : BitVec 32) : Fin 4 → Nat :=
  let c0_i32_1607 : BitVec 32 := 0#32
  let c0_i32_1612 : BitVec 32 := 0#32
  ![v1518.toNat, v1520.toNat, 0, 0]

def k0_off154 (v1518 : BitVec 32) (v1520 : BitVec 32) : Fin 4 → Nat :=
  let c1_i32_1613 : BitVec 32 := 1#32
  let c0_i32_1618 : BitVec 32 := 0#32
  ![v1518.toNat, v1520.toNat, 1, 0]
def k0_off155 (v1518 : BitVec 32) (v1520 : BitVec 32) : Fin 4 → Nat :=
  let c2_i32_1619 : BitVec 32 := 2#32
  let c0_i32_1624 : BitVec 32 := 0#32
  ![v1518.toNat, v1520.toNat, 2, 0]
def k0_off156 (v1518 : BitVec 32) (v1520 : BitVec 32) : Fin 4 → Nat :=
  let c3_i32_1625 : BitVec 32 := 3#32
  let c0_i32_1630 : BitVec 32 := 0#32
  ![v1518.toNat, v1520.toNat, 3, 0]
def k0_off157 (v1518 : BitVec 32) (v1520 : BitVec 32) : Fin 4 → Nat :=
  let c4_i32_1631 : BitVec 32 := 4#32
  let c0_i32_1636 : BitVec 32 := 0#32
  ![v1518.toNat, v1520.toNat, 4, 0]
def k0_off158 (v1518 : BitVec 32) (v1520 : BitVec 32) : Fin 4 → Nat :=
  let c5_i32_1637 : BitVec 32 := 5#32
  let c0_i32_1642 : BitVec 32 := 0#32
  ![v1518.toNat, v1520.toNat, 5, 0]
def k0_off159 (v1518 : BitVec 32) (v1520 : BitVec 32) : Fin 4 → Nat :=
  let c6_i32_1643 : BitVec 32 := 6#32
  let c0_i32_1648 : BitVec 32 := 0#32
  ![v1518.toNat, v1520.toNat, 6, 0]
def k0_off160 (v1518 : BitVec 32) (v1520 : BitVec 32) : Fin 4 → Nat :=
  let c7_i32_1649 : BitVec 32 := 7#32
  let c0_i32_1654 : BitVec 32 := 0#32
  ![v1518.toNat, v1520.toNat, 7, 0]

def k0_chk16 (v1518 : BitVec 32) (v1520 : BitVec 32) : Prop :=
  (∀ a, (k0_off153 v1518 v1520) a + S7x7x1x256.size a ≤ S64x64x8x256.size a) ∧
  (∀ a, (k0_off154 v1518 v1520) a + S7x7x1x256.size a ≤ S64x64x8x256.size a) ∧
  (∀ a, (k0_off155 v1518 v1520) a + S7x7x1x256.size a ≤ S64x64x8x256.size a) ∧
  (∀ a, (k0_off156 v1518 v1520) a + S7x7x1x256.size a ≤ S64x64x8x256.size a) ∧
  (∀ a, (k0_off157 v1518 v1520) a + S7x7x1x256.size a ≤ S64x64x8x256.size a) ∧
  (∀ a, (k0_off158 v1518 v1520) a + S7x7x1x256.size a ≤ S64x64x8x256.size a) ∧
  (∀ a, (k0_off159 v1518 v1520) a + S7x7x1x256.size a ≤ S64x64x8x256.size a) ∧
  (∀ a, (k0_off160 v1518 v1520) a + S7x7x1x256.size a ≤ S64x64x8x256.size a)
instance k0_chk16.dec : ∀ (v1518 : BitVec 32) (v1520 : BitVec 32), Decidable (k0_chk16 v1518 v1520) := fun v1518 v1520 => decidable_of_iff' _ (Iff.of_eq (k0_chk16.eq_1 v1518 v1520))
theorem k0_off153_inb : ∀ (v1518 : BitVec 32) (v1520 : BitVec 32) (k0_hw16 : k0_chk16 v1518 v1520), ∀ a, (k0_off153 v1518 v1520) a + S7x7x1x256.size a ≤ S64x64x8x256.size a := fun v1518 v1520 k0_hw16 => k0_hw16.1
theorem k0_off154_inb : ∀ (v1518 : BitVec 32) (v1520 : BitVec 32) (k0_hw16 : k0_chk16 v1518 v1520), ∀ a, (k0_off154 v1518 v1520) a + S7x7x1x256.size a ≤ S64x64x8x256.size a := fun v1518 v1520 k0_hw16 => k0_hw16.2.1
theorem k0_off155_inb : ∀ (v1518 : BitVec 32) (v1520 : BitVec 32) (k0_hw16 : k0_chk16 v1518 v1520), ∀ a, (k0_off155 v1518 v1520) a + S7x7x1x256.size a ≤ S64x64x8x256.size a := fun v1518 v1520 k0_hw16 => k0_hw16.2.2.1
theorem k0_off156_inb : ∀ (v1518 : BitVec 32) (v1520 : BitVec 32) (k0_hw16 : k0_chk16 v1518 v1520), ∀ a, (k0_off156 v1518 v1520) a + S7x7x1x256.size a ≤ S64x64x8x256.size a := fun v1518 v1520 k0_hw16 => k0_hw16.2.2.2.1
theorem k0_off157_inb : ∀ (v1518 : BitVec 32) (v1520 : BitVec 32) (k0_hw16 : k0_chk16 v1518 v1520), ∀ a, (k0_off157 v1518 v1520) a + S7x7x1x256.size a ≤ S64x64x8x256.size a := fun v1518 v1520 k0_hw16 => k0_hw16.2.2.2.2.1
theorem k0_off158_inb : ∀ (v1518 : BitVec 32) (v1520 : BitVec 32) (k0_hw16 : k0_chk16 v1518 v1520), ∀ a, (k0_off158 v1518 v1520) a + S7x7x1x256.size a ≤ S64x64x8x256.size a := fun v1518 v1520 k0_hw16 => k0_hw16.2.2.2.2.2.1
theorem k0_off159_inb : ∀ (v1518 : BitVec 32) (v1520 : BitVec 32) (k0_hw16 : k0_chk16 v1518 v1520), ∀ a, (k0_off159 v1518 v1520) a + S7x7x1x256.size a ≤ S64x64x8x256.size a := fun v1518 v1520 k0_hw16 => k0_hw16.2.2.2.2.2.2.1
theorem k0_off160_inb : ∀ (v1518 : BitVec 32) (v1520 : BitVec 32) (k0_hw16 : k0_chk16 v1518 v1520), ∀ a, (k0_off160 v1518 v1520) a + S7x7x1x256.size a ≤ S64x64x8x256.size a := fun v1518 v1520 k0_hw16 => k0_hw16.2.2.2.2.2.2.2

def k0_off161 (i : grid0.Coords) : Fin 2 → Nat :=
  let c0_1712 : Index := 0#32
  let arg0 : BitVec 32 := BitVec.ofNat 32 (i 0).val
  let c20_i32 : BitVec 32 := 20#32
  let v0 : BitVec 32 := Scalar.muli arg0 c20_i32
  let c16_i32_1711 : BitVec 32 := 16#32
  let v1617 : BitVec 32 := Scalar.addi v0 c16_i32_1711
  let v1618 : Index := Scalar.indexCast v1617
  ![0, v1618.toNat]
def k0_off162 (i : grid0.Coords) : Fin 2 → Nat :=
  let c1_1713 : Index := 1#32
  let arg0 : BitVec 32 := BitVec.ofNat 32 (i 0).val
  let c20_i32 : BitVec 32 := 20#32
  let v0 : BitVec 32 := Scalar.muli arg0 c20_i32
  let c16_i32_1711 : BitVec 32 := 16#32
  let v1617 : BitVec 32 := Scalar.addi v0 c16_i32_1711
  let v1620 : Index := Scalar.indexCast v1617
  ![1, v1620.toNat]
def k0_off163 (v1619 : BitVec 32) (v1621 : BitVec 32) : Fin 4 → Nat :=
  let c0_i32_1714 : BitVec 32 := 0#32
  let c0_i32_1719 : BitVec 32 := 0#32
  ![v1619.toNat, v1621.toNat, 0, 0]

def k0_off164 (v1619 : BitVec 32) (v1621 : BitVec 32) : Fin 4 → Nat :=
  let c1_i32_1720 : BitVec 32 := 1#32
  let c0_i32_1725 : BitVec 32 := 0#32
  ![v1619.toNat, v1621.toNat, 1, 0]
def k0_off165 (v1619 : BitVec 32) (v1621 : BitVec 32) : Fin 4 → Nat :=
  let c2_i32_1726 : BitVec 32 := 2#32
  let c0_i32_1731 : BitVec 32 := 0#32
  ![v1619.toNat, v1621.toNat, 2, 0]
def k0_off166 (v1619 : BitVec 32) (v1621 : BitVec 32) : Fin 4 → Nat :=
  let c3_i32_1732 : BitVec 32 := 3#32
  let c0_i32_1737 : BitVec 32 := 0#32
  ![v1619.toNat, v1621.toNat, 3, 0]
def k0_off167 (v1619 : BitVec 32) (v1621 : BitVec 32) : Fin 4 → Nat :=
  let c4_i32_1738 : BitVec 32 := 4#32
  let c0_i32_1743 : BitVec 32 := 0#32
  ![v1619.toNat, v1621.toNat, 4, 0]
def k0_off168 (v1619 : BitVec 32) (v1621 : BitVec 32) : Fin 4 → Nat :=
  let c5_i32_1744 : BitVec 32 := 5#32
  let c0_i32_1749 : BitVec 32 := 0#32
  ![v1619.toNat, v1621.toNat, 5, 0]
def k0_off169 (v1619 : BitVec 32) (v1621 : BitVec 32) : Fin 4 → Nat :=
  let c6_i32_1750 : BitVec 32 := 6#32
  let c0_i32_1755 : BitVec 32 := 0#32
  ![v1619.toNat, v1621.toNat, 6, 0]
def k0_off170 (v1619 : BitVec 32) (v1621 : BitVec 32) : Fin 4 → Nat :=
  let c7_i32_1756 : BitVec 32 := 7#32
  let c0_i32_1761 : BitVec 32 := 0#32
  ![v1619.toNat, v1621.toNat, 7, 0]

def k0_chk17 (v1619 : BitVec 32) (v1621 : BitVec 32) : Prop :=
  (∀ a, (k0_off163 v1619 v1621) a + S7x7x1x256.size a ≤ S64x64x8x256.size a) ∧
  (∀ a, (k0_off164 v1619 v1621) a + S7x7x1x256.size a ≤ S64x64x8x256.size a) ∧
  (∀ a, (k0_off165 v1619 v1621) a + S7x7x1x256.size a ≤ S64x64x8x256.size a) ∧
  (∀ a, (k0_off166 v1619 v1621) a + S7x7x1x256.size a ≤ S64x64x8x256.size a) ∧
  (∀ a, (k0_off167 v1619 v1621) a + S7x7x1x256.size a ≤ S64x64x8x256.size a) ∧
  (∀ a, (k0_off168 v1619 v1621) a + S7x7x1x256.size a ≤ S64x64x8x256.size a) ∧
  (∀ a, (k0_off169 v1619 v1621) a + S7x7x1x256.size a ≤ S64x64x8x256.size a) ∧
  (∀ a, (k0_off170 v1619 v1621) a + S7x7x1x256.size a ≤ S64x64x8x256.size a)
instance k0_chk17.dec : ∀ (v1619 : BitVec 32) (v1621 : BitVec 32), Decidable (k0_chk17 v1619 v1621) := fun v1619 v1621 => decidable_of_iff' _ (Iff.of_eq (k0_chk17.eq_1 v1619 v1621))
theorem k0_off163_inb : ∀ (v1619 : BitVec 32) (v1621 : BitVec 32) (k0_hw17 : k0_chk17 v1619 v1621), ∀ a, (k0_off163 v1619 v1621) a + S7x7x1x256.size a ≤ S64x64x8x256.size a := fun v1619 v1621 k0_hw17 => k0_hw17.1
theorem k0_off164_inb : ∀ (v1619 : BitVec 32) (v1621 : BitVec 32) (k0_hw17 : k0_chk17 v1619 v1621), ∀ a, (k0_off164 v1619 v1621) a + S7x7x1x256.size a ≤ S64x64x8x256.size a := fun v1619 v1621 k0_hw17 => k0_hw17.2.1
theorem k0_off165_inb : ∀ (v1619 : BitVec 32) (v1621 : BitVec 32) (k0_hw17 : k0_chk17 v1619 v1621), ∀ a, (k0_off165 v1619 v1621) a + S7x7x1x256.size a ≤ S64x64x8x256.size a := fun v1619 v1621 k0_hw17 => k0_hw17.2.2.1
theorem k0_off166_inb : ∀ (v1619 : BitVec 32) (v1621 : BitVec 32) (k0_hw17 : k0_chk17 v1619 v1621), ∀ a, (k0_off166 v1619 v1621) a + S7x7x1x256.size a ≤ S64x64x8x256.size a := fun v1619 v1621 k0_hw17 => k0_hw17.2.2.2.1
theorem k0_off167_inb : ∀ (v1619 : BitVec 32) (v1621 : BitVec 32) (k0_hw17 : k0_chk17 v1619 v1621), ∀ a, (k0_off167 v1619 v1621) a + S7x7x1x256.size a ≤ S64x64x8x256.size a := fun v1619 v1621 k0_hw17 => k0_hw17.2.2.2.2.1
theorem k0_off168_inb : ∀ (v1619 : BitVec 32) (v1621 : BitVec 32) (k0_hw17 : k0_chk17 v1619 v1621), ∀ a, (k0_off168 v1619 v1621) a + S7x7x1x256.size a ≤ S64x64x8x256.size a := fun v1619 v1621 k0_hw17 => k0_hw17.2.2.2.2.2.1
theorem k0_off169_inb : ∀ (v1619 : BitVec 32) (v1621 : BitVec 32) (k0_hw17 : k0_chk17 v1619 v1621), ∀ a, (k0_off169 v1619 v1621) a + S7x7x1x256.size a ≤ S64x64x8x256.size a := fun v1619 v1621 k0_hw17 => k0_hw17.2.2.2.2.2.2.1
theorem k0_off170_inb : ∀ (v1619 : BitVec 32) (v1621 : BitVec 32) (k0_hw17 : k0_chk17 v1619 v1621), ∀ a, (k0_off170 v1619 v1621) a + S7x7x1x256.size a ≤ S64x64x8x256.size a := fun v1619 v1621 k0_hw17 => k0_hw17.2.2.2.2.2.2.2

def k0_off171 (i : grid0.Coords) : Fin 2 → Nat :=
  let c0_1819 : Index := 0#32
  let arg0 : BitVec 32 := BitVec.ofNat 32 (i 0).val
  let c20_i32 : BitVec 32 := 20#32
  let v0 : BitVec 32 := Scalar.muli arg0 c20_i32
  let c17_i32_1818 : BitVec 32 := 17#32
  let v1718 : BitVec 32 := Scalar.addi v0 c17_i32_1818
  let v1719 : Index := Scalar.indexCast v1718
  ![0, v1719.toNat]
def k0_off172 (i : grid0.Coords) : Fin 2 → Nat :=
  let c1_1820 : Index := 1#32
  let arg0 : BitVec 32 := BitVec.ofNat 32 (i 0).val
  let c20_i32 : BitVec 32 := 20#32
  let v0 : BitVec 32 := Scalar.muli arg0 c20_i32
  let c17_i32_1818 : BitVec 32 := 17#32
  let v1718 : BitVec 32 := Scalar.addi v0 c17_i32_1818
  let v1721 : Index := Scalar.indexCast v1718
  ![1, v1721.toNat]
def k0_off173 (v1720 : BitVec 32) (v1722 : BitVec 32) : Fin 4 → Nat :=
  let c0_i32_1821 : BitVec 32 := 0#32
  let c0_i32_1826 : BitVec 32 := 0#32
  ![v1720.toNat, v1722.toNat, 0, 0]

def k0_off174 (v1720 : BitVec 32) (v1722 : BitVec 32) : Fin 4 → Nat :=
  let c1_i32_1827 : BitVec 32 := 1#32
  let c0_i32_1832 : BitVec 32 := 0#32
  ![v1720.toNat, v1722.toNat, 1, 0]
def k0_off175 (v1720 : BitVec 32) (v1722 : BitVec 32) : Fin 4 → Nat :=
  let c2_i32_1833 : BitVec 32 := 2#32
  let c0_i32_1838 : BitVec 32 := 0#32
  ![v1720.toNat, v1722.toNat, 2, 0]
def k0_off176 (v1720 : BitVec 32) (v1722 : BitVec 32) : Fin 4 → Nat :=
  let c3_i32_1839 : BitVec 32 := 3#32
  let c0_i32_1844 : BitVec 32 := 0#32
  ![v1720.toNat, v1722.toNat, 3, 0]
def k0_off177 (v1720 : BitVec 32) (v1722 : BitVec 32) : Fin 4 → Nat :=
  let c4_i32_1845 : BitVec 32 := 4#32
  let c0_i32_1850 : BitVec 32 := 0#32
  ![v1720.toNat, v1722.toNat, 4, 0]
def k0_off178 (v1720 : BitVec 32) (v1722 : BitVec 32) : Fin 4 → Nat :=
  let c5_i32_1851 : BitVec 32 := 5#32
  let c0_i32_1856 : BitVec 32 := 0#32
  ![v1720.toNat, v1722.toNat, 5, 0]
def k0_off179 (v1720 : BitVec 32) (v1722 : BitVec 32) : Fin 4 → Nat :=
  let c6_i32_1857 : BitVec 32 := 6#32
  let c0_i32_1862 : BitVec 32 := 0#32
  ![v1720.toNat, v1722.toNat, 6, 0]
def k0_off180 (v1720 : BitVec 32) (v1722 : BitVec 32) : Fin 4 → Nat :=
  let c7_i32_1863 : BitVec 32 := 7#32
  let c0_i32_1868 : BitVec 32 := 0#32
  ![v1720.toNat, v1722.toNat, 7, 0]

def k0_chk18 (v1720 : BitVec 32) (v1722 : BitVec 32) : Prop :=
  (∀ a, (k0_off173 v1720 v1722) a + S7x7x1x256.size a ≤ S64x64x8x256.size a) ∧
  (∀ a, (k0_off174 v1720 v1722) a + S7x7x1x256.size a ≤ S64x64x8x256.size a) ∧
  (∀ a, (k0_off175 v1720 v1722) a + S7x7x1x256.size a ≤ S64x64x8x256.size a) ∧
  (∀ a, (k0_off176 v1720 v1722) a + S7x7x1x256.size a ≤ S64x64x8x256.size a) ∧
  (∀ a, (k0_off177 v1720 v1722) a + S7x7x1x256.size a ≤ S64x64x8x256.size a) ∧
  (∀ a, (k0_off178 v1720 v1722) a + S7x7x1x256.size a ≤ S64x64x8x256.size a) ∧
  (∀ a, (k0_off179 v1720 v1722) a + S7x7x1x256.size a ≤ S64x64x8x256.size a) ∧
  (∀ a, (k0_off180 v1720 v1722) a + S7x7x1x256.size a ≤ S64x64x8x256.size a)
instance k0_chk18.dec : ∀ (v1720 : BitVec 32) (v1722 : BitVec 32), Decidable (k0_chk18 v1720 v1722) := fun v1720 v1722 => decidable_of_iff' _ (Iff.of_eq (k0_chk18.eq_1 v1720 v1722))
theorem k0_off173_inb : ∀ (v1720 : BitVec 32) (v1722 : BitVec 32) (k0_hw18 : k0_chk18 v1720 v1722), ∀ a, (k0_off173 v1720 v1722) a + S7x7x1x256.size a ≤ S64x64x8x256.size a := fun v1720 v1722 k0_hw18 => k0_hw18.1
theorem k0_off174_inb : ∀ (v1720 : BitVec 32) (v1722 : BitVec 32) (k0_hw18 : k0_chk18 v1720 v1722), ∀ a, (k0_off174 v1720 v1722) a + S7x7x1x256.size a ≤ S64x64x8x256.size a := fun v1720 v1722 k0_hw18 => k0_hw18.2.1
theorem k0_off175_inb : ∀ (v1720 : BitVec 32) (v1722 : BitVec 32) (k0_hw18 : k0_chk18 v1720 v1722), ∀ a, (k0_off175 v1720 v1722) a + S7x7x1x256.size a ≤ S64x64x8x256.size a := fun v1720 v1722 k0_hw18 => k0_hw18.2.2.1
theorem k0_off176_inb : ∀ (v1720 : BitVec 32) (v1722 : BitVec 32) (k0_hw18 : k0_chk18 v1720 v1722), ∀ a, (k0_off176 v1720 v1722) a + S7x7x1x256.size a ≤ S64x64x8x256.size a := fun v1720 v1722 k0_hw18 => k0_hw18.2.2.2.1
theorem k0_off177_inb : ∀ (v1720 : BitVec 32) (v1722 : BitVec 32) (k0_hw18 : k0_chk18 v1720 v1722), ∀ a, (k0_off177 v1720 v1722) a + S7x7x1x256.size a ≤ S64x64x8x256.size a := fun v1720 v1722 k0_hw18 => k0_hw18.2.2.2.2.1
theorem k0_off178_inb : ∀ (v1720 : BitVec 32) (v1722 : BitVec 32) (k0_hw18 : k0_chk18 v1720 v1722), ∀ a, (k0_off178 v1720 v1722) a + S7x7x1x256.size a ≤ S64x64x8x256.size a := fun v1720 v1722 k0_hw18 => k0_hw18.2.2.2.2.2.1
theorem k0_off179_inb : ∀ (v1720 : BitVec 32) (v1722 : BitVec 32) (k0_hw18 : k0_chk18 v1720 v1722), ∀ a, (k0_off179 v1720 v1722) a + S7x7x1x256.size a ≤ S64x64x8x256.size a := fun v1720 v1722 k0_hw18 => k0_hw18.2.2.2.2.2.2.1
theorem k0_off180_inb : ∀ (v1720 : BitVec 32) (v1722 : BitVec 32) (k0_hw18 : k0_chk18 v1720 v1722), ∀ a, (k0_off180 v1720 v1722) a + S7x7x1x256.size a ≤ S64x64x8x256.size a := fun v1720 v1722 k0_hw18 => k0_hw18.2.2.2.2.2.2.2

def k0_off181 (i : grid0.Coords) : Fin 2 → Nat :=
  let c0_1926 : Index := 0#32
  let arg0 : BitVec 32 := BitVec.ofNat 32 (i 0).val
  let c20_i32 : BitVec 32 := 20#32
  let v0 : BitVec 32 := Scalar.muli arg0 c20_i32
  let c18_i32_1925 : BitVec 32 := 18#32
  let v1819 : BitVec 32 := Scalar.addi v0 c18_i32_1925
  let v1820 : Index := Scalar.indexCast v1819
  ![0, v1820.toNat]
def k0_off182 (i : grid0.Coords) : Fin 2 → Nat :=
  let c1_1927 : Index := 1#32
  let arg0 : BitVec 32 := BitVec.ofNat 32 (i 0).val
  let c20_i32 : BitVec 32 := 20#32
  let v0 : BitVec 32 := Scalar.muli arg0 c20_i32
  let c18_i32_1925 : BitVec 32 := 18#32
  let v1819 : BitVec 32 := Scalar.addi v0 c18_i32_1925
  let v1822 : Index := Scalar.indexCast v1819
  ![1, v1822.toNat]
def k0_off183 (v1821 : BitVec 32) (v1823 : BitVec 32) : Fin 4 → Nat :=
  let c0_i32_1928 : BitVec 32 := 0#32
  let c0_i32_1933 : BitVec 32 := 0#32
  ![v1821.toNat, v1823.toNat, 0, 0]

def k0_off184 (v1821 : BitVec 32) (v1823 : BitVec 32) : Fin 4 → Nat :=
  let c1_i32_1934 : BitVec 32 := 1#32
  let c0_i32_1939 : BitVec 32 := 0#32
  ![v1821.toNat, v1823.toNat, 1, 0]
def k0_off185 (v1821 : BitVec 32) (v1823 : BitVec 32) : Fin 4 → Nat :=
  let c2_i32_1940 : BitVec 32 := 2#32
  let c0_i32_1945 : BitVec 32 := 0#32
  ![v1821.toNat, v1823.toNat, 2, 0]
def k0_off186 (v1821 : BitVec 32) (v1823 : BitVec 32) : Fin 4 → Nat :=
  let c3_i32_1946 : BitVec 32 := 3#32
  let c0_i32_1951 : BitVec 32 := 0#32
  ![v1821.toNat, v1823.toNat, 3, 0]
def k0_off187 (v1821 : BitVec 32) (v1823 : BitVec 32) : Fin 4 → Nat :=
  let c4_i32_1952 : BitVec 32 := 4#32
  let c0_i32_1957 : BitVec 32 := 0#32
  ![v1821.toNat, v1823.toNat, 4, 0]
def k0_off188 (v1821 : BitVec 32) (v1823 : BitVec 32) : Fin 4 → Nat :=
  let c5_i32_1958 : BitVec 32 := 5#32
  let c0_i32_1963 : BitVec 32 := 0#32
  ![v1821.toNat, v1823.toNat, 5, 0]
def k0_off189 (v1821 : BitVec 32) (v1823 : BitVec 32) : Fin 4 → Nat :=
  let c6_i32_1964 : BitVec 32 := 6#32
  let c0_i32_1969 : BitVec 32 := 0#32
  ![v1821.toNat, v1823.toNat, 6, 0]
def k0_off190 (v1821 : BitVec 32) (v1823 : BitVec 32) : Fin 4 → Nat :=
  let c7_i32_1970 : BitVec 32 := 7#32
  let c0_i32_1975 : BitVec 32 := 0#32
  ![v1821.toNat, v1823.toNat, 7, 0]

def k0_chk19 (v1821 : BitVec 32) (v1823 : BitVec 32) : Prop :=
  (∀ a, (k0_off183 v1821 v1823) a + S7x7x1x256.size a ≤ S64x64x8x256.size a) ∧
  (∀ a, (k0_off184 v1821 v1823) a + S7x7x1x256.size a ≤ S64x64x8x256.size a) ∧
  (∀ a, (k0_off185 v1821 v1823) a + S7x7x1x256.size a ≤ S64x64x8x256.size a) ∧
  (∀ a, (k0_off186 v1821 v1823) a + S7x7x1x256.size a ≤ S64x64x8x256.size a) ∧
  (∀ a, (k0_off187 v1821 v1823) a + S7x7x1x256.size a ≤ S64x64x8x256.size a) ∧
  (∀ a, (k0_off188 v1821 v1823) a + S7x7x1x256.size a ≤ S64x64x8x256.size a) ∧
  (∀ a, (k0_off189 v1821 v1823) a + S7x7x1x256.size a ≤ S64x64x8x256.size a) ∧
  (∀ a, (k0_off190 v1821 v1823) a + S7x7x1x256.size a ≤ S64x64x8x256.size a)
instance k0_chk19.dec : ∀ (v1821 : BitVec 32) (v1823 : BitVec 32), Decidable (k0_chk19 v1821 v1823) := fun v1821 v1823 => decidable_of_iff' _ (Iff.of_eq (k0_chk19.eq_1 v1821 v1823))
theorem k0_off183_inb : ∀ (v1821 : BitVec 32) (v1823 : BitVec 32) (k0_hw19 : k0_chk19 v1821 v1823), ∀ a, (k0_off183 v1821 v1823) a + S7x7x1x256.size a ≤ S64x64x8x256.size a := fun v1821 v1823 k0_hw19 => k0_hw19.1
theorem k0_off184_inb : ∀ (v1821 : BitVec 32) (v1823 : BitVec 32) (k0_hw19 : k0_chk19 v1821 v1823), ∀ a, (k0_off184 v1821 v1823) a + S7x7x1x256.size a ≤ S64x64x8x256.size a := fun v1821 v1823 k0_hw19 => k0_hw19.2.1
theorem k0_off185_inb : ∀ (v1821 : BitVec 32) (v1823 : BitVec 32) (k0_hw19 : k0_chk19 v1821 v1823), ∀ a, (k0_off185 v1821 v1823) a + S7x7x1x256.size a ≤ S64x64x8x256.size a := fun v1821 v1823 k0_hw19 => k0_hw19.2.2.1
theorem k0_off186_inb : ∀ (v1821 : BitVec 32) (v1823 : BitVec 32) (k0_hw19 : k0_chk19 v1821 v1823), ∀ a, (k0_off186 v1821 v1823) a + S7x7x1x256.size a ≤ S64x64x8x256.size a := fun v1821 v1823 k0_hw19 => k0_hw19.2.2.2.1
theorem k0_off187_inb : ∀ (v1821 : BitVec 32) (v1823 : BitVec 32) (k0_hw19 : k0_chk19 v1821 v1823), ∀ a, (k0_off187 v1821 v1823) a + S7x7x1x256.size a ≤ S64x64x8x256.size a := fun v1821 v1823 k0_hw19 => k0_hw19.2.2.2.2.1
theorem k0_off188_inb : ∀ (v1821 : BitVec 32) (v1823 : BitVec 32) (k0_hw19 : k0_chk19 v1821 v1823), ∀ a, (k0_off188 v1821 v1823) a + S7x7x1x256.size a ≤ S64x64x8x256.size a := fun v1821 v1823 k0_hw19 => k0_hw19.2.2.2.2.2.1
theorem k0_off189_inb : ∀ (v1821 : BitVec 32) (v1823 : BitVec 32) (k0_hw19 : k0_chk19 v1821 v1823), ∀ a, (k0_off189 v1821 v1823) a + S7x7x1x256.size a ≤ S64x64x8x256.size a := fun v1821 v1823 k0_hw19 => k0_hw19.2.2.2.2.2.2.1
theorem k0_off190_inb : ∀ (v1821 : BitVec 32) (v1823 : BitVec 32) (k0_hw19 : k0_chk19 v1821 v1823), ∀ a, (k0_off190 v1821 v1823) a + S7x7x1x256.size a ≤ S64x64x8x256.size a := fun v1821 v1823 k0_hw19 => k0_hw19.2.2.2.2.2.2.2

def k0_off191 (i : grid0.Coords) : Fin 2 → Nat :=
  let c0_2033 : Index := 0#32
  let arg0 : BitVec 32 := BitVec.ofNat 32 (i 0).val
  let c20_i32 : BitVec 32 := 20#32
  let v0 : BitVec 32 := Scalar.muli arg0 c20_i32
  let c19_i32_2032 : BitVec 32 := 19#32
  let v1920 : BitVec 32 := Scalar.addi v0 c19_i32_2032
  let v1921 : Index := Scalar.indexCast v1920
  ![0, v1921.toNat]
def k0_off192 (i : grid0.Coords) : Fin 2 → Nat :=
  let c1_2034 : Index := 1#32
  let arg0 : BitVec 32 := BitVec.ofNat 32 (i 0).val
  let c20_i32 : BitVec 32 := 20#32
  let v0 : BitVec 32 := Scalar.muli arg0 c20_i32
  let c19_i32_2032 : BitVec 32 := 19#32
  let v1920 : BitVec 32 := Scalar.addi v0 c19_i32_2032
  let v1923 : Index := Scalar.indexCast v1920
  ![1, v1923.toNat]
def k0_off193 (v1922 : BitVec 32) (v1924 : BitVec 32) : Fin 4 → Nat :=
  let c0_i32_2035 : BitVec 32 := 0#32
  let c0_i32_2040 : BitVec 32 := 0#32
  ![v1922.toNat, v1924.toNat, 0, 0]

def k0_off194 (v1922 : BitVec 32) (v1924 : BitVec 32) : Fin 4 → Nat :=
  let c1_i32_2041 : BitVec 32 := 1#32
  let c0_i32_2046 : BitVec 32 := 0#32
  ![v1922.toNat, v1924.toNat, 1, 0]
def k0_off195 (v1922 : BitVec 32) (v1924 : BitVec 32) : Fin 4 → Nat :=
  let c2_i32_2047 : BitVec 32 := 2#32
  let c0_i32_2052 : BitVec 32 := 0#32
  ![v1922.toNat, v1924.toNat, 2, 0]
def k0_off196 (v1922 : BitVec 32) (v1924 : BitVec 32) : Fin 4 → Nat :=
  let c3_i32_2053 : BitVec 32 := 3#32
  let c0_i32_2058 : BitVec 32 := 0#32
  ![v1922.toNat, v1924.toNat, 3, 0]
def k0_off197 (v1922 : BitVec 32) (v1924 : BitVec 32) : Fin 4 → Nat :=
  let c4_i32_2059 : BitVec 32 := 4#32
  let c0_i32_2064 : BitVec 32 := 0#32
  ![v1922.toNat, v1924.toNat, 4, 0]
def k0_off198 (v1922 : BitVec 32) (v1924 : BitVec 32) : Fin 4 → Nat :=
  let c5_i32_2065 : BitVec 32 := 5#32
  let c0_i32_2070 : BitVec 32 := 0#32
  ![v1922.toNat, v1924.toNat, 5, 0]
def k0_off199 (v1922 : BitVec 32) (v1924 : BitVec 32) : Fin 4 → Nat :=
  let c6_i32_2071 : BitVec 32 := 6#32
  let c0_i32_2076 : BitVec 32 := 0#32
  ![v1922.toNat, v1924.toNat, 6, 0]
def k0_off200 (v1922 : BitVec 32) (v1924 : BitVec 32) : Fin 4 → Nat :=
  let c7_i32_2077 : BitVec 32 := 7#32
  let c0_i32_2082 : BitVec 32 := 0#32
  ![v1922.toNat, v1924.toNat, 7, 0]

def k0_chk20 (v1922 : BitVec 32) (v1924 : BitVec 32) : Prop :=
  (∀ a, (k0_off193 v1922 v1924) a + S7x7x1x256.size a ≤ S64x64x8x256.size a) ∧
  (∀ a, (k0_off194 v1922 v1924) a + S7x7x1x256.size a ≤ S64x64x8x256.size a) ∧
  (∀ a, (k0_off195 v1922 v1924) a + S7x7x1x256.size a ≤ S64x64x8x256.size a) ∧
  (∀ a, (k0_off196 v1922 v1924) a + S7x7x1x256.size a ≤ S64x64x8x256.size a) ∧
  (∀ a, (k0_off197 v1922 v1924) a + S7x7x1x256.size a ≤ S64x64x8x256.size a) ∧
  (∀ a, (k0_off198 v1922 v1924) a + S7x7x1x256.size a ≤ S64x64x8x256.size a) ∧
  (∀ a, (k0_off199 v1922 v1924) a + S7x7x1x256.size a ≤ S64x64x8x256.size a) ∧
  (∀ a, (k0_off200 v1922 v1924) a + S7x7x1x256.size a ≤ S64x64x8x256.size a)
instance k0_chk20.dec : ∀ (v1922 : BitVec 32) (v1924 : BitVec 32), Decidable (k0_chk20 v1922 v1924) := fun v1922 v1924 => decidable_of_iff' _ (Iff.of_eq (k0_chk20.eq_1 v1922 v1924))
theorem k0_off193_inb : ∀ (v1922 : BitVec 32) (v1924 : BitVec 32) (k0_hw20 : k0_chk20 v1922 v1924), ∀ a, (k0_off193 v1922 v1924) a + S7x7x1x256.size a ≤ S64x64x8x256.size a := fun v1922 v1924 k0_hw20 => k0_hw20.1
theorem k0_off194_inb : ∀ (v1922 : BitVec 32) (v1924 : BitVec 32) (k0_hw20 : k0_chk20 v1922 v1924), ∀ a, (k0_off194 v1922 v1924) a + S7x7x1x256.size a ≤ S64x64x8x256.size a := fun v1922 v1924 k0_hw20 => k0_hw20.2.1
theorem k0_off195_inb : ∀ (v1922 : BitVec 32) (v1924 : BitVec 32) (k0_hw20 : k0_chk20 v1922 v1924), ∀ a, (k0_off195 v1922 v1924) a + S7x7x1x256.size a ≤ S64x64x8x256.size a := fun v1922 v1924 k0_hw20 => k0_hw20.2.2.1
theorem k0_off196_inb : ∀ (v1922 : BitVec 32) (v1924 : BitVec 32) (k0_hw20 : k0_chk20 v1922 v1924), ∀ a, (k0_off196 v1922 v1924) a + S7x7x1x256.size a ≤ S64x64x8x256.size a := fun v1922 v1924 k0_hw20 => k0_hw20.2.2.2.1
theorem k0_off197_inb : ∀ (v1922 : BitVec 32) (v1924 : BitVec 32) (k0_hw20 : k0_chk20 v1922 v1924), ∀ a, (k0_off197 v1922 v1924) a + S7x7x1x256.size a ≤ S64x64x8x256.size a := fun v1922 v1924 k0_hw20 => k0_hw20.2.2.2.2.1
theorem k0_off198_inb : ∀ (v1922 : BitVec 32) (v1924 : BitVec 32) (k0_hw20 : k0_chk20 v1922 v1924), ∀ a, (k0_off198 v1922 v1924) a + S7x7x1x256.size a ≤ S64x64x8x256.size a := fun v1922 v1924 k0_hw20 => k0_hw20.2.2.2.2.2.1
theorem k0_off199_inb : ∀ (v1922 : BitVec 32) (v1924 : BitVec 32) (k0_hw20 : k0_chk20 v1922 v1924), ∀ a, (k0_off199 v1922 v1924) a + S7x7x1x256.size a ≤ S64x64x8x256.size a := fun v1922 v1924 k0_hw20 => k0_hw20.2.2.2.2.2.2.1
theorem k0_off200_inb : ∀ (v1922 : BitVec 32) (v1924 : BitVec 32) (k0_hw20 : k0_chk20 v1922 v1924), ∀ a, (k0_off200 v1922 v1924) a + S7x7x1x256.size a ≤ S64x64x8x256.size a := fun v1922 v1924 k0_hw20 => k0_hw20.2.2.2.2.2.2.2

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S160x7x7x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  slices_S1000x4_S1000x2_0_0 : S1000x4.Slices ![0, 0] S1000x2
  bcast_S_S1000x2 : S_.BroadcastsInDim S1000x2 (![] : Fin 0 → Fin S1000x2.rank)
  transposes_S1000x2_S2x1000_1_0 : S1000x2.Transposes [1, 0] S2x1000
  transposes_S8x64x64x256_S64x64x8x256_1_2_0_3 : S8x64x64x256.Transposes [1, 2, 0, 3] S64x64x8x256
  numel1_S1x1 : S1x1.numel = 1
  inb_S8_S1_0 : ∀ a, (![0] : Fin 1 → Nat) a + S1.size a ≤ S8.size a
  squeezes_S1_S_ : S1.Squeezes S_
  inb_S160x7x7x256_S1x7x7x256_0_0_0_0 : ∀ a, (![0, 0, 0, 0] : Fin 4 → Nat) a + S1x7x7x256.size a ≤ S160x7x7x256.size a
  squeezes_S1x7x7x256_S7x7x256 : S1x7x7x256.Squeezes S7x7x256
  squeezes_S7x7x1x256_S7x7x256 : S7x7x1x256.Squeezes S7x7x256
  inb_S8_S1_1 : ∀ a, (![1] : Fin 1 → Nat) a + S1.size a ≤ S8.size a
  inb_S160x7x7x256_S1x7x7x256_1_0_0_0 : ∀ a, (![1, 0, 0, 0] : Fin 4 → Nat) a + S1x7x7x256.size a ≤ S160x7x7x256.size a
  inb_S8_S1_2 : ∀ a, (![2] : Fin 1 → Nat) a + S1.size a ≤ S8.size a
  inb_S160x7x7x256_S1x7x7x256_2_0_0_0 : ∀ a, (![2, 0, 0, 0] : Fin 4 → Nat) a + S1x7x7x256.size a ≤ S160x7x7x256.size a
  inb_S8_S1_3 : ∀ a, (![3] : Fin 1 → Nat) a + S1.size a ≤ S8.size a
  inb_S160x7x7x256_S1x7x7x256_3_0_0_0 : ∀ a, (![3, 0, 0, 0] : Fin 4 → Nat) a + S1x7x7x256.size a ≤ S160x7x7x256.size a
  inb_S8_S1_4 : ∀ a, (![4] : Fin 1 → Nat) a + S1.size a ≤ S8.size a
  inb_S160x7x7x256_S1x7x7x256_4_0_0_0 : ∀ a, (![4, 0, 0, 0] : Fin 4 → Nat) a + S1x7x7x256.size a ≤ S160x7x7x256.size a
  inb_S8_S1_5 : ∀ a, (![5] : Fin 1 → Nat) a + S1.size a ≤ S8.size a
  inb_S160x7x7x256_S1x7x7x256_5_0_0_0 : ∀ a, (![5, 0, 0, 0] : Fin 4 → Nat) a + S1x7x7x256.size a ≤ S160x7x7x256.size a
  inb_S8_S1_6 : ∀ a, (![6] : Fin 1 → Nat) a + S1.size a ≤ S8.size a
  inb_S160x7x7x256_S1x7x7x256_6_0_0_0 : ∀ a, (![6, 0, 0, 0] : Fin 4 → Nat) a + S1x7x7x256.size a ≤ S160x7x7x256.size a
  inb_S8_S1_7 : ∀ a, (![7] : Fin 1 → Nat) a + S1.size a ≤ S8.size a
  inb_S160x7x7x256_S1x7x7x256_7_0_0_0 : ∀ a, (![7, 0, 0, 0] : Fin 4 → Nat) a + S1x7x7x256.size a ≤ S160x7x7x256.size a
  inb_S160x7x7x256_S1x7x7x256_8_0_0_0 : ∀ a, (![8, 0, 0, 0] : Fin 4 → Nat) a + S1x7x7x256.size a ≤ S160x7x7x256.size a
  inb_S160x7x7x256_S1x7x7x256_9_0_0_0 : ∀ a, (![9, 0, 0, 0] : Fin 4 → Nat) a + S1x7x7x256.size a ≤ S160x7x7x256.size a
  inb_S160x7x7x256_S1x7x7x256_10_0_0_0 : ∀ a, (![10, 0, 0, 0] : Fin 4 → Nat) a + S1x7x7x256.size a ≤ S160x7x7x256.size a
  inb_S160x7x7x256_S1x7x7x256_11_0_0_0 : ∀ a, (![11, 0, 0, 0] : Fin 4 → Nat) a + S1x7x7x256.size a ≤ S160x7x7x256.size a
  inb_S160x7x7x256_S1x7x7x256_12_0_0_0 : ∀ a, (![12, 0, 0, 0] : Fin 4 → Nat) a + S1x7x7x256.size a ≤ S160x7x7x256.size a
  inb_S160x7x7x256_S1x7x7x256_13_0_0_0 : ∀ a, (![13, 0, 0, 0] : Fin 4 → Nat) a + S1x7x7x256.size a ≤ S160x7x7x256.size a
  inb_S160x7x7x256_S1x7x7x256_14_0_0_0 : ∀ a, (![14, 0, 0, 0] : Fin 4 → Nat) a + S1x7x7x256.size a ≤ S160x7x7x256.size a
  inb_S160x7x7x256_S1x7x7x256_15_0_0_0 : ∀ a, (![15, 0, 0, 0] : Fin 4 → Nat) a + S1x7x7x256.size a ≤ S160x7x7x256.size a
  inb_S160x7x7x256_S1x7x7x256_16_0_0_0 : ∀ a, (![16, 0, 0, 0] : Fin 4 → Nat) a + S1x7x7x256.size a ≤ S160x7x7x256.size a
  inb_S160x7x7x256_S1x7x7x256_17_0_0_0 : ∀ a, (![17, 0, 0, 0] : Fin 4 → Nat) a + S1x7x7x256.size a ≤ S160x7x7x256.size a
  inb_S160x7x7x256_S1x7x7x256_18_0_0_0 : ∀ a, (![18, 0, 0, 0] : Fin 4 → Nat) a + S1x7x7x256.size a ≤ S160x7x7x256.size a
  inb_S160x7x7x256_S1x7x7x256_19_0_0_0 : ∀ a, (![19, 0, 0, 0] : Fin 4 → Nat) a + S1x7x7x256.size a ≤ S160x7x7x256.size a
  inb_S160x7x7x256_S1x7x7x256_20_0_0_0 : ∀ a, (![20, 0, 0, 0] : Fin 4 → Nat) a + S1x7x7x256.size a ≤ S160x7x7x256.size a
  inb_S160x7x7x256_S1x7x7x256_21_0_0_0 : ∀ a, (![21, 0, 0, 0] : Fin 4 → Nat) a + S1x7x7x256.size a ≤ S160x7x7x256.size a
  inb_S160x7x7x256_S1x7x7x256_22_0_0_0 : ∀ a, (![22, 0, 0, 0] : Fin 4 → Nat) a + S1x7x7x256.size a ≤ S160x7x7x256.size a
  inb_S160x7x7x256_S1x7x7x256_23_0_0_0 : ∀ a, (![23, 0, 0, 0] : Fin 4 → Nat) a + S1x7x7x256.size a ≤ S160x7x7x256.size a
  inb_S160x7x7x256_S1x7x7x256_24_0_0_0 : ∀ a, (![24, 0, 0, 0] : Fin 4 → Nat) a + S1x7x7x256.size a ≤ S160x7x7x256.size a
  inb_S160x7x7x256_S1x7x7x256_25_0_0_0 : ∀ a, (![25, 0, 0, 0] : Fin 4 → Nat) a + S1x7x7x256.size a ≤ S160x7x7x256.size a
  inb_S160x7x7x256_S1x7x7x256_26_0_0_0 : ∀ a, (![26, 0, 0, 0] : Fin 4 → Nat) a + S1x7x7x256.size a ≤ S160x7x7x256.size a
  inb_S160x7x7x256_S1x7x7x256_27_0_0_0 : ∀ a, (![27, 0, 0, 0] : Fin 4 → Nat) a + S1x7x7x256.size a ≤ S160x7x7x256.size a
  inb_S160x7x7x256_S1x7x7x256_28_0_0_0 : ∀ a, (![28, 0, 0, 0] : Fin 4 → Nat) a + S1x7x7x256.size a ≤ S160x7x7x256.size a
  inb_S160x7x7x256_S1x7x7x256_29_0_0_0 : ∀ a, (![29, 0, 0, 0] : Fin 4 → Nat) a + S1x7x7x256.size a ≤ S160x7x7x256.size a
  inb_S160x7x7x256_S1x7x7x256_30_0_0_0 : ∀ a, (![30, 0, 0, 0] : Fin 4 → Nat) a + S1x7x7x256.size a ≤ S160x7x7x256.size a
  inb_S160x7x7x256_S1x7x7x256_31_0_0_0 : ∀ a, (![31, 0, 0, 0] : Fin 4 → Nat) a + S1x7x7x256.size a ≤ S160x7x7x256.size a
  inb_S160x7x7x256_S1x7x7x256_32_0_0_0 : ∀ a, (![32, 0, 0, 0] : Fin 4 → Nat) a + S1x7x7x256.size a ≤ S160x7x7x256.size a
  inb_S160x7x7x256_S1x7x7x256_33_0_0_0 : ∀ a, (![33, 0, 0, 0] : Fin 4 → Nat) a + S1x7x7x256.size a ≤ S160x7x7x256.size a
  inb_S160x7x7x256_S1x7x7x256_34_0_0_0 : ∀ a, (![34, 0, 0, 0] : Fin 4 → Nat) a + S1x7x7x256.size a ≤ S160x7x7x256.size a
  inb_S160x7x7x256_S1x7x7x256_35_0_0_0 : ∀ a, (![35, 0, 0, 0] : Fin 4 → Nat) a + S1x7x7x256.size a ≤ S160x7x7x256.size a
  inb_S160x7x7x256_S1x7x7x256_36_0_0_0 : ∀ a, (![36, 0, 0, 0] : Fin 4 → Nat) a + S1x7x7x256.size a ≤ S160x7x7x256.size a
  inb_S160x7x7x256_S1x7x7x256_37_0_0_0 : ∀ a, (![37, 0, 0, 0] : Fin 4 → Nat) a + S1x7x7x256.size a ≤ S160x7x7x256.size a
  inb_S160x7x7x256_S1x7x7x256_38_0_0_0 : ∀ a, (![38, 0, 0, 0] : Fin 4 → Nat) a + S1x7x7x256.size a ≤ S160x7x7x256.size a
  inb_S160x7x7x256_S1x7x7x256_39_0_0_0 : ∀ a, (![39, 0, 0, 0] : Fin 4 → Nat) a + S1x7x7x256.size a ≤ S160x7x7x256.size a
  inb_S160x7x7x256_S1x7x7x256_40_0_0_0 : ∀ a, (![40, 0, 0, 0] : Fin 4 → Nat) a + S1x7x7x256.size a ≤ S160x7x7x256.size a
  inb_S160x7x7x256_S1x7x7x256_41_0_0_0 : ∀ a, (![41, 0, 0, 0] : Fin 4 → Nat) a + S1x7x7x256.size a ≤ S160x7x7x256.size a
  inb_S160x7x7x256_S1x7x7x256_42_0_0_0 : ∀ a, (![42, 0, 0, 0] : Fin 4 → Nat) a + S1x7x7x256.size a ≤ S160x7x7x256.size a
  inb_S160x7x7x256_S1x7x7x256_43_0_0_0 : ∀ a, (![43, 0, 0, 0] : Fin 4 → Nat) a + S1x7x7x256.size a ≤ S160x7x7x256.size a
  inb_S160x7x7x256_S1x7x7x256_44_0_0_0 : ∀ a, (![44, 0, 0, 0] : Fin 4 → Nat) a + S1x7x7x256.size a ≤ S160x7x7x256.size a
  inb_S160x7x7x256_S1x7x7x256_45_0_0_0 : ∀ a, (![45, 0, 0, 0] : Fin 4 → Nat) a + S1x7x7x256.size a ≤ S160x7x7x256.size a
  inb_S160x7x7x256_S1x7x7x256_46_0_0_0 : ∀ a, (![46, 0, 0, 0] : Fin 4 → Nat) a + S1x7x7x256.size a ≤ S160x7x7x256.size a
  inb_S160x7x7x256_S1x7x7x256_47_0_0_0 : ∀ a, (![47, 0, 0, 0] : Fin 4 → Nat) a + S1x7x7x256.size a ≤ S160x7x7x256.size a
  inb_S160x7x7x256_S1x7x7x256_48_0_0_0 : ∀ a, (![48, 0, 0, 0] : Fin 4 → Nat) a + S1x7x7x256.size a ≤ S160x7x7x256.size a
  inb_S160x7x7x256_S1x7x7x256_49_0_0_0 : ∀ a, (![49, 0, 0, 0] : Fin 4 → Nat) a + S1x7x7x256.size a ≤ S160x7x7x256.size a
  inb_S160x7x7x256_S1x7x7x256_50_0_0_0 : ∀ a, (![50, 0, 0, 0] : Fin 4 → Nat) a + S1x7x7x256.size a ≤ S160x7x7x256.size a
  inb_S160x7x7x256_S1x7x7x256_51_0_0_0 : ∀ a, (![51, 0, 0, 0] : Fin 4 → Nat) a + S1x7x7x256.size a ≤ S160x7x7x256.size a
  inb_S160x7x7x256_S1x7x7x256_52_0_0_0 : ∀ a, (![52, 0, 0, 0] : Fin 4 → Nat) a + S1x7x7x256.size a ≤ S160x7x7x256.size a
  inb_S160x7x7x256_S1x7x7x256_53_0_0_0 : ∀ a, (![53, 0, 0, 0] : Fin 4 → Nat) a + S1x7x7x256.size a ≤ S160x7x7x256.size a
  inb_S160x7x7x256_S1x7x7x256_54_0_0_0 : ∀ a, (![54, 0, 0, 0] : Fin 4 → Nat) a + S1x7x7x256.size a ≤ S160x7x7x256.size a
  inb_S160x7x7x256_S1x7x7x256_55_0_0_0 : ∀ a, (![55, 0, 0, 0] : Fin 4 → Nat) a + S1x7x7x256.size a ≤ S160x7x7x256.size a
  inb_S160x7x7x256_S1x7x7x256_56_0_0_0 : ∀ a, (![56, 0, 0, 0] : Fin 4 → Nat) a + S1x7x7x256.size a ≤ S160x7x7x256.size a
  inb_S160x7x7x256_S1x7x7x256_57_0_0_0 : ∀ a, (![57, 0, 0, 0] : Fin 4 → Nat) a + S1x7x7x256.size a ≤ S160x7x7x256.size a
  inb_S160x7x7x256_S1x7x7x256_58_0_0_0 : ∀ a, (![58, 0, 0, 0] : Fin 4 → Nat) a + S1x7x7x256.size a ≤ S160x7x7x256.size a
  inb_S160x7x7x256_S1x7x7x256_59_0_0_0 : ∀ a, (![59, 0, 0, 0] : Fin 4 → Nat) a + S1x7x7x256.size a ≤ S160x7x7x256.size a
  inb_S160x7x7x256_S1x7x7x256_60_0_0_0 : ∀ a, (![60, 0, 0, 0] : Fin 4 → Nat) a + S1x7x7x256.size a ≤ S160x7x7x256.size a
  inb_S160x7x7x256_S1x7x7x256_61_0_0_0 : ∀ a, (![61, 0, 0, 0] : Fin 4 → Nat) a + S1x7x7x256.size a ≤ S160x7x7x256.size a
  inb_S160x7x7x256_S1x7x7x256_62_0_0_0 : ∀ a, (![62, 0, 0, 0] : Fin 4 → Nat) a + S1x7x7x256.size a ≤ S160x7x7x256.size a
  inb_S160x7x7x256_S1x7x7x256_63_0_0_0 : ∀ a, (![63, 0, 0, 0] : Fin 4 → Nat) a + S1x7x7x256.size a ≤ S160x7x7x256.size a
  inb_S160x7x7x256_S1x7x7x256_64_0_0_0 : ∀ a, (![64, 0, 0, 0] : Fin 4 → Nat) a + S1x7x7x256.size a ≤ S160x7x7x256.size a
  inb_S160x7x7x256_S1x7x7x256_65_0_0_0 : ∀ a, (![65, 0, 0, 0] : Fin 4 → Nat) a + S1x7x7x256.size a ≤ S160x7x7x256.size a
  inb_S160x7x7x256_S1x7x7x256_66_0_0_0 : ∀ a, (![66, 0, 0, 0] : Fin 4 → Nat) a + S1x7x7x256.size a ≤ S160x7x7x256.size a
  inb_S160x7x7x256_S1x7x7x256_67_0_0_0 : ∀ a, (![67, 0, 0, 0] : Fin 4 → Nat) a + S1x7x7x256.size a ≤ S160x7x7x256.size a
  inb_S160x7x7x256_S1x7x7x256_68_0_0_0 : ∀ a, (![68, 0, 0, 0] : Fin 4 → Nat) a + S1x7x7x256.size a ≤ S160x7x7x256.size a
  inb_S160x7x7x256_S1x7x7x256_69_0_0_0 : ∀ a, (![69, 0, 0, 0] : Fin 4 → Nat) a + S1x7x7x256.size a ≤ S160x7x7x256.size a
  inb_S160x7x7x256_S1x7x7x256_70_0_0_0 : ∀ a, (![70, 0, 0, 0] : Fin 4 → Nat) a + S1x7x7x256.size a ≤ S160x7x7x256.size a
  inb_S160x7x7x256_S1x7x7x256_71_0_0_0 : ∀ a, (![71, 0, 0, 0] : Fin 4 → Nat) a + S1x7x7x256.size a ≤ S160x7x7x256.size a
  inb_S160x7x7x256_S1x7x7x256_72_0_0_0 : ∀ a, (![72, 0, 0, 0] : Fin 4 → Nat) a + S1x7x7x256.size a ≤ S160x7x7x256.size a
  inb_S160x7x7x256_S1x7x7x256_73_0_0_0 : ∀ a, (![73, 0, 0, 0] : Fin 4 → Nat) a + S1x7x7x256.size a ≤ S160x7x7x256.size a
  inb_S160x7x7x256_S1x7x7x256_74_0_0_0 : ∀ a, (![74, 0, 0, 0] : Fin 4 → Nat) a + S1x7x7x256.size a ≤ S160x7x7x256.size a
  inb_S160x7x7x256_S1x7x7x256_75_0_0_0 : ∀ a, (![75, 0, 0, 0] : Fin 4 → Nat) a + S1x7x7x256.size a ≤ S160x7x7x256.size a
  inb_S160x7x7x256_S1x7x7x256_76_0_0_0 : ∀ a, (![76, 0, 0, 0] : Fin 4 → Nat) a + S1x7x7x256.size a ≤ S160x7x7x256.size a
  inb_S160x7x7x256_S1x7x7x256_77_0_0_0 : ∀ a, (![77, 0, 0, 0] : Fin 4 → Nat) a + S1x7x7x256.size a ≤ S160x7x7x256.size a
  inb_S160x7x7x256_S1x7x7x256_78_0_0_0 : ∀ a, (![78, 0, 0, 0] : Fin 4 → Nat) a + S1x7x7x256.size a ≤ S160x7x7x256.size a
  inb_S160x7x7x256_S1x7x7x256_79_0_0_0 : ∀ a, (![79, 0, 0, 0] : Fin 4 → Nat) a + S1x7x7x256.size a ≤ S160x7x7x256.size a
  inb_S160x7x7x256_S1x7x7x256_80_0_0_0 : ∀ a, (![80, 0, 0, 0] : Fin 4 → Nat) a + S1x7x7x256.size a ≤ S160x7x7x256.size a
  inb_S160x7x7x256_S1x7x7x256_81_0_0_0 : ∀ a, (![81, 0, 0, 0] : Fin 4 → Nat) a + S1x7x7x256.size a ≤ S160x7x7x256.size a
  inb_S160x7x7x256_S1x7x7x256_82_0_0_0 : ∀ a, (![82, 0, 0, 0] : Fin 4 → Nat) a + S1x7x7x256.size a ≤ S160x7x7x256.size a
  inb_S160x7x7x256_S1x7x7x256_83_0_0_0 : ∀ a, (![83, 0, 0, 0] : Fin 4 → Nat) a + S1x7x7x256.size a ≤ S160x7x7x256.size a
  inb_S160x7x7x256_S1x7x7x256_84_0_0_0 : ∀ a, (![84, 0, 0, 0] : Fin 4 → Nat) a + S1x7x7x256.size a ≤ S160x7x7x256.size a
  inb_S160x7x7x256_S1x7x7x256_85_0_0_0 : ∀ a, (![85, 0, 0, 0] : Fin 4 → Nat) a + S1x7x7x256.size a ≤ S160x7x7x256.size a
  inb_S160x7x7x256_S1x7x7x256_86_0_0_0 : ∀ a, (![86, 0, 0, 0] : Fin 4 → Nat) a + S1x7x7x256.size a ≤ S160x7x7x256.size a
  inb_S160x7x7x256_S1x7x7x256_87_0_0_0 : ∀ a, (![87, 0, 0, 0] : Fin 4 → Nat) a + S1x7x7x256.size a ≤ S160x7x7x256.size a
  inb_S160x7x7x256_S1x7x7x256_88_0_0_0 : ∀ a, (![88, 0, 0, 0] : Fin 4 → Nat) a + S1x7x7x256.size a ≤ S160x7x7x256.size a
  inb_S160x7x7x256_S1x7x7x256_89_0_0_0 : ∀ a, (![89, 0, 0, 0] : Fin 4 → Nat) a + S1x7x7x256.size a ≤ S160x7x7x256.size a
  inb_S160x7x7x256_S1x7x7x256_90_0_0_0 : ∀ a, (![90, 0, 0, 0] : Fin 4 → Nat) a + S1x7x7x256.size a ≤ S160x7x7x256.size a
  inb_S160x7x7x256_S1x7x7x256_91_0_0_0 : ∀ a, (![91, 0, 0, 0] : Fin 4 → Nat) a + S1x7x7x256.size a ≤ S160x7x7x256.size a
  inb_S160x7x7x256_S1x7x7x256_92_0_0_0 : ∀ a, (![92, 0, 0, 0] : Fin 4 → Nat) a + S1x7x7x256.size a ≤ S160x7x7x256.size a
  inb_S160x7x7x256_S1x7x7x256_93_0_0_0 : ∀ a, (![93, 0, 0, 0] : Fin 4 → Nat) a + S1x7x7x256.size a ≤ S160x7x7x256.size a
  inb_S160x7x7x256_S1x7x7x256_94_0_0_0 : ∀ a, (![94, 0, 0, 0] : Fin 4 → Nat) a + S1x7x7x256.size a ≤ S160x7x7x256.size a
  inb_S160x7x7x256_S1x7x7x256_95_0_0_0 : ∀ a, (![95, 0, 0, 0] : Fin 4 → Nat) a + S1x7x7x256.size a ≤ S160x7x7x256.size a
  inb_S160x7x7x256_S1x7x7x256_96_0_0_0 : ∀ a, (![96, 0, 0, 0] : Fin 4 → Nat) a + S1x7x7x256.size a ≤ S160x7x7x256.size a
  inb_S160x7x7x256_S1x7x7x256_97_0_0_0 : ∀ a, (![97, 0, 0, 0] : Fin 4 → Nat) a + S1x7x7x256.size a ≤ S160x7x7x256.size a
  inb_S160x7x7x256_S1x7x7x256_98_0_0_0 : ∀ a, (![98, 0, 0, 0] : Fin 4 → Nat) a + S1x7x7x256.size a ≤ S160x7x7x256.size a
  inb_S160x7x7x256_S1x7x7x256_99_0_0_0 : ∀ a, (![99, 0, 0, 0] : Fin 4 → Nat) a + S1x7x7x256.size a ≤ S160x7x7x256.size a
  inb_S160x7x7x256_S1x7x7x256_100_0_0_0 : ∀ a, (![100, 0, 0, 0] : Fin 4 → Nat) a + S1x7x7x256.size a ≤ S160x7x7x256.size a
  inb_S160x7x7x256_S1x7x7x256_101_0_0_0 : ∀ a, (![101, 0, 0, 0] : Fin 4 → Nat) a + S1x7x7x256.size a ≤ S160x7x7x256.size a
  inb_S160x7x7x256_S1x7x7x256_102_0_0_0 : ∀ a, (![102, 0, 0, 0] : Fin 4 → Nat) a + S1x7x7x256.size a ≤ S160x7x7x256.size a
  inb_S160x7x7x256_S1x7x7x256_103_0_0_0 : ∀ a, (![103, 0, 0, 0] : Fin 4 → Nat) a + S1x7x7x256.size a ≤ S160x7x7x256.size a
  inb_S160x7x7x256_S1x7x7x256_104_0_0_0 : ∀ a, (![104, 0, 0, 0] : Fin 4 → Nat) a + S1x7x7x256.size a ≤ S160x7x7x256.size a
  inb_S160x7x7x256_S1x7x7x256_105_0_0_0 : ∀ a, (![105, 0, 0, 0] : Fin 4 → Nat) a + S1x7x7x256.size a ≤ S160x7x7x256.size a
  inb_S160x7x7x256_S1x7x7x256_106_0_0_0 : ∀ a, (![106, 0, 0, 0] : Fin 4 → Nat) a + S1x7x7x256.size a ≤ S160x7x7x256.size a
  inb_S160x7x7x256_S1x7x7x256_107_0_0_0 : ∀ a, (![107, 0, 0, 0] : Fin 4 → Nat) a + S1x7x7x256.size a ≤ S160x7x7x256.size a
  inb_S160x7x7x256_S1x7x7x256_108_0_0_0 : ∀ a, (![108, 0, 0, 0] : Fin 4 → Nat) a + S1x7x7x256.size a ≤ S160x7x7x256.size a
  inb_S160x7x7x256_S1x7x7x256_109_0_0_0 : ∀ a, (![109, 0, 0, 0] : Fin 4 → Nat) a + S1x7x7x256.size a ≤ S160x7x7x256.size a
  inb_S160x7x7x256_S1x7x7x256_110_0_0_0 : ∀ a, (![110, 0, 0, 0] : Fin 4 → Nat) a + S1x7x7x256.size a ≤ S160x7x7x256.size a
  inb_S160x7x7x256_S1x7x7x256_111_0_0_0 : ∀ a, (![111, 0, 0, 0] : Fin 4 → Nat) a + S1x7x7x256.size a ≤ S160x7x7x256.size a
  inb_S160x7x7x256_S1x7x7x256_112_0_0_0 : ∀ a, (![112, 0, 0, 0] : Fin 4 → Nat) a + S1x7x7x256.size a ≤ S160x7x7x256.size a
  inb_S160x7x7x256_S1x7x7x256_113_0_0_0 : ∀ a, (![113, 0, 0, 0] : Fin 4 → Nat) a + S1x7x7x256.size a ≤ S160x7x7x256.size a
  inb_S160x7x7x256_S1x7x7x256_114_0_0_0 : ∀ a, (![114, 0, 0, 0] : Fin 4 → Nat) a + S1x7x7x256.size a ≤ S160x7x7x256.size a
  inb_S160x7x7x256_S1x7x7x256_115_0_0_0 : ∀ a, (![115, 0, 0, 0] : Fin 4 → Nat) a + S1x7x7x256.size a ≤ S160x7x7x256.size a
  inb_S160x7x7x256_S1x7x7x256_116_0_0_0 : ∀ a, (![116, 0, 0, 0] : Fin 4 → Nat) a + S1x7x7x256.size a ≤ S160x7x7x256.size a
  inb_S160x7x7x256_S1x7x7x256_117_0_0_0 : ∀ a, (![117, 0, 0, 0] : Fin 4 → Nat) a + S1x7x7x256.size a ≤ S160x7x7x256.size a
  inb_S160x7x7x256_S1x7x7x256_118_0_0_0 : ∀ a, (![118, 0, 0, 0] : Fin 4 → Nat) a + S1x7x7x256.size a ≤ S160x7x7x256.size a
  inb_S160x7x7x256_S1x7x7x256_119_0_0_0 : ∀ a, (![119, 0, 0, 0] : Fin 4 → Nat) a + S1x7x7x256.size a ≤ S160x7x7x256.size a
  inb_S160x7x7x256_S1x7x7x256_120_0_0_0 : ∀ a, (![120, 0, 0, 0] : Fin 4 → Nat) a + S1x7x7x256.size a ≤ S160x7x7x256.size a
  inb_S160x7x7x256_S1x7x7x256_121_0_0_0 : ∀ a, (![121, 0, 0, 0] : Fin 4 → Nat) a + S1x7x7x256.size a ≤ S160x7x7x256.size a
  inb_S160x7x7x256_S1x7x7x256_122_0_0_0 : ∀ a, (![122, 0, 0, 0] : Fin 4 → Nat) a + S1x7x7x256.size a ≤ S160x7x7x256.size a
  inb_S160x7x7x256_S1x7x7x256_123_0_0_0 : ∀ a, (![123, 0, 0, 0] : Fin 4 → Nat) a + S1x7x7x256.size a ≤ S160x7x7x256.size a
  inb_S160x7x7x256_S1x7x7x256_124_0_0_0 : ∀ a, (![124, 0, 0, 0] : Fin 4 → Nat) a + S1x7x7x256.size a ≤ S160x7x7x256.size a
  inb_S160x7x7x256_S1x7x7x256_125_0_0_0 : ∀ a, (![125, 0, 0, 0] : Fin 4 → Nat) a + S1x7x7x256.size a ≤ S160x7x7x256.size a
  inb_S160x7x7x256_S1x7x7x256_126_0_0_0 : ∀ a, (![126, 0, 0, 0] : Fin 4 → Nat) a + S1x7x7x256.size a ≤ S160x7x7x256.size a
  inb_S160x7x7x256_S1x7x7x256_127_0_0_0 : ∀ a, (![127, 0, 0, 0] : Fin 4 → Nat) a + S1x7x7x256.size a ≤ S160x7x7x256.size a
  inb_S160x7x7x256_S1x7x7x256_128_0_0_0 : ∀ a, (![128, 0, 0, 0] : Fin 4 → Nat) a + S1x7x7x256.size a ≤ S160x7x7x256.size a
  inb_S160x7x7x256_S1x7x7x256_129_0_0_0 : ∀ a, (![129, 0, 0, 0] : Fin 4 → Nat) a + S1x7x7x256.size a ≤ S160x7x7x256.size a
  inb_S160x7x7x256_S1x7x7x256_130_0_0_0 : ∀ a, (![130, 0, 0, 0] : Fin 4 → Nat) a + S1x7x7x256.size a ≤ S160x7x7x256.size a
  inb_S160x7x7x256_S1x7x7x256_131_0_0_0 : ∀ a, (![131, 0, 0, 0] : Fin 4 → Nat) a + S1x7x7x256.size a ≤ S160x7x7x256.size a
  inb_S160x7x7x256_S1x7x7x256_132_0_0_0 : ∀ a, (![132, 0, 0, 0] : Fin 4 → Nat) a + S1x7x7x256.size a ≤ S160x7x7x256.size a
  inb_S160x7x7x256_S1x7x7x256_133_0_0_0 : ∀ a, (![133, 0, 0, 0] : Fin 4 → Nat) a + S1x7x7x256.size a ≤ S160x7x7x256.size a
  inb_S160x7x7x256_S1x7x7x256_134_0_0_0 : ∀ a, (![134, 0, 0, 0] : Fin 4 → Nat) a + S1x7x7x256.size a ≤ S160x7x7x256.size a
  inb_S160x7x7x256_S1x7x7x256_135_0_0_0 : ∀ a, (![135, 0, 0, 0] : Fin 4 → Nat) a + S1x7x7x256.size a ≤ S160x7x7x256.size a
  inb_S160x7x7x256_S1x7x7x256_136_0_0_0 : ∀ a, (![136, 0, 0, 0] : Fin 4 → Nat) a + S1x7x7x256.size a ≤ S160x7x7x256.size a
  inb_S160x7x7x256_S1x7x7x256_137_0_0_0 : ∀ a, (![137, 0, 0, 0] : Fin 4 → Nat) a + S1x7x7x256.size a ≤ S160x7x7x256.size a
  inb_S160x7x7x256_S1x7x7x256_138_0_0_0 : ∀ a, (![138, 0, 0, 0] : Fin 4 → Nat) a + S1x7x7x256.size a ≤ S160x7x7x256.size a
  inb_S160x7x7x256_S1x7x7x256_139_0_0_0 : ∀ a, (![139, 0, 0, 0] : Fin 4 → Nat) a + S1x7x7x256.size a ≤ S160x7x7x256.size a
  inb_S160x7x7x256_S1x7x7x256_140_0_0_0 : ∀ a, (![140, 0, 0, 0] : Fin 4 → Nat) a + S1x7x7x256.size a ≤ S160x7x7x256.size a
  inb_S160x7x7x256_S1x7x7x256_141_0_0_0 : ∀ a, (![141, 0, 0, 0] : Fin 4 → Nat) a + S1x7x7x256.size a ≤ S160x7x7x256.size a
  inb_S160x7x7x256_S1x7x7x256_142_0_0_0 : ∀ a, (![142, 0, 0, 0] : Fin 4 → Nat) a + S1x7x7x256.size a ≤ S160x7x7x256.size a
  inb_S160x7x7x256_S1x7x7x256_143_0_0_0 : ∀ a, (![143, 0, 0, 0] : Fin 4 → Nat) a + S1x7x7x256.size a ≤ S160x7x7x256.size a
  inb_S160x7x7x256_S1x7x7x256_144_0_0_0 : ∀ a, (![144, 0, 0, 0] : Fin 4 → Nat) a + S1x7x7x256.size a ≤ S160x7x7x256.size a
  inb_S160x7x7x256_S1x7x7x256_145_0_0_0 : ∀ a, (![145, 0, 0, 0] : Fin 4 → Nat) a + S1x7x7x256.size a ≤ S160x7x7x256.size a
  inb_S160x7x7x256_S1x7x7x256_146_0_0_0 : ∀ a, (![146, 0, 0, 0] : Fin 4 → Nat) a + S1x7x7x256.size a ≤ S160x7x7x256.size a
  inb_S160x7x7x256_S1x7x7x256_147_0_0_0 : ∀ a, (![147, 0, 0, 0] : Fin 4 → Nat) a + S1x7x7x256.size a ≤ S160x7x7x256.size a
  inb_S160x7x7x256_S1x7x7x256_148_0_0_0 : ∀ a, (![148, 0, 0, 0] : Fin 4 → Nat) a + S1x7x7x256.size a ≤ S160x7x7x256.size a
  inb_S160x7x7x256_S1x7x7x256_149_0_0_0 : ∀ a, (![149, 0, 0, 0] : Fin 4 → Nat) a + S1x7x7x256.size a ≤ S160x7x7x256.size a
  inb_S160x7x7x256_S1x7x7x256_150_0_0_0 : ∀ a, (![150, 0, 0, 0] : Fin 4 → Nat) a + S1x7x7x256.size a ≤ S160x7x7x256.size a
  inb_S160x7x7x256_S1x7x7x256_151_0_0_0 : ∀ a, (![151, 0, 0, 0] : Fin 4 → Nat) a + S1x7x7x256.size a ≤ S160x7x7x256.size a
  inb_S160x7x7x256_S1x7x7x256_152_0_0_0 : ∀ a, (![152, 0, 0, 0] : Fin 4 → Nat) a + S1x7x7x256.size a ≤ S160x7x7x256.size a
  inb_S160x7x7x256_S1x7x7x256_153_0_0_0 : ∀ a, (![153, 0, 0, 0] : Fin 4 → Nat) a + S1x7x7x256.size a ≤ S160x7x7x256.size a
  inb_S160x7x7x256_S1x7x7x256_154_0_0_0 : ∀ a, (![154, 0, 0, 0] : Fin 4 → Nat) a + S1x7x7x256.size a ≤ S160x7x7x256.size a
  inb_S160x7x7x256_S1x7x7x256_155_0_0_0 : ∀ a, (![155, 0, 0, 0] : Fin 4 → Nat) a + S1x7x7x256.size a ≤ S160x7x7x256.size a
  inb_S160x7x7x256_S1x7x7x256_156_0_0_0 : ∀ a, (![156, 0, 0, 0] : Fin 4 → Nat) a + S1x7x7x256.size a ≤ S160x7x7x256.size a
  inb_S160x7x7x256_S1x7x7x256_157_0_0_0 : ∀ a, (![157, 0, 0, 0] : Fin 4 → Nat) a + S1x7x7x256.size a ≤ S160x7x7x256.size a
  inb_S160x7x7x256_S1x7x7x256_158_0_0_0 : ∀ a, (![158, 0, 0, 0] : Fin 4 → Nat) a + S1x7x7x256.size a ≤ S160x7x7x256.size a
  inb_S160x7x7x256_S1x7x7x256_159_0_0_0 : ∀ a, (![159, 0, 0, 0] : Fin 4 → Nat) a + S1x7x7x256.size a ≤ S160x7x7x256.size a
  shapeCasts_S8000x7x7x256_S1000x8x7x7x256 : S8000x7x7x256.ShapeCasts S1000x8x7x7x256
  hcc0_scratch0 : 2 + S8.numel ≤ 10
  hrank0 : 0 < grid0.rank
  k0_off1_inb : ∀ i : grid0.Coords, ∀ a, (k0_off1 i) a + S1x1.size a ≤ S2x1000.size a
  k0_off2_inb : ∀ i : grid0.Coords, ∀ a, (k0_off2 i) a + S1x1.size a ≤ S2x1000.size a
  k0_off11_inb : ∀ i : grid0.Coords, ∀ a, (k0_off11 i) a + S1x1.size a ≤ S2x1000.size a
  k0_off12_inb : ∀ i : grid0.Coords, ∀ a, (k0_off12 i) a + S1x1.size a ≤ S2x1000.size a
  k0_off21_inb : ∀ i : grid0.Coords, ∀ a, (k0_off21 i) a + S1x1.size a ≤ S2x1000.size a
  k0_off22_inb : ∀ i : grid0.Coords, ∀ a, (k0_off22 i) a + S1x1.size a ≤ S2x1000.size a
  k0_off31_inb : ∀ i : grid0.Coords, ∀ a, (k0_off31 i) a + S1x1.size a ≤ S2x1000.size a
  k0_off32_inb : ∀ i : grid0.Coords, ∀ a, (k0_off32 i) a + S1x1.size a ≤ S2x1000.size a
  k0_off41_inb : ∀ i : grid0.Coords, ∀ a, (k0_off41 i) a + S1x1.size a ≤ S2x1000.size a
  k0_off42_inb : ∀ i : grid0.Coords, ∀ a, (k0_off42 i) a + S1x1.size a ≤ S2x1000.size a
  k0_off51_inb : ∀ i : grid0.Coords, ∀ a, (k0_off51 i) a + S1x1.size a ≤ S2x1000.size a
  k0_off52_inb : ∀ i : grid0.Coords, ∀ a, (k0_off52 i) a + S1x1.size a ≤ S2x1000.size a
  k0_off61_inb : ∀ i : grid0.Coords, ∀ a, (k0_off61 i) a + S1x1.size a ≤ S2x1000.size a
  k0_off62_inb : ∀ i : grid0.Coords, ∀ a, (k0_off62 i) a + S1x1.size a ≤ S2x1000.size a
  k0_off71_inb : ∀ i : grid0.Coords, ∀ a, (k0_off71 i) a + S1x1.size a ≤ S2x1000.size a
  k0_off72_inb : ∀ i : grid0.Coords, ∀ a, (k0_off72 i) a + S1x1.size a ≤ S2x1000.size a
  k0_off81_inb : ∀ i : grid0.Coords, ∀ a, (k0_off81 i) a + S1x1.size a ≤ S2x1000.size a
  k0_off82_inb : ∀ i : grid0.Coords, ∀ a, (k0_off82 i) a + S1x1.size a ≤ S2x1000.size a
  k0_off91_inb : ∀ i : grid0.Coords, ∀ a, (k0_off91 i) a + S1x1.size a ≤ S2x1000.size a
  k0_off92_inb : ∀ i : grid0.Coords, ∀ a, (k0_off92 i) a + S1x1.size a ≤ S2x1000.size a
  k0_off101_inb : ∀ i : grid0.Coords, ∀ a, (k0_off101 i) a + S1x1.size a ≤ S2x1000.size a
  k0_off102_inb : ∀ i : grid0.Coords, ∀ a, (k0_off102 i) a + S1x1.size a ≤ S2x1000.size a
  k0_off111_inb : ∀ i : grid0.Coords, ∀ a, (k0_off111 i) a + S1x1.size a ≤ S2x1000.size a
  k0_off112_inb : ∀ i : grid0.Coords, ∀ a, (k0_off112 i) a + S1x1.size a ≤ S2x1000.size a
  k0_off121_inb : ∀ i : grid0.Coords, ∀ a, (k0_off121 i) a + S1x1.size a ≤ S2x1000.size a
  k0_off122_inb : ∀ i : grid0.Coords, ∀ a, (k0_off122 i) a + S1x1.size a ≤ S2x1000.size a
  k0_off131_inb : ∀ i : grid0.Coords, ∀ a, (k0_off131 i) a + S1x1.size a ≤ S2x1000.size a
  k0_off132_inb : ∀ i : grid0.Coords, ∀ a, (k0_off132 i) a + S1x1.size a ≤ S2x1000.size a
  k0_off141_inb : ∀ i : grid0.Coords, ∀ a, (k0_off141 i) a + S1x1.size a ≤ S2x1000.size a
  k0_off142_inb : ∀ i : grid0.Coords, ∀ a, (k0_off142 i) a + S1x1.size a ≤ S2x1000.size a
  k0_off151_inb : ∀ i : grid0.Coords, ∀ a, (k0_off151 i) a + S1x1.size a ≤ S2x1000.size a
  k0_off152_inb : ∀ i : grid0.Coords, ∀ a, (k0_off152 i) a + S1x1.size a ≤ S2x1000.size a
  k0_off161_inb : ∀ i : grid0.Coords, ∀ a, (k0_off161 i) a + S1x1.size a ≤ S2x1000.size a
  k0_off162_inb : ∀ i : grid0.Coords, ∀ a, (k0_off162 i) a + S1x1.size a ≤ S2x1000.size a
  k0_off171_inb : ∀ i : grid0.Coords, ∀ a, (k0_off171 i) a + S1x1.size a ≤ S2x1000.size a
  k0_off172_inb : ∀ i : grid0.Coords, ∀ a, (k0_off172 i) a + S1x1.size a ≤ S2x1000.size a
  k0_off181_inb : ∀ i : grid0.Coords, ∀ a, (k0_off181 i) a + S1x1.size a ≤ S2x1000.size a
  k0_off182_inb : ∀ i : grid0.Coords, ∀ a, (k0_off182 i) a + S1x1.size a ≤ S2x1000.size a
  k0_off191_inb : ∀ i : grid0.Coords, ∀ a, (k0_off191 i) a + S1x1.size a ≤ S2x1000.size a
  k0_off192_inb : ∀ i : grid0.Coords, ∀ a, (k0_off192 i) a + S1x1.size a ≤ S2x1000.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S160x7x7x256.size a ≤ S8000x7x7x256.size a
  hwx0_0 : ∀ i : grid0.Coords, EltTy.bits .f32 = 32 ∨ (Rect.block (s := S8000x7x7x256) S160x7x7x256.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v4) S160x7x7x256.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x64x64x256 : Shape := ⟨4, ![8, 64, 64, 256]⟩
abbrev S1000x4 : Shape := ⟨2, ![1000, 4]⟩
abbrev S1000x2 : Shape := ⟨2, ![1000, 2]⟩
abbrev S_ : Shape := ⟨0, ![]⟩
abbrev S1000x1 : Shape := ⟨2, ![1000, 1]⟩
abbrev S1000 : Shape := ⟨1, ![1000]⟩
abbrev S1000x8x7x7x256 : Shape := ⟨5, ![1000, 8, 7, 7, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S1000x4, .i32⟩
  | .hbm, ⟨2, _⟩ => ⟨S1000x2, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1000x2, .i32⟩
  | .hbm, ⟨7, _⟩ => ⟨S1000x2, .i32⟩
  | .hbm, ⟨8, _⟩ => ⟨S_, .i32⟩
  | .hbm, ⟨9, _⟩ => ⟨S1000x2, .i32⟩
  | .hbm, ⟨10, _⟩ => ⟨S1000x2, .i32⟩
  | .hbm, ⟨11, _⟩ => ⟨S1000x1, .i32⟩
  | .hbm, ⟨12, _⟩ => ⟨S1000, .i32⟩
  | .hbm, ⟨13, _⟩ => ⟨S1000x1, .i32⟩
  | .hbm, ⟨14, _⟩ => ⟨S1000, .i32⟩
  | .hbm, ⟨15, _⟩ => ⟨S_, .i32⟩
  | .hbm, ⟨16, _⟩ => ⟨S1000, .i32⟩
  | .hbm, ⟨17, _⟩ => ⟨S1000, .i1⟩
  | .hbm, ⟨18, _⟩ => ⟨S_, .i32⟩
  | .hbm, ⟨19, _⟩ => ⟨S1000, .i32⟩
  | .hbm, ⟨20, _⟩ => ⟨S1000, .i32⟩
  | .hbm, ⟨21, _⟩ => ⟨S1000, .i32⟩
  | .hbm, ⟨22, _⟩ => ⟨S_, .i32⟩
  | .hbm, ⟨23, _⟩ => ⟨S1000, .i32⟩
  | .hbm, ⟨24, _⟩ => ⟨S1000, .i1⟩
  | .hbm, ⟨25, _⟩ => ⟨S_, .i32⟩
  | .hbm, ⟨26, _⟩ => ⟨S1000, .i32⟩
  | .hbm, ⟨27, _⟩ => ⟨S1000, .i32⟩
  | .hbm, ⟨28, _⟩ => ⟨S1000, .i32⟩
  | .hbm, ⟨29, _⟩ => ⟨S_, .i32⟩
  | .hbm, ⟨30, _⟩ => ⟨S1000x1, .i32⟩
  | .hbm, ⟨31, _⟩ => ⟨S1000x1, .i32⟩
  | .hbm, ⟨32, _⟩ => ⟨S1000x1, .i32⟩
  | .hbm, ⟨33, _⟩ => ⟨S_, .i32⟩
  | .hbm, ⟨34, _⟩ => ⟨S1000x1, .i32⟩
  | .hbm, ⟨35, _⟩ => ⟨S1000x4, .i32⟩
  | .hbm, ⟨36, _⟩ => ⟨S1000x8x7x7x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  slices_S1000x4_S1000x2_0_0 : S1000x4.Slices ![0, 0] S1000x2
  bcast_S_S1000x2 : S_.BroadcastsInDim S1000x2 (![] : Fin 0 → Fin S1000x2.rank)
  slices_S1000x2_S1000x1_0_0 : S1000x2.Slices ![0, 0] S1000x1
  shapeCasts_S1000x1_S1000 : S1000x1.ShapeCasts S1000
  slices_S1000x2_S1000x1_0_1 : S1000x2.Slices ![0, 1] S1000x1
  bcast_S_S1000 : S_.BroadcastsInDim S1000 (![] : Fin 0 → Fin S1000.rank)
  bcast_S_S1000x1 : S_.BroadcastsInDim S1000x1 (![] : Fin 0 → Fin S1000x1.rank)
  bcast_S1000_S1000x1_0 : S1000.BroadcastsInDim S1000x1 (![0] : Fin 1 → Fin S1000x1.rank)
  concatenates_S1000x1_S1000x1_S1000x1_S1000x1_S1000x4_d1 : Shape.Concatenates [S1000x1, S1000x1, S1000x1, S1000x1] S1000x4 1
  gather_S8x64x64x256_S1000x4_S1000x8x7x7x256_1234_n_n_n_0123_1_877256_wf : GatherDims.WF S8x64x64x256 S1000x4 S1000x8x7x7x256 [1, 2, 3, 4] [] [] [0, 1, 2, 3] [] 1 ![8, 7, 7, 256]

variable [Facts₀]

def gather_S8x64x64x256_S1000x4_S1000x8x7x7x256_1234_n_n_n_0123_1_877256 : GatherDims S8x64x64x256 S1000x4 S1000x8x7x7x256 where
  offsetDims := [1, 2, 3, 4]
  collapsedSliceDims := []
  operandBatchingDims := []
  startIndicesBatchingDims := []
  startIndexMap := [0, 1, 2, 3]
  indexVectorDim := 1
  sliceSizes := ![8, 7, 7, 256]
  wf := gather_S8x64x64x256_S1000x4_S1000x8x7x7x256_1234_n_n_n_0123_1_877256_wf

class Facts : Prop extends Facts₀ where

variable [Facts]
-- ==== Proof.IdealSetup.lean ====
/-
  The program around its one kernel launch, for the frame run of the RoI crop: the host lines before the launch clamp the
  box starts into [0, 57], transpose them into the (2, 1000) table the kernel reads from scalar memory, and transpose the
  feature map to (H, W, B, C); the launch runs 50 grid points; one host line after it reshapes the (8000, 7, 7, 256)
  result. Here: the buffers' contents when the launch is entered (the host lines applied to the launch memory), the
  reduction of the program to "launch, then the reshape", the table as the kernel is handed it, the eight transfer
  semaphores the kernel owns, and the one array it reads by its own transfers (the transposed feature map).
-/
import proofs.«420386_j26250840113278_3_alg».proof.Proof.Gen.KernelIdeal.Launch
import proofs.«420386_j26250840113278_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the launch -/

/-- Core `c`'s buffer contents when the launch is entered: the launch memory after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the launch continued by the reshape, at the contents after the earlier host lines. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The table of box starts -/

/-- The table's contents when the launch is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table as admissible contents (the launch asks nothing of it: no window's index map reads it). -/
abbrev adm : (pcfg0 (F := F)).Adm := ⟨tbl m, trivial⟩
abbrev cfgM : Pipeline.Cfg sig Λ₀ := cfg0 (adm m)

/-- The table as the body is handed it: its whole buffer in scalar memory. -/
abbrev tbM : Memref sig .tc .smem S2x1000 .i32 := Memref.whole main_v2
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## What the kernel moves by itself -/

/-- The transposed feature map, left in HBM and read by the kernel's own transfers. -/
abbrev hbM : Memref sig .tc .hbm S64x64x8x256 .f32 := Memref.whole main_v3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's eight transfer semaphores, one per batch entry. -/
abbrev osem : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 2) 0 ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem [0, 1, 2, 3, 4, 5, 6, 7] (by decide) (by decide)]; rfl

def H0 : Finset (Ref sig .tc) := {main_v3}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(hbPt c hbM (V m c main_v3)) := by
  rw [BI.bigSep_eq_bigSepL_of_eq [main_v3] (by decide) (by decide)]; rfl

/-- The invariant the kernel body works under, conjunct by conjunct: the generator register, the eight semaphores at
    zero, the transposed feature map at its contents. -/
theorem PhiD_eq (c : Dev nD) :
    (Pipeline.ΦD osem spec0 H0 (V m) c : sProp 𝕄)
      = iprop((BI.emp : sProp 𝕄) ∗ (∃ r, prngReg c r)
          ∗ iprop(semVal ((c : Thread nD τ), SemLoc.dma 2) 0 ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) ∗ iprop(hbPt c hbM (V m c main_v3))) := by
  rw [Pipeline.ΦD_eq, scopedRest0_eq, ownSems_eq, hbmPts_eq]

/-! ## The staging buffer of the one (output) window, and the body at a point -/

abbrev ms (t : Fin (cfgM m).N) : Memref sig .tc .vmem S160x7x7x256 .f32 := spec0_0.stage ((cfgM m).slots t 0)
abbrev hs (t : Fin (cfgM m).N) : (ms m t).IsWhole := hstage0_0 (((cfgM m).slots t 0).cast nbuf0_0)

/-- The kernel body at point `t`, on what the pipeline calls it with. -/
abbrev bodyAt (t : Fin (cfgM m).N) : Prog (TpuEff nD τ sig (Elt F) Λ₀ .tc) PUnit :=
  cc0__roi_kernel (grid0.coords t) (Memref.whole main_v2) (Memref.isWhole_whole _) (Memref.whole main_v3) (Memref.isWhole_whole _)
    (ms m t) (hs m t) cc0_scratch0

/-! ## The host line after the launch -/

/-- The reshape after the launch touches the result array and its own result only: not the table, not the feature map. -/
theorem sfx_sub : ∀ ops ∈ ([hostOps1] : List (List (HloOp τ sig (Elt F)))), ∀ op ∈ ops,
    op.bufs ⊆ Pipeline.tailRefsBut sig pre0 spec0 H0 := by
  intro ops hops op hop
  obtain rfl : ops = hostOps1 := by simpa using hops
  obtain rfl := List.mem_singleton.mp hop
  refine Pipeline.sub_tailRefsBut pre0 spec0 H0 _ (StableHlo.reshape_bufs_sub ..) ?_ ?_
  · intro k; fin_cases k
    rw [StableHlo.reshape_bufs]; simp only [Finset.mem_insert, Finset.mem_singleton, not_or]
    exact ⟨StableHlo.devRef_ne_of_ne (by decide), StableHlo.devRef_ne_of_ne (by decide)⟩
  · intro b hb
    obtain rfl : b = main_v3 := by simpa [H0] using hb
    rw [StableHlo.reshape_bufs]; simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  obtain rfl : ops = hostOps1 := by simpa using hops
  obtain rfl := List.mem_singleton.mp hop
  rfl
theorem sfx_keep : ∀ ops ∈ ([hostOps1] : List (List (HloOp τ sig (Elt F)))), ∀ op ∈ ops, ∀ w,
    Proc.devRef .tc (Pipeline.arrRef (cfgM m).spec w) ∉ op.writes := by
  intro ops hops op hop w
  obtain rfl : ops = hostOps1 := by simpa using hops
  obtain rfl := List.mem_singleton.mp hop
  fin_cases w
  rw [StableHlo.reshape_writes, Finset.mem_singleton]
  exact StableHlo.devRef_ne_of_ne (show Pipeline.arrRef spec0 (0 : Fin 1) ≠ main_v5 by decide)

end Cert.KernelIdeal.Roi

end
-- ==== Proof.IdealRun.lean ====
/-
  One grid point of the RoI-crop kernel, run on symbolic operands. The body is straight-line: for each of the 20 boxes
  of the point it reads the box's two start words from the table, and then starts eight copies — one per batch entry b,
  each of the 7×7×256 window of the transposed feature map at (start₀, start₁, b) into row 8·box + b of the output
  block — on eight semaphores, and waits for the eight before it goes on. Each copy lends its source window and its
  destination row until its wait; no two copies in flight share a row or a semaphore. What the run finds is how the
  block's contents end up as a function `g` of what they were: 160 rows written one after the other.
  The side conditions the body assumes of the words it read (each start + 7 ≤ 64) are hypotheses here.
-/
import proofs.«420386_j26250840113278_3_alg».proof.Proof.IdealSetup

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The block's contents after the body as a function of its contents before, WITH the run: from the block held whole,
    half the table, the eight semaphores at zero, the transposed feature map and the core's waits, the body runs to the
    continuation with the same held again, the block at the written contents, the waits recorded. -/
noncomputable def kernelRun (c : Dev nD) (i : grid0.Coords) (arg3 : Memref sig .tc .vmem S160x7x7x256 .f32) (harg3 : arg3.IsWhole)
    (tb : TbBuf (F := F) c tbM) (fh : HbBuf (F := F) c hbM)
    (hw1 : k0_chk1 (tbM.view.readAt (Elt F) (Rect.unit (s := S2x1000) (k0_off1 i) S1x1.size (k0_off1_inb i)).toLoadRect tb (Shape.Idx.first (numel1_S1x1.symm ▸ Nat.one_pos)))
      (tbM.view.readAt (Elt F) (Rect.unit (s := S2x1000) (k0_off2 i) S1x1.size (k0_off2_inb i)).toLoadRect tb (Shape.Idx.first (numel1_S1x1.symm ▸ Nat.one_pos))))
    (hw2 : k0_chk2 (tbM.view.readAt (Elt F) (Rect.unit (s := S2x1000) (k0_off11 i) S1x1.size (k0_off11_inb i)).toLoadRect tb (Shape.Idx.first (numel1_S1x1.symm ▸ Nat.one_pos)))
      (tbM.view.readAt (Elt F) (Rect.unit (s := S2x1000) (k0_off12 i) S1x1.size (k0_off12_inb i)).toLoadRect tb (Shape.Idx.first (numel1_S1x1.symm ▸ Nat.one_pos))))
    (hw3 : k0_chk3 (tbM.view.readAt (Elt F) (Rect.unit (s := S2x1000) (k0_off21 i) S1x1.size (k0_off21_inb i)).toLoadRect tb (Shape.Idx.first (numel1_S1x1.symm ▸ Nat.one_pos)))
      (tbM.view.readAt (Elt F) (Rect.unit (s := S2x1000) (k0_off22 i) S1x1.size (k0_off22_inb i)).toLoadRect tb (Shape.Idx.first (numel1_S1x1.symm ▸ Nat.one_pos))))
    (hw4 : k0_chk4 (tbM.view.readAt (Elt F) (Rect.unit (s := S2x1000) (k0_off31 i) S1x1.size (k0_off31_inb i)).toLoadRect tb (Shape.Idx.first (numel1_S1x1.symm ▸ Nat.one_pos)))
      (tbM.view.readAt (Elt F) (Rect.unit (s := S2x1000) (k0_off32 i) S1x1.size (k0_off32_inb i)).toLoadRect tb (Shape.Idx.first (numel1_S1x1.symm ▸ Nat.one_pos))))
    (hw5 : k0_chk5 (tbM.view.readAt (Elt F) (Rect.unit (s := S2x1000) (k0_off41 i) S1x1.size (k0_off41_inb i)).toLoadRect tb (Shape.Idx.first (numel1_S1x1.symm ▸ Nat.one_pos)))
      (tbM.view.readAt (Elt F) (Rect.unit (s := S2x1000) (k0_off42 i) S1x1.size (k0_off42_inb i)).toLoadRect tb (Shape.Idx.first (numel1_S1x1.symm ▸ Nat.one_pos))))
    (hw6 : k0_chk6 (tbM.view.readAt (Elt F) (Rect.unit (s := S2x1000) (k0_off51 i) S1x1.size (k0_off51_inb i)).toLoadRect tb (Shape.Idx.first (numel1_S1x1.symm ▸ Nat.one_pos)))
      (tbM.view.readAt (Elt F) (Rect.unit (s := S2x1000) (k0_off52 i) S1x1.size (k0_off52_inb i)).toLoadRect tb (Shape.Idx.first (numel1_S1x1.symm ▸ Nat.one_pos))))
    (hw7 : k0_chk7 (tbM.view.readAt (Elt F) (Rect.unit (s := S2x1000) (k0_off61 i) S1x1.size (k0_off61_inb i)).toLoadRect tb (Shape.Idx.first (numel1_S1x1.symm ▸ Nat.one_pos)))
      (tbM.view.readAt (Elt F) (Rect.unit (s := S2x1000) (k0_off62 i) S1x1.size (k0_off62_inb i)).toLoadRect tb (Shape.Idx.first (numel1_S1x1.symm ▸ Nat.one_pos))))
    (hw8 : k0_chk8 (tbM.view.readAt (Elt F) (Rect.unit (s := S2x1000) (k0_off71 i) S1x1.size (k0_off71_inb i)).toLoadRect tb (Shape.Idx.first (numel1_S1x1.symm ▸ Nat.one_pos)))
      (tbM.view.readAt (Elt F) (Rect.unit (s := S2x1000) (k0_off72 i) S1x1.size (k0_off72_inb i)).toLoadRect tb (Shape.Idx.first (numel1_S1x1.symm ▸ Nat.one_pos))))
    (hw9 : k0_chk9 (tbM.view.readAt (Elt F) (Rect.unit (s := S2x1000) (k0_off81 i) S1x1.size (k0_off81_inb i)).toLoadRect tb (Shape.Idx.first (numel1_S1x1.symm ▸ Nat.one_pos)))
      (tbM.view.readAt (Elt F) (Rect.unit (s := S2x1000) (k0_off82 i) S1x1.size (k0_off82_inb i)).toLoadRect tb (Shape.Idx.first (numel1_S1x1.symm ▸ Nat.one_pos))))
    (hw10 : k0_chk10 (tbM.view.readAt (Elt F) (Rect.unit (s := S2x1000) (k0_off91 i) S1x1.size (k0_off91_inb i)).toLoadRect tb (Shape.Idx.first (numel1_S1x1.symm ▸ Nat.one_pos)))
      (tbM.view.readAt (Elt F) (Rect.unit (s := S2x1000) (k0_off92 i) S1x1.size (k0_off92_inb i)).toLoadRect tb (Shape.Idx.first (numel1_S1x1.symm ▸ Nat.one_pos))))
    (hw11 : k0_chk11 (tbM.view.readAt (Elt F) (Rect.unit (s := S2x1000) (k0_off101 i) S1x1.size (k0_off101_inb i)).toLoadRect tb (Shape.Idx.first (numel1_S1x1.symm ▸ Nat.one_pos)))
      (tbM.view.readAt (Elt F) (Rect.unit (s := S2x1000) (k0_off102 i) S1x1.size (k0_off102_inb i)).toLoadRect tb (Shape.Idx.first (numel1_S1x1.symm ▸ Nat.one_pos))))
    (hw12 : k0_chk12 (tbM.view.readAt (Elt F) (Rect.unit (s := S2x1000) (k0_off111 i) S1x1.size (k0_off111_inb i)).toLoadRect tb (Shape.Idx.first (numel1_S1x1.symm ▸ Nat.one_pos)))
      (tbM.view.readAt (Elt F) (Rect.unit (s := S2x1000) (k0_off112 i) S1x1.size (k0_off112_inb i)).toLoadRect tb (Shape.Idx.first (numel1_S1x1.symm ▸ Nat.one_pos))))
    (hw13 : k0_chk13 (tbM.view.readAt (Elt F) (Rect.unit (s := S2x1000) (k0_off121 i) S1x1.size (k0_off121_inb i)).toLoadRect tb (Shape.Idx.first (numel1_S1x1.symm ▸ Nat.one_pos)))
      (tbM.view.readAt (Elt F) (Rect.unit (s := S2x1000) (k0_off122 i) S1x1.size (k0_off122_inb i)).toLoadRect tb (Shape.Idx.first (numel1_S1x1.symm ▸ Nat.one_pos))))
    (hw14 : k0_chk14 (tbM.view.readAt (Elt F) (Rect.unit (s := S2x1000) (k0_off131 i) S1x1.size (k0_off131_inb i)).toLoadRect tb (Shape.Idx.first (numel1_S1x1.symm ▸ Nat.one_pos)))
      (tbM.view.readAt (Elt F) (Rect.unit (s := S2x1000) (k0_off132 i) S1x1.size (k0_off132_inb i)).toLoadRect tb (Shape.Idx.first (numel1_S1x1.symm ▸ Nat.one_pos))))
    (hw15 : k0_chk15 (tbM.view.readAt (Elt F) (Rect.unit (s := S2x1000) (k0_off141 i) S1x1.size (k0_off141_inb i)).toLoadRect tb (Shape.Idx.first (numel1_S1x1.symm ▸ Nat.one_pos)))
      (tbM.view.readAt (Elt F) (Rect.unit (s := S2x1000) (k0_off142 i) S1x1.size (k0_off142_inb i)).toLoadRect tb (Shape.Idx.first (numel1_S1x1.symm ▸ Nat.one_pos))))
    (hw16 : k0_chk16 (tbM.view.readAt (Elt F) (Rect.unit (s := S2x1000) (k0_off151 i) S1x1.size (k0_off151_inb i)).toLoadRect tb (Shape.Idx.first (numel1_S1x1.symm ▸ Nat.one_pos)))
      (tbM.view.readAt (Elt F) (Rect.unit (s := S2x1000) (k0_off152 i) S1x1.size (k0_off152_inb i)).toLoadRect tb (Shape.Idx.first (numel1_S1x1.symm ▸ Nat.one_pos))))
    (hw17 : k0_chk17 (tbM.view.readAt (Elt F) (Rect.unit (s := S2x1000) (k0_off161 i) S1x1.size (k0_off161_inb i)).toLoadRect tb (Shape.Idx.first (numel1_S1x1.symm ▸ Nat.one_pos)))
      (tbM.view.readAt (Elt F) (Rect.unit (s := S2x1000) (k0_off162 i) S1x1.size (k0_off162_inb i)).toLoadRect tb (Shape.Idx.first (numel1_S1x1.symm ▸ Nat.one_pos))))
    (hw18 : k0_chk18 (tbM.view.readAt (Elt F) (Rect.unit (s := S2x1000) (k0_off171 i) S1x1.size (k0_off171_inb i)).toLoadRect tb (Shape.Idx.first (numel1_S1x1.symm ▸ Nat.one_pos)))
      (tbM.view.readAt (Elt F) (Rect.unit (s := S2x1000) (k0_off172 i) S1x1.size (k0_off172_inb i)).toLoadRect tb (Shape.Idx.first (numel1_S1x1.symm ▸ Nat.one_pos))))
    (hw19 : k0_chk19 (tbM.view.readAt (Elt F) (Rect.unit (s := S2x1000) (k0_off181 i) S1x1.size (k0_off181_inb i)).toLoadRect tb (Shape.Idx.first (numel1_S1x1.symm ▸ Nat.one_pos)))
      (tbM.view.readAt (Elt F) (Rect.unit (s := S2x1000) (k0_off182 i) S1x1.size (k0_off182_inb i)).toLoadRect tb (Shape.Idx.first (numel1_S1x1.symm ▸ Nat.one_pos))))
    (hw20 : k0_chk20 (tbM.view.readAt (Elt F) (Rect.unit (s := S2x1000) (k0_off191 i) S1x1.size (k0_off191_inb i)).toLoadRect tb (Shape.Idx.first (numel1_S1x1.symm ▸ Nat.one_pos)))
      (tbM.view.readAt (Elt F) (Rect.unit (s := S2x1000) (k0_off192 i) S1x1.size (k0_off192_inb i)).toLoadRect tb (Shape.Idx.first (numel1_S1x1.symm ▸ Nat.one_pos)))) :
    { g : BufTy.Contents (Elt F) arg3.view.ty → BufTy.Contents (Elt F) arg3.view.ty //
      ∀ (W : Waits sig Unit) (K : PUnit → sProp 𝕄) (f : BufTy.Contents (Elt F) arg3.view.ty),
        iprop((arg3.view.loc (c : Thread nD τ) ↦[arg3.view.set]{fullShare} f) ∗ tbPt c tbM tb
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ hbPt c hbM fh ∗ owes (c : Thread nD τ) 0 W
            ∗ (iprop((arg3.view.loc (c : Thread nD τ) ↦[arg3.view.set]{fullShare} g f) ∗ tbPt c tbM tb
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ hbPt c hbM fh ∗ (∃ W', owes (c : Thread nD τ) 0 W')) -∗ K ⟨⟩))
          ⊢ wp frame (wpE (defs₀ (F := F)) Variants.none c none) Set.univ
              (cc0__roi_kernel i tbM (Memref.isWhole_whole _) hbM (Memref.isWhole_whole _) arg3 harg3 cc0_scratch0) K } := by
  refine ⟨?_, fun W K f => ?run⟩
  case run =>
    simp only [cc0__roi_kernel_eq_skeleton]; unfold cc0__roi_kernel_skel
    iintro ⟨H1, HT, Hq2, Hq3, Hq4, Hq5, Hq6, Hq7, Hq8, Hq9, Hh, HW, Hk⟩
    sl_exec_parts (disch := first | sl_exact hw1 | sl_exact hw2 | sl_exact hw3 | sl_exact hw4 | sl_exact hw5 | sl_exact hw6 | sl_exact hw7 | sl_exact hw8 | sl_exact hw9 | sl_exact hw10 | sl_exact hw11 | sl_exact hw12 | sl_exact hw13 | sl_exact hw14 | sl_exact hw15 | sl_exact hw16 | sl_exact hw17 | sl_exact hw18 | sl_exact hw19 | sl_exact hw20)
    sl_step
    iapply Hk
    isplitl [H1]; · iexact H1
    isplitl [HT]; · iexact HT
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh]; · iexact Hh
    iexists _; iexact HW

end Cert.KernelIdeal.Roi

end
-- ==== Proof.IdealLayers.lean ====
/-
  The output block as 160 rows written one after the other. Row r of the (160, 7, 7, 256) block is the slice at
  (r, 0, 0, 0) of extent (1, 7, 7, 256) with its unit axis dropped; the copy into row r = 8·k + b brings the 7×7×256
  window of the transposed feature map that starts at (w₀, w₁, b, 0), where w₀, w₁ are the two table words of box k of
  the grid point. Writing row r changes the block exactly on the indices whose first coordinate is r; so after the 160
  writes the block read at (r, h, w, c) is the feature map at (w₀ + h, w₁ + w, b, c), whatever the block held before.
-/
import proofs.«420386_j26250840113278_3_alg».proof.Proof.IdealSetup

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-! ## The rows of the block -/

theorem row_inb (r : ℕ) (h : r < 160) : ∀ a, (![r, 0, 0, 0] : Fin 4 → ℕ) a + S1x7x7x256.size a ≤ S160x7x7x256.size a := by
  intro a; fin_cases a
  · show r + 1 ≤ 160; omega
  · show 0 + 7 ≤ 7; omega
  · show 0 + 7 ≤ 7; omega
  · show 0 + 256 ≤ 256; omega

/-- Row `r` of the block as the body names it. -/
abbrev dstM (arg3 : Memref sig .tc .vmem S160x7x7x256 .f32) (r : Fin 160) : Memref sig .tc .vmem S7x7x256 .f32 :=
  (arg3.slice (Rect.unit (s := S160x7x7x256) ![r.val, 0, 0, 0] S1x7x7x256.size (row_inb r.val r.isLt)) (fun _ => rfl)).squeeze
    S7x7x256 squeezes_S1x7x7x256_S7x7x256

/-- The block's contents after `p` is written into row `r`. -/
abbrev rowW (arg3 : Memref sig .tc .vmem S160x7x7x256 .f32) (r : Fin 160) (acc : BufTy.Contents (Elt F) arg3.view.ty)
    (p : S7x7x256.Idx → Elt F .f32) : BufTy.Contents (Elt F) arg3.view.ty :=
  View.write (Elt F) (dstM arg3 r).view acc p Finset.univ

/-- Rows 0 … n−1 written in that order over `f`, row `r` with `pay r`. -/
def rowsUpTo (arg3 : Memref sig .tc .vmem S160x7x7x256 .f32) (pay : Fin 160 → S7x7x256.Idx → Elt F .f32)
    (f : BufTy.Contents (Elt F) arg3.view.ty) : (n : ℕ) → n ≤ 160 → BufTy.Contents (Elt F) arg3.view.ty
  | 0, _ => f
  | n + 1, h => rowW arg3 ⟨n, h⟩ (rowsUpTo arg3 pay f n (Nat.le_of_succ_le h)) (pay ⟨n, h⟩)

/-- The last three coordinates of a block index. -/
def tl3 (y : S160x7x7x256.Idx) : S7x7x256.Idx := fun a => match a with
  | ⟨0, _⟩ => ⟨(y 1).val, (y 1).isLt⟩
  | ⟨1, _⟩ => ⟨(y 2).val, (y 2).isLt⟩
  | ⟨2, _⟩ => ⟨(y 3).val, (y 3).isLt⟩

/-- Row `r` of the block, the row number a plain natural number. -/
abbrev dstM' (arg3 : Memref sig .tc .vmem S160x7x7x256 .f32) (r : ℕ) (hr : ∀ a, (![r, 0, 0, 0] : Fin 4 → ℕ) a + S1x7x7x256.size a ≤ S160x7x7x256.size a) : Memref sig .tc .vmem S7x7x256 .f32 :=
  (arg3.slice (Rect.unit (s := S160x7x7x256) ![r, 0, 0, 0] S1x7x7x256.size hr) (fun _ => rfl)).squeeze S7x7x256 squeezes_S1x7x7x256_S7x7x256

/-- The block index (r, z₀, z₁, z₂). -/
def rowIdx (r : ℕ) (hr : r < 160) (z : S7x7x256.Idx) : S160x7x7x256.Idx := fun a => match a with
  | ⟨0, _⟩ => ⟨r, hr⟩
  | ⟨1, _⟩ => ⟨(z 0).val, (z 0).isLt⟩
  | ⟨2, _⟩ => ⟨(z 1).val, (z 1).isLt⟩
  | ⟨3, _⟩ => ⟨(z 2).val, (z 2).isLt⟩

/-- Element z of row `r` is the block's element (r, z₀, z₁, z₂): dropping the leading unit axis puts the coordinate 0
    in front of z, and the slice adds the offsets (r, 0, 0, 0). -/
theorem emb_dstM' (arg3 : Memref sig .tc .vmem S160x7x7x256 .f32) (r : ℕ)
    (hr : ∀ a, (![r, 0, 0, 0] : Fin 4 → ℕ) a + S1x7x7x256.size a ≤ S160x7x7x256.size a) (z : S7x7x256.Idx) :
    (dstM' arg3 r hr).view.emb z = arg3.view.emb (rowIdx r (by have := hr 0; exact this) z) := by
  show arg3.view.emb ((Rect.unit (s := S160x7x7x256) ![r, 0, 0, 0] S1x7x7x256.size hr).emb
    (Shape.reshapeEquiv squeezes_S1x7x7x256_S7x7x256.numel_eq z)) = _
  congr 1
  have e : Shape.reshapeEquiv squeezes_S1x7x7x256_S7x7x256.numel_eq z = Fin.cons ⟨0, Nat.one_pos⟩ z :=
    Shape.reshapeEquiv_cons_one (n := 3) (d := ![7, 7, 256]) squeezes_S1x7x7x256_S7x7x256.numel_eq z
  rw [e]
  funext a
  apply Fin.ext
  rw [Rect.emb_apply]
  match a with
  | ⟨0, _⟩ => show r + 1 * 0 = r; omega
  | ⟨1, _⟩ => show 0 + 1 * (z 0).val = (z 0).val; omega
  | ⟨2, _⟩ => show 0 + 1 * (z 1).val = (z 1).val; omega
  | ⟨3, _⟩ => show 0 + 1 * (z 2).val = (z 2).val; omega

/-- Writing row `r` (a plain natural number) changes the block exactly where the first coordinate is `r`: an index
    with first coordinate `r` is the row's element at its last three coordinates and reads the payload there; any other
    index is no element of the row (the block's placement is injective) and keeps its value. -/
theorem read_write_row (arg3 : Memref sig .tc .vmem S160x7x7x256 .f32) (harg3 : arg3.IsWhole) (r : ℕ) (hr : ∀ a, (![r, 0, 0, 0] : Fin 4 → ℕ) a + S1x7x7x256.size a ≤ S160x7x7x256.size a) (acc : BufTy.Contents (Elt F) arg3.view.ty) (p : S7x7x256.Idx → Elt F .f32) (y : S160x7x7x256.Idx) :
    arg3.view.read (Elt F) (View.write (Elt F) (dstM' arg3 r hr).view acc p Finset.univ) y = if (y 0).val = r then p (tl3 y) else arg3.view.read (Elt F) acc y := by
  have hr0 : r < 160 := by have := hr 0; exact this
  by_cases hy : (y 0).val = r
  · rw [if_pos hy]
    have ey : rowIdx r hr0 (tl3 y) = y := by
      funext a; apply Fin.ext
      match a with
      | ⟨0, _⟩ => exact hy.symm
      | ⟨1, _⟩ => rfl
      | ⟨2, _⟩ => rfl
      | ⟨3, _⟩ => rfl
    have e := emb_dstM' arg3 r hr (tl3 y)
    rw [ey] at e
    rw [View.read_apply, ← e, View.write_emb_of_mem _ _ (Finset.mem_univ _), cast_cast, cast_eq]
  · rw [if_neg hy, View.read_apply, View.read_apply, View.write_of_not_mem]
    intro hm
    obtain ⟨z, -, hz⟩ := Finset.mem_map.mp hm
    rw [emb_dstM'] at hz
    have e := arg3.view.emb.injective hz
    apply hy; rw [← e]; rfl

/-- Writing row `r` changes the block exactly where the first coordinate is `r`. -/
theorem read_rowW (arg3 : Memref sig .tc .vmem S160x7x7x256 .f32) (harg3 : arg3.IsWhole) (r : Fin 160)
    (acc : BufTy.Contents (Elt F) arg3.view.ty) (p : S7x7x256.Idx → Elt F .f32) (y : S160x7x7x256.Idx) :
    arg3.view.read (Elt F) (rowW arg3 r acc p) y = if (y 0).val = r.val then p (tl3 y) else arg3.view.read (Elt F) acc y :=
  read_write_row arg3 harg3 r.val (row_inb r.val r.isLt) acc p y

/-- After rows 0 … n−1 the block reads `pay` on those rows and is unchanged on the others. -/
theorem read_rowsUpTo (arg3 : Memref sig .tc .vmem S160x7x7x256 .f32) (harg3 : arg3.IsWhole) (pay : Fin 160 → S7x7x256.Idx → Elt F .f32)
    (f : BufTy.Contents (Elt F) arg3.view.ty) (n : ℕ) (h : n ≤ 160) (y : S160x7x7x256.Idx) :
    arg3.view.read (Elt F) (rowsUpTo arg3 pay f n h) y
      = if (y 0).val < n then pay ⟨(y 0).val, (y 0).isLt⟩ (tl3 y) else arg3.view.read (Elt F) f y := by
  induction n with
  | zero =>
    show arg3.view.read (Elt F) f y = _
    rw [if_neg (Nat.not_lt_zero _)]
  | succ n ih =>
    show arg3.view.read (Elt F) (rowW arg3 ⟨n, h⟩ (rowsUpTo arg3 pay f n (Nat.le_of_succ_le h)) (pay ⟨n, h⟩)) y = _
    rw [read_rowW arg3 harg3, ih (Nat.le_of_succ_le h)]
    by_cases h1 : (y 0).val = n
    · have e : (⟨n, h⟩ : Fin 160) = ⟨(y 0).val, (y 0).isLt⟩ := Fin.ext h1.symm
      rw [if_pos h1, if_pos (show (y 0).val < n + 1 by omega), e]
    · rw [if_neg h1]
      by_cases h2 : (y 0).val < n
      · rw [if_pos h2, if_pos (show (y 0).val < n + 1 by omega)]
      · rw [if_neg h2, if_neg (show ¬ (y 0).val < n + 1 by omega)]

/-- After all 160 rows the block is `pay`, whatever it held. -/
theorem read_rows_all (arg3 : Memref sig .tc .vmem S160x7x7x256 .f32) (harg3 : arg3.IsWhole) (pay : Fin 160 → S7x7x256.Idx → Elt F .f32)
    (f : BufTy.Contents (Elt F) arg3.view.ty) (y : S160x7x7x256.Idx) :
    arg3.view.read (Elt F) (rowsUpTo arg3 pay f 160 (Nat.le_refl _)) y = pay ⟨(y 0).val, (y 0).isLt⟩ (tl3 y) := by
  rw [read_rowsUpTo arg3 harg3 pay f 160 (Nat.le_refl _) y]
  exact if_pos (show (y 0).val < 160 from (y 0).isLt)

/-! ## The windows of the transposed feature map -/

theorem src_inb (x y : BitVec 32) (b : ℕ) (hx : x.toNat ≤ 57) (hy : y.toNat ≤ 57) (hb : b < 8) :
    ∀ a, (![x.toNat, y.toNat, b, 0] : Fin 4 → ℕ) a + S7x7x1x256.size a ≤ S64x64x8x256.size a := by
  intro a; fin_cases a
  · show x.toNat + 7 ≤ 64; omega
  · show y.toNat + 7 ≤ 64; omega
  · show b + 1 ≤ 8; omega
  · show 0 + 256 ≤ 256; omega

/-- The window starting at (x, y, b, 0), of extent (7, 7, 1, 256) with its unit axis dropped, as the body names it. -/
abbrev srcM (x y : BitVec 32) (b : ℕ) (h : ∀ a, (![x.toNat, y.toNat, b, 0] : Fin 4 → ℕ) a + S7x7x1x256.size a ≤ S64x64x8x256.size a) :
    Memref sig .tc .hbm S7x7x256 .f32 :=
  (hbM.slice (Rect.unit (s := S64x64x8x256) ![x.toNat, y.toNat, b, 0] S7x7x1x256.size h) (fun _ => rfl)).squeeze
    S7x7x256 squeezes_S7x7x1x256_S7x7x256

/-- The index (x + z₀, y + z₁, b, z₂) of the transposed feature map. -/
def srcIdx (x y b : ℕ) (z : S7x7x256.Idx) : S64x64x8x256.Idx := fun a => match a with
  | ⟨0, _⟩ => ⟨(x + (z 0).val) % 64, Nat.mod_lt _ (by decide)⟩
  | ⟨1, _⟩ => ⟨(y + (z 1).val) % 64, Nat.mod_lt _ (by decide)⟩
  | ⟨2, _⟩ => ⟨b % 8, Nat.mod_lt _ (by decide)⟩
  | ⟨3, _⟩ => ⟨(z 2).val, (z 2).isLt⟩

/-- The window index (z₀, z₁, 0, z₂). -/
def winIdx (z : S7x7x256.Idx) : S7x7x1x256.Idx := fun a => match a with
  | ⟨0, _⟩ => ⟨(z 0).val, (z 0).isLt⟩
  | ⟨1, _⟩ => ⟨(z 1).val, (z 1).isLt⟩
  | ⟨2, _⟩ => ⟨0, Nat.one_pos⟩
  | ⟨3, _⟩ => ⟨(z 2).val, (z 2).isLt⟩

/-- Dropping the unit axis matches z with (z₀, z₁, 0, z₂): both sit at row-major position (7·z₀ + z₁)·256 + z₂. -/
theorem reshape_win (z : S7x7x256.Idx) :
    Shape.reshapeEquiv squeezes_S7x7x1x256_S7x7x256.numel_eq z = winIdx z := by
  apply Shape.reshapeEquiv_eq_of_rowMajor
  rw [Shape.rowMajor_val_four, Shape.rowMajor_val_three]
  show (((z 0).val * 7 + (z 1).val) * 1 + 0) * 256 + (z 2).val = ((z 0).val * 7 + (z 1).val) * 256 + (z 2).val
  omega

/-- Element z of the window is the map's element (x + z₀, y + z₁, b, z₂); in bounds the sums are below their extents,
    so the remainders are the sums themselves. -/
theorem emb_srcM (x y : BitVec 32) (b : ℕ)
    (h : ∀ a, (![x.toNat, y.toNat, b, 0] : Fin 4 → ℕ) a + S7x7x1x256.size a ≤ S64x64x8x256.size a) (z : S7x7x256.Idx) :
    (srcM x y b h).view.emb z = srcIdx x.toNat y.toNat b z := by
  show (Rect.unit (s := S64x64x8x256) ![x.toNat, y.toNat, b, 0] S7x7x1x256.size h).emb
    (Shape.reshapeEquiv squeezes_S7x7x1x256_S7x7x256.numel_eq z) = _
  rw [reshape_win]
  funext a; apply Fin.ext; rw [Rect.emb_apply]
  have h0 : x.toNat + 7 ≤ 64 := h 0
  have h1 : y.toNat + 7 ≤ 64 := h 1
  have h2 : b + 1 ≤ 8 := h 2
  have z0 : (z 0).val < 7 := (z 0).isLt
  have z1 : (z 1).val < 7 := (z 1).isLt
  match a with
  | ⟨0, _⟩ => show x.toNat + 1 * (z 0).val = (x.toNat + (z 0).val) % 64; omega
  | ⟨1, _⟩ => show y.toNat + 1 * (z 1).val = (y.toNat + (z 1).val) % 64; omega
  | ⟨2, _⟩ => show b + 1 * 0 = b % 8; omega
  | ⟨3, _⟩ => show 0 + 1 * (z 2).val = (z 2).val; omega

/-- What a copy out of that window moves: the map's entries at (x + z₀, y + z₁, b, z₂). -/
theorem read_srcM (c : Dev nD) (fh : HbBuf (F := F) c hbM) (x y : BitVec 32) (b : ℕ)
    (h : ∀ a, (![x.toNat, y.toNat, b, 0] : Fin 4 → ℕ) a + S7x7x1x256.size a ≤ S64x64x8x256.size a) (z : S7x7x256.Idx) :
    ReadAs.same.apply ((srcM x y b h).view.read (Elt F) fh) z = fh (srcIdx x.toNat y.toNat b z) := by
  show (srcM x y b h).view.read (Elt F) fh z = _
  rw [View.read_apply, emb_srcM]
  rfl

end Cert.KernelIdeal.Roi

end
-- ==== Proof.Spec.lean ====
/-
  What the RoI crop computes, as one function of the two argument arrays. For box n the start on axis r is the
  box word [n, r] clamped (as a signed word) into [0, 57]; the result at (n, b, h, w, c) is the feature map at
  (b, start₀ n + h, start₁ n + w, c). Every index is formed with a remainder by its extent, so that no proof rides
  inside an index: all the sums that occur are below their extents.
-/
import Idealize.ShloMosaic.PureOps.Ideal
import Idealize.ShloMosaic.Lib.ValueIdx

namespace Cert.RoiSpec

open Idealize.ShloMosaic

abbrev SF : Shape := ⟨4, ![8, 64, 64, 256]⟩
abbrev SB : Shape := ⟨2, ![1000, 4]⟩
abbrev SO : Shape := ⟨5, ![1000, 8, 7, 7, 256]⟩

/-- A signed word clamped into [0, 57]: first from below, then from above. -/
def clampW (x : BitVec 32) : BitVec 32 := IntOp.minsi 57#32 (IntOp.maxsi 0#32 x)

/-- The index [n, r] of the box array. -/
def bidx (n r : ℕ) : SB.Idx := fun a => match a with
  | ⟨0, _⟩ => ⟨n % 1000, Nat.mod_lt _ (by decide)⟩
  | ⟨1, _⟩ => ⟨r % 4, Nat.mod_lt _ (by decide)⟩

/-- The index [b, y, x, c] of the feature map. -/
def fidx (b y x c : ℕ) : SF.Idx := fun a => match a with
  | ⟨0, _⟩ => ⟨b % 8, Nat.mod_lt _ (by decide)⟩
  | ⟨1, _⟩ => ⟨y % 64, Nat.mod_lt _ (by decide)⟩
  | ⟨2, _⟩ => ⟨x % 64, Nat.mod_lt _ (by decide)⟩
  | ⟨3, _⟩ => ⟨c % 256, Nat.mod_lt _ (by decide)⟩

/-- Box n's clamped start on axis r (0: rows, 1: columns). -/
def start (a1 : SB.Idx → BitVec 32) (n r : ℕ) : ℕ := (clampW (a1 (bidx n r))).toNat

/-- The crop: result (n, b, h, w, c) is the map at (b, start₀ n + h, start₁ n + w, c). -/
def crop {α : Type} (a0 : SF.Idx → α) (a1 : SB.Idx → BitVec 32) : SO.Idx → α := fun j =>
  a0 (fidx (j 1).val (start a1 (j 0).val 0 + (j 2).val) (start a1 (j 0).val 1 + (j 3).val) (j 4).val)

theorem clampW_cases (x : BitVec 32) : clampW x = 0#32 ∨ clampW x = 57#32 ∨ (clampW x = x ∧ 0 ≤ x.toInt ∧ x.toInt ≤ 57) := by
  unfold clampW IntOp.minsi IntOp.maxsi
  by_cases h1 : x.slt 0#32 = true
  · left
    rw [if_pos h1, if_neg (by decide)]
  · rw [if_neg h1]
    by_cases h2 : (57#32 : BitVec 32).slt x = true
    · right; left; rw [if_pos h2]
    · right; right
      rw [if_neg h2]
      refine ⟨rfl, ?_, ?_⟩
      · have h := h1; simp only [BitVec.slt, decide_eq_true_eq, not_lt] at h
        simpa using h
      · have h := h2; simp only [BitVec.slt, decide_eq_true_eq, not_lt] at h
        simpa using h

/-- The clamped word is at most 57 as a natural number, -/
theorem clampW_toNat_le (x : BitVec 32) : (clampW x).toNat ≤ 57 := by
  rcases clampW_cases x with h | h | ⟨h, h0, h1⟩
  · rw [h]; decide
  · rw [h]; decide
  · rw [h]
    have := BitVec.toInt_eq_toNat_cond x
    split at this <;> omega

/-- and read as a signed number it is its natural-number value. -/
theorem clampW_toInt (x : BitVec 32) : (clampW x).toInt = ((clampW x).toNat : ℤ) := by
  have h := clampW_toNat_le x
  rw [BitVec.toInt_eq_toNat_cond]
  split
  · rfl
  · omega

theorem start_le (a1 : SB.Idx → BitVec 32) (n r : ℕ) : start a1 n r ≤ 57 := clampW_toNat_le _

end Cert.RoiSpec
-- ==== Proof.IdealTable.lean ====
/-
  The table of box starts as the kernel reads it. The host lines before the launch cut the box array (1000, 4) to its
  first two columns, clamp every word into [0, 57] as a signed word (first from below, then from above) and transpose
  the result: the table word [r, n] is the clamped box word [n, r]. At grid point i the body handles the twenty boxes
  20·i, …, 20·i + 19: for box k it loads the two table words [0, 20·i + k] and [1, 20·i + k] from scalar memory, and
  asks of them that a 7×7 crop starting there stays inside the 64×64 map — which holds of every clamped word, since
  57 + 7 = 64. Here: the table read at an index, each of the forty loaded words as a clamped box word, and the twenty
  side conditions.
-/
import proofs.«420386_j26250840113278_3_alg».proof.Proof.IdealSetup
import proofs.«420386_j26250840113278_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Cert.RoiSpec

variable {F : FTy → Type} [FloatOps F]

local notation "𝕄" => MT nD τ sig Unit (Elt F) ℕ (Pipeline.UD sig nD τ) ℕ

variable (m : (ℓ : Loc nD τ sig) → Buf (Elt F) ℓ)

/-- The box array as the launch finds it on the one device. -/
abbrev boxes : SB.Idx → BitVec 32 := m (((0 : Dev nD) : Thread nD τ).loc main_arg1)

/-- The table as one term over the box array: slice, clamp from below, clamp from above, transpose. -/
theorem tbl_term :
    (tbl m 0 : S2x1000.Idx → BitVec 32) =
      transpose S2x1000 [1, 0]
        (minsi (broadcastInDim S1000x2 ![] bcast_S_S1000x2 (constantI S_ 32 57#32))
          (maxsi (broadcastInDim S1000x2 ![] bcast_S_S1000x2 (constantI S_ 32 0#32))
            (extractStridedSlice S1000x2 ![0, 0] (boxes m) slices_S1000x4_S1000x2_0_0)))
        transposes_S1000x2_S2x1000_1_0 := by
  unfold tbl
  show V m 0 main_v2 = _
  dsimp only [V, V0]
  simp only [hostOps0, hostOps0_1, hostOps0_2, List.flatten_cons, List.flatten_nil, List.append_nil, List.cons_append,
    List.nil_append]
  after_results
  rfl

/-- The table word [r, n] is the clamped box word [n, r]. -/
theorem tbl_apply (r n : ℕ) (hr : r < 2) (hn : n < 1000) :
    (tbl m 0 : S2x1000.Idx → BitVec 32) (ValueIdx.ix2 (⟨r, hr⟩ : Fin 2) (⟨n, hn⟩ : Fin 1000)) = clampW (boxes m (bidx n r)) := by
  rw [tbl_term]
  rw [transpose_apply [1, 0] _ transposes_S1000x2_S2x1000_1_0 _
    (ValueIdx.ix2 (⟨n, hn⟩ : Fin 1000) (⟨r, hr⟩ : Fin 2))
    (fun b => match b with | ⟨0, _⟩ => rfl | ⟨1, _⟩ => rfl)]
  show IntOp.minsi _ (IntOp.maxsi _ _) = _
  rw [broadcastInDim_apply ![] bcast_S_S1000x2 (constantI S_ 32 57#32) _ ValueIdx.ix0 (fun a => a.elim0),
    broadcastInDim_apply ![] bcast_S_S1000x2 (constantI S_ 32 0#32) _ ValueIdx.ix0 (fun a => a.elim0),
    extractStridedSlice_apply ![0, 0] (boxes m) slices_S1000x4_S1000x2_0_0 _ (bidx n r)
      (fun a => match a with
        | ⟨0, _⟩ => by
          show n % 1000 = 0 + n
          rw [Nat.mod_eq_of_lt hn, Nat.zero_add]
        | ⟨1, _⟩ => by
          show r % 4 = 0 + r
          rw [Nat.mod_eq_of_lt (by omega), Nat.zero_add])]
  rfl

/-! ## The loaded words -/

/-- A one-word load of the table at an offset reads the table's contents at the offset's index. -/
theorem readWord_eq (off : Fin 2 → ℕ) (h : ∀ x, off x + S1x1.size x ≤ S2x1000.size x) (tb : S2x1000.Idx → BitVec 32)
    (j : S2x1000.Idx) (hj : ∀ a, (j a).val = off a) :
    tbM.view.readAt (Elt F) (Rect.unit (s := S2x1000) off S1x1.size h).toLoadRect tb
      (Shape.Idx.first (numel1_S1x1.symm ▸ Nat.one_pos)) = tb j := by
  show tb _ = tb j
  refine congrArg tb (funext fun a => Fin.ext ?_)
  show off a + 1 * 0 = (j a).val
  rw [hj a, Nat.mul_zero, Nat.add_zero]

/-- The offset of the table word of box k (of the 20 of grid point i) on axis a, computed as the body computes it. -/
def offW (i : grid0.Coords) (k a : ℕ) : Fin 2 → ℕ :=
  ![a, (Scalar.indexCast (Scalar.addi (Scalar.muli (BitVec.ofNat 32 (i 0).val) 20#32) (BitVec.ofNat 32 k))).toNat]

/-- Nothing wraps: the column is 20·i + k. -/
theorem offW_eq (i : grid0.Coords) (k a : ℕ) (hk : k < 20) : offW i k a = ![a, 20 * (i 0).val + k] := by
  have hi : (i 0).val < 50 := (i 0).isLt
  unfold offW Scalar.indexCast Scalar.addi Scalar.muli IntOp.addi IntOp.muli
  rw [BitVec.toNat_add, BitVec.toNat_mul, BitVec.toNat_ofNat, BitVec.toNat_ofNat, BitVec.toNat_ofNat]
  congr 2
  omega

theorem offW_inb (i : grid0.Coords) (k a : ℕ) (hk : k < 20) (ha : a < 2) :
    ∀ x, offW i k a x + S1x1.size x ≤ S2x1000.size x := by
  have hi : (i 0).val < 50 := (i 0).isLt
  rw [offW_eq i k a hk]
  intro x
  match x with
  | ⟨0, _⟩ => show a + 1 ≤ 2; omega
  | ⟨1, _⟩ => show 20 * (i 0).val + k + 1 ≤ 1000; omega

/-- The word a scalar load at that offset returns. -/
abbrev wordU (c : Dev nD) (i : grid0.Coords) (tb : TbBuf (F := F) c tbM) (k a : ℕ)
    (h : ∀ x, offW i k a x + S1x1.size x ≤ S2x1000.size x) : BitVec 32 :=
  tbM.view.readAt (Elt F) (Rect.unit (s := S2x1000) (offW i k a) S1x1.size h).toLoadRect tb
    (Shape.Idx.first (numel1_S1x1.symm ▸ Nat.one_pos))

/-- The word loaded for box k of grid point i on axis a is the clamped box word [20·i + k, a]. -/
theorem wordU_eq (i : grid0.Coords) (k a : ℕ) (hk : k < 20) (ha : a < 2)
    (h : ∀ x, offW i k a x + S1x1.size x ≤ S2x1000.size x) :
    wordU (0 : Dev nD) i (tbl m 0) k a h = clampW (boxes m (bidx (20 * (i 0).val + k) a)) := by
  have hi : (i 0).val < 50 := (i 0).isLt
  have hn : 20 * (i 0).val + k < 1000 := by omega
  rw [← tbl_apply m a (20 * (i 0).val + k) ha hn]
  refine readWord_eq _ h _ _ (fun x => ?_)
  rw [offW_eq i k a hk]
  match x with
  | ⟨0, _⟩ => rfl
  | ⟨1, _⟩ => rfl

theorem wordU_le (i : grid0.Coords) (k a : ℕ) (hk : k < 20) (ha : a < 2)
    (h : ∀ x, offW i k a x + S1x1.size x ≤ S2x1000.size x) :
    (wordU (0 : Dev nD) i (tbl m 0) k a h).toNat ≤ 57 := by
  rw [wordU_eq m i k a hk ha h]
  exact clampW_toNat_le _

/-! ## The side conditions -/

/-- A 7×7×1×256 window of the (64, 64, 8, 256) map starting at (x, y, b, 0) is inside it when x, y ≤ 57 and b < 8. -/
theorem crop_inb (x y : BitVec 32) (b : ℕ) (hx : x.toNat ≤ 57) (hy : y.toNat ≤ 57) (hb : b < 8) :
    ∀ a, (![x.toNat, y.toNat, b, 0] : Fin 4 → ℕ) a + S7x7x1x256.size a ≤ S64x64x8x256.size a := by
  intro a
  match a with
  | ⟨0, _⟩ => show x.toNat + 7 ≤ 64; omega
  | ⟨1, _⟩ => show y.toNat + 7 ≤ 64; omega
  | ⟨2, _⟩ => show b + 1 ≤ 8; omega
  | ⟨3, _⟩ => show 0 + 256 ≤ 256; omega

/-! ## The forty loaded words, box by box: word 10k+1 is the row start and word 10k+2 the column start of box 20·i + k -/

/-- Box 0 of the point's twenty, axis 0. -/
theorem word_1 (i : grid0.Coords) :
    (tbM.view.readAt (Elt F) (Rect.unit (s := S2x1000) (k0_off1 i) S1x1.size (k0_off1_inb i)).toLoadRect (tbl m 0)
      (Shape.Idx.first (numel1_S1x1.symm ▸ Nat.one_pos))) = clampW (boxes m (bidx (20 * (i 0).val + 0) 0)) :=
  wordU_eq m i 0 0 (by omega) (by omega) (k0_off1_inb i)
/-- Box 0 of the point's twenty, axis 1. -/
theorem word_2 (i : grid0.Coords) :
    (tbM.view.readAt (Elt F) (Rect.unit (s := S2x1000) (k0_off2 i) S1x1.size (k0_off2_inb i)).toLoadRect (tbl m 0)
      (Shape.Idx.first (numel1_S1x1.symm ▸ Nat.one_pos))) = clampW (boxes m (bidx (20 * (i 0).val + 0) 1)) :=
  wordU_eq m i 0 1 (by omega) (by omega) (k0_off2_inb i)
/-- Box 1 of the point's twenty, axis 0. -/
theorem word_11 (i : grid0.Coords) :
    (tbM.view.readAt (Elt F) (Rect.unit (s := S2x1000) (k0_off11 i) S1x1.size (k0_off11_inb i)).toLoadRect (tbl m 0)
      (Shape.Idx.first (numel1_S1x1.symm ▸ Nat.one_pos))) = clampW (boxes m (bidx (20 * (i 0).val + 1) 0)) :=
  wordU_eq m i 1 0 (by omega) (by omega) (k0_off11_inb i)
/-- Box 1 of the point's twenty, axis 1. -/
theorem word_12 (i : grid0.Coords) :
    (tbM.view.readAt (Elt F) (Rect.unit (s := S2x1000) (k0_off12 i) S1x1.size (k0_off12_inb i)).toLoadRect (tbl m 0)
      (Shape.Idx.first (numel1_S1x1.symm ▸ Nat.one_pos))) = clampW (boxes m (bidx (20 * (i 0).val + 1) 1)) :=
  wordU_eq m i 1 1 (by omega) (by omega) (k0_off12_inb i)
/-- Box 2 of the point's twenty, axis 0. -/
theorem word_21 (i : grid0.Coords) :
    (tbM.view.readAt (Elt F) (Rect.unit (s := S2x1000) (k0_off21 i) S1x1.size (k0_off21_inb i)).toLoadRect (tbl m 0)
      (Shape.Idx.first (numel1_S1x1.symm ▸ Nat.one_pos))) = clampW (boxes m (bidx (20 * (i 0).val + 2) 0)) :=
  wordU_eq m i 2 0 (by omega) (by omega) (k0_off21_inb i)
/-- Box 2 of the point's twenty, axis 1. -/
theorem word_22 (i : grid0.Coords) :
    (tbM.view.readAt (Elt F) (Rect.unit (s := S2x1000) (k0_off22 i) S1x1.size (k0_off22_inb i)).toLoadRect (tbl m 0)
      (Shape.Idx.first (numel1_S1x1.symm ▸ Nat.one_pos))) = clampW (boxes m (bidx (20 * (i 0).val + 2) 1)) :=
  wordU_eq m i 2 1 (by omega) (by omega) (k0_off22_inb i)
/-- Box 3 of the point's twenty, axis 0. -/
theorem word_31 (i : grid0.Coords) :
    (tbM.view.readAt (Elt F) (Rect.unit (s := S2x1000) (k0_off31 i) S1x1.size (k0_off31_inb i)).toLoadRect (tbl m 0)
      (Shape.Idx.first (numel1_S1x1.symm ▸ Nat.one_pos))) = clampW (boxes m (bidx (20 * (i 0).val + 3) 0)) :=
  wordU_eq m i 3 0 (by omega) (by omega) (k0_off31_inb i)
/-- Box 3 of the point's twenty, axis 1. -/
theorem word_32 (i : grid0.Coords) :
    (tbM.view.readAt (Elt F) (Rect.unit (s := S2x1000) (k0_off32 i) S1x1.size (k0_off32_inb i)).toLoadRect (tbl m 0)
      (Shape.Idx.first (numel1_S1x1.symm ▸ Nat.one_pos))) = clampW (boxes m (bidx (20 * (i 0).val + 3) 1)) :=
  wordU_eq m i 3 1 (by omega) (by omega) (k0_off32_inb i)
/-- Box 4 of the point's twenty, axis 0. -/
theorem word_41 (i : grid0.Coords) :
    (tbM.view.readAt (Elt F) (Rect.unit (s := S2x1000) (k0_off41 i) S1x1.size (k0_off41_inb i)).toLoadRect (tbl m 0)
      (Shape.Idx.first (numel1_S1x1.symm ▸ Nat.one_pos))) = clampW (boxes m (bidx (20 * (i 0).val + 4) 0)) :=
  wordU_eq m i 4 0 (by omega) (by omega) (k0_off41_inb i)
/-- Box 4 of the point's twenty, axis 1. -/
theorem word_42 (i : grid0.Coords) :
    (tbM.view.readAt (Elt F) (Rect.unit (s := S2x1000) (k0_off42 i) S1x1.size (k0_off42_inb i)).toLoadRect (tbl m 0)
      (Shape.Idx.first (numel1_S1x1.symm ▸ Nat.one_pos))) = clampW (boxes m (bidx (20 * (i 0).val + 4) 1)) :=
  wordU_eq m i 4 1 (by omega) (by omega) (k0_off42_inb i)
/-- Box 5 of the point's twenty, axis 0. -/
theorem word_51 (i : grid0.Coords) :
    (tbM.view.readAt (Elt F) (Rect.unit (s := S2x1000) (k0_off51 i) S1x1.size (k0_off51_inb i)).toLoadRect (tbl m 0)
      (Shape.Idx.first (numel1_S1x1.symm ▸ Nat.one_pos))) = clampW (boxes m (bidx (20 * (i 0).val + 5) 0)) :=
  wordU_eq m i 5 0 (by omega) (by omega) (k0_off51_inb i)
/-- Box 5 of the point's twenty, axis 1. -/
theorem word_52 (i : grid0.Coords) :
    (tbM.view.readAt (Elt F) (Rect.unit (s := S2x1000) (k0_off52 i) S1x1.size (k0_off52_inb i)).toLoadRect (tbl m 0)
      (Shape.Idx.first (numel1_S1x1.symm ▸ Nat.one_pos))) = clampW (boxes m (bidx (20 * (i 0).val + 5) 1)) :=
  wordU_eq m i 5 1 (by omega) (by omega) (k0_off52_inb i)
/-- Box 6 of the point's twenty, axis 0. -/
theorem word_61 (i : grid0.Coords) :
    (tbM.view.readAt (Elt F) (Rect.unit (s := S2x1000) (k0_off61 i) S1x1.size (k0_off61_inb i)).toLoadRect (tbl m 0)
      (Shape.Idx.first (numel1_S1x1.symm ▸ Nat.one_pos))) = clampW (boxes m (bidx (20 * (i 0).val + 6) 0)) :=
  wordU_eq m i 6 0 (by omega) (by omega) (k0_off61_inb i)
/-- Box 6 of the point's twenty, axis 1. -/
theorem word_62 (i : grid0.Coords) :
    (tbM.view.readAt (Elt F) (Rect.unit (s := S2x1000) (k0_off62 i) S1x1.size (k0_off62_inb i)).toLoadRect (tbl m 0)
      (Shape.Idx.first (numel1_S1x1.symm ▸ Nat.one_pos))) = clampW (boxes m (bidx (20 * (i 0).val + 6) 1)) :=
  wordU_eq m i 6 1 (by omega) (by omega) (k0_off62_inb i)
/-- Box 7 of the point's twenty, axis 0. -/
theorem word_71 (i : grid0.Coords) :
    (tbM.view.readAt (Elt F) (Rect.unit (s := S2x1000) (k0_off71 i) S1x1.size (k0_off71_inb i)).toLoadRect (tbl m 0)
      (Shape.Idx.first (numel1_S1x1.symm ▸ Nat.one_pos))) = clampW (boxes m (bidx (20 * (i 0).val + 7) 0)) :=
  wordU_eq m i 7 0 (by omega) (by omega) (k0_off71_inb i)
/-- Box 7 of the point's twenty, axis 1. -/
theorem word_72 (i : grid0.Coords) :
    (tbM.view.readAt (Elt F) (Rect.unit (s := S2x1000) (k0_off72 i) S1x1.size (k0_off72_inb i)).toLoadRect (tbl m 0)
      (Shape.Idx.first (numel1_S1x1.symm ▸ Nat.one_pos))) = clampW (boxes m (bidx (20 * (i 0).val + 7) 1)) :=
  wordU_eq m i 7 1 (by omega) (by omega) (k0_off72_inb i)
/-- Box 8 of the point's twenty, axis 0. -/
theorem word_81 (i : grid0.Coords) :
    (tbM.view.readAt (Elt F) (Rect.unit (s := S2x1000) (k0_off81 i) S1x1.size (k0_off81_inb i)).toLoadRect (tbl m 0)
      (Shape.Idx.first (numel1_S1x1.symm ▸ Nat.one_pos))) = clampW (boxes m (bidx (20 * (i 0).val + 8) 0)) :=
  wordU_eq m i 8 0 (by omega) (by omega) (k0_off81_inb i)
/-- Box 8 of the point's twenty, axis 1. -/
theorem word_82 (i : grid0.Coords) :
    (tbM.view.readAt (Elt F) (Rect.unit (s := S2x1000) (k0_off82 i) S1x1.size (k0_off82_inb i)).toLoadRect (tbl m 0)
      (Shape.Idx.first (numel1_S1x1.symm ▸ Nat.one_pos))) = clampW (boxes m (bidx (20 * (i 0).val + 8) 1)) :=
  wordU_eq m i 8 1 (by omega) (by omega) (k0_off82_inb i)
/-- Box 9 of the point's twenty, axis 0. -/
theorem word_91 (i : grid0.Coords) :
    (tbM.view.readAt (Elt F) (Rect.unit (s := S2x1000) (k0_off91 i) S1x1.size (k0_off91_inb i)).toLoadRect (tbl m 0)
      (Shape.Idx.first (numel1_S1x1.symm ▸ Nat.one_pos))) = clampW (boxes m (bidx (20 * (i 0).val + 9) 0)) :=
  wordU_eq m i 9 0 (by omega) (by omega) (k0_off91_inb i)
/-- Box 9 of the point's twenty, axis 1. -/
theorem word_92 (i : grid0.Coords) :
    (tbM.view.readAt (Elt F) (Rect.unit (s := S2x1000) (k0_off92 i) S1x1.size (k0_off92_inb i)).toLoadRect (tbl m 0)
      (Shape.Idx.first (numel1_S1x1.symm ▸ Nat.one_pos))) = clampW (boxes m (bidx (20 * (i 0).val + 9) 1)) :=
  wordU_eq m i 9 1 (by omega) (by omega) (k0_off92_inb i)
/-- Box 10 of the point's twenty, axis 0. -/
theorem word_101 (i : grid0.Coords) :
    (tbM.view.readAt (Elt F) (Rect.unit (s := S2x1000) (k0_off101 i) S1x1.size (k0_off101_inb i)).toLoadRect (tbl m 0)
      (Shape.Idx.first (numel1_S1x1.symm ▸ Nat.one_pos))) = clampW (boxes m (bidx (20 * (i 0).val + 10) 0)) :=
  wordU_eq m i 10 0 (by omega) (by omega) (k0_off101_inb i)
/-- Box 10 of the point's twenty, axis 1. -/
theorem word_102 (i : grid0.Coords) :
    (tbM.view.readAt (Elt F) (Rect.unit (s := S2x1000) (k0_off102 i) S1x1.size (k0_off102_inb i)).toLoadRect (tbl m 0)
      (Shape.Idx.first (numel1_S1x1.symm ▸ Nat.one_pos))) = clampW (boxes m (bidx (20 * (i 0).val + 10) 1)) :=
  wordU_eq m i 10 1 (by omega) (by omega) (k0_off102_inb i)
/-- Box 11 of the point's twenty, axis 0. -/
theorem word_111 (i : grid0.Coords) :
    (tbM.view.readAt (Elt F) (Rect.unit (s := S2x1000) (k0_off111 i) S1x1.size (k0_off111_inb i)).toLoadRect (tbl m 0)
      (Shape.Idx.first (numel1_S1x1.symm ▸ Nat.one_pos))) = clampW (boxes m (bidx (20 * (i 0).val + 11) 0)) :=
  wordU_eq m i 11 0 (by omega) (by omega) (k0_off111_inb i)
/-- Box 11 of the point's twenty, axis 1. -/
theorem word_112 (i : grid0.Coords) :
    (tbM.view.readAt (Elt F) (Rect.unit (s := S2x1000) (k0_off112 i) S1x1.size (k0_off112_inb i)).toLoadRect (tbl m 0)
      (Shape.Idx.first (numel1_S1x1.symm ▸ Nat.one_pos))) = clampW (boxes m (bidx (20 * (i 0).val + 11) 1)) :=
  wordU_eq m i 11 1 (by omega) (by omega) (k0_off112_inb i)
/-- Box 12 of the point's twenty, axis 0. -/
theorem word_121 (i : grid0.Coords) :
    (tbM.view.readAt (Elt F) (Rect.unit (s := S2x1000) (k0_off121 i) S1x1.size (k0_off121_inb i)).toLoadRect (tbl m 0)
      (Shape.Idx.first (numel1_S1x1.symm ▸ Nat.one_pos))) = clampW (boxes m (bidx (20 * (i 0).val + 12) 0)) :=
  wordU_eq m i 12 0 (by omega) (by omega) (k0_off121_inb i)
/-- Box 12 of the point's twenty, axis 1. -/
theorem word_122 (i : grid0.Coords) :
    (tbM.view.readAt (Elt F) (Rect.unit (s := S2x1000) (k0_off122 i) S1x1.size (k0_off122_inb i)).toLoadRect (tbl m 0)
      (Shape.Idx.first (numel1_S1x1.symm ▸ Nat.one_pos))) = clampW (boxes m (bidx (20 * (i 0).val + 12) 1)) :=
  wordU_eq m i 12 1 (by omega) (by omega) (k0_off122_inb i)
/-- Box 13 of the point's twenty, axis 0. -/
theorem word_131 (i : grid0.Coords) :
    (tbM.view.readAt (Elt F) (Rect.unit (s := S2x1000) (k0_off131 i) S1x1.size (k0_off131_inb i)).toLoadRect (tbl m 0)
      (Shape.Idx.first (numel1_S1x1.symm ▸ Nat.one_pos))) = clampW (boxes m (bidx (20 * (i 0).val + 13) 0)) :=
  wordU_eq m i 13 0 (by omega) (by omega) (k0_off131_inb i)
/-- Box 13 of the point's twenty, axis 1. -/
theorem word_132 (i : grid0.Coords) :
    (tbM.view.readAt (Elt F) (Rect.unit (s := S2x1000) (k0_off132 i) S1x1.size (k0_off132_inb i)).toLoadRect (tbl m 0)
      (Shape.Idx.first (numel1_S1x1.symm ▸ Nat.one_pos))) = clampW (boxes m (bidx (20 * (i 0).val + 13) 1)) :=
  wordU_eq m i 13 1 (by omega) (by omega) (k0_off132_inb i)
/-- Box 14 of the point's twenty, axis 0. -/
theorem word_141 (i : grid0.Coords) :
    (tbM.view.readAt (Elt F) (Rect.unit (s := S2x1000) (k0_off141 i) S1x1.size (k0_off141_inb i)).toLoadRect (tbl m 0)
      (Shape.Idx.first (numel1_S1x1.symm ▸ Nat.one_pos))) = clampW (boxes m (bidx (20 * (i 0).val + 14) 0)) :=
  wordU_eq m i 14 0 (by omega) (by omega) (k0_off141_inb i)
/-- Box 14 of the point's twenty, axis 1. -/
theorem word_142 (i : grid0.Coords) :
    (tbM.view.readAt (Elt F) (Rect.unit (s := S2x1000) (k0_off142 i) S1x1.size (k0_off142_inb i)).toLoadRect (tbl m 0)
      (Shape.Idx.first (numel1_S1x1.symm ▸ Nat.one_pos))) = clampW (boxes m (bidx (20 * (i 0).val + 14) 1)) :=
  wordU_eq m i 14 1 (by omega) (by omega) (k0_off142_inb i)
/-- Box 15 of the point's twenty, axis 0. -/
theorem word_151 (i : grid0.Coords) :
    (tbM.view.readAt (Elt F) (Rect.unit (s := S2x1000) (k0_off151 i) S1x1.size (k0_off151_inb i)).toLoadRect (tbl m 0)
      (Shape.Idx.first (numel1_S1x1.symm ▸ Nat.one_pos))) = clampW (boxes m (bidx (20 * (i 0).val + 15) 0)) :=
  wordU_eq m i 15 0 (by omega) (by omega) (k0_off151_inb i)
/-- Box 15 of the point's twenty, axis 1. -/
theorem word_152 (i : grid0.Coords) :
    (tbM.view.readAt (Elt F) (Rect.unit (s := S2x1000) (k0_off152 i) S1x1.size (k0_off152_inb i)).toLoadRect (tbl m 0)
      (Shape.Idx.first (numel1_S1x1.symm ▸ Nat.one_pos))) = clampW (boxes m (bidx (20 * (i 0).val + 15) 1)) :=
  wordU_eq m i 15 1 (by omega) (by omega) (k0_off152_inb i)
/-- Box 16 of the point's twenty, axis 0. -/
theorem word_161 (i : grid0.Coords) :
    (tbM.view.readAt (Elt F) (Rect.unit (s := S2x1000) (k0_off161 i) S1x1.size (k0_off161_inb i)).toLoadRect (tbl m 0)
      (Shape.Idx.first (numel1_S1x1.symm ▸ Nat.one_pos))) = clampW (boxes m (bidx (20 * (i 0).val + 16) 0)) :=
  wordU_eq m i 16 0 (by omega) (by omega) (k0_off161_inb i)
/-- Box 16 of the point's twenty, axis 1. -/
theorem word_162 (i : grid0.Coords) :
    (tbM.view.readAt (Elt F) (Rect.unit (s := S2x1000) (k0_off162 i) S1x1.size (k0_off162_inb i)).toLoadRect (tbl m 0)
      (Shape.Idx.first (numel1_S1x1.symm ▸ Nat.one_pos))) = clampW (boxes m (bidx (20 * (i 0).val + 16) 1)) :=
  wordU_eq m i 16 1 (by omega) (by omega) (k0_off162_inb i)
/-- Box 17 of the point's twenty, axis 0. -/
theorem word_171 (i : grid0.Coords) :
    (tbM.view.readAt (Elt F) (Rect.unit (s := S2x1000) (k0_off171 i) S1x1.size (k0_off171_inb i)).toLoadRect (tbl m 0)
      (Shape.Idx.first (numel1_S1x1.symm ▸ Nat.one_pos))) = clampW (boxes m (bidx (20 * (i 0).val + 17) 0)) :=
  wordU_eq m i 17 0 (by omega) (by omega) (k0_off171_inb i)
/-- Box 17 of the point's twenty, axis 1. -/
theorem word_172 (i : grid0.Coords) :
    (tbM.view.readAt (Elt F) (Rect.unit (s := S2x1000) (k0_off172 i) S1x1.size (k0_off172_inb i)).toLoadRect (tbl m 0)
      (Shape.Idx.first (numel1_S1x1.symm ▸ Nat.one_pos))) = clampW (boxes m (bidx (20 * (i 0).val + 17) 1)) :=
  wordU_eq m i 17 1 (by omega) (by omega) (k0_off172_inb i)
/-- Box 18 of the point's twenty, axis 0. -/
theorem word_181 (i : grid0.Coords) :
    (tbM.view.readAt (Elt F) (Rect.unit (s := S2x1000) (k0_off181 i) S1x1.size (k0_off181_inb i)).toLoadRect (tbl m 0)
      (Shape.Idx.first (numel1_S1x1.symm ▸ Nat.one_pos))) = clampW (boxes m (bidx (20 * (i 0).val + 18) 0)) :=
  wordU_eq m i 18 0 (by omega) (by omega) (k0_off181_inb i)
/-- Box 18 of the point's twenty, axis 1. -/
theorem word_182 (i : grid0.Coords) :
    (tbM.view.readAt (Elt F) (Rect.unit (s := S2x1000) (k0_off182 i) S1x1.size (k0_off182_inb i)).toLoadRect (tbl m 0)
      (Shape.Idx.first (numel1_S1x1.symm ▸ Nat.one_pos))) = clampW (boxes m (bidx (20 * (i 0).val + 18) 1)) :=
  wordU_eq m i 18 1 (by omega) (by omega) (k0_off182_inb i)
/-- Box 19 of the point's twenty, axis 0. -/
theorem word_191 (i : grid0.Coords) :
    (tbM.view.readAt (Elt F) (Rect.unit (s := S2x1000) (k0_off191 i) S1x1.size (k0_off191_inb i)).toLoadRect (tbl m 0)
      (Shape.Idx.first (numel1_S1x1.symm ▸ Nat.one_pos))) = clampW (boxes m (bidx (20 * (i 0).val + 19) 0)) :=
  wordU_eq m i 19 0 (by omega) (by omega) (k0_off191_inb i)
/-- Box 19 of the point's twenty, axis 1. -/
theorem word_192 (i : grid0.Coords) :
    (tbM.view.readAt (Elt F) (Rect.unit (s := S2x1000) (k0_off192 i) S1x1.size (k0_off192_inb i)).toLoadRect (tbl m 0)
      (Shape.Idx.first (numel1_S1x1.symm ▸ Nat.one_pos))) = clampW (boxes m (bidx (20 * (i 0).val + 19) 1)) :=
  wordU_eq m i 19 1 (by omega) (by omega) (k0_off192_inb i)

/-! ## The twenty side conditions from two bounds: the eight windows (one per batch entry) of a box start inside the map -/

theorem chk_1_of_le (x y : BitVec 32) (hx : x.toNat ≤ 57) (hy : y.toNat ≤ 57) : k0_chk1 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_2_of_le (x y : BitVec 32) (hx : x.toNat ≤ 57) (hy : y.toNat ≤ 57) : k0_chk2 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_3_of_le (x y : BitVec 32) (hx : x.toNat ≤ 57) (hy : y.toNat ≤ 57) : k0_chk3 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_4_of_le (x y : BitVec 32) (hx : x.toNat ≤ 57) (hy : y.toNat ≤ 57) : k0_chk4 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_5_of_le (x y : BitVec 32) (hx : x.toNat ≤ 57) (hy : y.toNat ≤ 57) : k0_chk5 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_6_of_le (x y : BitVec 32) (hx : x.toNat ≤ 57) (hy : y.toNat ≤ 57) : k0_chk6 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_7_of_le (x y : BitVec 32) (hx : x.toNat ≤ 57) (hy : y.toNat ≤ 57) : k0_chk7 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_8_of_le (x y : BitVec 32) (hx : x.toNat ≤ 57) (hy : y.toNat ≤ 57) : k0_chk8 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_9_of_le (x y : BitVec 32) (hx : x.toNat ≤ 57) (hy : y.toNat ≤ 57) : k0_chk9 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_10_of_le (x y : BitVec 32) (hx : x.toNat ≤ 57) (hy : y.toNat ≤ 57) : k0_chk10 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_11_of_le (x y : BitVec 32) (hx : x.toNat ≤ 57) (hy : y.toNat ≤ 57) : k0_chk11 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_12_of_le (x y : BitVec 32) (hx : x.toNat ≤ 57) (hy : y.toNat ≤ 57) : k0_chk12 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_13_of_le (x y : BitVec 32) (hx : x.toNat ≤ 57) (hy : y.toNat ≤ 57) : k0_chk13 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_14_of_le (x y : BitVec 32) (hx : x.toNat ≤ 57) (hy : y.toNat ≤ 57) : k0_chk14 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_15_of_le (x y : BitVec 32) (hx : x.toNat ≤ 57) (hy : y.toNat ≤ 57) : k0_chk15 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_16_of_le (x y : BitVec 32) (hx : x.toNat ≤ 57) (hy : y.toNat ≤ 57) : k0_chk16 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_17_of_le (x y : BitVec 32) (hx : x.toNat ≤ 57) (hy : y.toNat ≤ 57) : k0_chk17 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_18_of_le (x y : BitVec 32) (hx : x.toNat ≤ 57) (hy : y.toNat ≤ 57) : k0_chk18 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_19_of_le (x y : BitVec 32) (hx : x.toNat ≤ 57) (hy : y.toNat ≤ 57) : k0_chk19 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_20_of_le (x y : BitVec 32) (hx : x.toNat ≤ 57) (hy : y.toNat ≤ 57) : k0_chk20 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩

/-! ## The twenty side conditions of the loaded words: a clamped word is at most 57 -/

theorem hw_1 (i : grid0.Coords) :
    k0_chk1
      (tbM.view.readAt (Elt F) (Rect.unit (s := S2x1000) (k0_off1 i) S1x1.size (k0_off1_inb i)).toLoadRect (tbl m 0)
        (Shape.Idx.first (numel1_S1x1.symm ▸ Nat.one_pos)))
      (tbM.view.readAt (Elt F) (Rect.unit (s := S2x1000) (k0_off2 i) S1x1.size (k0_off2_inb i)).toLoadRect (tbl m 0)
        (Shape.Idx.first (numel1_S1x1.symm ▸ Nat.one_pos))) :=
  chk_1_of_le _ _ (by rw [word_1 m i]; exact clampW_toNat_le _) (by rw [word_2 m i]; exact clampW_toNat_le _)
theorem hw_2 (i : grid0.Coords) :
    k0_chk2
      (tbM.view.readAt (Elt F) (Rect.unit (s := S2x1000) (k0_off11 i) S1x1.size (k0_off11_inb i)).toLoadRect (tbl m 0)
        (Shape.Idx.first (numel1_S1x1.symm ▸ Nat.one_pos)))
      (tbM.view.readAt (Elt F) (Rect.unit (s := S2x1000) (k0_off12 i) S1x1.size (k0_off12_inb i)).toLoadRect (tbl m 0)
        (Shape.Idx.first (numel1_S1x1.symm ▸ Nat.one_pos))) :=
  chk_2_of_le _ _ (by rw [word_11 m i]; exact clampW_toNat_le _) (by rw [word_12 m i]; exact clampW_toNat_le _)
theorem hw_3 (i : grid0.Coords) :
    k0_chk3
      (tbM.view.readAt (Elt F) (Rect.unit (s := S2x1000) (k0_off21 i) S1x1.size (k0_off21_inb i)).toLoadRect (tbl m 0)
        (Shape.Idx.first (numel1_S1x1.symm ▸ Nat.one_pos)))
      (tbM.view.readAt (Elt F) (Rect.unit (s := S2x1000) (k0_off22 i) S1x1.size (k0_off22_inb i)).toLoadRect (tbl m 0)
        (Shape.Idx.first (numel1_S1x1.symm ▸ Nat.one_pos))) :=
  chk_3_of_le _ _ (by rw [word_21 m i]; exact clampW_toNat_le _) (by rw [word_22 m i]; exact clampW_toNat_le _)
theorem hw_4 (i : grid0.Coords) :
    k0_chk4
      (tbM.view.readAt (Elt F) (Rect.unit (s := S2x1000) (k0_off31 i) S1x1.size (k0_off31_inb i)).toLoadRect (tbl m 0)
        (Shape.Idx.first (numel1_S1x1.symm ▸ Nat.one_pos)))
      (tbM.view.readAt (Elt F) (Rect.unit (s := S2x1000) (k0_off32 i) S1x1.size (k0_off32_inb i)).toLoadRect (tbl m 0)
        (Shape.Idx.first (numel1_S1x1.symm ▸ Nat.one_pos))) :=
  chk_4_of_le _ _ (by rw [word_31 m i]; exact clampW_toNat_le _) (by rw [word_32 m i]; exact clampW_toNat_le _)
theorem hw_5 (i : grid0.Coords) :
    k0_chk5
      (tbM.view.readAt (Elt F) (Rect.unit (s := S2x1000) (k0_off41 i) S1x1.size (k0_off41_inb i)).toLoadRect (tbl m 0)
        (Shape.Idx.first (numel1_S1x1.symm ▸ Nat.one_pos)))
      (tbM.view.readAt (Elt F) (Rect.unit (s := S2x1000) (k0_off42 i) S1x1.size (k0_off42_inb i)).toLoadRect (tbl m 0)
        (Shape.Idx.first (numel1_S1x1.symm ▸ Nat.one_pos))) :=
  chk_5_of_le _ _ (by rw [word_41 m i]; exact clampW_toNat_le _) (by rw [word_42 m i]; exact clampW_toNat_le _)
theorem hw_6 (i : grid0.Coords) :
    k0_chk6
      (tbM.view.readAt (Elt F) (Rect.unit (s := S2x1000) (k0_off51 i) S1x1.size (k0_off51_inb i)).toLoadRect (tbl m 0)
        (Shape.Idx.first (numel1_S1x1.symm ▸ Nat.one_pos)))
      (tbM.view.readAt (Elt F) (Rect.unit (s := S2x1000) (k0_off52 i) S1x1.size (k0_off52_inb i)).toLoadRect (tbl m 0)
        (Shape.Idx.first (numel1_S1x1.symm ▸ Nat.one_pos))) :=
  chk_6_of_le _ _ (by rw [word_51 m i]; exact clampW_toNat_le _) (by rw [word_52 m i]; exact clampW_toNat_le _)
theorem hw_7 (i : grid0.Coords) :
    k0_chk7
      (tbM.view.readAt (Elt F) (Rect.unit (s := S2x1000) (k0_off61 i) S1x1.size (k0_off61_inb i)).toLoadRect (tbl m 0)
        (Shape.Idx.first (numel1_S1x1.symm ▸ Nat.one_pos)))
      (tbM.view.readAt (Elt F) (Rect.unit (s := S2x1000) (k0_off62 i) S1x1.size (k0_off62_inb i)).toLoadRect (tbl m 0)
        (Shape.Idx.first (numel1_S1x1.symm ▸ Nat.one_pos))) :=
  chk_7_of_le _ _ (by rw [word_61 m i]; exact clampW_toNat_le _) (by rw [word_62 m i]; exact clampW_toNat_le _)
theorem hw_8 (i : grid0.Coords) :
    k0_chk8
      (tbM.view.readAt (Elt F) (Rect.unit (s := S2x1000) (k0_off71 i) S1x1.size (k0_off71_inb i)).toLoadRect (tbl m 0)
        (Shape.Idx.first (numel1_S1x1.symm ▸ Nat.one_pos)))
      (tbM.view.readAt (Elt F) (Rect.unit (s := S2x1000) (k0_off72 i) S1x1.size (k0_off72_inb i)).toLoadRect (tbl m 0)
        (Shape.Idx.first (numel1_S1x1.symm ▸ Nat.one_pos))) :=
  chk_8_of_le _ _ (by rw [word_71 m i]; exact clampW_toNat_le _) (by rw [word_72 m i]; exact clampW_toNat_le _)
theorem hw_9 (i : grid0.Coords) :
    k0_chk9
      (tbM.view.readAt (Elt F) (Rect.unit (s := S2x1000) (k0_off81 i) S1x1.size (k0_off81_inb i)).toLoadRect (tbl m 0)
        (Shape.Idx.first (numel1_S1x1.symm ▸ Nat.one_pos)))
      (tbM.view.readAt (Elt F) (Rect.unit (s := S2x1000) (k0_off82 i) S1x1.size (k0_off82_inb i)).toLoadRect (tbl m 0)
        (Shape.Idx.first (numel1_S1x1.symm ▸ Nat.one_pos))) :=
  chk_9_of_le _ _ (by rw [word_81 m i]; exact clampW_toNat_le _) (by rw [word_82 m i]; exact clampW_toNat_le _)
theorem hw_10 (i : grid0.Coords) :
    k0_chk10
      (tbM.view.readAt (Elt F) (Rect.unit (s := S2x1000) (k0_off91 i) S1x1.size (k0_off91_inb i)).toLoadRect (tbl m 0)
        (Shape.Idx.first (numel1_S1x1.symm ▸ Nat.one_pos)))
      (tbM.view.readAt (Elt F) (Rect.unit (s := S2x1000) (k0_off92 i) S1x1.size (k0_off92_inb i)).toLoadRect (tbl m 0)
        (Shape.Idx.first (numel1_S1x1.symm ▸ Nat.one_pos))) :=
  chk_10_of_le _ _ (by rw [word_91 m i]; exact clampW_toNat_le _) (by rw [word_92 m i]; exact clampW_toNat_le _)
theorem hw_11 (i : grid0.Coords) :
    k0_chk11
      (tbM.view.readAt (Elt F) (Rect.unit (s := S2x1000) (k0_off101 i) S1x1.size (k0_off101_inb i)).toLoadRect (tbl m 0)
        (Shape.Idx.first (numel1_S1x1.symm ▸ Nat.one_pos)))
      (tbM.view.readAt (Elt F) (Rect.unit (s := S2x1000) (k0_off102 i) S1x1.size (k0_off102_inb i)).toLoadRect (tbl m 0)
        (Shape.Idx.first (numel1_S1x1.symm ▸ Nat.one_pos))) :=
  chk_11_of_le _ _ (by rw [word_101 m i]; exact clampW_toNat_le _) (by rw [word_102 m i]; exact clampW_toNat_le _)
theorem hw_12 (i : grid0.Coords) :
    k0_chk12
      (tbM.view.readAt (Elt F) (Rect.unit (s := S2x1000) (k0_off111 i) S1x1.size (k0_off111_inb i)).toLoadRect (tbl m 0)
        (Shape.Idx.first (numel1_S1x1.symm ▸ Nat.one_pos)))
      (tbM.view.readAt (Elt F) (Rect.unit (s := S2x1000) (k0_off112 i) S1x1.size (k0_off112_inb i)).toLoadRect (tbl m 0)
        (Shape.Idx.first (numel1_S1x1.symm ▸ Nat.one_pos))) :=
  chk_12_of_le _ _ (by rw [word_111 m i]; exact clampW_toNat_le _) (by rw [word_112 m i]; exact clampW_toNat_le _)
theorem hw_13 (i : grid0.Coords) :
    k0_chk13
      (tbM.view.readAt (Elt F) (Rect.unit (s := S2x1000) (k0_off121 i) S1x1.size (k0_off121_inb i)).toLoadRect (tbl m 0)
        (Shape.Idx.first (numel1_S1x1.symm ▸ Nat.one_pos)))
      (tbM.view.readAt (Elt F) (Rect.unit (s := S2x1000) (k0_off122 i) S1x1.size (k0_off122_inb i)).toLoadRect (tbl m 0)
        (Shape.Idx.first (numel1_S1x1.symm ▸ Nat.one_pos))) :=
  chk_13_of_le _ _ (by rw [word_121 m i]; exact clampW_toNat_le _) (by rw [word_122 m i]; exact clampW_toNat_le _)
theorem hw_14 (i : grid0.Coords) :
    k0_chk14
      (tbM.view.readAt (Elt F) (Rect.unit (s := S2x1000) (k0_off131 i) S1x1.size (k0_off131_inb i)).toLoadRect (tbl m 0)
        (Shape.Idx.first (numel1_S1x1.symm ▸ Nat.one_pos)))
      (tbM.view.readAt (Elt F) (Rect.unit (s := S2x1000) (k0_off132 i) S1x1.size (k0_off132_inb i)).toLoadRect (tbl m 0)
        (Shape.Idx.first (numel1_S1x1.symm ▸ Nat.one_pos))) :=
  chk_14_of_le _ _ (by rw [word_131 m i]; exact clampW_toNat_le _) (by rw [word_132 m i]; exact clampW_toNat_le _)
theorem hw_15 (i : grid0.Coords) :
    k0_chk15
      (tbM.view.readAt (Elt F) (Rect.unit (s := S2x1000) (k0_off141 i) S1x1.size (k0_off141_inb i)).toLoadRect (tbl m 0)
        (Shape.Idx.first (numel1_S1x1.symm ▸ Nat.one_pos)))
      (tbM.view.readAt (Elt F) (Rect.unit (s := S2x1000) (k0_off142 i) S1x1.size (k0_off142_inb i)).toLoadRect (tbl m 0)
        (Shape.Idx.first (numel1_S1x1.symm ▸ Nat.one_pos))) :=
  chk_15_of_le _ _ (by rw [word_141 m i]; exact clampW_toNat_le _) (by rw [word_142 m i]; exact clampW_toNat_le _)
theorem hw_16 (i : grid0.Coords) :
    k0_chk16
      (tbM.view.readAt (Elt F) (Rect.unit (s := S2x1000) (k0_off151 i) S1x1.size (k0_off151_inb i)).toLoadRect (tbl m 0)
        (Shape.Idx.first (numel1_S1x1.symm ▸ Nat.one_pos)))
      (tbM.view.readAt (Elt F) (Rect.unit (s := S2x1000) (k0_off152 i) S1x1.size (k0_off152_inb i)).toLoadRect (tbl m 0)
        (Shape.Idx.first (numel1_S1x1.symm ▸ Nat.one_pos))) :=
  chk_16_of_le _ _ (by rw [word_151 m i]; exact clampW_toNat_le _) (by rw [word_152 m i]; exact clampW_toNat_le _)
theorem hw_17 (i : grid0.Coords) :
    k0_chk17
      (tbM.view.readAt (Elt F) (Rect.unit (s := S2x1000) (k0_off161 i) S1x1.size (k0_off161_inb i)).toLoadRect (tbl m 0)
        (Shape.Idx.first (numel1_S1x1.symm ▸ Nat.one_pos)))
      (tbM.view.readAt (Elt F) (Rect.unit (s := S2x1000) (k0_off162 i) S1x1.size (k0_off162_inb i)).toLoadRect (tbl m 0)
        (Shape.Idx.first (numel1_S1x1.symm ▸ Nat.one_pos))) :=
  chk_17_of_le _ _ (by rw [word_161 m i]; exact clampW_toNat_le _) (by rw [word_162 m i]; exact clampW_toNat_le _)
theorem hw_18 (i : grid0.Coords) :
    k0_chk18
      (tbM.view.readAt (Elt F) (Rect.unit (s := S2x1000) (k0_off171 i) S1x1.size (k0_off171_inb i)).toLoadRect (tbl m 0)
        (Shape.Idx.first (numel1_S1x1.symm ▸ Nat.one_pos)))
      (tbM.view.readAt (Elt F) (Rect.unit (s := S2x1000) (k0_off172 i) S1x1.size (k0_off172_inb i)).toLoadRect (tbl m 0)
        (Shape.Idx.first (numel1_S1x1.symm ▸ Nat.one_pos))) :=
  chk_18_of_le _ _ (by rw [word_171 m i]; exact clampW_toNat_le _) (by rw [word_172 m i]; exact clampW_toNat_le _)
theorem hw_19 (i : grid0.Coords) :
    k0_chk19
      (tbM.view.readAt (Elt F) (Rect.unit (s := S2x1000) (k0_off181 i) S1x1.size (k0_off181_inb i)).toLoadRect (tbl m 0)
        (Shape.Idx.first (numel1_S1x1.symm ▸ Nat.one_pos)))
      (tbM.view.readAt (Elt F) (Rect.unit (s := S2x1000) (k0_off182 i) S1x1.size (k0_off182_inb i)).toLoadRect (tbl m 0)
        (Shape.Idx.first (numel1_S1x1.symm ▸ Nat.one_pos))) :=
  chk_19_of_le _ _ (by rw [word_181 m i]; exact clampW_toNat_le _) (by rw [word_182 m i]; exact clampW_toNat_le _)
theorem hw_20 (i : grid0.Coords) :
    k0_chk20
      (tbM.view.readAt (Elt F) (Rect.unit (s := S2x1000) (k0_off191 i) S1x1.size (k0_off191_inb i)).toLoadRect (tbl m 0)
        (Shape.Idx.first (numel1_S1x1.symm ▸ Nat.one_pos)))
      (tbM.view.readAt (Elt F) (Rect.unit (s := S2x1000) (k0_off192 i) S1x1.size (k0_off192_inb i)).toLoadRect (tbl m 0)
        (Shape.Idx.first (numel1_S1x1.symm ▸ Nat.one_pos))) :=
  chk_20_of_le _ _ (by rw [word_191 m i]; exact clampW_toNat_le _) (by rw [word_192 m i]; exact clampW_toNat_le _)

end Cert.KernelIdeal.Roi

end
-- ==== Proof.IdealPay.lean ====
/-
  What the copy into row r of the output block moves, uniformly in r: row r = 8·k + b takes the window of the transposed
  feature map that starts at the two table words of box k (read at the offsets the body computes) and at batch entry b.
-/
import proofs.«420386_j26250840113278_3_alg».proof.Proof.IdealLayers
import proofs.«420386_j26250840113278_3_alg».proof.Proof.IdealTable

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.RoiSpec

variable {F : FTy → Type} [FloatOps F]

/-- The table words of the 20 boxes of a grid point are all at most 57 (what the copies' windows need to lie inside the map). -/
abbrev WordsLe (c : Dev nD) (i : grid0.Coords) (tb : TbBuf (F := F) c tbM) : Prop :=
  ∀ (k a : ℕ) (hk : k < 20) (ha : a < 2), (wordU c i tb k a (offW_inb i k a hk ha)).toNat ≤ 57

theorem row_div_lt (r : Fin 160) : r.val / 8 < 20 := by have := r.isLt; omega
theorem row_mod_lt (r : Fin 160) : r.val % 8 < 8 := Nat.mod_lt _ (by decide)

/-- The window the copy into row `r` reads. -/
abbrev srcRow (c : Dev nD) (i : grid0.Coords) (tb : TbBuf (F := F) c tbM) (hT : WordsLe c i tb) (r : Fin 160) :
    Memref sig .tc .hbm S7x7x256 .f32 :=
  srcM (wordU c i tb (r.val / 8) 0 (offW_inb i (r.val / 8) 0 (row_div_lt r) (by decide)))
    (wordU c i tb (r.val / 8) 1 (offW_inb i (r.val / 8) 1 (row_div_lt r) (by decide))) (r.val % 8)
    (src_inb _ _ _ (hT _ 0 (row_div_lt r) (by decide)) (hT _ 1 (row_div_lt r) (by decide)) (row_mod_lt r))

/-- What the copy into row `r` moves. -/
def payU (c : Dev nD) (i : grid0.Coords) (tb : TbBuf (F := F) c tbM) (fh : HbBuf (F := F) c hbM) (hT : WordsLe c i tb)
    (r : Fin 160) : S7x7x256.Idx → Elt F .f32 :=
  ReadAs.same.apply ((srcRow c i tb hT r).view.read (Elt F) fh)

/-- Read at an index: the map at (word₀ + z₀, word₁ + z₁, r % 8, z₂). -/
theorem payU_apply (c : Dev nD) (i : grid0.Coords) (tb : TbBuf (F := F) c tbM) (fh : HbBuf (F := F) c hbM) (hT : WordsLe c i tb)
    (r : Fin 160) (z : S7x7x256.Idx) :
    payU c i tb fh hT r z
      = fh (srcIdx (wordU c i tb (r.val / 8) 0 (offW_inb i (r.val / 8) 0 (row_div_lt r) (by decide))).toNat
          (wordU c i tb (r.val / 8) 1 (offW_inb i (r.val / 8) 1 (row_div_lt r) (by decide))).toNat (r.val % 8) z) := by
  unfold payU srcRow
  exact read_srcM c fh _ _ _ _ z

end Cert.KernelIdeal.Roi

end
-- ==== Proof.IdealRunEq.lean ====
/-
  The block after the body is the 160 rows written in order: what the run found, row by row, is the copy out of the
  window at the box's two table words and the row's batch entry. Hence the block reads, at (r, h, w, c), the transposed
  map at (word₀ + h, word₁ + w, r % 8, c), with the words of box r / 8 — whatever the block held before.
-/
import proofs.«420386_j26250840113278_3_alg».proof.Proof.IdealRun
import proofs.«420386_j26250840113278_3_alg».proof.Proof.IdealPay

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.RoiSpec

variable {F : FTy → Type} [FloatOps F]

set_option maxRecDepth 1000000 in
/-- The contents the run found are the rows 0 … 159 written in that order. -/
theorem g_eq (c : Dev nD) (i : grid0.Coords) (arg3 : Memref sig .tc .vmem S160x7x7x256 .f32) (harg3 : arg3.IsWhole)
    (tb : TbBuf (F := F) c tbM) (fh : HbBuf (F := F) c hbM) (hw1) (hw2) (hw3) (hw4) (hw5) (hw6) (hw7) (hw8) (hw9) (hw10) (hw11) (hw12) (hw13) (hw14) (hw15) (hw16) (hw17) (hw18) (hw19) (hw20)
    (hT : WordsLe c i tb) (f : BufTy.Contents (Elt F) arg3.view.ty) :
    (kernelRun c i arg3 harg3 tb fh hw1 hw2 hw3 hw4 hw5 hw6 hw7 hw8 hw9 hw10 hw11 hw12 hw13 hw14 hw15 hw16 hw17 hw18 hw19 hw20).1 f
      = rowsUpTo arg3 (payU c i tb fh hT) f 160 (Nat.le_refl _) := by
  sl_kernel_rfl

/-- The block after the body, read at an index. -/
theorem read_run (c : Dev nD) (i : grid0.Coords) (arg3 : Memref sig .tc .vmem S160x7x7x256 .f32) (harg3 : arg3.IsWhole)
    (tb : TbBuf (F := F) c tbM) (fh : HbBuf (F := F) c hbM) (hw1) (hw2) (hw3) (hw4) (hw5) (hw6) (hw7) (hw8) (hw9) (hw10) (hw11) (hw12) (hw13) (hw14) (hw15) (hw16) (hw17) (hw18) (hw19) (hw20)
    (hT : WordsLe c i tb) (f : BufTy.Contents (Elt F) arg3.view.ty) (y : S160x7x7x256.Idx) :
    arg3.view.read (Elt F) ((kernelRun c i arg3 harg3 tb fh hw1 hw2 hw3 hw4 hw5 hw6 hw7 hw8 hw9 hw10 hw11 hw12 hw13 hw14 hw15 hw16 hw17 hw18 hw19 hw20).1 f) y
      = payU c i tb fh hT ⟨(y 0).val, (y 0).isLt⟩ (tl3 y) := by
  exact (congrArg (fun G => arg3.view.read (Elt F) G y) (g_eq c i arg3 harg3 tb fh hw1 hw2 hw3 hw4 hw5 hw6 hw7 hw8 hw9 hw10 hw11 hw12 hw13 hw14 hw15 hw16 hw17 hw18 hw19 hw20 hT f)).trans
    (read_rows_all arg3 harg3 _ f y)

end Cert.KernelIdeal.Roi

end
-- ==== Proof.IdealFrame.lean ====
/-
  The frame run of the RoI-crop program, with its result array named. After grid point t the output block (rows
  160·t … 160·t + 159 of the (8000, 7, 7, 256) result) holds, at (r, h, w, c), the transposed feature map at
  (start₀ n + h, start₁ n + w, b, c) for box n = 20·t + r / 8 and batch entry b = r % 8, where startₐ n is box n's word on
  axis a clamped into [0, 57]: the body's 160 copies write exactly that, row by row. The kernel's invariant between
  points is: its eight semaphores at zero, the transposed feature map and half the table at their contents.
-/
import proofs.«420386_j26250840113278_3_alg».proof.Proof.IdealRunEq
import proofs.«420386_j26250840113278_3_alg».proof.Proof.Spec

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.RoiSpec

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The box array as launched (one device). -/
abbrev boxesA : SB.Idx → BitVec 32 := m (((0 : Dev nD) : Thread nD τ).loc main_arg1)

/-- What the output block holds after grid point `t`. -/
def blockVal (c : Dev nD) (t : ℕ) : S160x7x7x256.Idx → Elt F .f32 := fun y =>
  V m c main_v3 (srcIdx (start (boxesA m) (20 * t + (y 0).val / 8) 0) (start (boxesA m) (20 * t + (y 0).val / 8) 1) ((y 0).val % 8) (tl3 y))

/-- The proof data of the one pipeline on core `c`. -/
def dats (_ : Fin 1) (c : Dev nD) : Dat τ (Elt F) Unit ℕ (Pipeline.UD sig nD τ) ℕ (cfgM m) c where
  A w := V m c (Pipeline.arrRef spec0 w)
  after w t := match w with
    | ⟨0, _⟩ => blockVal m c t.val
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = blockVal m c t.val := by dsimp only [dats]; try rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms m t) fullShare ((dats m 0 c).after 0 t))

/-- The grid is one axis of 50 points: a point's one coordinate is its number. -/
theorem coord_val : ∀ t : Fin grid0.N, ((grid0.coords t) 0).val = t.val := by decide +kernel

theorem sound_body (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  have hT : WordsLe (0 : Dev nD) (grid0.coords t) (tbl m 0) := fun k a hk ha => wordU_le m (grid0.coords t) k a hk ha _
  unfold bodyPre bodyPost bodyAt
  rw [show (dats m 0 0).Φ t.succ = (dats m 0 0).Φ t.castSucc from rfl, after0]
  rw [show (dats m 0 0).Φ t.castSucc = iprop(Pipeline.ΦD osem spec0 H0 (V m) 0 ∗ Pipeline.ΦT pre0 (tbl m) 0) from rfl, PhiD_eq, PhiT_eq]
  unfold Dat.owesAt Pipeline.owesWithin
  rw [show (dats m 0 0).owed t.castSucc = 0 from rfl, show (dats m 0 0).owed t.succ = 0 from rfl]
  unfold owns
  iintro ⟨⟨⟨He, Hg, ⟨Hq2, Hq3, Hq4, Hq5, Hq6, Hq7, Hq8, Hq9⟩, Hh⟩, HT⟩, ⟨%W, -, HW⟩, ⟨%d0, %f0, %hf0, H0⟩⟩
  iapply ((kernelRun (0 : Dev nD) (grid0.coords t) (ms m t) (hs m t) (tbl m 0) (V m 0 main_v3) (hw_1 m (grid0.coords t)) (hw_2 m (grid0.coords t)) (hw_3 m (grid0.coords t)) (hw_4 m (grid0.coords t)) (hw_5 m (grid0.coords t)) (hw_6 m (grid0.coords t)) (hw_7 m (grid0.coords t)) (hw_8 m (grid0.coords t)) (hw_9 m (grid0.coords t)) (hw_10 m (grid0.coords t)) (hw_11 m (grid0.coords t)) (hw_12 m (grid0.coords t)) (hw_13 m (grid0.coords t)) (hw_14 m (grid0.coords t)) (hw_15 m (grid0.coords t)) (hw_16 m (grid0.coords t)) (hw_17 m (grid0.coords t)) (hw_18 m (grid0.coords t)) (hw_19 m (grid0.coords t)) (hw_20 m (grid0.coords t))).2 W _ f0)
  isplitl [H0]; · iexact H0
  isplitl [HT]; · iexact HT
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh]; · iexact Hh
  isplitl [HW]; · iexact HW
  iintro ⟨H0, HT, Hq2, Hq3, Hq4, Hq5, Hq6, Hq7, Hq8, Hq9, Hh, ⟨%W', HW'⟩⟩
  isplitl [He Hg Hq2 Hq3 Hq4 Hq5 Hq6 Hq7 Hq8 Hq9 Hh HT]
  · isplitr [HT]
    · isplitl [He]; · iexact He
      isplitl [Hg]; · iexact Hg
      isplitr [Hh]
      ·
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      · iexact Hh
    · iexact HT
  isplitl [HW']
  · iexists W'; isplitr; · ipureintro; exact fun _ _ => Or.inl trivial
    iexact HW'
  iexists _; isplitr; swap; · iexact H0
  ipureintro
  funext y
  refine (read_run (0 : Dev nD) (grid0.coords t) (ms m t) (hs m t) (tbl m 0) (V m 0 main_v3) (hw_1 m (grid0.coords t)) (hw_2 m (grid0.coords t)) (hw_3 m (grid0.coords t)) (hw_4 m (grid0.coords t)) (hw_5 m (grid0.coords t)) (hw_6 m (grid0.coords t)) (hw_7 m (grid0.coords t)) (hw_8 m (grid0.coords t)) (hw_9 m (grid0.coords t)) (hw_10 m (grid0.coords t)) (hw_11 m (grid0.coords t)) (hw_12 m (grid0.coords t)) (hw_13 m (grid0.coords t)) (hw_14 m (grid0.coords t)) (hw_15 m (grid0.coords t)) (hw_16 m (grid0.coords t)) (hw_17 m (grid0.coords t)) (hw_18 m (grid0.coords t)) (hw_19 m (grid0.coords t)) (hw_20 m (grid0.coords t)) hT f0 y).trans ?_
  refine (payU_apply (0 : Dev nD) (grid0.coords t) (tbl m 0) (V m 0 main_v3) hT ⟨(y 0).val, (y 0).isLt⟩ (tl3 y)).trans ?_
  have hk : (y 0).val / 8 < 20 := row_div_lt ⟨(y 0).val, (y 0).isLt⟩
  have e0 := congrArg BitVec.toNat (wordU_eq m (grid0.coords t) ((y 0).val / 8) 0 hk (by decide) (offW_inb (grid0.coords t) _ 0 hk (by decide)))
  have e1 := congrArg BitVec.toNat (wordU_eq m (grid0.coords t) ((y 0).val / 8) 1 hk (by decide) (offW_inb (grid0.coords t) _ 1 hk (by decide)))
  rw [coord_val t] at e0 e1
  exact congrArg (V m 0 main_v3) (congrArg₂ (fun a b => srcIdx a b ((y 0).val % 8) (tl3 y)) e0 e1)

set_option maxRecDepth 200000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; the result array of the launch ends as the proof data say,
    block by block, every other buffer as the host lines leave it. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_dma_around pcfgs (fun _ => adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keep m)
    (hmain := hmain m Variants.none) (hA := A_eq m) (hpf := V_pre m)
    (hin := fun _ => .rfl) (hout := fun c => by
      rw [show (dats m 0 c).Φ (Fin.last (Pipeline.pin pcfgs (fun _ => adm m) 0).N)
        = iprop(Pipeline.ΦD osem spec0 H0 (V m) c ∗ Pipeline.ΦT pre0 (tbl m) c) from rfl]
      iintro ⟨H, -⟩; iexact H)

end Cert.KernelIdeal.Roi

end
-- ==== Proof.IdealValue.lean ====
/-
  The value of the RoI-crop program, read off its frame run. The launch's result array (8000, 7, 7, 256) is written
  block by block: grid point t writes rows 160·t … 160·t + 159, and row r = 160·t + y holds, at (r, h, w, ch), the
  transposed feature map at (start₀ n + h, start₁ n + w, b, ch) for box n = r / 8 and batch entry b = r % 8 — one
  function of the whole array, of which every point's block is a restriction; the fifty blocks tile the array, so the
  array ends holding that function. The host line after the launch reshapes it to (1000, 8, 7, 7, 256): the result at
  (n, b, h, w, ch) is the array at row 8·n + b, whose box is n and whose batch entry is b. The transposed map at
  (p, q, b, ch) is the feature map at (b, p, q, ch), and a clamped start is at most 57, so start + offset < 64 and the
  remainders in the indices are the sums themselves: the result is the crop. No host line writes an argument.
-/
import proofs.«420386_j26250840113278_3_alg».proof.Proof.IdealFrame
import proofs.«420386_j26250840113278_3_alg».proof.Proof.IdealTable
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.Tactic

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.RoiSpec

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result array as one function of the transposed feature map and the boxes -/

/-- The last three coordinates of an index of the result array. -/
def tl3A (x : S8000x7x7x256.Idx) : S7x7x256.Idx := fun a => match a with
  | ⟨0, _⟩ => ⟨(x 1).val, (x 1).isLt⟩
  | ⟨1, _⟩ => ⟨(x 2).val, (x 2).isLt⟩
  | ⟨2, _⟩ => ⟨(x 3).val, (x 3).isLt⟩

/-- Row r of the (8000, 7, 7, 256) result belongs to box r / 8 and batch entry r % 8: at (r, h, w, ch) it holds the
    transposed feature map at (start₀ (r / 8) + h, start₁ (r / 8) + w, r % 8, ch). -/
def resArr (c : Dev nD) : S8000x7x7x256.Idx → Elt F .f32 := fun x =>
  V m c main_v3 (srcIdx (start (boxesA m) ((x 0).val / 8) 0) (start (boxesA m) ((x 0).val / 8) 1) ((x 0).val % 8) (tl3A x))

/-- The block index of grid point t is (t, 0, 0, 0). -/
theorem idx_map : ∀ t : Fin grid0.N, cc0_transform_1 (grid0.coords t) (0 : Fin 4) = t.val
    ∧ cc0_transform_1 (grid0.coords t) (1 : Fin 4) = 0 ∧ cc0_transform_1 (grid0.coords t) (2 : Fin 4) = 0
    ∧ cc0_transform_1 (grid0.coords t) (3 : Fin 4) = 0 := by decide +kernel

theorem win_index (t : Fin (cfgM m).N) : ((cfgM m).win 0).index t (0 : Fin 4) = t.val
    ∧ ((cfgM m).win 0).index t (1 : Fin 4) = 0 ∧ ((cfgM m).win 0).index t (2 : Fin 4) = 0
    ∧ ((cfgM m).win 0).index t (3 : Fin 4) = 0 := idx_map t

/-- The block index changes from each point to the next, so every point writes its block back. -/
theorem win_flush (t : Fin (cfgM m).N) : ((cfgM m).win 0).flush t = true := by
  have ht : t.val < 50 := t.isLt
  unfold Window.flush
  show (true && (decide (t.val + 1 = 50) || decide (∃ h : t.val + 1 < 50, ((cfgM m).win 0).index ⟨t.val + 1, h⟩ ≠ ((cfgM m).win 0).index t))) = true
  rw [Bool.true_and, Bool.or_eq_true, decide_eq_true_eq, decide_eq_true_eq]
  by_cases h : t.val + 1 = 50
  · exact Or.inl h
  · refine Or.inr ⟨by omega, fun e => ?_⟩
    have e0 : ((cfgM m).win 0).index ⟨t.val + 1, _⟩ (0 : Fin 4) = ((cfgM m).win 0).index t (0 : Fin 4) := congrFun e (0 : Fin 4)
    rw [(win_index m _).1, (win_index m _).1] at e0
    show False
    have : t.val + 1 = t.val := e0
    omega

/-- Where element j of point t's block sits in the array: row 160·t + j₀, the other coordinates unchanged. -/
theorem blk_emb (t : Fin (cfgM m).N) (j : S160x7x7x256.Idx) (x : S8000x7x7x256.Idx)
    (hx : x = (((cfgM m).win 0).blk t).view.emb j) :
    (x 0).val = 160 * t.val + (j 0).val ∧ (x 1).val = (j 1).val ∧ (x 2).val = (j 2).val ∧ (x 3).val = (j 3).val := by
  subst hx
  obtain ⟨i0, i1, i2, i3⟩ := win_index m t
  refine ⟨?_, ?_, ?_, ?_⟩
  · show ((cfgM m).win 0).index t (0 : Fin 4) * 160 + 1 * (j 0).val = _
    omega
  · show ((cfgM m).win 0).index t (1 : Fin 4) * 7 + 1 * (j 1).val = _
    omega
  · show ((cfgM m).win 0).index t (2 : Fin 4) * 7 + 1 * (j 2).val = _
    omega
  · show ((cfgM m).win 0).index t (3 : Fin 4) * 256 + 1 * (j 3).val = _
    omega

/-- An array index in row 160·t + j₀ reads what block t holds at j. -/
theorem resArr_row (c : Dev nD) (x : S8000x7x7x256.Idx) (t : ℕ) (j : S160x7x7x256.Idx)
    (h0 : (x 0).val = 160 * t + (j 0).val) (h1 : (x 1).val = (j 1).val) (h2 : (x 2).val = (j 2).val)
    (h3 : (x 3).val = (j 3).val) : resArr m c x = blockVal m c t j := by
  unfold resArr blockVal
  have q1 : (x 0).val / 8 = 20 * t + (j 0).val / 8 := by rw [h0]; omega
  have q2 : (x 0).val % 8 = (j 0).val % 8 := by rw [h0]; omega
  have q3 : tl3A x = tl3 j := by
    funext a; apply Fin.ext
    match a with
    | ⟨0, _⟩ => exact h1
    | ⟨1, _⟩ => exact h2
    | ⟨2, _⟩ => exact h3
  rw [q1, q2, q3]

/-- What point t writes back is block t of `resArr`. -/
theorem flushed_eq (c : Dev nD) (t : Fin (cfgM m).N) :
    (dats m 0 c).flushed 0 t = (((cfgM m).win 0).blk t).view.read (Elt F) (resArr m c) := by
  show ((cfgM m).win 0).cut (grid0.coords t) ((dats m 0 c).after 0 t) = _
  rw [after0]
  funext j
  show blockVal m c t.val j = resArr m c ((((cfgM m).win 0).blk t).view.emb j)
  obtain ⟨e0, e1, e2, e3⟩ := blk_emb m t j _ rfl
  exact (resArr_row m c _ t.val j e0 e1 e2 e3).symm

/-! ## The blocks tile the array -/

/-- An index of the array is in point t's block iff each coordinate is in the block's range on its axis. -/
theorem mem_blk (t : Fin (cfgM m).N) (i : S8000x7x7x256.Idx) :
    i ∈ (((cfgM m).win 0).blk t).view.set ↔ ∀ a : Fin 4, ((cfgM m).win 0).index t a * S160x7x7x256.size a ≤ (i a).val
      ∧ (i a).val < ((cfgM m).win 0).index t a * S160x7x7x256.size a + S160x7x7x256.size a := by
  have h : (((cfgM m).win 0).blk t).view.set = (((cfgM m).win 0).rect t).set :=
    View.set_slice_whole main_v4 (((cfgM m).win 0).rect t)
  rw [h]
  exact Rect.mem_set_unit

/-- Row r of the array is in the block of point r / 160, which writes back. -/
theorem covered (i : S8000x7x7x256.Idx) :
    ∃ t : Fin (cfgM m).N, ((cfgM m).win 0).flush t = true ∧ i ∈ (((cfgM m).win 0).blk t).view.set := by
  have hi0 : (i 0).val < 8000 := (i 0).isLt
  have hi1 : (i 1).val < 7 := (i 1).isLt
  have hi2 : (i 2).val < 7 := (i 2).isLt
  have hi3 : (i 3).val < 256 := (i 3).isLt
  have hq : (i 0).val / 160 < (cfgM m).N := by show (i 0).val / 160 < 50; omega
  refine ⟨⟨(i 0).val / 160, hq⟩, win_flush m _, ?_⟩
  rw [mem_blk]
  obtain ⟨i0, i1, i2, i3⟩ := win_index m ⟨(i 0).val / 160, hq⟩
  intro a
  match a with
  | ⟨0, _⟩ =>
    show ((cfgM m).win 0).index ⟨(i 0).val / 160, hq⟩ (0 : Fin 4) * 160 ≤ (i 0).val
      ∧ (i 0).val < ((cfgM m).win 0).index ⟨(i 0).val / 160, hq⟩ (0 : Fin 4) * 160 + 160
    rw [i0]; show (i 0).val / 160 * 160 ≤ (i 0).val ∧ (i 0).val < (i 0).val / 160 * 160 + 160; omega
  | ⟨1, _⟩ =>
    show ((cfgM m).win 0).index ⟨(i 0).val / 160, hq⟩ (1 : Fin 4) * 7 ≤ (i 1).val
      ∧ (i 1).val < ((cfgM m).win 0).index ⟨(i 0).val / 160, hq⟩ (1 : Fin 4) * 7 + 7
    rw [i1]; omega
  | ⟨2, _⟩ =>
    show ((cfgM m).win 0).index ⟨(i 0).val / 160, hq⟩ (2 : Fin 4) * 7 ≤ (i 2).val
      ∧ (i 2).val < ((cfgM m).win 0).index ⟨(i 0).val / 160, hq⟩ (2 : Fin 4) * 7 + 7
    rw [i2]; omega
  | ⟨3, _⟩ =>
    show ((cfgM m).win 0).index ⟨(i 0).val / 160, hq⟩ (3 : Fin 4) * 256 ≤ (i 3).val
      ∧ (i 3).val < ((cfgM m).win 0).index ⟨(i 0).val / 160, hq⟩ (3 : Fin 4) * 256 + 256
    rw [i3]; omega

/-- So the result array of the launch ends holding `resArr`. -/
theorem final (c : Dev nD) : (dats m 0 c).arrAt 0 (cfgM m).N = resArr m c :=
  (dats m 0 c).arrAt_eq_of_cover 0 (resArr m c) (fun t _ => flushed_eq m c t) (covered m)

/-! ## The reshape after the launch, and the feature map behind the transpose -/

theorem v5_rest : main_v5 ∈ Pipeline.restRefs sig spec0 := Pipeline.mem_restRefs_of main_v5 (by decide) (by decide)
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

/-- The array index (8·n + b, h, w, ch) of the result index (n, b, h, w, ch). -/
def rowOf (j : SO.Idx) : S8000x7x7x256.Idx := fun a => match a with
  | ⟨0, _⟩ => ⟨8 * (j 0).val + (j 1).val, by
      have h0 : (j 0).val < 1000 := (j 0).isLt
      have h1 : (j 1).val < 8 := (j 1).isLt
      show 8 * (j 0).val + (j 1).val < 8000
      omega⟩
  | ⟨1, _⟩ => ⟨(j 2).val, (j 2).isLt⟩
  | ⟨2, _⟩ => ⟨(j 3).val, (j 3).isLt⟩
  | ⟨3, _⟩ => ⟨(j 4).val, (j 4).isLt⟩

/-- The reshape to (1000, 8, 7, 7, 256) read at (n, b, h, w, ch) is the array at row 8·n + b: both sit at the same
    row-major position. -/
theorem reshape_read {α : Type} (x : S8000x7x7x256.Idx → α) (j : SO.Idx) :
    shapeCast S1000x8x7x7x256 x shapeCasts_S8000x7x7x256_S1000x8x7x7x256 j = x (rowOf j) := by
  refine shapeCast_apply x _ j (rowOf j) ?_
  rw [Shape.rowMajor_val_four, Shape.rowMajor_val_five]
  show (((8 * (j 0).val + (j 1).val) * 7 + (j 2).val) * 7 + (j 3).val) * 256 + (j 4).val
    = ((((j 0).val * 8 + (j 1).val) * 7 + (j 2).val) * 7 + (j 3).val) * 256 + (j 4).val
  omega

/-- What the region leaves in the launch's result array. -/
theorem tail_arr (c : Dev nD) :
    Pipeline.withArrays (Pipeline.pin pcfgs (fun _ => adm m) 0).spec c (V0 m c)
      (fun w => (dats m 0 c).arrAt w (Pipeline.pin pcfgs (fun _ => adm m) 0).N) (Proc.devRef .tc main_v4) = resArr m c :=
  (Pipeline.withArrays_arr spec0 winFacts0.arr_inj c _ _ 0).trans (final m c)

/-- The transposed feature map as the launch finds it. -/
theorem V_v3 (c : Dev nD) :
    (V m c main_v3 : S64x64x8x256.Idx → Elt F .f32)
      = transpose S64x64x8x256 [1, 2, 0, 3] (m ((c.tc : Thread nD τ).loc main_arg0)) transposes_S8x64x64x256_S64x64x8x256_1_2_0_3 := by
  dsimp only [V, V0]
  simp only [hostOps0, hostOps0_1, hostOps0_2, List.flatten_cons, List.flatten_nil, List.append_nil, List.cons_append,
    List.nil_append]
  after_results

/-- The transposed map at (p, q, b, ch) is the feature map at (b, p, q, ch). -/
theorem V_v3_apply (c : Dev nD) (p q b ch : ℕ) (hp : p < 64) (hq : q < 64) (hb : b < 8) (hch : ch < 256)
    (k : S64x64x8x256.Idx) (k0 : (k 0).val = p) (k1 : (k 1).val = q) (k2 : (k 2).val = b) (k3 : (k 3).val = ch) :
    (V m c main_v3 : S64x64x8x256.Idx → Elt F .f32) k = m ((c.tc : Thread nD τ).loc main_arg0) (fidx b p q ch) := by
  rw [V_v3]
  refine transpose_apply [1, 2, 0, 3] _ transposes_S8x64x64x256_S64x64x8x256_1_2_0_3 k (fidx b p q ch) ?_
  intro a
  match a with
  | ⟨0, _⟩ => show p % 64 = (k 0).val; rw [k0, Nat.mod_eq_of_lt hp]
  | ⟨1, _⟩ => show q % 64 = (k 1).val; rw [k1, Nat.mod_eq_of_lt hq]
  | ⟨2, _⟩ => show b % 8 = (k 2).val; rw [k2, Nat.mod_eq_of_lt hb]
  | ⟨3, _⟩ => show ch % 256 = (k 3).val; rw [k3, Nat.mod_eq_of_lt hch]

/-- The array at row 8·n + b is the crop at (n, b, ·, ·, ·): the row's box is n and its batch entry b, and a start is at
    most 57, so that start + offset stays below 64. -/
theorem resArr_crop (c : Dev nD) (j : SO.Idx) :
    resArr m c (rowOf j)
      = crop (α := Elt F .f32) (m ((c.tc : Thread nD τ).loc main_arg0)) (m ((c.tc : Thread nD τ).loc main_arg1)) j := by
  obtain rfl : c = 0 := Subsingleton.elim _ _
  have h0 : (j 0).val < 1000 := (j 0).isLt
  have h1 : (j 1).val < 8 := (j 1).isLt
  have h2 : (j 2).val < 7 := (j 2).isLt
  have h3 : (j 3).val < 7 := (j 3).isLt
  have h4 : (j 4).val < 256 := (j 4).isLt
  have s0 := start_le (boxesA m) (j 0).val 0
  have s1 := start_le (boxesA m) (j 0).val 1
  unfold resArr crop
  have q1 : (rowOf j 0).val / 8 = (j 0).val := by show (8 * (j 0).val + (j 1).val) / 8 = _; omega
  have q2 : (rowOf j 0).val % 8 = (j 1).val := by show (8 * (j 0).val + (j 1).val) % 8 = _; omega
  rw [q1, q2]
  refine V_v3_apply m 0 (start (boxesA m) (j 0).val 0 + (j 2).val) (start (boxesA m) (j 0).val 1 + (j 3).val) (j 1).val (j 4).val
    (by omega) (by omega) h1 h4 _ ?_ ?_ ?_ ?_
  · show (start (boxesA m) (j 0).val 0 + (j 2).val) % 64 = _
    exact Nat.mod_eq_of_lt (by omega)
  · show (start (boxesA m) (j 0).val 1 + (j 3).val) % 64 = _
    exact Nat.mod_eq_of_lt (by omega)
  · show (j 1).val % 8 = _
    exact Nat.mod_eq_of_lt h1
  · rfl

theorem tail_v5 (c : Dev nD) :
    Pipeline.afterTail pcfgs (fun _ => adm m) (dats m) 0 (V0 m) [hostOps1] c main_v5
      = crop (α := Elt F .f32) (m ((c.tc : Thread nD τ).loc main_arg0)) (m ((c.tc : Thread nD τ).loc main_arg1)) := by
  unfold Pipeline.afterTail
  show StableHlo.after hostOps1 _ (Proc.devRef .tc main_v5) = _
  after_results
  funext j
  show shapeCast S1000x8x7x7x256 (Pipeline.withArrays (Pipeline.pin pcfgs (fun _ => adm m) 0).spec c (V0 m c)
      (fun w => (dats m 0 c).arrAt w (Pipeline.pin pcfgs (fun _ => adm m) 0).N) (Proc.devRef .tc main_v4))
      shapeCasts_S8000x7x7x256_S1000x8x7x7x256 j = _
  rw [tail_arr, reshape_read]
  exact resArr_crop m c j

/-! ## The arguments, and the run -/

/-- No host line before the launch writes the feature map, -/
theorem V0_arg0 (c : Dev nD) : V m c main_arg0 = m ((c.tc : Thread nD τ).loc main_arg0) := by
  dsimp only [V, V0]
  simp only [hostOps0, hostOps0_1, hostOps0_2, List.flatten_cons, List.flatten_nil, List.append_nil, List.cons_append,
    List.nil_append]
  after_results

/-- nor the box array. -/
theorem V0_arg1 (c : Dev nD) : V m c main_arg1 = m ((c.tc : Thread nD τ).loc main_arg1) := by
  dsimp only [V, V0]
  simp only [hostOps0, hostOps0_1, hostOps0_2, List.flatten_cons, List.flatten_nil, List.append_nil, List.cons_append,
    List.nil_append]
  after_results

theorem arr_ne_arg0 : ∀ w, Pipeline.arrRef spec0 w ≠ main_arg0 := by decide
theorem arr_ne_arg1 : ∀ w, Pipeline.arrRef spec0 w ≠ main_arg1 := by decide

/-- The reshape after the launch writes neither, and neither is the launch's result array. -/
theorem tail_arg0 (c : Dev nD) :
    Pipeline.afterTail pcfgs (fun _ => adm m) (dats m) 0 (V0 m) [hostOps1] c main_arg0 = m ((c.tc : Thread nD τ).loc main_arg0) := by
  unfold Pipeline.afterTail
  show StableHlo.after hostOps1 _ (Proc.devRef .tc main_arg0) = _
  after_results
  exact (Pipeline.withArrays_of_ne spec0 c (V0 m c) _ main_arg0 arr_ne_arg0).trans (V0_arg0 m c)

theorem tail_arg1 (c : Dev nD) :
    Pipeline.afterTail pcfgs (fun _ => adm m) (dats m) 0 (V0 m) [hostOps1] c main_arg1 = m ((c.tc : Thread nD τ).loc main_arg1) := by
  unfold Pipeline.afterTail
  show StableHlo.after hostOps1 _ (Proc.devRef .tc main_arg1) = _
  after_results
  exact (Pipeline.withArrays_of_ne spec0 c (V0 m c) _ main_arg1 arr_ne_arg1).trans (V0_arg1 m c)

/-- Every weakly fair execution of the program terminates with the crop of the feature map by the boxes in the result
    buffer, the two arguments as they were. -/
theorem kernel_run : θ_run defs (onTc (τ := τ) (main (F := F))) ⟨m, fun _ => 0, ρ⟩ (fun r => ∀ c : Dev nD,
      r.2.mem ((c.tc : Thread nD τ).loc main_v5) = crop (α := Elt F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v5 v5_rest).trans (tail_v5 m c),
      ((h c).2 main_arg0 arg0_rest).trans (tail_arg0 m c),
      ((h c).2 main_arg1 arg1_rest).trans (tail_arg1 m c)⟩) (run_main m ρ)

end Cert.KernelIdeal.Roi

end
-- ==== Proof.BitsSetup.lean ====
/-
  The program around its one kernel launch, for the frame run of the RoI crop: the host lines before the launch clamp the
  box starts into [0, 57], transpose them into the (2, 1000) table the kernel reads from scalar memory, and transpose the
  feature map to (H, W, B, C); the launch runs 50 grid points; one host line after it reshapes the (8000, 7, 7, 256)
  result. Here: the buffers' contents when the launch is entered (the host lines applied to the launch memory), the
  reduction of the program to "launch, then the reshape", the table as the kernel is handed it, the eight transfer
  semaphores the kernel owns, and the one array it reads by its own transfers (the transposed feature map).
-/
import proofs.«420386_j26250840113278_3_alg».proof.Proof.Gen.Kernel.Launch
import proofs.«420386_j26250840113278_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the launch -/

/-- Core `c`'s buffer contents when the launch is entered: the launch memory after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the launch continued by the reshape, at the contents after the earlier host lines. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The table of box starts -/

/-- The table's contents when the launch is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table as admissible contents (the launch asks nothing of it: no window's index map reads it). -/
abbrev adm : (pcfg0 (F := F)).Adm := ⟨tbl m, trivial⟩
abbrev cfgM : Pipeline.Cfg sig Λ₀ := cfg0 (adm m)

/-- The table as the body is handed it: its whole buffer in scalar memory. -/
abbrev tbM : Memref sig .tc .smem S2x1000 .i32 := Memref.whole main_v2
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## What the kernel moves by itself -/

/-- The transposed feature map, left in HBM and read by the kernel's own transfers. -/
abbrev hbM : Memref sig .tc .hbm S64x64x8x256 .f32 := Memref.whole main_v3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's eight transfer semaphores, one per batch entry. -/
abbrev osem : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 2) 0 ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem [0, 1, 2, 3, 4, 5, 6, 7] (by decide) (by decide)]; rfl

def H0 : Finset (Ref sig .tc) := {main_v3}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(hbPt c hbM (V m c main_v3)) := by
  rw [BI.bigSep_eq_bigSepL_of_eq [main_v3] (by decide) (by decide)]; rfl

/-- The invariant the kernel body works under, conjunct by conjunct: the generator register, the eight semaphores at
    zero, the transposed feature map at its contents. -/
theorem PhiD_eq (c : Dev nD) :
    (Pipeline.ΦD osem spec0 H0 (V m) c : sProp 𝕄)
      = iprop((BI.emp : sProp 𝕄) ∗ (∃ r, prngReg c r)
          ∗ iprop(semVal ((c : Thread nD τ), SemLoc.dma 2) 0 ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) ∗ iprop(hbPt c hbM (V m c main_v3))) := by
  rw [Pipeline.ΦD_eq, scopedRest0_eq, ownSems_eq, hbmPts_eq]

/-! ## The staging buffer of the one (output) window, and the body at a point -/

abbrev ms (t : Fin (cfgM m).N) : Memref sig .tc .vmem S160x7x7x256 .f32 := spec0_0.stage ((cfgM m).slots t 0)
abbrev hs (t : Fin (cfgM m).N) : (ms m t).IsWhole := hstage0_0 (((cfgM m).slots t 0).cast nbuf0_0)

/-- The kernel body at point `t`, on what the pipeline calls it with. -/
abbrev bodyAt (t : Fin (cfgM m).N) : Prog (TpuEff nD τ sig (Elt F) Λ₀ .tc) PUnit :=
  cc0__roi_kernel (grid0.coords t) (Memref.whole main_v2) (Memref.isWhole_whole _) (Memref.whole main_v3) (Memref.isWhole_whole _)
    (ms m t) (hs m t) cc0_scratch0

/-! ## The host line after the launch -/

/-- The reshape after the launch touches the result array and its own result only: not the table, not the feature map. -/
theorem sfx_sub : ∀ ops ∈ ([hostOps1] : List (List (HloOp τ sig (Elt F)))), ∀ op ∈ ops,
    op.bufs ⊆ Pipeline.tailRefsBut sig pre0 spec0 H0 := by
  intro ops hops op hop
  obtain rfl : ops = hostOps1 := by simpa using hops
  obtain rfl := List.mem_singleton.mp hop
  refine Pipeline.sub_tailRefsBut pre0 spec0 H0 _ (StableHlo.reshape_bufs_sub ..) ?_ ?_
  · intro k; fin_cases k
    rw [StableHlo.reshape_bufs]; simp only [Finset.mem_insert, Finset.mem_singleton, not_or]
    exact ⟨StableHlo.devRef_ne_of_ne (by decide), StableHlo.devRef_ne_of_ne (by decide)⟩
  · intro b hb
    obtain rfl : b = main_v3 := by simpa [H0] using hb
    rw [StableHlo.reshape_bufs]; simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  obtain rfl : ops = hostOps1 := by simpa using hops
  obtain rfl := List.mem_singleton.mp hop
  rfl
theorem sfx_keep : ∀ ops ∈ ([hostOps1] : List (List (HloOp τ sig (Elt F)))), ∀ op ∈ ops, ∀ w,
    Proc.devRef .tc (Pipeline.arrRef (cfgM m).spec w) ∉ op.writes := by
  intro ops hops op hop w
  obtain rfl : ops = hostOps1 := by simpa using hops
  obtain rfl := List.mem_singleton.mp hop
  fin_cases w
  rw [StableHlo.reshape_writes, Finset.mem_singleton]
  exact StableHlo.devRef_ne_of_ne (show Pipeline.arrRef spec0 (0 : Fin 1) ≠ main_v5 by decide)

end Cert.Kernel.Roi

end
-- ==== Proof.BitsRun.lean ====
/-
  One grid point of the RoI-crop kernel, run on symbolic operands. The body is straight-line: for each of the 20 boxes
  of the point it reads the box's two start words from the table, and then starts eight copies — one per batch entry b,
  each of the 7×7×256 window of the transposed feature map at (start₀, start₁, b) into row 8·box + b of the output
  block — on eight semaphores, and waits for the eight before it goes on. Each copy lends its source window and its
  destination row until its wait; no two copies in flight share a row or a semaphore. What the run finds is how the
  block's contents end up as a function `g` of what they were: 160 rows written one after the other.
  The side conditions the body assumes of the words it read (each start + 7 ≤ 64) are hypotheses here.
-/
import proofs.«420386_j26250840113278_3_alg».proof.Proof.BitsSetup

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (Pipeline.UD sig nD τ) ℕ

set_option sl_exec.dmaWindow true in
set_option sl_exec.dmaWindowSet true in
set_option maxHeartbeats 40000000 in
/-- The block's contents after the body as a function of its contents before, WITH the run: from the block held whole,
    half the table, the eight semaphores at zero, the transposed feature map and the core's waits, the body runs to the
    continuation with the same held again, the block at the written contents, the waits recorded. -/
noncomputable def kernelRun (c : Dev nD) (i : grid0.Coords) (arg3 : Memref sig .tc .vmem S160x7x7x256 .f32) (harg3 : arg3.IsWhole)
    (tb : TbBuf (F := F) c tbM) (fh : HbBuf (F := F) c hbM)
    (hw1 : k0_chk1 (tbM.view.readAt (Elt F) (Rect.unit (s := S2x1000) (k0_off1 i) S1x1.size (k0_off1_inb i)).toLoadRect tb (Shape.Idx.first (numel1_S1x1.symm ▸ Nat.one_pos)))
      (tbM.view.readAt (Elt F) (Rect.unit (s := S2x1000) (k0_off2 i) S1x1.size (k0_off2_inb i)).toLoadRect tb (Shape.Idx.first (numel1_S1x1.symm ▸ Nat.one_pos))))
    (hw2 : k0_chk2 (tbM.view.readAt (Elt F) (Rect.unit (s := S2x1000) (k0_off11 i) S1x1.size (k0_off11_inb i)).toLoadRect tb (Shape.Idx.first (numel1_S1x1.symm ▸ Nat.one_pos)))
      (tbM.view.readAt (Elt F) (Rect.unit (s := S2x1000) (k0_off12 i) S1x1.size (k0_off12_inb i)).toLoadRect tb (Shape.Idx.first (numel1_S1x1.symm ▸ Nat.one_pos))))
    (hw3 : k0_chk3 (tbM.view.readAt (Elt F) (Rect.unit (s := S2x1000) (k0_off21 i) S1x1.size (k0_off21_inb i)).toLoadRect tb (Shape.Idx.first (numel1_S1x1.symm ▸ Nat.one_pos)))
      (tbM.view.readAt (Elt F) (Rect.unit (s := S2x1000) (k0_off22 i) S1x1.size (k0_off22_inb i)).toLoadRect tb (Shape.Idx.first (numel1_S1x1.symm ▸ Nat.one_pos))))
    (hw4 : k0_chk4 (tbM.view.readAt (Elt F) (Rect.unit (s := S2x1000) (k0_off31 i) S1x1.size (k0_off31_inb i)).toLoadRect tb (Shape.Idx.first (numel1_S1x1.symm ▸ Nat.one_pos)))
      (tbM.view.readAt (Elt F) (Rect.unit (s := S2x1000) (k0_off32 i) S1x1.size (k0_off32_inb i)).toLoadRect tb (Shape.Idx.first (numel1_S1x1.symm ▸ Nat.one_pos))))
    (hw5 : k0_chk5 (tbM.view.readAt (Elt F) (Rect.unit (s := S2x1000) (k0_off41 i) S1x1.size (k0_off41_inb i)).toLoadRect tb (Shape.Idx.first (numel1_S1x1.symm ▸ Nat.one_pos)))
      (tbM.view.readAt (Elt F) (Rect.unit (s := S2x1000) (k0_off42 i) S1x1.size (k0_off42_inb i)).toLoadRect tb (Shape.Idx.first (numel1_S1x1.symm ▸ Nat.one_pos))))
    (hw6 : k0_chk6 (tbM.view.readAt (Elt F) (Rect.unit (s := S2x1000) (k0_off51 i) S1x1.size (k0_off51_inb i)).toLoadRect tb (Shape.Idx.first (numel1_S1x1.symm ▸ Nat.one_pos)))
      (tbM.view.readAt (Elt F) (Rect.unit (s := S2x1000) (k0_off52 i) S1x1.size (k0_off52_inb i)).toLoadRect tb (Shape.Idx.first (numel1_S1x1.symm ▸ Nat.one_pos))))
    (hw7 : k0_chk7 (tbM.view.readAt (Elt F) (Rect.unit (s := S2x1000) (k0_off61 i) S1x1.size (k0_off61_inb i)).toLoadRect tb (Shape.Idx.first (numel1_S1x1.symm ▸ Nat.one_pos)))
      (tbM.view.readAt (Elt F) (Rect.unit (s := S2x1000) (k0_off62 i) S1x1.size (k0_off62_inb i)).toLoadRect tb (Shape.Idx.first (numel1_S1x1.symm ▸ Nat.one_pos))))
    (hw8 : k0_chk8 (tbM.view.readAt (Elt F) (Rect.unit (s := S2x1000) (k0_off71 i) S1x1.size (k0_off71_inb i)).toLoadRect tb (Shape.Idx.first (numel1_S1x1.symm ▸ Nat.one_pos)))
      (tbM.view.readAt (Elt F) (Rect.unit (s := S2x1000) (k0_off72 i) S1x1.size (k0_off72_inb i)).toLoadRect tb (Shape.Idx.first (numel1_S1x1.symm ▸ Nat.one_pos))))
    (hw9 : k0_chk9 (tbM.view.readAt (Elt F) (Rect.unit (s := S2x1000) (k0_off81 i) S1x1.size (k0_off81_inb i)).toLoadRect tb (Shape.Idx.first (numel1_S1x1.symm ▸ Nat.one_pos)))
      (tbM.view.readAt (Elt F) (Rect.unit (s := S2x1000) (k0_off82 i) S1x1.size (k0_off82_inb i)).toLoadRect tb (Shape.Idx.first (numel1_S1x1.symm ▸ Nat.one_pos))))
    (hw10 : k0_chk10 (tbM.view.readAt (Elt F) (Rect.unit (s := S2x1000) (k0_off91 i) S1x1.size (k0_off91_inb i)).toLoadRect tb (Shape.Idx.first (numel1_S1x1.symm ▸ Nat.one_pos)))
      (tbM.view.readAt (Elt F) (Rect.unit (s := S2x1000) (k0_off92 i) S1x1.size (k0_off92_inb i)).toLoadRect tb (Shape.Idx.first (numel1_S1x1.symm ▸ Nat.one_pos))))
    (hw11 : k0_chk11 (tbM.view.readAt (Elt F) (Rect.unit (s := S2x1000) (k0_off101 i) S1x1.size (k0_off101_inb i)).toLoadRect tb (Shape.Idx.first (numel1_S1x1.symm ▸ Nat.one_pos)))
      (tbM.view.readAt (Elt F) (Rect.unit (s := S2x1000) (k0_off102 i) S1x1.size (k0_off102_inb i)).toLoadRect tb (Shape.Idx.first (numel1_S1x1.symm ▸ Nat.one_pos))))
    (hw12 : k0_chk12 (tbM.view.readAt (Elt F) (Rect.unit (s := S2x1000) (k0_off111 i) S1x1.size (k0_off111_inb i)).toLoadRect tb (Shape.Idx.first (numel1_S1x1.symm ▸ Nat.one_pos)))
      (tbM.view.readAt (Elt F) (Rect.unit (s := S2x1000) (k0_off112 i) S1x1.size (k0_off112_inb i)).toLoadRect tb (Shape.Idx.first (numel1_S1x1.symm ▸ Nat.one_pos))))
    (hw13 : k0_chk13 (tbM.view.readAt (Elt F) (Rect.unit (s := S2x1000) (k0_off121 i) S1x1.size (k0_off121_inb i)).toLoadRect tb (Shape.Idx.first (numel1_S1x1.symm ▸ Nat.one_pos)))
      (tbM.view.readAt (Elt F) (Rect.unit (s := S2x1000) (k0_off122 i) S1x1.size (k0_off122_inb i)).toLoadRect tb (Shape.Idx.first (numel1_S1x1.symm ▸ Nat.one_pos))))
    (hw14 : k0_chk14 (tbM.view.readAt (Elt F) (Rect.unit (s := S2x1000) (k0_off131 i) S1x1.size (k0_off131_inb i)).toLoadRect tb (Shape.Idx.first (numel1_S1x1.symm ▸ Nat.one_pos)))
      (tbM.view.readAt (Elt F) (Rect.unit (s := S2x1000) (k0_off132 i) S1x1.size (k0_off132_inb i)).toLoadRect tb (Shape.Idx.first (numel1_S1x1.symm ▸ Nat.one_pos))))
    (hw15 : k0_chk15 (tbM.view.readAt (Elt F) (Rect.unit (s := S2x1000) (k0_off141 i) S1x1.size (k0_off141_inb i)).toLoadRect tb (Shape.Idx.first (numel1_S1x1.symm ▸ Nat.one_pos)))
      (tbM.view.readAt (Elt F) (Rect.unit (s := S2x1000) (k0_off142 i) S1x1.size (k0_off142_inb i)).toLoadRect tb (Shape.Idx.first (numel1_S1x1.symm ▸ Nat.one_pos))))
    (hw16 : k0_chk16 (tbM.view.readAt (Elt F) (Rect.unit (s := S2x1000) (k0_off151 i) S1x1.size (k0_off151_inb i)).toLoadRect tb (Shape.Idx.first (numel1_S1x1.symm ▸ Nat.one_pos)))
      (tbM.view.readAt (Elt F) (Rect.unit (s := S2x1000) (k0_off152 i) S1x1.size (k0_off152_inb i)).toLoadRect tb (Shape.Idx.first (numel1_S1x1.symm ▸ Nat.one_pos))))
    (hw17 : k0_chk17 (tbM.view.readAt (Elt F) (Rect.unit (s := S2x1000) (k0_off161 i) S1x1.size (k0_off161_inb i)).toLoadRect tb (Shape.Idx.first (numel1_S1x1.symm ▸ Nat.one_pos)))
      (tbM.view.readAt (Elt F) (Rect.unit (s := S2x1000) (k0_off162 i) S1x1.size (k0_off162_inb i)).toLoadRect tb (Shape.Idx.first (numel1_S1x1.symm ▸ Nat.one_pos))))
    (hw18 : k0_chk18 (tbM.view.readAt (Elt F) (Rect.unit (s := S2x1000) (k0_off171 i) S1x1.size (k0_off171_inb i)).toLoadRect tb (Shape.Idx.first (numel1_S1x1.symm ▸ Nat.one_pos)))
      (tbM.view.readAt (Elt F) (Rect.unit (s := S2x1000) (k0_off172 i) S1x1.size (k0_off172_inb i)).toLoadRect tb (Shape.Idx.first (numel1_S1x1.symm ▸ Nat.one_pos))))
    (hw19 : k0_chk19 (tbM.view.readAt (Elt F) (Rect.unit (s := S2x1000) (k0_off181 i) S1x1.size (k0_off181_inb i)).toLoadRect tb (Shape.Idx.first (numel1_S1x1.symm ▸ Nat.one_pos)))
      (tbM.view.readAt (Elt F) (Rect.unit (s := S2x1000) (k0_off182 i) S1x1.size (k0_off182_inb i)).toLoadRect tb (Shape.Idx.first (numel1_S1x1.symm ▸ Nat.one_pos))))
    (hw20 : k0_chk20 (tbM.view.readAt (Elt F) (Rect.unit (s := S2x1000) (k0_off191 i) S1x1.size (k0_off191_inb i)).toLoadRect tb (Shape.Idx.first (numel1_S1x1.symm ▸ Nat.one_pos)))
      (tbM.view.readAt (Elt F) (Rect.unit (s := S2x1000) (k0_off192 i) S1x1.size (k0_off192_inb i)).toLoadRect tb (Shape.Idx.first (numel1_S1x1.symm ▸ Nat.one_pos)))) :
    { g : BufTy.Contents (Elt F) arg3.view.ty → BufTy.Contents (Elt F) arg3.view.ty //
      ∀ (W : Waits sig Unit) (K : PUnit → sProp 𝕄) (f : BufTy.Contents (Elt F) arg3.view.ty),
        iprop((arg3.view.loc (c : Thread nD τ) ↦[arg3.view.set]{fullShare} f) ∗ tbPt c tbM tb
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ hbPt c hbM fh ∗ owes (c : Thread nD τ) 0 W
            ∗ (iprop((arg3.view.loc (c : Thread nD τ) ↦[arg3.view.set]{fullShare} g f) ∗ tbPt c tbM tb
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ hbPt c hbM fh ∗ (∃ W', owes (c : Thread nD τ) 0 W')) -∗ K ⟨⟩))
          ⊢ wp frame (wpE (defs₀ (F := F)) Variants.none c none) Set.univ
              (cc0__roi_kernel i tbM (Memref.isWhole_whole _) hbM (Memref.isWhole_whole _) arg3 harg3 cc0_scratch0) K } := by
  refine ⟨?_, fun W K f => ?run⟩
  case run =>
    simp only [cc0__roi_kernel_eq_skeleton]; unfold cc0__roi_kernel_skel
    iintro ⟨H1, HT, Hq2, Hq3, Hq4, Hq5, Hq6, Hq7, Hq8, Hq9, Hh, HW, Hk⟩
    sl_exec_parts (disch := first | sl_exact hw1 | sl_exact hw2 | sl_exact hw3 | sl_exact hw4 | sl_exact hw5 | sl_exact hw6 | sl_exact hw7 | sl_exact hw8 | sl_exact hw9 | sl_exact hw10 | sl_exact hw11 | sl_exact hw12 | sl_exact hw13 | sl_exact hw14 | sl_exact hw15 | sl_exact hw16 | sl_exact hw17 | sl_exact hw18 | sl_exact hw19 | sl_exact hw20)
    sl_step
    iapply Hk
    isplitl [H1]; · iexact H1
    isplitl [HT]; · iexact HT
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh]; · iexact Hh
    iexists _; iexact HW

end Cert.Kernel.Roi

end
-- ==== Proof.BitsLayers.lean ====
/-
  The output block as 160 rows written one after the other. Row r of the (160, 7, 7, 256) block is the slice at
  (r, 0, 0, 0) of extent (1, 7, 7, 256) with its unit axis dropped; the copy into row r = 8·k + b brings the 7×7×256
  window of the transposed feature map that starts at (w₀, w₁, b, 0), where w₀, w₁ are the two table words of box k of
  the grid point. Writing row r changes the block exactly on the indices whose first coordinate is r; so after the 160
  writes the block read at (r, h, w, c) is the feature map at (w₀ + h, w₁ + w, b, c), whatever the block held before.
-/
import proofs.«420386_j26250840113278_3_alg».proof.Proof.BitsSetup

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-! ## The rows of the block -/

theorem row_inb (r : ℕ) (h : r < 160) : ∀ a, (![r, 0, 0, 0] : Fin 4 → ℕ) a + S1x7x7x256.size a ≤ S160x7x7x256.size a := by
  intro a; fin_cases a
  · show r + 1 ≤ 160; omega
  · show 0 + 7 ≤ 7; omega
  · show 0 + 7 ≤ 7; omega
  · show 0 + 256 ≤ 256; omega

/-- Row `r` of the block as the body names it. -/
abbrev dstM (arg3 : Memref sig .tc .vmem S160x7x7x256 .f32) (r : Fin 160) : Memref sig .tc .vmem S7x7x256 .f32 :=
  (arg3.slice (Rect.unit (s := S160x7x7x256) ![r.val, 0, 0, 0] S1x7x7x256.size (row_inb r.val r.isLt)) (fun _ => rfl)).squeeze
    S7x7x256 squeezes_S1x7x7x256_S7x7x256

/-- The block's contents after `p` is written into row `r`. -/
abbrev rowW (arg3 : Memref sig .tc .vmem S160x7x7x256 .f32) (r : Fin 160) (acc : BufTy.Contents (Elt F) arg3.view.ty)
    (p : S7x7x256.Idx → Elt F .f32) : BufTy.Contents (Elt F) arg3.view.ty :=
  View.write (Elt F) (dstM arg3 r).view acc p Finset.univ

/-- Rows 0 … n−1 written in that order over `f`, row `r` with `pay r`. -/
def rowsUpTo (arg3 : Memref sig .tc .vmem S160x7x7x256 .f32) (pay : Fin 160 → S7x7x256.Idx → Elt F .f32)
    (f : BufTy.Contents (Elt F) arg3.view.ty) : (n : ℕ) → n ≤ 160 → BufTy.Contents (Elt F) arg3.view.ty
  | 0, _ => f
  | n + 1, h => rowW arg3 ⟨n, h⟩ (rowsUpTo arg3 pay f n (Nat.le_of_succ_le h)) (pay ⟨n, h⟩)

/-- The last three coordinates of a block index. -/
def tl3 (y : S160x7x7x256.Idx) : S7x7x256.Idx := fun a => match a with
  | ⟨0, _⟩ => ⟨(y 1).val, (y 1).isLt⟩
  | ⟨1, _⟩ => ⟨(y 2).val, (y 2).isLt⟩
  | ⟨2, _⟩ => ⟨(y 3).val, (y 3).isLt⟩

/-- Row `r` of the block, the row number a plain natural number. -/
abbrev dstM' (arg3 : Memref sig .tc .vmem S160x7x7x256 .f32) (r : ℕ) (hr : ∀ a, (![r, 0, 0, 0] : Fin 4 → ℕ) a + S1x7x7x256.size a ≤ S160x7x7x256.size a) : Memref sig .tc .vmem S7x7x256 .f32 :=
  (arg3.slice (Rect.unit (s := S160x7x7x256) ![r, 0, 0, 0] S1x7x7x256.size hr) (fun _ => rfl)).squeeze S7x7x256 squeezes_S1x7x7x256_S7x7x256

/-- The block index (r, z₀, z₁, z₂). -/
def rowIdx (r : ℕ) (hr : r < 160) (z : S7x7x256.Idx) : S160x7x7x256.Idx := fun a => match a with
  | ⟨0, _⟩ => ⟨r, hr⟩
  | ⟨1, _⟩ => ⟨(z 0).val, (z 0).isLt⟩
  | ⟨2, _⟩ => ⟨(z 1).val, (z 1).isLt⟩
  | ⟨3, _⟩ => ⟨(z 2).val, (z 2).isLt⟩

/-- Element z of row `r` is the block's element (r, z₀, z₁, z₂): dropping the leading unit axis puts the coordinate 0
    in front of z, and the slice adds the offsets (r, 0, 0, 0). -/
theorem emb_dstM' (arg3 : Memref sig .tc .vmem S160x7x7x256 .f32) (r : ℕ)
    (hr : ∀ a, (![r, 0, 0, 0] : Fin 4 → ℕ) a + S1x7x7x256.size a ≤ S160x7x7x256.size a) (z : S7x7x256.Idx) :
    (dstM' arg3 r hr).view.emb z = arg3.view.emb (rowIdx r (by have := hr 0; exact this) z) := by
  show arg3.view.emb ((Rect.unit (s := S160x7x7x256) ![r, 0, 0, 0] S1x7x7x256.size hr).emb
    (Shape.reshapeEquiv squeezes_S1x7x7x256_S7x7x256.numel_eq z)) = _
  congr 1
  have e : Shape.reshapeEquiv squeezes_S1x7x7x256_S7x7x256.numel_eq z = Fin.cons ⟨0, Nat.one_pos⟩ z :=
    Shape.reshapeEquiv_cons_one (n := 3) (d := ![7, 7, 256]) squeezes_S1x7x7x256_S7x7x256.numel_eq z
  rw [e]
  funext a
  apply Fin.ext
  rw [Rect.emb_apply]
  match a with
  | ⟨0, _⟩ => show r + 1 * 0 = r; omega
  | ⟨1, _⟩ => show 0 + 1 * (z 0).val = (z 0).val; omega
  | ⟨2, _⟩ => show 0 + 1 * (z 1).val = (z 1).val; omega
  | ⟨3, _⟩ => show 0 + 1 * (z 2).val = (z 2).val; omega

/-- Writing row `r` (a plain natural number) changes the block exactly where the first coordinate is `r`: an index
    with first coordinate `r` is the row's element at its last three coordinates and reads the payload there; any other
    index is no element of the row (the block's placement is injective) and keeps its value. -/
theorem read_write_row (arg3 : Memref sig .tc .vmem S160x7x7x256 .f32) (harg3 : arg3.IsWhole) (r : ℕ) (hr : ∀ a, (![r, 0, 0, 0] : Fin 4 → ℕ) a + S1x7x7x256.size a ≤ S160x7x7x256.size a) (acc : BufTy.Contents (Elt F) arg3.view.ty) (p : S7x7x256.Idx → Elt F .f32) (y : S160x7x7x256.Idx) :
    arg3.view.read (Elt F) (View.write (Elt F) (dstM' arg3 r hr).view acc p Finset.univ) y = if (y 0).val = r then p (tl3 y) else arg3.view.read (Elt F) acc y := by
  have hr0 : r < 160 := by have := hr 0; exact this
  by_cases hy : (y 0).val = r
  · rw [if_pos hy]
    have ey : rowIdx r hr0 (tl3 y) = y := by
      funext a; apply Fin.ext
      match a with
      | ⟨0, _⟩ => exact hy.symm
      | ⟨1, _⟩ => rfl
      | ⟨2, _⟩ => rfl
      | ⟨3, _⟩ => rfl
    have e := emb_dstM' arg3 r hr (tl3 y)
    rw [ey] at e
    rw [View.read_apply, ← e, View.write_emb_of_mem _ _ (Finset.mem_univ _), cast_cast, cast_eq]
  · rw [if_neg hy, View.read_apply, View.read_apply, View.write_of_not_mem]
    intro hm
    obtain ⟨z, -, hz⟩ := Finset.mem_map.mp hm
    rw [emb_dstM'] at hz
    have e := arg3.view.emb.injective hz
    apply hy; rw [← e]; rfl

/-- Writing row `r` changes the block exactly where the first coordinate is `r`. -/
theorem read_rowW (arg3 : Memref sig .tc .vmem S160x7x7x256 .f32) (harg3 : arg3.IsWhole) (r : Fin 160)
    (acc : BufTy.Contents (Elt F) arg3.view.ty) (p : S7x7x256.Idx → Elt F .f32) (y : S160x7x7x256.Idx) :
    arg3.view.read (Elt F) (rowW arg3 r acc p) y = if (y 0).val = r.val then p (tl3 y) else arg3.view.read (Elt F) acc y :=
  read_write_row arg3 harg3 r.val (row_inb r.val r.isLt) acc p y

/-- After rows 0 … n−1 the block reads `pay` on those rows and is unchanged on the others. -/
theorem read_rowsUpTo (arg3 : Memref sig .tc .vmem S160x7x7x256 .f32) (harg3 : arg3.IsWhole) (pay : Fin 160 → S7x7x256.Idx → Elt F .f32)
    (f : BufTy.Contents (Elt F) arg3.view.ty) (n : ℕ) (h : n ≤ 160) (y : S160x7x7x256.Idx) :
    arg3.view.read (Elt F) (rowsUpTo arg3 pay f n h) y
      = if (y 0).val < n then pay ⟨(y 0).val, (y 0).isLt⟩ (tl3 y) else arg3.view.read (Elt F) f y := by
  induction n with
  | zero =>
    show arg3.view.read (Elt F) f y = _
    rw [if_neg (Nat.not_lt_zero _)]
  | succ n ih =>
    show arg3.view.read (Elt F) (rowW arg3 ⟨n, h⟩ (rowsUpTo arg3 pay f n (Nat.le_of_succ_le h)) (pay ⟨n, h⟩)) y = _
    rw [read_rowW arg3 harg3, ih (Nat.le_of_succ_le h)]
    by_cases h1 : (y 0).val = n
    · have e : (⟨n, h⟩ : Fin 160) = ⟨(y 0).val, (y 0).isLt⟩ := Fin.ext h1.symm
      rw [if_pos h1, if_pos (show (y 0).val < n + 1 by omega), e]
    · rw [if_neg h1]
      by_cases h2 : (y 0).val < n
      · rw [if_pos h2, if_pos (show (y 0).val < n + 1 by omega)]
      · rw [if_neg h2, if_neg (show ¬ (y 0).val < n + 1 by omega)]

/-- After all 160 rows the block is `pay`, whatever it held. -/
theorem read_rows_all (arg3 : Memref sig .tc .vmem S160x7x7x256 .f32) (harg3 : arg3.IsWhole) (pay : Fin 160 → S7x7x256.Idx → Elt F .f32)
    (f : BufTy.Contents (Elt F) arg3.view.ty) (y : S160x7x7x256.Idx) :
    arg3.view.read (Elt F) (rowsUpTo arg3 pay f 160 (Nat.le_refl _)) y = pay ⟨(y 0).val, (y 0).isLt⟩ (tl3 y) := by
  rw [read_rowsUpTo arg3 harg3 pay f 160 (Nat.le_refl _) y]
  exact if_pos (show (y 0).val < 160 from (y 0).isLt)

/-! ## The windows of the transposed feature map -/

theorem src_inb (x y : BitVec 32) (b : ℕ) (hx : x.toNat ≤ 57) (hy : y.toNat ≤ 57) (hb : b < 8) :
    ∀ a, (![x.toNat, y.toNat, b, 0] : Fin 4 → ℕ) a + S7x7x1x256.size a ≤ S64x64x8x256.size a := by
  intro a; fin_cases a
  · show x.toNat + 7 ≤ 64; omega
  · show y.toNat + 7 ≤ 64; omega
  · show b + 1 ≤ 8; omega
  · show 0 + 256 ≤ 256; omega

/-- The window starting at (x, y, b, 0), of extent (7, 7, 1, 256) with its unit axis dropped, as the body names it. -/
abbrev srcM (x y : BitVec 32) (b : ℕ) (h : ∀ a, (![x.toNat, y.toNat, b, 0] : Fin 4 → ℕ) a + S7x7x1x256.size a ≤ S64x64x8x256.size a) :
    Memref sig .tc .hbm S7x7x256 .f32 :=
  (hbM.slice (Rect.unit (s := S64x64x8x256) ![x.toNat, y.toNat, b, 0] S7x7x1x256.size h) (fun _ => rfl)).squeeze
    S7x7x256 squeezes_S7x7x1x256_S7x7x256

/-- The index (x + z₀, y + z₁, b, z₂) of the transposed feature map. -/
def srcIdx (x y b : ℕ) (z : S7x7x256.Idx) : S64x64x8x256.Idx := fun a => match a with
  | ⟨0, _⟩ => ⟨(x + (z 0).val) % 64, Nat.mod_lt _ (by decide)⟩
  | ⟨1, _⟩ => ⟨(y + (z 1).val) % 64, Nat.mod_lt _ (by decide)⟩
  | ⟨2, _⟩ => ⟨b % 8, Nat.mod_lt _ (by decide)⟩
  | ⟨3, _⟩ => ⟨(z 2).val, (z 2).isLt⟩

/-- The window index (z₀, z₁, 0, z₂). -/
def winIdx (z : S7x7x256.Idx) : S7x7x1x256.Idx := fun a => match a with
  | ⟨0, _⟩ => ⟨(z 0).val, (z 0).isLt⟩
  | ⟨1, _⟩ => ⟨(z 1).val, (z 1).isLt⟩
  | ⟨2, _⟩ => ⟨0, Nat.one_pos⟩
  | ⟨3, _⟩ => ⟨(z 2).val, (z 2).isLt⟩

/-- Dropping the unit axis matches z with (z₀, z₁, 0, z₂): both sit at row-major position (7·z₀ + z₁)·256 + z₂. -/
theorem reshape_win (z : S7x7x256.Idx) :
    Shape.reshapeEquiv squeezes_S7x7x1x256_S7x7x256.numel_eq z = winIdx z := by
  apply Shape.reshapeEquiv_eq_of_rowMajor
  rw [Shape.rowMajor_val_four, Shape.rowMajor_val_three]
  show (((z 0).val * 7 + (z 1).val) * 1 + 0) * 256 + (z 2).val = ((z 0).val * 7 + (z 1).val) * 256 + (z 2).val
  omega

/-- Element z of the window is the map's element (x + z₀, y + z₁, b, z₂); in bounds the sums are below their extents,
    so the remainders are the sums themselves. -/
theorem emb_srcM (x y : BitVec 32) (b : ℕ)
    (h : ∀ a, (![x.toNat, y.toNat, b, 0] : Fin 4 → ℕ) a + S7x7x1x256.size a ≤ S64x64x8x256.size a) (z : S7x7x256.Idx) :
    (srcM x y b h).view.emb z = srcIdx x.toNat y.toNat b z := by
  show (Rect.unit (s := S64x64x8x256) ![x.toNat, y.toNat, b, 0] S7x7x1x256.size h).emb
    (Shape.reshapeEquiv squeezes_S7x7x1x256_S7x7x256.numel_eq z) = _
  rw [reshape_win]
  funext a; apply Fin.ext; rw [Rect.emb_apply]
  have h0 : x.toNat + 7 ≤ 64 := h 0
  have h1 : y.toNat + 7 ≤ 64 := h 1
  have h2 : b + 1 ≤ 8 := h 2
  have z0 : (z 0).val < 7 := (z 0).isLt
  have z1 : (z 1).val < 7 := (z 1).isLt
  match a with
  | ⟨0, _⟩ => show x.toNat + 1 * (z 0).val = (x.toNat + (z 0).val) % 64; omega
  | ⟨1, _⟩ => show y.toNat + 1 * (z 1).val = (y.toNat + (z 1).val) % 64; omega
  | ⟨2, _⟩ => show b + 1 * 0 = b % 8; omega
  | ⟨3, _⟩ => show 0 + 1 * (z 2).val = (z 2).val; omega

/-- What a copy out of that window moves: the map's entries at (x + z₀, y + z₁, b, z₂). -/
theorem read_srcM (c : Dev nD) (fh : HbBuf (F := F) c hbM) (x y : BitVec 32) (b : ℕ)
    (h : ∀ a, (![x.toNat, y.toNat, b, 0] : Fin 4 → ℕ) a + S7x7x1x256.size a ≤ S64x64x8x256.size a) (z : S7x7x256.Idx) :
    ReadAs.same.apply ((srcM x y b h).view.read (Elt F) fh) z = fh (srcIdx x.toNat y.toNat b z) := by
  show (srcM x y b h).view.read (Elt F) fh z = _
  rw [View.read_apply, emb_srcM]
  rfl

end Cert.Kernel.Roi

end
-- ==== Proof.BitsTable.lean ====
/-
  The table of box starts as the kernel reads it. The host lines before the launch cut the box array (1000, 4) to its
  first two columns, clamp every word into [0, 57] as a signed word (first from below, then from above) and transpose
  the result: the table word [r, n] is the clamped box word [n, r]. At grid point i the body handles the twenty boxes
  20·i, …, 20·i + 19: for box k it loads the two table words [0, 20·i + k] and [1, 20·i + k] from scalar memory, and
  asks of them that a 7×7 crop starting there stays inside the 64×64 map — which holds of every clamped word, since
  57 + 7 = 64. Here: the table read at an index, each of the forty loaded words as a clamped box word, and the twenty
  side conditions.
-/
import proofs.«420386_j26250840113278_3_alg».proof.Proof.BitsSetup
import proofs.«420386_j26250840113278_3_alg».proof.Proof.Spec
import Idealize.ShloMosaic.Lib.ValueIdx
import Idealize.ShloMosaic.Lib.Pipeline.Value
import Idealize.ShloMosaic.Lib.StableHlo.Run

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
open Cert.RoiSpec

variable {F : FTy → Type} [FloatOps F]

local notation "𝕄" => MT nD τ sig Unit (Elt F) ℕ (Pipeline.UD sig nD τ) ℕ

variable (m : (ℓ : Loc nD τ sig) → Buf (Elt F) ℓ)

/-- The box array as the launch finds it on the one device. -/
abbrev boxes : SB.Idx → BitVec 32 := m (((0 : Dev nD) : Thread nD τ).loc main_arg1)

/-- The table as one term over the box array: slice, clamp from below, clamp from above, transpose. -/
theorem tbl_term :
    (tbl m 0 : S2x1000.Idx → BitVec 32) =
      transpose S2x1000 [1, 0]
        (minsi (broadcastInDim S1000x2 ![] bcast_S_S1000x2 (constantI S_ 32 57#32))
          (maxsi (broadcastInDim S1000x2 ![] bcast_S_S1000x2 (constantI S_ 32 0#32))
            (extractStridedSlice S1000x2 ![0, 0] (boxes m) slices_S1000x4_S1000x2_0_0)))
        transposes_S1000x2_S2x1000_1_0 := by
  unfold tbl
  show V m 0 main_v2 = _
  dsimp only [V, V0]
  simp only [hostOps0, hostOps0_1, hostOps0_2, List.flatten_cons, List.flatten_nil, List.append_nil, List.cons_append,
    List.nil_append]
  after_results
  rfl

/-- The table word [r, n] is the clamped box word [n, r]. -/
theorem tbl_apply (r n : ℕ) (hr : r < 2) (hn : n < 1000) :
    (tbl m 0 : S2x1000.Idx → BitVec 32) (ValueIdx.ix2 (⟨r, hr⟩ : Fin 2) (⟨n, hn⟩ : Fin 1000)) = clampW (boxes m (bidx n r)) := by
  rw [tbl_term]
  rw [transpose_apply [1, 0] _ transposes_S1000x2_S2x1000_1_0 _
    (ValueIdx.ix2 (⟨n, hn⟩ : Fin 1000) (⟨r, hr⟩ : Fin 2))
    (fun b => match b with | ⟨0, _⟩ => rfl | ⟨1, _⟩ => rfl)]
  show IntOp.minsi _ (IntOp.maxsi _ _) = _
  rw [broadcastInDim_apply ![] bcast_S_S1000x2 (constantI S_ 32 57#32) _ ValueIdx.ix0 (fun a => a.elim0),
    broadcastInDim_apply ![] bcast_S_S1000x2 (constantI S_ 32 0#32) _ ValueIdx.ix0 (fun a => a.elim0),
    extractStridedSlice_apply ![0, 0] (boxes m) slices_S1000x4_S1000x2_0_0 _ (bidx n r)
      (fun a => match a with
        | ⟨0, _⟩ => by
          show n % 1000 = 0 + n
          rw [Nat.mod_eq_of_lt hn, Nat.zero_add]
        | ⟨1, _⟩ => by
          show r % 4 = 0 + r
          rw [Nat.mod_eq_of_lt (by omega), Nat.zero_add])]
  rfl

/-! ## The loaded words -/

/-- A one-word load of the table at an offset reads the table's contents at the offset's index. -/
theorem readWord_eq (off : Fin 2 → ℕ) (h : ∀ x, off x + S1x1.size x ≤ S2x1000.size x) (tb : S2x1000.Idx → BitVec 32)
    (j : S2x1000.Idx) (hj : ∀ a, (j a).val = off a) :
    tbM.view.readAt (Elt F) (Rect.unit (s := S2x1000) off S1x1.size h).toLoadRect tb
      (Shape.Idx.first (numel1_S1x1.symm ▸ Nat.one_pos)) = tb j := by
  show tb _ = tb j
  refine congrArg tb (funext fun a => Fin.ext ?_)
  show off a + 1 * 0 = (j a).val
  rw [hj a, Nat.mul_zero, Nat.add_zero]

/-- The offset of the table word of box k (of the 20 of grid point i) on axis a, computed as the body computes it. -/
def offW (i : grid0.Coords) (k a : ℕ) : Fin 2 → ℕ :=
  ![a, (Scalar.indexCast (Scalar.addi (Scalar.muli (BitVec.ofNat 32 (i 0).val) 20#32) (BitVec.ofNat 32 k))).toNat]

/-- Nothing wraps: the column is 20·i + k. -/
theorem offW_eq (i : grid0.Coords) (k a : ℕ) (hk : k < 20) : offW i k a = ![a, 20 * (i 0).val + k] := by
  have hi : (i 0).val < 50 := (i 0).isLt
  unfold offW Scalar.indexCast Scalar.addi Scalar.muli IntOp.addi IntOp.muli
  rw [BitVec.toNat_add, BitVec.toNat_mul, BitVec.toNat_ofNat, BitVec.toNat_ofNat, BitVec.toNat_ofNat]
  congr 2
  omega

theorem offW_inb (i : grid0.Coords) (k a : ℕ) (hk : k < 20) (ha : a < 2) :
    ∀ x, offW i k a x + S1x1.size x ≤ S2x1000.size x := by
  have hi : (i 0).val < 50 := (i 0).isLt
  rw [offW_eq i k a hk]
  intro x
  match x with
  | ⟨0, _⟩ => show a + 1 ≤ 2; omega
  | ⟨1, _⟩ => show 20 * (i 0).val + k + 1 ≤ 1000; omega

/-- The word a scalar load at that offset returns. -/
abbrev wordU (c : Dev nD) (i : grid0.Coords) (tb : TbBuf (F := F) c tbM) (k a : ℕ)
    (h : ∀ x, offW i k a x + S1x1.size x ≤ S2x1000.size x) : BitVec 32 :=
  tbM.view.readAt (Elt F) (Rect.unit (s := S2x1000) (offW i k a) S1x1.size h).toLoadRect tb
    (Shape.Idx.first (numel1_S1x1.symm ▸ Nat.one_pos))

/-- The word loaded for box k of grid point i on axis a is the clamped box word [20·i + k, a]. -/
theorem wordU_eq (i : grid0.Coords) (k a : ℕ) (hk : k < 20) (ha : a < 2)
    (h : ∀ x, offW i k a x + S1x1.size x ≤ S2x1000.size x) :
    wordU (0 : Dev nD) i (tbl m 0) k a h = clampW (boxes m (bidx (20 * (i 0).val + k) a)) := by
  have hi : (i 0).val < 50 := (i 0).isLt
  have hn : 20 * (i 0).val + k < 1000 := by omega
  rw [← tbl_apply m a (20 * (i 0).val + k) ha hn]
  refine readWord_eq _ h _ _ (fun x => ?_)
  rw [offW_eq i k a hk]
  match x with
  | ⟨0, _⟩ => rfl
  | ⟨1, _⟩ => rfl

theorem wordU_le (i : grid0.Coords) (k a : ℕ) (hk : k < 20) (ha : a < 2)
    (h : ∀ x, offW i k a x + S1x1.size x ≤ S2x1000.size x) :
    (wordU (0 : Dev nD) i (tbl m 0) k a h).toNat ≤ 57 := by
  rw [wordU_eq m i k a hk ha h]
  exact clampW_toNat_le _

/-! ## The side conditions -/

/-- A 7×7×1×256 window of the (64, 64, 8, 256) map starting at (x, y, b, 0) is inside it when x, y ≤ 57 and b < 8. -/
theorem crop_inb (x y : BitVec 32) (b : ℕ) (hx : x.toNat ≤ 57) (hy : y.toNat ≤ 57) (hb : b < 8) :
    ∀ a, (![x.toNat, y.toNat, b, 0] : Fin 4 → ℕ) a + S7x7x1x256.size a ≤ S64x64x8x256.size a := by
  intro a
  match a with
  | ⟨0, _⟩ => show x.toNat + 7 ≤ 64; omega
  | ⟨1, _⟩ => show y.toNat + 7 ≤ 64; omega
  | ⟨2, _⟩ => show b + 1 ≤ 8; omega
  | ⟨3, _⟩ => show 0 + 256 ≤ 256; omega

/-! ## The forty loaded words, box by box: word 10k+1 is the row start and word 10k+2 the column start of box 20·i + k -/

/-- Box 0 of the point's twenty, axis 0. -/
theorem word_1 (i : grid0.Coords) :
    (tbM.view.readAt (Elt F) (Rect.unit (s := S2x1000) (k0_off1 i) S1x1.size (k0_off1_inb i)).toLoadRect (tbl m 0)
      (Shape.Idx.first (numel1_S1x1.symm ▸ Nat.one_pos))) = clampW (boxes m (bidx (20 * (i 0).val + 0) 0)) :=
  wordU_eq m i 0 0 (by omega) (by omega) (k0_off1_inb i)
/-- Box 0 of the point's twenty, axis 1. -/
theorem word_2 (i : grid0.Coords) :
    (tbM.view.readAt (Elt F) (Rect.unit (s := S2x1000) (k0_off2 i) S1x1.size (k0_off2_inb i)).toLoadRect (tbl m 0)
      (Shape.Idx.first (numel1_S1x1.symm ▸ Nat.one_pos))) = clampW (boxes m (bidx (20 * (i 0).val + 0) 1)) :=
  wordU_eq m i 0 1 (by omega) (by omega) (k0_off2_inb i)
/-- Box 1 of the point's twenty, axis 0. -/
theorem word_11 (i : grid0.Coords) :
    (tbM.view.readAt (Elt F) (Rect.unit (s := S2x1000) (k0_off11 i) S1x1.size (k0_off11_inb i)).toLoadRect (tbl m 0)
      (Shape.Idx.first (numel1_S1x1.symm ▸ Nat.one_pos))) = clampW (boxes m (bidx (20 * (i 0).val + 1) 0)) :=
  wordU_eq m i 1 0 (by omega) (by omega) (k0_off11_inb i)
/-- Box 1 of the point's twenty, axis 1. -/
theorem word_12 (i : grid0.Coords) :
    (tbM.view.readAt (Elt F) (Rect.unit (s := S2x1000) (k0_off12 i) S1x1.size (k0_off12_inb i)).toLoadRect (tbl m 0)
      (Shape.Idx.first (numel1_S1x1.symm ▸ Nat.one_pos))) = clampW (boxes m (bidx (20 * (i 0).val + 1) 1)) :=
  wordU_eq m i 1 1 (by omega) (by omega) (k0_off12_inb i)
/-- Box 2 of the point's twenty, axis 0. -/
theorem word_21 (i : grid0.Coords) :
    (tbM.view.readAt (Elt F) (Rect.unit (s := S2x1000) (k0_off21 i) S1x1.size (k0_off21_inb i)).toLoadRect (tbl m 0)
      (Shape.Idx.first (numel1_S1x1.symm ▸ Nat.one_pos))) = clampW (boxes m (bidx (20 * (i 0).val + 2) 0)) :=
  wordU_eq m i 2 0 (by omega) (by omega) (k0_off21_inb i)
/-- Box 2 of the point's twenty, axis 1. -/
theorem word_22 (i : grid0.Coords) :
    (tbM.view.readAt (Elt F) (Rect.unit (s := S2x1000) (k0_off22 i) S1x1.size (k0_off22_inb i)).toLoadRect (tbl m 0)
      (Shape.Idx.first (numel1_S1x1.symm ▸ Nat.one_pos))) = clampW (boxes m (bidx (20 * (i 0).val + 2) 1)) :=
  wordU_eq m i 2 1 (by omega) (by omega) (k0_off22_inb i)
/-- Box 3 of the point's twenty, axis 0. -/
theorem word_31 (i : grid0.Coords) :
    (tbM.view.readAt (Elt F) (Rect.unit (s := S2x1000) (k0_off31 i) S1x1.size (k0_off31_inb i)).toLoadRect (tbl m 0)
      (Shape.Idx.first (numel1_S1x1.symm ▸ Nat.one_pos))) = clampW (boxes m (bidx (20 * (i 0).val + 3) 0)) :=
  wordU_eq m i 3 0 (by omega) (by omega) (k0_off31_inb i)
/-- Box 3 of the point's twenty, axis 1. -/
theorem word_32 (i : grid0.Coords) :
    (tbM.view.readAt (Elt F) (Rect.unit (s := S2x1000) (k0_off32 i) S1x1.size (k0_off32_inb i)).toLoadRect (tbl m 0)
      (Shape.Idx.first (numel1_S1x1.symm ▸ Nat.one_pos))) = clampW (boxes m (bidx (20 * (i 0).val + 3) 1)) :=
  wordU_eq m i 3 1 (by omega) (by omega) (k0_off32_inb i)
/-- Box 4 of the point's twenty, axis 0. -/
theorem word_41 (i : grid0.Coords) :
    (tbM.view.readAt (Elt F) (Rect.unit (s := S2x1000) (k0_off41 i) S1x1.size (k0_off41_inb i)).toLoadRect (tbl m 0)
      (Shape.Idx.first (numel1_S1x1.symm ▸ Nat.one_pos))) = clampW (boxes m (bidx (20 * (i 0).val + 4) 0)) :=
  wordU_eq m i 4 0 (by omega) (by omega) (k0_off41_inb i)
/-- Box 4 of the point's twenty, axis 1. -/
theorem word_42 (i : grid0.Coords) :
    (tbM.view.readAt (Elt F) (Rect.unit (s := S2x1000) (k0_off42 i) S1x1.size (k0_off42_inb i)).toLoadRect (tbl m 0)
      (Shape.Idx.first (numel1_S1x1.symm ▸ Nat.one_pos))) = clampW (boxes m (bidx (20 * (i 0).val + 4) 1)) :=
  wordU_eq m i 4 1 (by omega) (by omega) (k0_off42_inb i)
/-- Box 5 of the point's twenty, axis 0. -/
theorem word_51 (i : grid0.Coords) :
    (tbM.view.readAt (Elt F) (Rect.unit (s := S2x1000) (k0_off51 i) S1x1.size (k0_off51_inb i)).toLoadRect (tbl m 0)
      (Shape.Idx.first (numel1_S1x1.symm ▸ Nat.one_pos))) = clampW (boxes m (bidx (20 * (i 0).val + 5) 0)) :=
  wordU_eq m i 5 0 (by omega) (by omega) (k0_off51_inb i)
/-- Box 5 of the point's twenty, axis 1. -/
theorem word_52 (i : grid0.Coords) :
    (tbM.view.readAt (Elt F) (Rect.unit (s := S2x1000) (k0_off52 i) S1x1.size (k0_off52_inb i)).toLoadRect (tbl m 0)
      (Shape.Idx.first (numel1_S1x1.symm ▸ Nat.one_pos))) = clampW (boxes m (bidx (20 * (i 0).val + 5) 1)) :=
  wordU_eq m i 5 1 (by omega) (by omega) (k0_off52_inb i)
/-- Box 6 of the point's twenty, axis 0. -/
theorem word_61 (i : grid0.Coords) :
    (tbM.view.readAt (Elt F) (Rect.unit (s := S2x1000) (k0_off61 i) S1x1.size (k0_off61_inb i)).toLoadRect (tbl m 0)
      (Shape.Idx.first (numel1_S1x1.symm ▸ Nat.one_pos))) = clampW (boxes m (bidx (20 * (i 0).val + 6) 0)) :=
  wordU_eq m i 6 0 (by omega) (by omega) (k0_off61_inb i)
/-- Box 6 of the point's twenty, axis 1. -/
theorem word_62 (i : grid0.Coords) :
    (tbM.view.readAt (Elt F) (Rect.unit (s := S2x1000) (k0_off62 i) S1x1.size (k0_off62_inb i)).toLoadRect (tbl m 0)
      (Shape.Idx.first (numel1_S1x1.symm ▸ Nat.one_pos))) = clampW (boxes m (bidx (20 * (i 0).val + 6) 1)) :=
  wordU_eq m i 6 1 (by omega) (by omega) (k0_off62_inb i)
/-- Box 7 of the point's twenty, axis 0. -/
theorem word_71 (i : grid0.Coords) :
    (tbM.view.readAt (Elt F) (Rect.unit (s := S2x1000) (k0_off71 i) S1x1.size (k0_off71_inb i)).toLoadRect (tbl m 0)
      (Shape.Idx.first (numel1_S1x1.symm ▸ Nat.one_pos))) = clampW (boxes m (bidx (20 * (i 0).val + 7) 0)) :=
  wordU_eq m i 7 0 (by omega) (by omega) (k0_off71_inb i)
/-- Box 7 of the point's twenty, axis 1. -/
theorem word_72 (i : grid0.Coords) :
    (tbM.view.readAt (Elt F) (Rect.unit (s := S2x1000) (k0_off72 i) S1x1.size (k0_off72_inb i)).toLoadRect (tbl m 0)
      (Shape.Idx.first (numel1_S1x1.symm ▸ Nat.one_pos))) = clampW (boxes m (bidx (20 * (i 0).val + 7) 1)) :=
  wordU_eq m i 7 1 (by omega) (by omega) (k0_off72_inb i)
/-- Box 8 of the point's twenty, axis 0. -/
theorem word_81 (i : grid0.Coords) :
    (tbM.view.readAt (Elt F) (Rect.unit (s := S2x1000) (k0_off81 i) S1x1.size (k0_off81_inb i)).toLoadRect (tbl m 0)
      (Shape.Idx.first (numel1_S1x1.symm ▸ Nat.one_pos))) = clampW (boxes m (bidx (20 * (i 0).val + 8) 0)) :=
  wordU_eq m i 8 0 (by omega) (by omega) (k0_off81_inb i)
/-- Box 8 of the point's twenty, axis 1. -/
theorem word_82 (i : grid0.Coords) :
    (tbM.view.readAt (Elt F) (Rect.unit (s := S2x1000) (k0_off82 i) S1x1.size (k0_off82_inb i)).toLoadRect (tbl m 0)
      (Shape.Idx.first (numel1_S1x1.symm ▸ Nat.one_pos))) = clampW (boxes m (bidx (20 * (i 0).val + 8) 1)) :=
  wordU_eq m i 8 1 (by omega) (by omega) (k0_off82_inb i)
/-- Box 9 of the point's twenty, axis 0. -/
theorem word_91 (i : grid0.Coords) :
    (tbM.view.readAt (Elt F) (Rect.unit (s := S2x1000) (k0_off91 i) S1x1.size (k0_off91_inb i)).toLoadRect (tbl m 0)
      (Shape.Idx.first (numel1_S1x1.symm ▸ Nat.one_pos))) = clampW (boxes m (bidx (20 * (i 0).val + 9) 0)) :=
  wordU_eq m i 9 0 (by omega) (by omega) (k0_off91_inb i)
/-- Box 9 of the point's twenty, axis 1. -/
theorem word_92 (i : grid0.Coords) :
    (tbM.view.readAt (Elt F) (Rect.unit (s := S2x1000) (k0_off92 i) S1x1.size (k0_off92_inb i)).toLoadRect (tbl m 0)
      (Shape.Idx.first (numel1_S1x1.symm ▸ Nat.one_pos))) = clampW (boxes m (bidx (20 * (i 0).val + 9) 1)) :=
  wordU_eq m i 9 1 (by omega) (by omega) (k0_off92_inb i)
/-- Box 10 of the point's twenty, axis 0. -/
theorem word_101 (i : grid0.Coords) :
    (tbM.view.readAt (Elt F) (Rect.unit (s := S2x1000) (k0_off101 i) S1x1.size (k0_off101_inb i)).toLoadRect (tbl m 0)
      (Shape.Idx.first (numel1_S1x1.symm ▸ Nat.one_pos))) = clampW (boxes m (bidx (20 * (i 0).val + 10) 0)) :=
  wordU_eq m i 10 0 (by omega) (by omega) (k0_off101_inb i)
/-- Box 10 of the point's twenty, axis 1. -/
theorem word_102 (i : grid0.Coords) :
    (tbM.view.readAt (Elt F) (Rect.unit (s := S2x1000) (k0_off102 i) S1x1.size (k0_off102_inb i)).toLoadRect (tbl m 0)
      (Shape.Idx.first (numel1_S1x1.symm ▸ Nat.one_pos))) = clampW (boxes m (bidx (20 * (i 0).val + 10) 1)) :=
  wordU_eq m i 10 1 (by omega) (by omega) (k0_off102_inb i)
/-- Box 11 of the point's twenty, axis 0. -/
theorem word_111 (i : grid0.Coords) :
    (tbM.view.readAt (Elt F) (Rect.unit (s := S2x1000) (k0_off111 i) S1x1.size (k0_off111_inb i)).toLoadRect (tbl m 0)
      (Shape.Idx.first (numel1_S1x1.symm ▸ Nat.one_pos))) = clampW (boxes m (bidx (20 * (i 0).val + 11) 0)) :=
  wordU_eq m i 11 0 (by omega) (by omega) (k0_off111_inb i)
/-- Box 11 of the point's twenty, axis 1. -/
theorem word_112 (i : grid0.Coords) :
    (tbM.view.readAt (Elt F) (Rect.unit (s := S2x1000) (k0_off112 i) S1x1.size (k0_off112_inb i)).toLoadRect (tbl m 0)
      (Shape.Idx.first (numel1_S1x1.symm ▸ Nat.one_pos))) = clampW (boxes m (bidx (20 * (i 0).val + 11) 1)) :=
  wordU_eq m i 11 1 (by omega) (by omega) (k0_off112_inb i)
/-- Box 12 of the point's twenty, axis 0. -/
theorem word_121 (i : grid0.Coords) :
    (tbM.view.readAt (Elt F) (Rect.unit (s := S2x1000) (k0_off121 i) S1x1.size (k0_off121_inb i)).toLoadRect (tbl m 0)
      (Shape.Idx.first (numel1_S1x1.symm ▸ Nat.one_pos))) = clampW (boxes m (bidx (20 * (i 0).val + 12) 0)) :=
  wordU_eq m i 12 0 (by omega) (by omega) (k0_off121_inb i)
/-- Box 12 of the point's twenty, axis 1. -/
theorem word_122 (i : grid0.Coords) :
    (tbM.view.readAt (Elt F) (Rect.unit (s := S2x1000) (k0_off122 i) S1x1.size (k0_off122_inb i)).toLoadRect (tbl m 0)
      (Shape.Idx.first (numel1_S1x1.symm ▸ Nat.one_pos))) = clampW (boxes m (bidx (20 * (i 0).val + 12) 1)) :=
  wordU_eq m i 12 1 (by omega) (by omega) (k0_off122_inb i)
/-- Box 13 of the point's twenty, axis 0. -/
theorem word_131 (i : grid0.Coords) :
    (tbM.view.readAt (Elt F) (Rect.unit (s := S2x1000) (k0_off131 i) S1x1.size (k0_off131_inb i)).toLoadRect (tbl m 0)
      (Shape.Idx.first (numel1_S1x1.symm ▸ Nat.one_pos))) = clampW (boxes m (bidx (20 * (i 0).val + 13) 0)) :=
  wordU_eq m i 13 0 (by omega) (by omega) (k0_off131_inb i)
/-- Box 13 of the point's twenty, axis 1. -/
theorem word_132 (i : grid0.Coords) :
    (tbM.view.readAt (Elt F) (Rect.unit (s := S2x1000) (k0_off132 i) S1x1.size (k0_off132_inb i)).toLoadRect (tbl m 0)
      (Shape.Idx.first (numel1_S1x1.symm ▸ Nat.one_pos))) = clampW (boxes m (bidx (20 * (i 0).val + 13) 1)) :=
  wordU_eq m i 13 1 (by omega) (by omega) (k0_off132_inb i)
/-- Box 14 of the point's twenty, axis 0. -/
theorem word_141 (i : grid0.Coords) :
    (tbM.view.readAt (Elt F) (Rect.unit (s := S2x1000) (k0_off141 i) S1x1.size (k0_off141_inb i)).toLoadRect (tbl m 0)
      (Shape.Idx.first (numel1_S1x1.symm ▸ Nat.one_pos))) = clampW (boxes m (bidx (20 * (i 0).val + 14) 0)) :=
  wordU_eq m i 14 0 (by omega) (by omega) (k0_off141_inb i)
/-- Box 14 of the point's twenty, axis 1. -/
theorem word_142 (i : grid0.Coords) :
    (tbM.view.readAt (Elt F) (Rect.unit (s := S2x1000) (k0_off142 i) S1x1.size (k0_off142_inb i)).toLoadRect (tbl m 0)
      (Shape.Idx.first (numel1_S1x1.symm ▸ Nat.one_pos))) = clampW (boxes m (bidx (20 * (i 0).val + 14) 1)) :=
  wordU_eq m i 14 1 (by omega) (by omega) (k0_off142_inb i)
/-- Box 15 of the point's twenty, axis 0. -/
theorem word_151 (i : grid0.Coords) :
    (tbM.view.readAt (Elt F) (Rect.unit (s := S2x1000) (k0_off151 i) S1x1.size (k0_off151_inb i)).toLoadRect (tbl m 0)
      (Shape.Idx.first (numel1_S1x1.symm ▸ Nat.one_pos))) = clampW (boxes m (bidx (20 * (i 0).val + 15) 0)) :=
  wordU_eq m i 15 0 (by omega) (by omega) (k0_off151_inb i)
/-- Box 15 of the point's twenty, axis 1. -/
theorem word_152 (i : grid0.Coords) :
    (tbM.view.readAt (Elt F) (Rect.unit (s := S2x1000) (k0_off152 i) S1x1.size (k0_off152_inb i)).toLoadRect (tbl m 0)
      (Shape.Idx.first (numel1_S1x1.symm ▸ Nat.one_pos))) = clampW (boxes m (bidx (20 * (i 0).val + 15) 1)) :=
  wordU_eq m i 15 1 (by omega) (by omega) (k0_off152_inb i)
/-- Box 16 of the point's twenty, axis 0. -/
theorem word_161 (i : grid0.Coords) :
    (tbM.view.readAt (Elt F) (Rect.unit (s := S2x1000) (k0_off161 i) S1x1.size (k0_off161_inb i)).toLoadRect (tbl m 0)
      (Shape.Idx.first (numel1_S1x1.symm ▸ Nat.one_pos))) = clampW (boxes m (bidx (20 * (i 0).val + 16) 0)) :=
  wordU_eq m i 16 0 (by omega) (by omega) (k0_off161_inb i)
/-- Box 16 of the point's twenty, axis 1. -/
theorem word_162 (i : grid0.Coords) :
    (tbM.view.readAt (Elt F) (Rect.unit (s := S2x1000) (k0_off162 i) S1x1.size (k0_off162_inb i)).toLoadRect (tbl m 0)
      (Shape.Idx.first (numel1_S1x1.symm ▸ Nat.one_pos))) = clampW (boxes m (bidx (20 * (i 0).val + 16) 1)) :=
  wordU_eq m i 16 1 (by omega) (by omega) (k0_off162_inb i)
/-- Box 17 of the point's twenty, axis 0. -/
theorem word_171 (i : grid0.Coords) :
    (tbM.view.readAt (Elt F) (Rect.unit (s := S2x1000) (k0_off171 i) S1x1.size (k0_off171_inb i)).toLoadRect (tbl m 0)
      (Shape.Idx.first (numel1_S1x1.symm ▸ Nat.one_pos))) = clampW (boxes m (bidx (20 * (i 0).val + 17) 0)) :=
  wordU_eq m i 17 0 (by omega) (by omega) (k0_off171_inb i)
/-- Box 17 of the point's twenty, axis 1. -/
theorem word_172 (i : grid0.Coords) :
    (tbM.view.readAt (Elt F) (Rect.unit (s := S2x1000) (k0_off172 i) S1x1.size (k0_off172_inb i)).toLoadRect (tbl m 0)
      (Shape.Idx.first (numel1_S1x1.symm ▸ Nat.one_pos))) = clampW (boxes m (bidx (20 * (i 0).val + 17) 1)) :=
  wordU_eq m i 17 1 (by omega) (by omega) (k0_off172_inb i)
/-- Box 18 of the point's twenty, axis 0. -/
theorem word_181 (i : grid0.Coords) :
    (tbM.view.readAt (Elt F) (Rect.unit (s := S2x1000) (k0_off181 i) S1x1.size (k0_off181_inb i)).toLoadRect (tbl m 0)
      (Shape.Idx.first (numel1_S1x1.symm ▸ Nat.one_pos))) = clampW (boxes m (bidx (20 * (i 0).val + 18) 0)) :=
  wordU_eq m i 18 0 (by omega) (by omega) (k0_off181_inb i)
/-- Box 18 of the point's twenty, axis 1. -/
theorem word_182 (i : grid0.Coords) :
    (tbM.view.readAt (Elt F) (Rect.unit (s := S2x1000) (k0_off182 i) S1x1.size (k0_off182_inb i)).toLoadRect (tbl m 0)
      (Shape.Idx.first (numel1_S1x1.symm ▸ Nat.one_pos))) = clampW (boxes m (bidx (20 * (i 0).val + 18) 1)) :=
  wordU_eq m i 18 1 (by omega) (by omega) (k0_off182_inb i)
/-- Box 19 of the point's twenty, axis 0. -/
theorem word_191 (i : grid0.Coords) :
    (tbM.view.readAt (Elt F) (Rect.unit (s := S2x1000) (k0_off191 i) S1x1.size (k0_off191_inb i)).toLoadRect (tbl m 0)
      (Shape.Idx.first (numel1_S1x1.symm ▸ Nat.one_pos))) = clampW (boxes m (bidx (20 * (i 0).val + 19) 0)) :=
  wordU_eq m i 19 0 (by omega) (by omega) (k0_off191_inb i)
/-- Box 19 of the point's twenty, axis 1. -/
theorem word_192 (i : grid0.Coords) :
    (tbM.view.readAt (Elt F) (Rect.unit (s := S2x1000) (k0_off192 i) S1x1.size (k0_off192_inb i)).toLoadRect (tbl m 0)
      (Shape.Idx.first (numel1_S1x1.symm ▸ Nat.one_pos))) = clampW (boxes m (bidx (20 * (i 0).val + 19) 1)) :=
  wordU_eq m i 19 1 (by omega) (by omega) (k0_off192_inb i)

/-! ## The twenty side conditions from two bounds: the eight windows (one per batch entry) of a box start inside the map -/

theorem chk_1_of_le (x y : BitVec 32) (hx : x.toNat ≤ 57) (hy : y.toNat ≤ 57) : k0_chk1 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_2_of_le (x y : BitVec 32) (hx : x.toNat ≤ 57) (hy : y.toNat ≤ 57) : k0_chk2 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_3_of_le (x y : BitVec 32) (hx : x.toNat ≤ 57) (hy : y.toNat ≤ 57) : k0_chk3 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_4_of_le (x y : BitVec 32) (hx : x.toNat ≤ 57) (hy : y.toNat ≤ 57) : k0_chk4 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_5_of_le (x y : BitVec 32) (hx : x.toNat ≤ 57) (hy : y.toNat ≤ 57) : k0_chk5 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_6_of_le (x y : BitVec 32) (hx : x.toNat ≤ 57) (hy : y.toNat ≤ 57) : k0_chk6 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_7_of_le (x y : BitVec 32) (hx : x.toNat ≤ 57) (hy : y.toNat ≤ 57) : k0_chk7 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_8_of_le (x y : BitVec 32) (hx : x.toNat ≤ 57) (hy : y.toNat ≤ 57) : k0_chk8 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_9_of_le (x y : BitVec 32) (hx : x.toNat ≤ 57) (hy : y.toNat ≤ 57) : k0_chk9 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_10_of_le (x y : BitVec 32) (hx : x.toNat ≤ 57) (hy : y.toNat ≤ 57) : k0_chk10 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_11_of_le (x y : BitVec 32) (hx : x.toNat ≤ 57) (hy : y.toNat ≤ 57) : k0_chk11 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_12_of_le (x y : BitVec 32) (hx : x.toNat ≤ 57) (hy : y.toNat ≤ 57) : k0_chk12 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_13_of_le (x y : BitVec 32) (hx : x.toNat ≤ 57) (hy : y.toNat ≤ 57) : k0_chk13 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_14_of_le (x y : BitVec 32) (hx : x.toNat ≤ 57) (hy : y.toNat ≤ 57) : k0_chk14 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_15_of_le (x y : BitVec 32) (hx : x.toNat ≤ 57) (hy : y.toNat ≤ 57) : k0_chk15 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_16_of_le (x y : BitVec 32) (hx : x.toNat ≤ 57) (hy : y.toNat ≤ 57) : k0_chk16 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_17_of_le (x y : BitVec 32) (hx : x.toNat ≤ 57) (hy : y.toNat ≤ 57) : k0_chk17 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_18_of_le (x y : BitVec 32) (hx : x.toNat ≤ 57) (hy : y.toNat ≤ 57) : k0_chk18 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_19_of_le (x y : BitVec 32) (hx : x.toNat ≤ 57) (hy : y.toNat ≤ 57) : k0_chk19 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩
theorem chk_20_of_le (x y : BitVec 32) (hx : x.toNat ≤ 57) (hy : y.toNat ≤ 57) : k0_chk20 x y :=
  ⟨crop_inb x y 0 hx hy (by omega), crop_inb x y 1 hx hy (by omega), crop_inb x y 2 hx hy (by omega),
    crop_inb x y 3 hx hy (by omega), crop_inb x y 4 hx hy (by omega), crop_inb x y 5 hx hy (by omega),
    crop_inb x y 6 hx hy (by omega), crop_inb x y 7 hx hy (by omega)⟩

/-! ## The twenty side conditions of the loaded words: a clamped word is at most 57 -/

theorem hw_1 (i : grid0.Coords) :
    k0_chk1
      (tbM.view.readAt (Elt F) (Rect.unit (s := S2x1000) (k0_off1 i) S1x1.size (k0_off1_inb i)).toLoadRect (tbl m 0)
        (Shape.Idx.first (numel1_S1x1.symm ▸ Nat.one_pos)))
      (tbM.view.readAt (Elt F) (Rect.unit (s := S2x1000) (k0_off2 i) S1x1.size (k0_off2_inb i)).toLoadRect (tbl m 0)
        (Shape.Idx.first (numel1_S1x1.symm ▸ Nat.one_pos))) :=
  chk_1_of_le _ _ (by rw [word_1 m i]; exact clampW_toNat_le _) (by rw [word_2 m i]; exact clampW_toNat_le _)
theorem hw_2 (i : grid0.Coords) :
    k0_chk2
      (tbM.view.readAt (Elt F) (Rect.unit (s := S2x1000) (k0_off11 i) S1x1.size (k0_off11_inb i)).toLoadRect (tbl m 0)
        (Shape.Idx.first (numel1_S1x1.symm ▸ Nat.one_pos)))
      (tbM.view.readAt (Elt F) (Rect.unit (s := S2x1000) (k0_off12 i) S1x1.size (k0_off12_inb i)).toLoadRect (tbl m 0)
        (Shape.Idx.first (numel1_S1x1.symm ▸ Nat.one_pos))) :=
  chk_2_of_le _ _ (by rw [word_11 m i]; exact clampW_toNat_le _) (by rw [word_12 m i]; exact clampW_toNat_le _)
theorem hw_3 (i : grid0.Coords) :
    k0_chk3
      (tbM.view.readAt (Elt F) (Rect.unit (s := S2x1000) (k0_off21 i) S1x1.size (k0_off21_inb i)).toLoadRect (tbl m 0)
        (Shape.Idx.first (numel1_S1x1.symm ▸ Nat.one_pos)))
      (tbM.view.readAt (Elt F) (Rect.unit (s := S2x1000) (k0_off22 i) S1x1.size (k0_off22_inb i)).toLoadRect (tbl m 0)
        (Shape.Idx.first (numel1_S1x1.symm ▸ Nat.one_pos))) :=
  chk_3_of_le _ _ (by rw [word_21 m i]; exact clampW_toNat_le _) (by rw [word_22 m i]; exact clampW_toNat_le _)
theorem hw_4 (i : grid0.Coords) :
    k0_chk4
      (tbM.view.readAt (Elt F) (Rect.unit (s := S2x1000) (k0_off31 i) S1x1.size (k0_off31_inb i)).toLoadRect (tbl m 0)
        (Shape.Idx.first (numel1_S1x1.symm ▸ Nat.one_pos)))
      (tbM.view.readAt (Elt F) (Rect.unit (s := S2x1000) (k0_off32 i) S1x1.size (k0_off32_inb i)).toLoadRect (tbl m 0)
        (Shape.Idx.first (numel1_S1x1.symm ▸ Nat.one_pos))) :=
  chk_4_of_le _ _ (by rw [word_31 m i]; exact clampW_toNat_le _) (by rw [word_32 m i]; exact clampW_toNat_le _)
theorem hw_5 (i : grid0.Coords) :
    k0_chk5
      (tbM.view.readAt (Elt F) (Rect.unit (s := S2x1000) (k0_off41 i) S1x1.size (k0_off41_inb i)).toLoadRect (tbl m 0)
        (Shape.Idx.first (numel1_S1x1.symm ▸ Nat.one_pos)))
      (tbM.view.readAt (Elt F) (Rect.unit (s := S2x1000) (k0_off42 i) S1x1.size (k0_off42_inb i)).toLoadRect (tbl m 0)
        (Shape.Idx.first (numel1_S1x1.symm ▸ Nat.one_pos))) :=
  chk_5_of_le _ _ (by rw [word_41 m i]; exact clampW_toNat_le _) (by rw [word_42 m i]; exact clampW_toNat_le _)
theorem hw_6 (i : grid0.Coords) :
    k0_chk6
      (tbM.view.readAt (Elt F) (Rect.unit (s := S2x1000) (k0_off51 i) S1x1.size (k0_off51_inb i)).toLoadRect (tbl m 0)
        (Shape.Idx.first (numel1_S1x1.symm ▸ Nat.one_pos)))
      (tbM.view.readAt (Elt F) (Rect.unit (s := S2x1000) (k0_off52 i) S1x1.size (k0_off52_inb i)).toLoadRect (tbl m 0)
        (Shape.Idx.first (numel1_S1x1.symm ▸ Nat.one_pos))) :=
  chk_6_of_le _ _ (by rw [word_51 m i]; exact clampW_toNat_le _) (by rw [word_52 m i]; exact clampW_toNat_le _)
theorem hw_7 (i : grid0.Coords) :
    k0_chk7
      (tbM.view.readAt (Elt F) (Rect.unit (s := S2x1000) (k0_off61 i) S1x1.size (k0_off61_inb i)).toLoadRect (tbl m 0)
        (Shape.Idx.first (numel1_S1x1.symm ▸ Nat.one_pos)))
      (tbM.view.readAt (Elt F) (Rect.unit (s := S2x1000) (k0_off62 i) S1x1.size (k0_off62_inb i)).toLoadRect (tbl m 0)
        (Shape.Idx.first (numel1_S1x1.symm ▸ Nat.one_pos))) :=
  chk_7_of_le _ _ (by rw [word_61 m i]; exact clampW_toNat_le _) (by rw [word_62 m i]; exact clampW_toNat_le _)
theorem hw_8 (i : grid0.Coords) :
    k0_chk8
      (tbM.view.readAt (Elt F) (Rect.unit (s := S2x1000) (k0_off71 i) S1x1.size (k0_off71_inb i)).toLoadRect (tbl m 0)
        (Shape.Idx.first (numel1_S1x1.symm ▸ Nat.one_pos)))
      (tbM.view.readAt (Elt F) (Rect.unit (s := S2x1000) (k0_off72 i) S1x1.size (k0_off72_inb i)).toLoadRect (tbl m 0)
        (Shape.Idx.first (numel1_S1x1.symm ▸ Nat.one_pos))) :=
  chk_8_of_le _ _ (by rw [word_71 m i]; exact clampW_toNat_le _) (by rw [word_72 m i]; exact clampW_toNat_le _)
theorem hw_9 (i : grid0.Coords) :
    k0_chk9
      (tbM.view.readAt (Elt F) (Rect.unit (s := S2x1000) (k0_off81 i) S1x1.size (k0_off81_inb i)).toLoadRect (tbl m 0)
        (Shape.Idx.first (numel1_S1x1.symm ▸ Nat.one_pos)))
      (tbM.view.readAt (Elt F) (Rect.unit (s := S2x1000) (k0_off82 i) S1x1.size (k0_off82_inb i)).toLoadRect (tbl m 0)
        (Shape.Idx.first (numel1_S1x1.symm ▸ Nat.one_pos))) :=
  chk_9_of_le _ _ (by rw [word_81 m i]; exact clampW_toNat_le _) (by rw [word_82 m i]; exact clampW_toNat_le _)
theorem hw_10 (i : grid0.Coords) :
    k0_chk10
      (tbM.view.readAt (Elt F) (Rect.unit (s := S2x1000) (k0_off91 i) S1x1.size (k0_off91_inb i)).toLoadRect (tbl m 0)
        (Shape.Idx.first (numel1_S1x1.symm ▸ Nat.one_pos)))
      (tbM.view.readAt (Elt F) (Rect.unit (s := S2x1000) (k0_off92 i) S1x1.size (k0_off92_inb i)).toLoadRect (tbl m 0)
        (Shape.Idx.first (numel1_S1x1.symm ▸ Nat.one_pos))) :=
  chk_10_of_le _ _ (by rw [word_91 m i]; exact clampW_toNat_le _) (by rw [word_92 m i]; exact clampW_toNat_le _)
theorem hw_11 (i : grid0.Coords) :
    k0_chk11
      (tbM.view.readAt (Elt F) (Rect.unit (s := S2x1000) (k0_off101 i) S1x1.size (k0_off101_inb i)).toLoadRect (tbl m 0)
        (Shape.Idx.first (numel1_S1x1.symm ▸ Nat.one_pos)))
      (tbM.view.readAt (Elt F) (Rect.unit (s := S2x1000) (k0_off102 i) S1x1.size (k0_off102_inb i)).toLoadRect (tbl m 0)
        (Shape.Idx.first (numel1_S1x1.symm ▸ Nat.one_pos))) :=
  chk_11_of_le _ _ (by rw [word_101 m i]; exact clampW_toNat_le _) (by rw [word_102 m i]; exact clampW_toNat_le _)
theorem hw_12 (i : grid0.Coords) :
    k0_chk12
      (tbM.view.readAt (Elt F) (Rect.unit (s := S2x1000) (k0_off111 i) S1x1.size (k0_off111_inb i)).toLoadRect (tbl m 0)
        (Shape.Idx.first (numel1_S1x1.symm ▸ Nat.one_pos)))
      (tbM.view.readAt (Elt F) (Rect.unit (s := S2x1000) (k0_off112 i) S1x1.size (k0_off112_inb i)).toLoadRect (tbl m 0)
        (Shape.Idx.first (numel1_S1x1.symm ▸ Nat.one_pos))) :=
  chk_12_of_le _ _ (by rw [word_111 m i]; exact clampW_toNat_le _) (by rw [word_112 m i]; exact clampW_toNat_le _)
theorem hw_13 (i : grid0.Coords) :
    k0_chk13
      (tbM.view.readAt (Elt F) (Rect.unit (s := S2x1000) (k0_off121 i) S1x1.size (k0_off121_inb i)).toLoadRect (tbl m 0)
        (Shape.Idx.first (numel1_S1x1.symm ▸ Nat.one_pos)))
      (tbM.view.readAt (Elt F) (Rect.unit (s := S2x1000) (k0_off122 i) S1x1.size (k0_off122_inb i)).toLoadRect (tbl m 0)
        (Shape.Idx.first (numel1_S1x1.symm ▸ Nat.one_pos))) :=
  chk_13_of_le _ _ (by rw [word_121 m i]; exact clampW_toNat_le _) (by rw [word_122 m i]; exact clampW_toNat_le _)
theorem hw_14 (i : grid0.Coords) :
    k0_chk14
      (tbM.view.readAt (Elt F) (Rect.unit (s := S2x1000) (k0_off131 i) S1x1.size (k0_off131_inb i)).toLoadRect (tbl m 0)
        (Shape.Idx.first (numel1_S1x1.symm ▸ Nat.one_pos)))
      (tbM.view.readAt (Elt F) (Rect.unit (s := S2x1000) (k0_off132 i) S1x1.size (k0_off132_inb i)).toLoadRect (tbl m 0)
        (Shape.Idx.first (numel1_S1x1.symm ▸ Nat.one_pos))) :=
  chk_14_of_le _ _ (by rw [word_131 m i]; exact clampW_toNat_le _) (by rw [word_132 m i]; exact clampW_toNat_le _)
theorem hw_15 (i : grid0.Coords) :
    k0_chk15
      (tbM.view.readAt (Elt F) (Rect.unit (s := S2x1000) (k0_off141 i) S1x1.size (k0_off141_inb i)).toLoadRect (tbl m 0)
        (Shape.Idx.first (numel1_S1x1.symm ▸ Nat.one_pos)))
      (tbM.view.readAt (Elt F) (Rect.unit (s := S2x1000) (k0_off142 i) S1x1.size (k0_off142_inb i)).toLoadRect (tbl m 0)
        (Shape.Idx.first (numel1_S1x1.symm ▸ Nat.one_pos))) :=
  chk_15_of_le _ _ (by rw [word_141 m i]; exact clampW_toNat_le _) (by rw [word_142 m i]; exact clampW_toNat_le _)
theorem hw_16 (i : grid0.Coords) :
    k0_chk16
      (tbM.view.readAt (Elt F) (Rect.unit (s := S2x1000) (k0_off151 i) S1x1.size (k0_off151_inb i)).toLoadRect (tbl m 0)
        (Shape.Idx.first (numel1_S1x1.symm ▸ Nat.one_pos)))
      (tbM.view.readAt (Elt F) (Rect.unit (s := S2x1000) (k0_off152 i) S1x1.size (k0_off152_inb i)).toLoadRect (tbl m 0)
        (Shape.Idx.first (numel1_S1x1.symm ▸ Nat.one_pos))) :=
  chk_16_of_le _ _ (by rw [word_151 m i]; exact clampW_toNat_le _) (by rw [word_152 m i]; exact clampW_toNat_le _)
theorem hw_17 (i : grid0.Coords) :
    k0_chk17
      (tbM.view.readAt (Elt F) (Rect.unit (s := S2x1000) (k0_off161 i) S1x1.size (k0_off161_inb i)).toLoadRect (tbl m 0)
        (Shape.Idx.first (numel1_S1x1.symm ▸ Nat.one_pos)))
      (tbM.view.readAt (Elt F) (Rect.unit (s := S2x1000) (k0_off162 i) S1x1.size (k0_off162_inb i)).toLoadRect (tbl m 0)
        (Shape.Idx.first (numel1_S1x1.symm ▸ Nat.one_pos))) :=
  chk_17_of_le _ _ (by rw [word_161 m i]; exact clampW_toNat_le _) (by rw [word_162 m i]; exact clampW_toNat_le _)
theorem hw_18 (i : grid0.Coords) :
    k0_chk18
      (tbM.view.readAt (Elt F) (Rect.unit (s := S2x1000) (k0_off171 i) S1x1.size (k0_off171_inb i)).toLoadRect (tbl m 0)
        (Shape.Idx.first (numel1_S1x1.symm ▸ Nat.one_pos)))
      (tbM.view.readAt (Elt F) (Rect.unit (s := S2x1000) (k0_off172 i) S1x1.size (k0_off172_inb i)).toLoadRect (tbl m 0)
        (Shape.Idx.first (numel1_S1x1.symm ▸ Nat.one_pos))) :=
  chk_18_of_le _ _ (by rw [word_171 m i]; exact clampW_toNat_le _) (by rw [word_172 m i]; exact clampW_toNat_le _)
theorem hw_19 (i : grid0.Coords) :
    k0_chk19
      (tbM.view.readAt (Elt F) (Rect.unit (s := S2x1000) (k0_off181 i) S1x1.size (k0_off181_inb i)).toLoadRect (tbl m 0)
        (Shape.Idx.first (numel1_S1x1.symm ▸ Nat.one_pos)))
      (tbM.view.readAt (Elt F) (Rect.unit (s := S2x1000) (k0_off182 i) S1x1.size (k0_off182_inb i)).toLoadRect (tbl m 0)
        (Shape.Idx.first (numel1_S1x1.symm ▸ Nat.one_pos))) :=
  chk_19_of_le _ _ (by rw [word_181 m i]; exact clampW_toNat_le _) (by rw [word_182 m i]; exact clampW_toNat_le _)
theorem hw_20 (i : grid0.Coords) :
    k0_chk20
      (tbM.view.readAt (Elt F) (Rect.unit (s := S2x1000) (k0_off191 i) S1x1.size (k0_off191_inb i)).toLoadRect (tbl m 0)
        (Shape.Idx.first (numel1_S1x1.symm ▸ Nat.one_pos)))
      (tbM.view.readAt (Elt F) (Rect.unit (s := S2x1000) (k0_off192 i) S1x1.size (k0_off192_inb i)).toLoadRect (tbl m 0)
        (Shape.Idx.first (numel1_S1x1.symm ▸ Nat.one_pos))) :=
  chk_20_of_le _ _ (by rw [word_191 m i]; exact clampW_toNat_le _) (by rw [word_192 m i]; exact clampW_toNat_le _)

end Cert.Kernel.Roi

end
-- ==== Proof.BitsPay.lean ====
/-
  What the copy into row r of the output block moves, uniformly in r: row r = 8·k + b takes the window of the transposed
  feature map that starts at the two table words of box k (read at the offsets the body computes) and at batch entry b.
-/
import proofs.«420386_j26250840113278_3_alg».proof.Proof.BitsLayers
import proofs.«420386_j26250840113278_3_alg».proof.Proof.BitsTable

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.RoiSpec

variable {F : FTy → Type} [FloatOps F]

/-- The table words of the 20 boxes of a grid point are all at most 57 (what the copies' windows need to lie inside the map). -/
abbrev WordsLe (c : Dev nD) (i : grid0.Coords) (tb : TbBuf (F := F) c tbM) : Prop :=
  ∀ (k a : ℕ) (hk : k < 20) (ha : a < 2), (wordU c i tb k a (offW_inb i k a hk ha)).toNat ≤ 57

theorem row_div_lt (r : Fin 160) : r.val / 8 < 20 := by have := r.isLt; omega
theorem row_mod_lt (r : Fin 160) : r.val % 8 < 8 := Nat.mod_lt _ (by decide)

/-- The window the copy into row `r` reads. -/
abbrev srcRow (c : Dev nD) (i : grid0.Coords) (tb : TbBuf (F := F) c tbM) (hT : WordsLe c i tb) (r : Fin 160) :
    Memref sig .tc .hbm S7x7x256 .f32 :=
  srcM (wordU c i tb (r.val / 8) 0 (offW_inb i (r.val / 8) 0 (row_div_lt r) (by decide)))
    (wordU c i tb (r.val / 8) 1 (offW_inb i (r.val / 8) 1 (row_div_lt r) (by decide))) (r.val % 8)
    (src_inb _ _ _ (hT _ 0 (row_div_lt r) (by decide)) (hT _ 1 (row_div_lt r) (by decide)) (row_mod_lt r))

/-- What the copy into row `r` moves. -/
def payU (c : Dev nD) (i : grid0.Coords) (tb : TbBuf (F := F) c tbM) (fh : HbBuf (F := F) c hbM) (hT : WordsLe c i tb)
    (r : Fin 160) : S7x7x256.Idx → Elt F .f32 :=
  ReadAs.same.apply ((srcRow c i tb hT r).view.read (Elt F) fh)

/-- Read at an index: the map at (word₀ + z₀, word₁ + z₁, r % 8, z₂). -/
theorem payU_apply (c : Dev nD) (i : grid0.Coords) (tb : TbBuf (F := F) c tbM) (fh : HbBuf (F := F) c hbM) (hT : WordsLe c i tb)
    (r : Fin 160) (z : S7x7x256.Idx) :
    payU c i tb fh hT r z
      = fh (srcIdx (wordU c i tb (r.val / 8) 0 (offW_inb i (r.val / 8) 0 (row_div_lt r) (by decide))).toNat
          (wordU c i tb (r.val / 8) 1 (offW_inb i (r.val / 8) 1 (row_div_lt r) (by decide))).toNat (r.val % 8) z) := by
  unfold payU srcRow
  exact read_srcM c fh _ _ _ _ z

end Cert.Kernel.Roi

end
-- ==== Proof.BitsRunEq.lean ====
/-
  The block after the body is the 160 rows written in order: what the run found, row by row, is the copy out of the
  window at the box's two table words and the row's batch entry. Hence the block reads, at (r, h, w, c), the transposed
  map at (word₀ + h, word₁ + w, r % 8, c), with the words of box r / 8 — whatever the block held before.
-/
import proofs.«420386_j26250840113278_3_alg».proof.Proof.BitsRun
import proofs.«420386_j26250840113278_3_alg».proof.Proof.BitsPay

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.RoiSpec

variable {F : FTy → Type} [FloatOps F]

set_option maxRecDepth 1000000 in
/-- The contents the run found are the rows 0 … 159 written in that order. -/
theorem g_eq (c : Dev nD) (i : grid0.Coords) (arg3 : Memref sig .tc .vmem S160x7x7x256 .f32) (harg3 : arg3.IsWhole)
    (tb : TbBuf (F := F) c tbM) (fh : HbBuf (F := F) c hbM) (hw1) (hw2) (hw3) (hw4) (hw5) (hw6) (hw7) (hw8) (hw9) (hw10) (hw11) (hw12) (hw13) (hw14) (hw15) (hw16) (hw17) (hw18) (hw19) (hw20)
    (hT : WordsLe c i tb) (f : BufTy.Contents (Elt F) arg3.view.ty) :
    (kernelRun c i arg3 harg3 tb fh hw1 hw2 hw3 hw4 hw5 hw6 hw7 hw8 hw9 hw10 hw11 hw12 hw13 hw14 hw15 hw16 hw17 hw18 hw19 hw20).1 f
      = rowsUpTo arg3 (payU c i tb fh hT) f 160 (Nat.le_refl _) := by
  sl_kernel_rfl

/-- The block after the body, read at an index. -/
theorem read_run (c : Dev nD) (i : grid0.Coords) (arg3 : Memref sig .tc .vmem S160x7x7x256 .f32) (harg3 : arg3.IsWhole)
    (tb : TbBuf (F := F) c tbM) (fh : HbBuf (F := F) c hbM) (hw1) (hw2) (hw3) (hw4) (hw5) (hw6) (hw7) (hw8) (hw9) (hw10) (hw11) (hw12) (hw13) (hw14) (hw15) (hw16) (hw17) (hw18) (hw19) (hw20)
    (hT : WordsLe c i tb) (f : BufTy.Contents (Elt F) arg3.view.ty) (y : S160x7x7x256.Idx) :
    arg3.view.read (Elt F) ((kernelRun c i arg3 harg3 tb fh hw1 hw2 hw3 hw4 hw5 hw6 hw7 hw8 hw9 hw10 hw11 hw12 hw13 hw14 hw15 hw16 hw17 hw18 hw19 hw20).1 f) y
      = payU c i tb fh hT ⟨(y 0).val, (y 0).isLt⟩ (tl3 y) := by
  exact (congrArg (fun G => arg3.view.read (Elt F) G y) (g_eq c i arg3 harg3 tb fh hw1 hw2 hw3 hw4 hw5 hw6 hw7 hw8 hw9 hw10 hw11 hw12 hw13 hw14 hw15 hw16 hw17 hw18 hw19 hw20 hT f)).trans
    (read_rows_all arg3 harg3 _ f y)

end Cert.Kernel.Roi

end
-- ==== Proof.BitsFrame.lean ====
/-
  The frame run of the RoI-crop program, with its result array named. After grid point t the output block (rows
  160·t … 160·t + 159 of the (8000, 7, 7, 256) result) holds, at (r, h, w, c), the transposed feature map at
  (start₀ n + h, start₁ n + w, b, c) for box n = 20·t + r / 8 and batch entry b = r % 8, where startₐ n is box n's word on
  axis a clamped into [0, 57]: the body's 160 copies write exactly that, row by row. The kernel's invariant between
  points is: its eight semaphores at zero, the transposed feature map and half the table at their contents.
-/
import proofs.«420386_j26250840113278_3_alg».proof.Proof.BitsRunEq
import proofs.«420386_j26250840113278_3_alg».proof.Proof.Spec

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.RoiSpec

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The box array as launched (one device). -/
abbrev boxesA : SB.Idx → BitVec 32 := m (((0 : Dev nD) : Thread nD τ).loc main_arg1)

/-- What the output block holds after grid point `t`. -/
def blockVal (c : Dev nD) (t : ℕ) : S160x7x7x256.Idx → Elt F .f32 := fun y =>
  V m c main_v3 (srcIdx (start (boxesA m) (20 * t + (y 0).val / 8) 0) (start (boxesA m) (20 * t + (y 0).val / 8) 1) ((y 0).val % 8) (tl3 y))

/-- The proof data of the one pipeline on core `c`. -/
def dats (_ : Fin 1) (c : Dev nD) : Dat τ (Elt F) Unit ℕ (Pipeline.UD sig nD τ) ℕ (cfgM m) c where
  A w := V m c (Pipeline.arrRef spec0 w)
  after w t := match w with
    | ⟨0, _⟩ => blockVal m c t.val
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = blockVal m c t.val := by dsimp only [dats]; try rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms m t) fullShare ((dats m 0 c).after 0 t))

/-- The grid is one axis of 50 points: a point's one coordinate is its number. -/
theorem coord_val : ∀ t : Fin grid0.N, ((grid0.coords t) 0).val = t.val := by decide +kernel

theorem sound_body (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  have hT : WordsLe (0 : Dev nD) (grid0.coords t) (tbl m 0) := fun k a hk ha => wordU_le m (grid0.coords t) k a hk ha _
  unfold bodyPre bodyPost bodyAt
  rw [show (dats m 0 0).Φ t.succ = (dats m 0 0).Φ t.castSucc from rfl, after0]
  rw [show (dats m 0 0).Φ t.castSucc = iprop(Pipeline.ΦD osem spec0 H0 (V m) 0 ∗ Pipeline.ΦT pre0 (tbl m) 0) from rfl, PhiD_eq, PhiT_eq]
  unfold Dat.owesAt Pipeline.owesWithin
  rw [show (dats m 0 0).owed t.castSucc = 0 from rfl, show (dats m 0 0).owed t.succ = 0 from rfl]
  unfold owns
  iintro ⟨⟨⟨He, Hg, ⟨Hq2, Hq3, Hq4, Hq5, Hq6, Hq7, Hq8, Hq9⟩, Hh⟩, HT⟩, ⟨%W, -, HW⟩, ⟨%d0, %f0, %hf0, H0⟩⟩
  iapply ((kernelRun (0 : Dev nD) (grid0.coords t) (ms m t) (hs m t) (tbl m 0) (V m 0 main_v3) (hw_1 m (grid0.coords t)) (hw_2 m (grid0.coords t)) (hw_3 m (grid0.coords t)) (hw_4 m (grid0.coords t)) (hw_5 m (grid0.coords t)) (hw_6 m (grid0.coords t)) (hw_7 m (grid0.coords t)) (hw_8 m (grid0.coords t)) (hw_9 m (grid0.coords t)) (hw_10 m (grid0.coords t)) (hw_11 m (grid0.coords t)) (hw_12 m (grid0.coords t)) (hw_13 m (grid0.coords t)) (hw_14 m (grid0.coords t)) (hw_15 m (grid0.coords t)) (hw_16 m (grid0.coords t)) (hw_17 m (grid0.coords t)) (hw_18 m (grid0.coords t)) (hw_19 m (grid0.coords t)) (hw_20 m (grid0.coords t))).2 W _ f0)
  isplitl [H0]; · iexact H0
  isplitl [HT]; · iexact HT
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh]; · iexact Hh
  isplitl [HW]; · iexact HW
  iintro ⟨H0, HT, Hq2, Hq3, Hq4, Hq5, Hq6, Hq7, Hq8, Hq9, Hh, ⟨%W', HW'⟩⟩
  isplitl [He Hg Hq2 Hq3 Hq4 Hq5 Hq6 Hq7 Hq8 Hq9 Hh HT]
  · isplitr [HT]
    · isplitl [He]; · iexact He
      isplitl [Hg]; · iexact Hg
      isplitr [Hh]
      ·
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      · iexact Hh
    · iexact HT
  isplitl [HW']
  · iexists W'; isplitr; · ipureintro; exact fun _ _ => Or.inl trivial
    iexact HW'
  iexists _; isplitr; swap; · iexact H0
  ipureintro
  funext y
  refine (read_run (0 : Dev nD) (grid0.coords t) (ms m t) (hs m t) (tbl m 0) (V m 0 main_v3) (hw_1 m (grid0.coords t)) (hw_2 m (grid0.coords t)) (hw_3 m (grid0.coords t)) (hw_4 m (grid0.coords t)) (hw_5 m (grid0.coords t)) (hw_6 m (grid0.coords t)) (hw_7 m (grid0.coords t)) (hw_8 m (grid0.coords t)) (hw_9 m (grid0.coords t)) (hw_10 m (grid0.coords t)) (hw_11 m (grid0.coords t)) (hw_12 m (grid0.coords t)) (hw_13 m (grid0.coords t)) (hw_14 m (grid0.coords t)) (hw_15 m (grid0.coords t)) (hw_16 m (grid0.coords t)) (hw_17 m (grid0.coords t)) (hw_18 m (grid0.coords t)) (hw_19 m (grid0.coords t)) (hw_20 m (grid0.coords t)) hT f0 y).trans ?_
  refine (payU_apply (0 : Dev nD) (grid0.coords t) (tbl m 0) (V m 0 main_v3) hT ⟨(y 0).val, (y 0).isLt⟩ (tl3 y)).trans ?_
  have hk : (y 0).val / 8 < 20 := row_div_lt ⟨(y 0).val, (y 0).isLt⟩
  have e0 := congrArg BitVec.toNat (wordU_eq m (grid0.coords t) ((y 0).val / 8) 0 hk (by decide) (offW_inb (grid0.coords t) _ 0 hk (by decide)))
  have e1 := congrArg BitVec.toNat (wordU_eq m (grid0.coords t) ((y 0).val / 8) 1 hk (by decide) (offW_inb (grid0.coords t) _ 1 hk (by decide)))
  rw [coord_val t] at e0 e1
  exact congrArg (V m 0 main_v3) (congrArg₂ (fun a b => srcIdx a b ((y 0).val % 8) (tl3 y)) e0 e1)

set_option maxRecDepth 200000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; the result array of the launch ends as the proof data say,
    block by block, every other buffer as the host lines leave it. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_dma_around pcfgs (fun _ => adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keep m)
    (hmain := hmain m Variants.none) (hA := A_eq m) (hpf := V_pre m)
    (hin := fun _ => .rfl) (hout := fun c => by
      rw [show (dats m 0 c).Φ (Fin.last (Pipeline.pin pcfgs (fun _ => adm m) 0).N)
        = iprop(Pipeline.ΦD osem spec0 H0 (V m) c ∗ Pipeline.ΦT pre0 (tbl m) c) from rfl]
      iintro ⟨H, -⟩; iexact H)

end Cert.Kernel.Roi

end
-- ==== Proof.BitsValue.lean ====
/-
  The value of the RoI-crop program, read off its frame run. The launch's result array (8000, 7, 7, 256) is written
  block by block: grid point t writes rows 160·t … 160·t + 159, and row r = 160·t + y holds, at (r, h, w, ch), the
  transposed feature map at (start₀ n + h, start₁ n + w, b, ch) for box n = r / 8 and batch entry b = r % 8 — one
  function of the whole array, of which every point's block is a restriction; the fifty blocks tile the array, so the
  array ends holding that function. The host line after the launch reshapes it to (1000, 8, 7, 7, 256): the result at
  (n, b, h, w, ch) is the array at row 8·n + b, whose box is n and whose batch entry is b. The transposed map at
  (p, q, b, ch) is the feature map at (b, p, q, ch), and a clamped start is at most 57, so start + offset < 64 and the
  remainders in the indices are the sums themselves: the result is the crop. No host line writes an argument.
-/
import proofs.«420386_j26250840113278_3_alg».proof.Proof.BitsFrame
import proofs.«420386_j26250840113278_3_alg».proof.Proof.BitsTable
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.Tactic

set_option maxRecDepth 16384

noncomputable section

namespace Cert.Kernel.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.RoiSpec

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result array as one function of the transposed feature map and the boxes -/

/-- The last three coordinates of an index of the result array. -/
def tl3A (x : S8000x7x7x256.Idx) : S7x7x256.Idx := fun a => match a with
  | ⟨0, _⟩ => ⟨(x 1).val, (x 1).isLt⟩
  | ⟨1, _⟩ => ⟨(x 2).val, (x 2).isLt⟩
  | ⟨2, _⟩ => ⟨(x 3).val, (x 3).isLt⟩

/-- Row r of the (8000, 7, 7, 256) result belongs to box r / 8 and batch entry r % 8: at (r, h, w, ch) it holds the
    transposed feature map at (start₀ (r / 8) + h, start₁ (r / 8) + w, r % 8, ch). -/
def resArr (c : Dev nD) : S8000x7x7x256.Idx → Elt F .f32 := fun x =>
  V m c main_v3 (srcIdx (start (boxesA m) ((x 0).val / 8) 0) (start (boxesA m) ((x 0).val / 8) 1) ((x 0).val % 8) (tl3A x))

/-- The block index of grid point t is (t, 0, 0, 0). -/
theorem idx_map : ∀ t : Fin grid0.N, cc0_transform_1 (grid0.coords t) (0 : Fin 4) = t.val
    ∧ cc0_transform_1 (grid0.coords t) (1 : Fin 4) = 0 ∧ cc0_transform_1 (grid0.coords t) (2 : Fin 4) = 0
    ∧ cc0_transform_1 (grid0.coords t) (3 : Fin 4) = 0 := by decide +kernel

theorem win_index (t : Fin (cfgM m).N) : ((cfgM m).win 0).index t (0 : Fin 4) = t.val
    ∧ ((cfgM m).win 0).index t (1 : Fin 4) = 0 ∧ ((cfgM m).win 0).index t (2 : Fin 4) = 0
    ∧ ((cfgM m).win 0).index t (3 : Fin 4) = 0 := idx_map t

/-- The block index changes from each point to the next, so every point writes its block back. -/
theorem win_flush (t : Fin (cfgM m).N) : ((cfgM m).win 0).flush t = true := by
  have ht : t.val < 50 := t.isLt
  unfold Window.flush
  show (true && (decide (t.val + 1 = 50) || decide (∃ h : t.val + 1 < 50, ((cfgM m).win 0).index ⟨t.val + 1, h⟩ ≠ ((cfgM m).win 0).index t))) = true
  rw [Bool.true_and, Bool.or_eq_true, decide_eq_true_eq, decide_eq_true_eq]
  by_cases h : t.val + 1 = 50
  · exact Or.inl h
  · refine Or.inr ⟨by omega, fun e => ?_⟩
    have e0 : ((cfgM m).win 0).index ⟨t.val + 1, _⟩ (0 : Fin 4) = ((cfgM m).win 0).index t (0 : Fin 4) := congrFun e (0 : Fin 4)
    rw [(win_index m _).1, (win_index m _).1] at e0
    show False
    have : t.val + 1 = t.val := e0
    omega

/-- Where element j of point t's block sits in the array: row 160·t + j₀, the other coordinates unchanged. -/
theorem blk_emb (t : Fin (cfgM m).N) (j : S160x7x7x256.Idx) (x : S8000x7x7x256.Idx)
    (hx : x = (((cfgM m).win 0).blk t).view.emb j) :
    (x 0).val = 160 * t.val + (j 0).val ∧ (x 1).val = (j 1).val ∧ (x 2).val = (j 2).val ∧ (x 3).val = (j 3).val := by
  subst hx
  obtain ⟨i0, i1, i2, i3⟩ := win_index m t
  refine ⟨?_, ?_, ?_, ?_⟩
  · show ((cfgM m).win 0).index t (0 : Fin 4) * 160 + 1 * (j 0).val = _
    omega
  · show ((cfgM m).win 0).index t (1 : Fin 4) * 7 + 1 * (j 1).val = _
    omega
  · show ((cfgM m).win 0).index t (2 : Fin 4) * 7 + 1 * (j 2).val = _
    omega
  · show ((cfgM m).win 0).index t (3 : Fin 4) * 256 + 1 * (j 3).val = _
    omega

/-- An array index in row 160·t + j₀ reads what block t holds at j. -/
theorem resArr_row (c : Dev nD) (x : S8000x7x7x256.Idx) (t : ℕ) (j : S160x7x7x256.Idx)
    (h0 : (x 0).val = 160 * t + (j 0).val) (h1 : (x 1).val = (j 1).val) (h2 : (x 2).val = (j 2).val)
    (h3 : (x 3).val = (j 3).val) : resArr m c x = blockVal m c t j := by
  unfold resArr blockVal
  have q1 : (x 0).val / 8 = 20 * t + (j 0).val / 8 := by rw [h0]; omega
  have q2 : (x 0).val % 8 = (j 0).val % 8 := by rw [h0]; omega
  have q3 : tl3A x = tl3 j := by
    funext a; apply Fin.ext
    match a with
    | ⟨0, _⟩ => exact h1
    | ⟨1, _⟩ => exact h2
    | ⟨2, _⟩ => exact h3
  rw [q1, q2, q3]

/-- What point t writes back is block t of `resArr`. -/
theorem flushed_eq (c : Dev nD) (t : Fin (cfgM m).N) :
    (dats m 0 c).flushed 0 t = (((cfgM m).win 0).blk t).view.read (Elt F) (resArr m c) := by
  show ((cfgM m).win 0).cut (grid0.coords t) ((dats m 0 c).after 0 t) = _
  rw [after0]
  funext j
  show blockVal m c t.val j = resArr m c ((((cfgM m).win 0).blk t).view.emb j)
  obtain ⟨e0, e1, e2, e3⟩ := blk_emb m t j _ rfl
  exact (resArr_row m c _ t.val j e0 e1 e2 e3).symm

/-! ## The blocks tile the array -/

/-- An index of the array is in point t's block iff each coordinate is in the block's range on its axis. -/
theorem mem_blk (t : Fin (cfgM m).N) (i : S8000x7x7x256.Idx) :
    i ∈ (((cfgM m).win 0).blk t).view.set ↔ ∀ a : Fin 4, ((cfgM m).win 0).index t a * S160x7x7x256.size a ≤ (i a).val
      ∧ (i a).val < ((cfgM m).win 0).index t a * S160x7x7x256.size a + S160x7x7x256.size a := by
  have h : (((cfgM m).win 0).blk t).view.set = (((cfgM m).win 0).rect t).set :=
    View.set_slice_whole main_v4 (((cfgM m).win 0).rect t)
  rw [h]
  exact Rect.mem_set_unit

/-- Row r of the array is in the block of point r / 160, which writes back. -/
theorem covered (i : S8000x7x7x256.Idx) :
    ∃ t : Fin (cfgM m).N, ((cfgM m).win 0).flush t = true ∧ i ∈ (((cfgM m).win 0).blk t).view.set := by
  have hi0 : (i 0).val < 8000 := (i 0).isLt
  have hi1 : (i 1).val < 7 := (i 1).isLt
  have hi2 : (i 2).val < 7 := (i 2).isLt
  have hi3 : (i 3).val < 256 := (i 3).isLt
  have hq : (i 0).val / 160 < (cfgM m).N := by show (i 0).val / 160 < 50; omega
  refine ⟨⟨(i 0).val / 160, hq⟩, win_flush m _, ?_⟩
  rw [mem_blk]
  obtain ⟨i0, i1, i2, i3⟩ := win_index m ⟨(i 0).val / 160, hq⟩
  intro a
  match a with
  | ⟨0, _⟩ =>
    show ((cfgM m).win 0).index ⟨(i 0).val / 160, hq⟩ (0 : Fin 4) * 160 ≤ (i 0).val
      ∧ (i 0).val < ((cfgM m).win 0).index ⟨(i 0).val / 160, hq⟩ (0 : Fin 4) * 160 + 160
    rw [i0]; show (i 0).val / 160 * 160 ≤ (i 0).val ∧ (i 0).val < (i 0).val / 160 * 160 + 160; omega
  | ⟨1, _⟩ =>
    show ((cfgM m).win 0).index ⟨(i 0).val / 160, hq⟩ (1 : Fin 4) * 7 ≤ (i 1).val
      ∧ (i 1).val < ((cfgM m).win 0).index ⟨(i 0).val / 160, hq⟩ (1 : Fin 4) * 7 + 7
    rw [i1]; omega
  | ⟨2, _⟩ =>
    show ((cfgM m).win 0).index ⟨(i 0).val / 160, hq⟩ (2 : Fin 4) * 7 ≤ (i 2).val
      ∧ (i 2).val < ((cfgM m).win 0).index ⟨(i 0).val / 160, hq⟩ (2 : Fin 4) * 7 + 7
    rw [i2]; omega
  | ⟨3, _⟩ =>
    show ((cfgM m).win 0).index ⟨(i 0).val / 160, hq⟩ (3 : Fin 4) * 256 ≤ (i 3).val
      ∧ (i 3).val < ((cfgM m).win 0).index ⟨(i 0).val / 160, hq⟩ (3 : Fin 4) * 256 + 256
    rw [i3]; omega

/-- So the result array of the launch ends holding `resArr`. -/
theorem final (c : Dev nD) : (dats m 0 c).arrAt 0 (cfgM m).N = resArr m c :=
  (dats m 0 c).arrAt_eq_of_cover 0 (resArr m c) (fun t _ => flushed_eq m c t) (covered m)

/-! ## The reshape after the launch, and the feature map behind the transpose -/

theorem v5_rest : main_v5 ∈ Pipeline.restRefs sig spec0 := Pipeline.mem_restRefs_of main_v5 (by decide) (by decide)
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

/-- The array index (8·n + b, h, w, ch) of the result index (n, b, h, w, ch). -/
def rowOf (j : SO.Idx) : S8000x7x7x256.Idx := fun a => match a with
  | ⟨0, _⟩ => ⟨8 * (j 0).val + (j 1).val, by
      have h0 : (j 0).val < 1000 := (j 0).isLt
      have h1 : (j 1).val < 8 := (j 1).isLt
      show 8 * (j 0).val + (j 1).val < 8000
      omega⟩
  | ⟨1, _⟩ => ⟨(j 2).val, (j 2).isLt⟩
  | ⟨2, _⟩ => ⟨(j 3).val, (j 3).isLt⟩
  | ⟨3, _⟩ => ⟨(j 4).val, (j 4).isLt⟩

/-- The reshape to (1000, 8, 7, 7, 256) read at (n, b, h, w, ch) is the array at row 8·n + b: both sit at the same
    row-major position. -/
theorem reshape_read {α : Type} (x : S8000x7x7x256.Idx → α) (j : SO.Idx) :
    shapeCast S1000x8x7x7x256 x shapeCasts_S8000x7x7x256_S1000x8x7x7x256 j = x (rowOf j) := by
  refine shapeCast_apply x _ j (rowOf j) ?_
  rw [Shape.rowMajor_val_four, Shape.rowMajor_val_five]
  show (((8 * (j 0).val + (j 1).val) * 7 + (j 2).val) * 7 + (j 3).val) * 256 + (j 4).val
    = ((((j 0).val * 8 + (j 1).val) * 7 + (j 2).val) * 7 + (j 3).val) * 256 + (j 4).val
  omega

/-- What the region leaves in the launch's result array. -/
theorem tail_arr (c : Dev nD) :
    Pipeline.withArrays (Pipeline.pin pcfgs (fun _ => adm m) 0).spec c (V0 m c)
      (fun w => (dats m 0 c).arrAt w (Pipeline.pin pcfgs (fun _ => adm m) 0).N) (Proc.devRef .tc main_v4) = resArr m c :=
  (Pipeline.withArrays_arr spec0 winFacts0.arr_inj c _ _ 0).trans (final m c)

/-- The transposed feature map as the launch finds it. -/
theorem V_v3 (c : Dev nD) :
    (V m c main_v3 : S64x64x8x256.Idx → Elt F .f32)
      = transpose S64x64x8x256 [1, 2, 0, 3] (m ((c.tc : Thread nD τ).loc main_arg0)) transposes_S8x64x64x256_S64x64x8x256_1_2_0_3 := by
  dsimp only [V, V0]
  simp only [hostOps0, hostOps0_1, hostOps0_2, List.flatten_cons, List.flatten_nil, List.append_nil, List.cons_append,
    List.nil_append]
  after_results

/-- The transposed map at (p, q, b, ch) is the feature map at (b, p, q, ch). -/
theorem V_v3_apply (c : Dev nD) (p q b ch : ℕ) (hp : p < 64) (hq : q < 64) (hb : b < 8) (hch : ch < 256)
    (k : S64x64x8x256.Idx) (k0 : (k 0).val = p) (k1 : (k 1).val = q) (k2 : (k 2).val = b) (k3 : (k 3).val = ch) :
    (V m c main_v3 : S64x64x8x256.Idx → Elt F .f32) k = m ((c.tc : Thread nD τ).loc main_arg0) (fidx b p q ch) := by
  rw [V_v3]
  refine transpose_apply [1, 2, 0, 3] _ transposes_S8x64x64x256_S64x64x8x256_1_2_0_3 k (fidx b p q ch) ?_
  intro a
  match a with
  | ⟨0, _⟩ => show p % 64 = (k 0).val; rw [k0, Nat.mod_eq_of_lt hp]
  | ⟨1, _⟩ => show q % 64 = (k 1).val; rw [k1, Nat.mod_eq_of_lt hq]
  | ⟨2, _⟩ => show b % 8 = (k 2).val; rw [k2, Nat.mod_eq_of_lt hb]
  | ⟨3, _⟩ => show ch % 256 = (k 3).val; rw [k3, Nat.mod_eq_of_lt hch]

/-- The array at row 8·n + b is the crop at (n, b, ·, ·, ·): the row's box is n and its batch entry b, and a start is at
    most 57, so that start + offset stays below 64. -/
theorem resArr_crop (c : Dev nD) (j : SO.Idx) :
    resArr m c (rowOf j)
      = crop (α := Elt F .f32) (m ((c.tc : Thread nD τ).loc main_arg0)) (m ((c.tc : Thread nD τ).loc main_arg1)) j := by
  obtain rfl : c = 0 := Subsingleton.elim _ _
  have h0 : (j 0).val < 1000 := (j 0).isLt
  have h1 : (j 1).val < 8 := (j 1).isLt
  have h2 : (j 2).val < 7 := (j 2).isLt
  have h3 : (j 3).val < 7 := (j 3).isLt
  have h4 : (j 4).val < 256 := (j 4).isLt
  have s0 := start_le (boxesA m) (j 0).val 0
  have s1 := start_le (boxesA m) (j 0).val 1
  unfold resArr crop
  have q1 : (rowOf j 0).val / 8 = (j 0).val := by show (8 * (j 0).val + (j 1).val) / 8 = _; omega
  have q2 : (rowOf j 0).val % 8 = (j 1).val := by show (8 * (j 0).val + (j 1).val) % 8 = _; omega
  rw [q1, q2]
  refine V_v3_apply m 0 (start (boxesA m) (j 0).val 0 + (j 2).val) (start (boxesA m) (j 0).val 1 + (j 3).val) (j 1).val (j 4).val
    (by omega) (by omega) h1 h4 _ ?_ ?_ ?_ ?_
  · show (start (boxesA m) (j 0).val 0 + (j 2).val) % 64 = _
    exact Nat.mod_eq_of_lt (by omega)
  · show (start (boxesA m) (j 0).val 1 + (j 3).val) % 64 = _
    exact Nat.mod_eq_of_lt (by omega)
  · show (j 1).val % 8 = _
    exact Nat.mod_eq_of_lt h1
  · rfl

theorem tail_v5 (c : Dev nD) :
    Pipeline.afterTail pcfgs (fun _ => adm m) (dats m) 0 (V0 m) [hostOps1] c main_v5
      = crop (α := Elt F .f32) (m ((c.tc : Thread nD τ).loc main_arg0)) (m ((c.tc : Thread nD τ).loc main_arg1)) := by
  unfold Pipeline.afterTail
  show StableHlo.after hostOps1 _ (Proc.devRef .tc main_v5) = _
  after_results
  funext j
  show shapeCast S1000x8x7x7x256 (Pipeline.withArrays (Pipeline.pin pcfgs (fun _ => adm m) 0).spec c (V0 m c)
      (fun w => (dats m 0 c).arrAt w (Pipeline.pin pcfgs (fun _ => adm m) 0).N) (Proc.devRef .tc main_v4))
      shapeCasts_S8000x7x7x256_S1000x8x7x7x256 j = _
  rw [tail_arr, reshape_read]
  exact resArr_crop m c j

/-! ## The arguments, and the run -/

/-- No host line before the launch writes the feature map, -/
theorem V0_arg0 (c : Dev nD) : V m c main_arg0 = m ((c.tc : Thread nD τ).loc main_arg0) := by
  dsimp only [V, V0]
  simp only [hostOps0, hostOps0_1, hostOps0_2, List.flatten_cons, List.flatten_nil, List.append_nil, List.cons_append,
    List.nil_append]
  after_results

/-- nor the box array. -/
theorem V0_arg1 (c : Dev nD) : V m c main_arg1 = m ((c.tc : Thread nD τ).loc main_arg1) := by
  dsimp only [V, V0]
  simp only [hostOps0, hostOps0_1, hostOps0_2, List.flatten_cons, List.flatten_nil, List.append_nil, List.cons_append,
    List.nil_append]
  after_results

theorem arr_ne_arg0 : ∀ w, Pipeline.arrRef spec0 w ≠ main_arg0 := by decide
theorem arr_ne_arg1 : ∀ w, Pipeline.arrRef spec0 w ≠ main_arg1 := by decide

/-- The reshape after the launch writes neither, and neither is the launch's result array. -/
theorem tail_arg0 (c : Dev nD) :
    Pipeline.afterTail pcfgs (fun _ => adm m) (dats m) 0 (V0 m) [hostOps1] c main_arg0 = m ((c.tc : Thread nD τ).loc main_arg0) := by
  unfold Pipeline.afterTail
  show StableHlo.after hostOps1 _ (Proc.devRef .tc main_arg0) = _
  after_results
  exact (Pipeline.withArrays_of_ne spec0 c (V0 m c) _ main_arg0 arr_ne_arg0).trans (V0_arg0 m c)

theorem tail_arg1 (c : Dev nD) :
    Pipeline.afterTail pcfgs (fun _ => adm m) (dats m) 0 (V0 m) [hostOps1] c main_arg1 = m ((c.tc : Thread nD τ).loc main_arg1) := by
  unfold Pipeline.afterTail
  show StableHlo.after hostOps1 _ (Proc.devRef .tc main_arg1) = _
  after_results
  exact (Pipeline.withArrays_of_ne spec0 c (V0 m c) _ main_arg1 arr_ne_arg1).trans (V0_arg1 m c)

/-- Every weakly fair execution of the program terminates with the crop of the feature map by the boxes in the result
    buffer, the two arguments as they were. -/
theorem kernel_run : θ_run defs (onTc (τ := τ) (main (F := F))) ⟨m, fun _ => 0, ρ⟩ (fun r => ∀ c : Dev nD,
      r.2.mem ((c.tc : Thread nD τ).loc main_v5) = crop (α := Elt F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v5 v5_rest).trans (tail_v5 m c),
      ((h c).2 main_arg0 arg0_rest).trans (tail_arg0 m c),
      ((h c).2 main_arg1 arg1_rest).trans (tail_arg1 m c)⟩) (run_main m ρ)

end Cert.Kernel.Roi

end
-- ==== Proof.RefValue.lean ====
/-
  The reference read at an index: the vmapped dynamic slice is a gather whose start indices are the clamped box starts,
  so its result at (n, b, h, w, c) is the feature map at (b, start₀ n + h, start₁ n + w, c).
-/
import proofs.«420386_j26250840113278_3_alg».proof.Proof.RefRun
import proofs.«420386_j26250840113278_3_alg».proof.Proof.RefRead
import proofs.«420386_j26250840113278_3_alg».proof.Proof.Spec
import Idealize.ShloMosaic.Lib.ValueIdx
import Idealize.ShloMosaic.Lib.StableHlo.Run

noncomputable section

namespace Cert.RefValue

open Idealize.ShloMosaic Idealize.SL.Sem Cert.RoiSpec
open Cert.ReferenceIdeal Cert.ReferenceIdeal.Gen Cert.ReferenceIdeal.ReadP

/-! ## The clamped word as a signed number -/

/-- A clamped word is not below zero as a signed number. -/
theorem clampW_slt_zero (x : BitVec 32) : (clampW x).slt 0#32 = false := by
  have h := clampW_toInt x
  simp only [BitVec.slt, decide_eq_false_iff_not, not_lt]
  rw [h]
  simp

/-- So the comparison "below zero" of a clamped word is the bit 0. -/
theorem cmpi_slt_clampW (x : BitVec 32) : IntOp.cmpi .slt (clampW x) 0#32 = 0#1 := by
  show BitVec.ofBool ((clampW x).slt 0#32) = 0#1
  rw [clampW_slt_zero]
  rfl

/-! ## The four one-column pieces joined along axis 1, read at an index -/

/-- The index [n, 0] of a one-column array. -/
def cidx (n : ℕ) : S1000x1.Idx := fun a => match a with
  | ⟨0, _⟩ => ⟨n % 1000, Nat.mod_lt _ (by decide)⟩
  | ⟨1, _⟩ => ⟨0, Nat.one_pos⟩

/-- The four one-column pieces joined along axis 1, read in column 1: the second piece. -/
theorem concat4_col1 (u0 u1 u2 u3 : S1000x1.Idx → BitVec 32) (k : S1000x4.Idx) (hk : (k 1).val = 1) :
    concatenate S1000x4 1 [⟨S1000x1, u0⟩, ⟨S1000x1, u1⟩, ⟨S1000x1, u2⟩, ⟨S1000x1, u3⟩]
      concatenates_S1000x1_S1000x1_S1000x1_S1000x1_S1000x4_d1 k = u1 (cidx (k 0).val) := by
  have h0 : (k 0).val < 1000 := (k 0).isLt
  refine concatenate_apply_piece 1 _ _ k 1 (by show 1 < 4; omega) S1000x1 u1 rfl rfl 1 rfl (cidx (k 0).val) ?_ ?_
  · intro b hb
    match b with
    | ⟨0, _⟩ => show (k 0).val % 1000 = (k 0).val; exact Nat.mod_eq_of_lt h0
    | ⟨1, _⟩ => exact absurd rfl hb
  · show 1 + 0 = (k 1).val
    omega

/-- … read in column 2: the third piece. -/
theorem concat4_col2 (u0 u1 u2 u3 : S1000x1.Idx → BitVec 32) (k : S1000x4.Idx) (hk : (k 1).val = 2) :
    concatenate S1000x4 1 [⟨S1000x1, u0⟩, ⟨S1000x1, u1⟩, ⟨S1000x1, u2⟩, ⟨S1000x1, u3⟩]
      concatenates_S1000x1_S1000x1_S1000x1_S1000x1_S1000x4_d1 k = u2 (cidx (k 0).val) := by
  have h0 : (k 0).val < 1000 := (k 0).isLt
  refine concatenate_apply_piece 1 _ _ k 2 (by show 2 < 4; omega) S1000x1 u2 rfl rfl 2 rfl (cidx (k 0).val) ?_ ?_
  · intro b hb
    match b with
    | ⟨0, _⟩ => show (k 0).val % 1000 = (k 0).val; exact Nat.mod_eq_of_lt h0
    | ⟨1, _⟩ => exact absurd rfl hb
  · show 2 + 0 = (k 1).val
    omega

/-! ## The gather read at an index -/

/-- The gather's dimension numbers: offset axes 1 to 4 of the result, start index map the four operand axes in order,
    the index vector on axis 1 of the start indices, slices of 8 × 7 × 7 × 256. -/
abbrev gd : GatherDims S8x64x64x256 S1000x4 S1000x8x7x7x256 :=
  gather_S8x64x64x256_S1000x4_S1000x8x7x7x256_1234_n_n_n_0123_1_877256

theorem gd_batch (j : S1000x8x7x7x256.Idx) (a : Fin 4) : gd.batchCoord j a = 0 :=
  GatherDims.batchCoord_eq_zero _ _ _ List.not_mem_nil

theorem gd_off0 (j : S1000x8x7x7x256.Idx) : gd.offCoord j 0 = (j 1).val := rfl
theorem gd_off1 (j : S1000x8x7x7x256.Idx) : gd.offCoord j 1 = (j 2).val := rfl
theorem gd_off2 (j : S1000x8x7x7x256.Idx) : gd.offCoord j 2 = (j 3).val := rfl
theorem gd_off3 (j : S1000x8x7x7x256.Idx) : gd.offCoord j 3 = (j 4).val := rfl

/-- On an axis whose slice is the whole extent the start is clamped to 0. -/
theorem gd_start0 (j : S1000x8x7x7x256.Idx) (idx : IVec S1000x4 32) : gd.start j idx 0 = 0 :=
  Nat.le_zero.mp (gd.start_le j idx 0)
theorem gd_start3 (j : S1000x8x7x7x256.Idx) (idx : IVec S1000x4 32) : gd.start j idx 3 = 0 :=
  Nat.le_zero.mp (gd.start_le j idx 3)

/-- On axis 1 the start is the word at [n, 1] of the start indices, read signed, clamped into [0, 57]. -/
theorem gd_start1 (j : S1000x8x7x7x256.Idx) (idx : IVec S1000x4 32) (v : BitVec 32)
    (hv : ∀ k : S1000x4.Idx, (k 1).val = 1 → (k 0).val = (j 0).val → idx k = v) :
    gd.start j idx 1 = min v.toInt.toNat 57 := by
  unfold GatherDims.start
  rw [dif_pos (show (1 : Fin 4) ∈ gd.startIndexMap by decide)]
  rw [hv _ rfl rfl]
  rfl

/-- On axis 2 it is the word at [n, 2]. -/
theorem gd_start2 (j : S1000x8x7x7x256.Idx) (idx : IVec S1000x4 32) (v : BitVec 32)
    (hv : ∀ k : S1000x4.Idx, (k 1).val = 2 → (k 0).val = (j 0).val → idx k = v) :
    gd.start j idx 2 = min v.toInt.toNat 57 := by
  unfold GatherDims.start
  rw [dif_pos (show (2 : Fin 4) ∈ gd.startIndexMap by decide)]
  rw [hv _ rfl rfl]
  rfl

/-- THE GATHER IS THE CROP, for any start indices whose columns 1 and 2 hold the clamped box words: result
    (n, b, h, w, c) reads the operand at (0 + b, x + h, y + w, 0 + c), x and y the clamped starts (already at most 57,
    so the gather's own clamp into [0, 57] changes nothing). -/
theorem gather_crop {α : Type} (x0 : S8x64x64x256.Idx → α) (x1 : S1000x4.Idx → BitVec 32) (idx : IVec S1000x4 32)
    (h1 : ∀ k : S1000x4.Idx, (k 1).val = 1 → idx k = clampW (x1 (bidx (k 0).val 0)))
    (h2 : ∀ k : S1000x4.Idx, (k 1).val = 2 → idx k = clampW (x1 (bidx (k 0).val 1))) :
    Host.gather gd x0 idx = crop x0 x1 := by
  funext j
  unfold Host.gather crop
  congr 1
  funext a
  refine Fin.ext ?_
  have hj1 : (j 1).val < 8 := (j 1).isLt
  have hj2 : (j 2).val < 7 := (j 2).isLt
  have hj3 : (j 3).val < 7 := (j 3).isLt
  have hj4 : (j 4).val < 256 := (j 4).isLt
  have hs0 := start_le x1 (j 0).val 0
  have hs1 := start_le x1 (j 0).val 1
  have e1 : gd.start j idx 1 = start x1 (j 0).val 0 := by
    rw [gd_start1 j idx (clampW (x1 (bidx (j 0).val 0))) (fun k hk1 hk0 => by rw [h1 k hk1, hk0]),
      clampW_toInt, Int.toNat_natCast]
    exact Nat.min_eq_left hs0
  have e2 : gd.start j idx 2 = start x1 (j 0).val 1 := by
    rw [gd_start2 j idx (clampW (x1 (bidx (j 0).val 1))) (fun k hk1 hk0 => by rw [h2 k hk1, hk0]),
      clampW_toInt, Int.toNat_natCast]
    exact Nat.min_eq_left hs1
  match a with
  | ⟨0, _⟩ =>
    show gd.start j idx 0 + gd.batchCoord j 0 + gd.offCoord j 0 = (j 1).val % 8
    rw [gd_start0, gd_batch, gd_off0, Nat.mod_eq_of_lt hj1, Nat.zero_add]
  | ⟨1, _⟩ =>
    show gd.start j idx 1 + gd.batchCoord j 1 + gd.offCoord j 1 = (start x1 (j 0).val 0 + (j 2).val) % 64
    rw [e1, gd_batch, gd_off1, Nat.mod_eq_of_lt (by omega)]
    rfl
  | ⟨2, _⟩ =>
    show gd.start j idx 2 + gd.batchCoord j 2 + gd.offCoord j 2 = (start x1 (j 0).val 1 + (j 3).val) % 64
    rw [e2, gd_batch, gd_off2, Nat.mod_eq_of_lt (by omega)]
    rfl
  | ⟨3, _⟩ =>
    show gd.start j idx 3 + gd.batchCoord j 3 + gd.offCoord j 3 = (j 4).val % 256
    rw [gd_start3, gd_batch, gd_off3, Nat.mod_eq_of_lt hj4, Nat.zero_add]

/-! ## The stages before the concatenation, at an index -/

/-- The clip stage at an index: the clamped box word. -/
theorem v1_apply (x1 : S1000x4.Idx → BitVec 32) (i : S1000x2.Idx) :
    val_main_v1 (F := Ideal) x1 i = clampW (x1 (idx_main_v0 i)) := by
  rw [val_main_v1_apply, val_main_call0_v4_apply, val_main_call0_v3_apply, val_main_c_0_apply,
    val_main_call0_v2_apply, val_main_call0_v1_apply, val_main_call0_v0_apply, val_main_c_apply,
    val_main_v0_apply]
  rfl

/-- Column 0 of the clipped starts, as a vector over the boxes. -/
theorem v3_apply (x1 : S1000x4.Idx → BitVec 32) (i : S1000.Idx) :
    val_main_v3 (F := Ideal) x1 i = clampW (x1 (bidx (i 0).val 0)) := by
  rw [val_main_v3_apply, val_main_v2_apply, v1_apply]
  congr 2
  funext a
  refine Fin.ext ?_
  have h0 : (i 0).val < 1000 := (i 0).isLt
  match a with
  | ⟨0, _⟩ =>
    show (i 0).val / 1 = (i 0).val % 1000
    rw [Nat.div_one, Nat.mod_eq_of_lt h0]
  | ⟨1, _⟩ => rfl

/-- Column 1 of the clipped starts. -/
theorem v5_apply (x1 : S1000x4.Idx → BitVec 32) (i : S1000.Idx) :
    val_main_v5 (F := Ideal) x1 i = clampW (x1 (bidx (i 0).val 1)) := by
  rw [val_main_v5_apply, val_main_v4_apply, v1_apply]
  congr 2
  funext a
  refine Fin.ext ?_
  have h0 : (i 0).val < 1000 := (i 0).isLt
  match a with
  | ⟨0, _⟩ =>
    show (i 0).val / 1 = (i 0).val % 1000
    rw [Nat.div_one, Nat.mod_eq_of_lt h0]
  | ⟨1, _⟩ => rfl

/-- "A negative index counts from the end" changes nothing: the clamped word is not negative. -/
theorem v10_apply (x1 : S1000x4.Idx → BitVec 32) (i : S1000.Idx) :
    val_main_v10 (F := Ideal) x1 i = clampW (x1 (bidx (i 0).val 0)) := by
  rw [val_main_v10_apply, val_main_v7_apply, val_main_v6_apply, val_main_c_1_apply, v3_apply, cmpi_slt_clampW]
  exact ValueIdx.select_zero _ _

theorem v15_apply (x1 : S1000x4.Idx → BitVec 32) (i : S1000.Idx) :
    val_main_v15 (F := Ideal) x1 i = clampW (x1 (bidx (i 0).val 1)) := by
  rw [val_main_v15_apply, val_main_v12_apply, val_main_v11_apply, val_main_c_3_apply, v5_apply, cmpi_slt_clampW]
  exact ValueIdx.select_zero _ _

/-! ## The start indices [0, x, y, 0] -/

/-- Column 1 of the start indices: box n's clamped start on the rows. -/
theorem v20_col1 (x1 : S1000x4.Idx → BitVec 32) (k : S1000x4.Idx) (hk : (k 1).val = 1) :
    val_main_v20 (F := Ideal) x1 k = clampW (x1 (bidx (k 0).val 0)) := by
  have h0 : (k 0).val < 1000 := (k 0).isLt
  unfold val_main_v20
  rw [concat4_col1 _ _ _ _ k hk, val_main_v17_apply, v10_apply]
  show clampW (x1 (bidx ((k 0).val % 1000) 0)) = _
  rw [Nat.mod_eq_of_lt h0]

/-- Column 2: its clamped start on the columns. -/
theorem v20_col2 (x1 : S1000x4.Idx → BitVec 32) (k : S1000x4.Idx) (hk : (k 1).val = 2) :
    val_main_v20 (F := Ideal) x1 k = clampW (x1 (bidx (k 0).val 1)) := by
  have h0 : (k 0).val < 1000 := (k 0).isLt
  unfold val_main_v20
  rw [concat4_col2 _ _ _ _ k hk, val_main_v18_apply, v15_apply]
  show clampW (x1 (bidx ((k 0).val % 1000) 1)) = _
  rw [Nat.mod_eq_of_lt h0]

/-! ## The result -/

/-- The reference's last stage is the crop. -/
theorem v21_eq_crop (x0 : S8x64x64x256.Idx → Elt Ideal .f32) (x1 : S1000x4.Idx → BitVec 32) :
    val_main_v21 (F := Ideal) x0 x1 = crop x0 x1 :=
  gather_crop x0 x1 (val_main_v20 (F := Ideal) x1) (v20_col1 x1) (v20_col2 x1)

/-- The reference's run, with its result named: the crop of the two argument arrays. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v21)
            = crop (α := Elt Ideal .f32) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨((h c).1.trans (val_main_v21_eq _ _)).trans (v21_eq_crop _ _), (h c).2⟩)
    (Cert.ReferenceIdeal.ValueP.run (F := Ideal) m ρ)

end Cert.RefValue

end
-- ==== Proof.lean ====
/-
  The RoI crop: for each of 1000 boxes and each of the 8 batch entries, the 7×7×256 window of the feature map whose
  corner is the box's start, clamped into [0, 57] on both axes. The kernel moves the windows by its own copies out of the
  transposed map, 160 rows per grid point; the reference gathers them. Both results are the one function
  `Cert.RoiSpec.crop` of the two argument arrays, index by index — an exact copy of data, so no law of the extended reals
  is used and the precondition (finite inputs) is never opened. The three frames: each program's run with its result
  dropped. The ideal pass rewrote nothing, so the idealization claim is trivial.
-/
import proofs.«420386_j26250840113278_3_alg».proof.Defs
import proofs.«420386_j26250840113278_3_alg».proof.Proof.Gen.Kernel
import proofs.«420386_j26250840113278_3_alg».proof.Proof.Gen.KernelIdeal
import proofs.«420386_j26250840113278_3_alg».proof.Proof.Gen.ReferenceIdeal
import proofs.«420386_j26250840113278_3_alg».proof.Proof.Gen.Pre_finite_inputs
import proofs.«420386_j26250840113278_3_alg».proof.Proof.IdealValue
import proofs.«420386_j26250840113278_3_alg».proof.Proof.BitsValue
import proofs.«420386_j26250840113278_3_alg».proof.Proof.RefValue
import Idealize.ShloMosaic.Adequacy
import Idealize.ShloMosaic.Init

noncomputable section

namespace Cert.Proof

open Idealize.ShloMosaic Idealize.SL.Sem Cert.RoiSpec

theorem claim : Cert.Claim := ⟨Cert.Kernel.Gen.facts, Cert.KernelIdeal.Gen.facts, Cert.ReferenceIdeal.Gen.facts, Cert.Pre_finite_inputs.Gen.facts,
  fun m ρ _ => (θ_run _ _ _).mono (fun _ h c => (h c).2) (Cert.Kernel.Roi.kernel_run (F := Bits) m ρ),
  fun m ρ _ => (θ_run _ _ _).mono (fun _ h c => (h c).2) (Cert.KernelIdeal.Roi.kernel_run (F := Ideal) m ρ),
  fun m ρ _ => (θ_run _ _ _).mono (fun _ h c => (h c).2) (Cert.RefValue.ref_run m ρ),
  trivial,
  fun m ρ m' ρ' _ hagree =>
    ⟨fun c => crop (α := Elt Ideal .f32)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Roi.kernel_run (F := Ideal) m ρ,
      (θ_run _ _ _).mono (fun _ h c => ⟨by rw [(h c).1, (hagree c).1, (hagree c).2], (h c).2⟩) (Cert.RefValue.ref_run m' ρ')⟩⟩

end Cert.Proof

end
